-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v159)) (v1 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_v188) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_v264) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S256x2 : Shape := ⟨2, ![256, 2]⟩
abbrev S2 : Shape := ⟨1, ![2]⟩
abbrev S128x2 : Shape := ⟨2, ![128, 2]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S128x2 : S_.BroadcastsInDim S128x2 (![] : Fin 0 → Fin S128x2.rank)
  reducesTo_S128x2_S_d0_1 : S128x2.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg20 : FVec F S10 .f32) (main_v83 : IVec S_ 1) (main_v84 : FVec F S128x10 .f32) (main_cst_32 : FVec F S_ .f32) : IVec S_ 1 :=
  let main_v85 : FVec F S128x10 .f32 := broadcastInDim S128x10 ![] bcast_S_S128x10 main_cst_32
  let main_v86 : IVec S128x10 1 := cmpf .olt main_v84 main_v85
  let main_c_33 : IVec S_ 1 := constantI S_ 1 1#1
  let main_v87 : IVec S_ 1 := (fun x v => Host.reduce IntOp.andi x v reducesTo_S128x10_S_d0_1 h_S_) main_v86 main_c_33
  let main_v88 : IVec S_ 1 := andi main_v83 main_v87
  let main_v89 : FVec F S10 .f32 := Host.absf main_arg20
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg16 : FVec F S10 .f32) (main_arg17 : FVec F S128 .f32) (main_arg18 : FVec F S128 .f32) (main_arg19 : FVec F S128x10 .f32) (main_arg20 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x10 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128 .f32) (main_arg14 : FVec F S128 .f32) (main_arg15 : FVec F S128x10 .f32) (main_arg16 : FVec F S10 .f32) (main_arg17 : FVec F S128 .f32) (main_arg18 : FVec F S128 .f32) (main_arg19 : FVec F S128x10 .f32) (main_arg20 : FVec F S10 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg16 main_arg17 main_arg18 main_arg19 main_arg20 main_v63 main_v67

def fn_part2 {F : FTy → Type} [FloatOps F] (main_arg9 : FVec F S256x2 .f32) (main_arg10 : FVec F S2 .f32) (main_arg11 : FVec F S128x2 .f32) (main_arg12 : FVec F S2 .f32) (main_arg13 : FVec F S128 .f32) (main_arg14 : FVec F S128 .f32) (main_arg15 : FVec F S128x10 .f32) (main_arg16 : FVec F S10 .f32) (main_arg17 : FVec F S128 .f32) (main_arg18 : FVec F S128 .f32) (main_arg19 : FVec F S128x10 .f32) (main_arg20 : FVec F S10 .f32) (main_v33 : IVec S_ 1) : IVec S_ 1 :=
  let main_v34 : FVec F S256x2 .f32 := Host.absf main_arg9
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_arg13 main_arg14 main_arg15 main_arg16 main_arg17 main_arg18 main_arg19 main_arg20 main_v48 main_v49 main_v50

def fn_part1 {F : FTy → Type} [FloatOps F] (main_arg6 : FVec F S128 .f32) (main_arg7 : FVec F S3x128x128 .f32) (main_arg8 : FVec F S3x128 .f32) (main_arg9 : FVec F S256x2 .f32) (main_arg10 : FVec F S2 .f32) (main_arg11 : FVec F S128x2 .f32) (main_arg12 : FVec F S2 .f32) (main_arg13 : FVec F S128 .f32) (main_arg14 : FVec F S128 .f32) (main_arg15 : FVec F S128x10 .f32) (main_arg16 : FVec F S10 .f32) (main_arg17 : FVec F S128 .f32) (main_arg18 : FVec F S128 .f32) (main_arg19 : FVec F S128x10 .f32) (main_arg20 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : IVec S2x800000 32) (main_arg2 : IVec S50000 32) (main_arg3 : FVec F S128 .f32) (main_arg4 : FVec F S128 .f32) (main_arg5 : FVec F S128x128 .f32) (main_arg6 : FVec F S128 .f32) (main_arg7 : FVec F S3x128x128 .f32) (main_arg8 : FVec F S3x128 .f32) (main_arg9 : FVec F S256x2 .f32) (main_arg10 : FVec F S2 .f32) (main_arg11 : FVec F S128x2 .f32) (main_arg12 : FVec F S2 .f32) (main_arg13 : FVec F S128 .f32) (main_arg14 : FVec F S128 .f32) (main_arg15 : FVec F S128x10 .f32) (main_arg16 : FVec F S10 .f32) (main_arg17 : FVec F S128 .f32) (main_arg18 : FVec F S128 .f32) (main_arg19 : FVec F S128x10 .f32) (main_arg20 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S256x2 : Shape := ⟨2, ![256, 2]⟩
abbrev S2 : Shape := ⟨1, ![2]⟩
abbrev S128x2 : Shape := ⟨2, ![128, 2]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S850000x128 : Shape := ⟨2, ![850000, 128]⟩
abbrev S1x128x128 : Shape := ⟨3, ![1, 128, 128]⟩
abbrev S1x2 : Shape := ⟨2, ![1, 2]⟩
abbrev S5000x2 : Shape := ⟨2, ![5000, 2]⟩
abbrev S5000 : Shape := ⟨1, ![5000]⟩
abbrev S5000x1 : Shape := ⟨2, ![5000, 1]⟩
abbrev S50000x1 : Shape := ⟨2, ![50000, 1]⟩
abbrev S128x1 : Shape := ⟨2, ![128, 1]⟩
abbrev S1x10 : Shape := ⟨2, ![1, 10]⟩

abbrev nBuf : Space → Nat
  | .hbm => 248
  | .vmem => 44
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128, .f32⟩
  | 4 => ⟨S128, .f32⟩
  | 5 => ⟨S128x128, .f32⟩
  | 6 => ⟨S128, .f32⟩
  | 7 => ⟨S3x128x128, .f32⟩
  | 8 => ⟨S3x128, .f32⟩
  | 9 => ⟨S256x2, .f32⟩
  | 10 => ⟨S2, .f32⟩
  | 11 => ⟨S128x2, .f32⟩
  | 12 => ⟨S2, .f32⟩
  | 13 => ⟨S128, .f32⟩
  | 14 => ⟨S128, .f32⟩
  | 15 => ⟨S128x10, .f32⟩
  | 16 => ⟨S10, .f32⟩
  | 17 => ⟨S128, .f32⟩
  | 18 => ⟨S128, .f32⟩
  | 19 => ⟨S128x10, .f32⟩
  | 20 => ⟨S10, .f32⟩
  | 21 => ⟨S1x800000, .i32⟩
  | 22 => ⟨S800000, .i32⟩
  | 23 => ⟨S1x800000, .i32⟩
  | 24 => ⟨S800000, .i32⟩
  | 25 => ⟨S50000, .i32⟩
  | 26 => ⟨S850000, .i32⟩
  | 27 => ⟨S850000, .i32⟩
  | 28 => ⟨S_, .f32⟩
  | 29 => ⟨S850000, .f32⟩
  | 30 => ⟨S_, .f32⟩
  | 31 => ⟨S50000, .f32⟩
  | 32 => ⟨S850000x1, .i32⟩
  | 33 => ⟨S50000, .f32⟩
  | 34 => ⟨S_, .f32⟩
  | 35 => ⟨S50000, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S1x128, .f32⟩
  | 73 => ⟨S1x128, .f32⟩
  | 74 => ⟨S1x128, .f32⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x1, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128x128, .f32⟩
  | 93 => ⟨S128x128, .f32⟩
  | 94 => ⟨S1x128, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S128, .f32⟩
  | 114 => ⟨S1x128x128, .f32⟩
  | 115 => ⟨S128x128, .f32⟩
  | 116 => ⟨S1x128, .f32⟩
  | 117 => ⟨S50000x128, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000x128, .f32⟩
  | 127 => ⟨S850000x1, .f32⟩
  | _ => ⟨S50000x128, .f32⟩

abbrev hbmTy0_1 (i : Nat) : BufTy := match i % 128 with
  | 0 => ⟨S850000x128, .f32⟩
  | 1 => ⟨S850000x128, .f32⟩
  | 2 => ⟨S_, .f32⟩
  | 3 => ⟨S50000x128, .f32⟩
  | 4 => ⟨S850000x1, .i32⟩
  | 5 => ⟨S50000x128, .f32⟩
  | 6 => ⟨S1x128, .f32⟩
  | 7 => ⟨S128, .f32⟩
  | 8 => ⟨S1x128x128, .f32⟩
  | 9 => ⟨S128x128, .f32⟩
  | 10 => ⟨S1x128, .f32⟩
  | 11 => ⟨S50000x128, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x128, .f32⟩
  | 21 => ⟨S850000x1, .f32⟩
  | 22 => ⟨S850000x128, .f32⟩
  | 23 => ⟨S850000x128, .f32⟩
  | 24 => ⟨S_, .f32⟩
  | 25 => ⟨S50000x128, .f32⟩
  | 26 => ⟨S850000x1, .i32⟩
  | 27 => ⟨S50000x128, .f32⟩
  | 28 => ⟨S1x128, .f32⟩
  | 29 => ⟨S128, .f32⟩
  | 30 => ⟨S1x128, .f32⟩
  | 31 => ⟨S1x2, .f32⟩
  | 32 => ⟨S50000x128, .f32⟩
  | 33 => ⟨S50000x128, .f32⟩
  | 34 => ⟨S50000x1, .i32⟩
  | 35 => ⟨S128x128, .f32⟩
  | 36 => ⟨S128x128, .f32⟩
  | 37 => ⟨S_, .f32⟩
  | 38 => ⟨S50000, .f32⟩
  | 39 => ⟨S_, .f32⟩
  | 40 => ⟨S128, .f32⟩
  | 41 => ⟨S50000x1, .i32⟩
  | 42 => ⟨S128, .f32⟩
  | 43 => ⟨S_, .f32⟩
  | 44 => ⟨S128, .f32⟩
  | 45 => ⟨S128, .f32⟩
  | 46 => ⟨S128x1, .f32⟩
  | 47 => ⟨S128x128, .f32⟩
  | 48 => ⟨S128x128, .f32⟩
  | 49 => ⟨S128x1, .f32⟩
  | 50 => ⟨S128x128, .f32⟩
  | 51 => ⟨S128x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S128x128, .f32⟩
  | 59 => ⟨S128x128, .f32⟩
  | 60 => ⟨S128x128, .f32⟩
  | 61 => ⟨S_, .f32⟩
  | 62 => ⟨S128, .f32⟩
  | 63 => ⟨S_, .f32⟩
  | 64 => ⟨S128, .f32⟩
  | 65 => ⟨S128, .f32⟩
  | 66 => ⟨S1x128, .f32⟩
  | 67 => ⟨S128x128, .f32⟩
  | 68 => ⟨S128x128, .f32⟩
  | 69 => ⟨S_, .f32⟩
  | 70 => ⟨S128, .f32⟩
  | 71 => ⟨S128, .f32⟩
  | 72 => ⟨S128, .f32⟩
  | 73 => ⟨S1x128, .f32⟩
  | 74 => ⟨S128x128, .f32⟩
  | 75 => ⟨S128x128, .f32⟩
  | 76 => ⟨S1x128, .f32⟩
  | 77 => ⟨S128x128, .f32⟩
  | 78 => ⟨S128x128, .f32⟩
  | 79 => ⟨S1x128, .f32⟩
  | 80 => ⟨S128x128, .f32⟩
  | 81 => ⟨S128x128, .f32⟩
  | 82 => ⟨S128x10, .f32⟩
  | 83 => ⟨S1x10, .f32⟩
  | 84 => ⟨S128x10, .f32⟩
  | 85 => ⟨S128x10, .f32⟩
  | 86 => ⟨S_, .f32⟩
  | 87 => ⟨S128, .f32⟩
  | 88 => ⟨S_, .f32⟩
  | 89 => ⟨S128, .f32⟩
  | 90 => ⟨S128, .f32⟩
  | 91 => ⟨S1x128, .f32⟩
  | 92 => ⟨S128x128, .f32⟩
  | 93 => ⟨S128x128, .f32⟩
  | 94 => ⟨S128x128, .f32⟩
  | 95 => ⟨S_, .f32⟩
  | 96 => ⟨S128, .f32⟩
  | 97 => ⟨S_, .f32⟩
  | 98 => ⟨S128, .f32⟩
  | 99 => ⟨S128, .f32⟩
  | 100 => ⟨S1x128, .f32⟩
  | 101 => ⟨S128x128, .f32⟩
  | 102 => ⟨S128x128, .f32⟩
  | 103 => ⟨S_, .f32⟩
  | 104 => ⟨S128, .f32⟩
  | 105 => ⟨S128, .f32⟩
  | 106 => ⟨S128, .f32⟩
  | 107 => ⟨S1x128, .f32⟩
  | 108 => ⟨S128x128, .f32⟩
  | 109 => ⟨S128x128, .f32⟩
  | 110 => ⟨S1x128, .f32⟩
  | 111 => ⟨S128x128, .f32⟩
  | 112 => ⟨S128x128, .f32⟩
  | 113 => ⟨S1x128, .f32⟩
  | 114 => ⟨S128x128, .f32⟩
  | 115 => ⟨S128x128, .f32⟩
  | 116 => ⟨S128x10, .f32⟩
  | 117 => ⟨S1x10, .f32⟩
  | 118 => ⟨S128x10, .f32⟩
  | 119 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S128x2, .f32⟩
  | .local _ .vmem, ⟨31, _⟩ => ⟨S1x2, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .i32⟩
  | .local _ .vmem, ⟨41, _⟩ => ⟨S5000x1, .i32⟩
  | .local _ .vmem, ⟨42, _⟩ => ⟨S128x128, .f32⟩
  | .local _ .vmem, ⟨43, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_9 : Ref sig .tc := ⟨.hbm, 76, rfl⟩
abbrev main_v44 : Ref sig .tc := ⟨.hbm, 77, rfl⟩
abbrev main_v45 : Ref sig .tc := ⟨.hbm, 78, rfl⟩
abbrev main_c_10 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_12 : Ref sig .tc := ⟨.hbm, 96, rfl⟩
abbrev main_v61 : Ref sig .tc := ⟨.hbm, 97, rfl⟩
abbrev main_v62 : Ref sig .tc := ⟨.hbm, 98, rfl⟩
abbrev main_c_13 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_15 : Ref sig .tc := ⟨.hbm, 118, rfl⟩
abbrev main_v80 : Ref sig .tc := ⟨.hbm, 119, rfl⟩
abbrev main_v81 : Ref sig .tc := ⟨.hbm, 120, rfl⟩
abbrev main_c_16 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_17 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_18 : Ref sig .tc := ⟨.hbm, 140, rfl⟩
abbrev main_v99 : Ref sig .tc := ⟨.hbm, 141, rfl⟩
abbrev main_v100 : Ref sig .tc := ⟨.hbm, 142, rfl⟩
abbrev main_c_19 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_20 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116_0 : Ref sig .tc := ⟨.hbm, 160, rfl⟩
abbrev main_v116_1 : Ref sig .tc := ⟨.hbm, 161, rfl⟩
abbrev main_v117 : Ref sig .tc := ⟨.hbm, 162, rfl⟩
abbrev main_v118_0 : Ref sig .tc := ⟨.hbm, 163, rfl⟩
abbrev main_v118_1 : Ref sig .tc := ⟨.hbm, 164, rfl⟩
abbrev main_cst_21 : Ref sig .tc := ⟨.hbm, 165, rfl⟩
abbrev main_v119 : Ref sig .tc := ⟨.hbm, 166, rfl⟩
abbrev main_cst_22 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_23 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_24 : Ref sig .tc := ⟨.hbm, 180, rfl⟩
abbrev main_v131 : Ref sig .tc := ⟨.hbm, 181, rfl⟩
abbrev main_cst_25 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_26 : Ref sig .tc := ⟨.hbm, 189, rfl⟩
abbrev main_v138 : Ref sig .tc := ⟨.hbm, 190, rfl⟩
abbrev main_cst_27 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_28 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_cst_29 : Ref sig .tc := ⟨.hbm, 214, rfl⟩
abbrev main_v160 : Ref sig .tc := ⟨.hbm, 215, rfl⟩
abbrev main_cst_30 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_31 : Ref sig .tc := ⟨.hbm, 223, rfl⟩
abbrev main_v167 : Ref sig .tc := ⟨.hbm, 224, rfl⟩
abbrev main_cst_32 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_33 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem4_1 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  shapeCasts_S128x128_S128x128 : S128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  slices_S5000x2_o0_0_S5000x1 : S5000x2.Slices ![0, 0] S5000x1
  broadcasts_S5000x1_S5000x128 : S5000x1.Broadcasts S5000x128
  slices_S5000x2_o0_1_S5000x1 : S5000x2.Slices ![0, 1] S5000x1
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  natLt_1_32 : 1 < 32
  bcast_S50000_S50000x1_0 : S50000.BroadcastsInDim S50000x1 (![0] : Fin 1 → Fin S50000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  reducesTo_S128x128_S128_d0 : S128x128.ReducesTo [0] S128
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x2_S5000x2_1_0_0_1_n_n_wf : DotDims.WF S5000x128 S128x2 S5000x2 [1] [0] [0] [1] [] []
  dot_S5000x128_S5000x128_S128x128_0_0_1_1_n_n_wf : DotDims.WF S5000x128 S5000x128 S128x128 [0] [0] [1] [1] [] []
  scatter_S128_S50000x1_S50000_n_0_0_1_wf : ScatterDims.WF S128 S50000x1 S50000 [] [0] [0] 1
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x2.size a ≤ S128x2.size a
  hwx4_2 : ∀ i : grid4.Coords, EltTy.bits .f32 = 32 ∨ (Rect.block (s := S128x2) S128x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .i32 = 32 ∨ (Rect.block (s := S50000x1) S5000x1.size (cc5_transform_2 i) (hinb5_2 i)).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v73) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v92) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v98) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v111) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v114) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v115) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v116_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v116_1) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v116_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v116_1) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v117) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v118_0) S128x128.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v118_1) S128x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S256x2 : Shape := ⟨2, ![256, 2]⟩
abbrev S2 : Shape := ⟨1, ![2]⟩
abbrev S128x2 : Shape := ⟨2, ![128, 2]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S850000x128 : Shape := ⟨2, ![850000, 128]⟩
abbrev S1x128x128 : Shape := ⟨3, ![1, 128, 128]⟩
abbrev S800000x1 : Shape := ⟨2, ![800000, 1]⟩
abbrev S800000x128 : Shape := ⟨2, ![800000, 128]⟩
abbrev S800000x256 : Shape := ⟨2, ![800000, 256]⟩
abbrev S800000x2 : Shape := ⟨2, ![800000, 2]⟩
abbrev S1x2 : Shape := ⟨2, ![1, 2]⟩
abbrev S50000x2 : Shape := ⟨2, ![50000, 2]⟩
abbrev S50000x1 : Shape := ⟨2, ![50000, 1]⟩
abbrev S128x1 : Shape := ⟨2, ![128, 1]⟩
abbrev S1x10 : Shape := ⟨2, ![1, 10]⟩

abbrev nBuf : Space → Nat
  | .hbm => 343
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128, .f32⟩
  | 4 => ⟨S128, .f32⟩
  | 5 => ⟨S128x128, .f32⟩
  | 6 => ⟨S128, .f32⟩
  | 7 => ⟨S3x128x128, .f32⟩
  | 8 => ⟨S3x128, .f32⟩
  | 9 => ⟨S256x2, .f32⟩
  | 10 => ⟨S2, .f32⟩
  | 11 => ⟨S128x2, .f32⟩
  | 12 => ⟨S2, .f32⟩
  | 13 => ⟨S128, .f32⟩
  | 14 => ⟨S128, .f32⟩
  | 15 => ⟨S128x10, .f32⟩
  | 16 => ⟨S10, .f32⟩
  | 17 => ⟨S128, .f32⟩
  | 18 => ⟨S128, .f32⟩
  | 19 => ⟨S128x10, .f32⟩
  | 20 => ⟨S10, .f32⟩
  | 21 => ⟨S1x800000, .i32⟩
  | 22 => ⟨S800000, .i32⟩
  | 23 => ⟨S1x800000, .i32⟩
  | 24 => ⟨S800000, .i32⟩
  | 25 => ⟨S50000, .i32⟩
  | 26 => ⟨S850000, .i32⟩
  | 27 => ⟨S850000, .i32⟩
  | 28 => ⟨S_, .f32⟩
  | 29 => ⟨S850000, .f32⟩
  | 30 => ⟨S_, .f32⟩
  | 31 => ⟨S50000, .f32⟩
  | 32 => ⟨S850000x1, .i32⟩
  | 33 => ⟨S50000, .f32⟩
  | 34 => ⟨S_, .f32⟩
  | 35 => ⟨S50000, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S50000x128, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000x128, .f32⟩
  | 97 => ⟨S850000x1, .f32⟩
  | 98 => ⟨S850000x128, .f32⟩
  | 99 => ⟨S850000x128, .f32⟩
  | 100 => ⟨S_, .f32⟩
  | 101 => ⟨S50000x128, .f32⟩
  | 102 => ⟨S850000x1, .i32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S1x128x128, .f32⟩
  | 111 => ⟨S128x128, .f32⟩
  | 112 => ⟨S1x128, .f32⟩
  | 113 => ⟨S128, .f32⟩
  | 114 => ⟨S50000x128, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x128, .f32⟩
  | 124 => ⟨S850000x1, .f32⟩
  | 125 => ⟨S850000x128, .f32⟩
  | 126 => ⟨S850000x128, .f32⟩
  | 127 => ⟨S_, .f32⟩
  | _ => ⟨S50000x128, .f32⟩

abbrev hbmTy0_1 (i : Nat) : BufTy := match i % 128 with
  | 0 => ⟨S50000x128, .f32⟩
  | 1 => ⟨S850000x1, .i32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S1x128x128, .f32⟩
  | 10 => ⟨S128x128, .f32⟩
  | 11 => ⟨S1x128, .f32⟩
  | 12 => ⟨S128, .f32⟩
  | 13 => ⟨S50000x128, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x128, .f32⟩
  | 23 => ⟨S850000x1, .f32⟩
  | 24 => ⟨S850000x128, .f32⟩
  | 25 => ⟨S850000x128, .f32⟩
  | 26 => ⟨S_, .f32⟩
  | 27 => ⟨S50000x128, .f32⟩
  | 28 => ⟨S850000x1, .i32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S1x128x128, .f32⟩
  | 37 => ⟨S128x128, .f32⟩
  | 38 => ⟨S1x128, .f32⟩
  | 39 => ⟨S128, .f32⟩
  | 40 => ⟨S50000x128, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000x128, .f32⟩
  | 50 => ⟨S850000x1, .f32⟩
  | 51 => ⟨S850000x128, .f32⟩
  | 52 => ⟨S850000x128, .f32⟩
  | 53 => ⟨S_, .f32⟩
  | 54 => ⟨S50000x128, .f32⟩
  | 55 => ⟨S850000x1, .i32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S800000x256, .f32⟩
  | 82 => ⟨S800000x2, .f32⟩
  | 83 => ⟨S1x2, .f32⟩
  | 84 => ⟨S800000x2, .f32⟩
  | 85 => ⟨S800000x2, .f32⟩
  | 86 => ⟨S_, .f32⟩
  | 87 => ⟨S800000, .f32⟩
  | 88 => ⟨S_, .f32⟩
  | 89 => ⟨S800000, .f32⟩
  | 90 => ⟨S800000, .f32⟩
  | 91 => ⟨S800000x1, .f32⟩
  | 92 => ⟨S800000x2, .f32⟩
  | 93 => ⟨S800000x2, .f32⟩
  | 94 => ⟨S800000x2, .f32⟩
  | 95 => ⟨S_, .f32⟩
  | 96 => ⟨S800000, .f32⟩
  | 97 => ⟨S800000x1, .f32⟩
  | 98 => ⟨S800000x2, .f32⟩
  | 99 => ⟨S800000x2, .f32⟩
  | 100 => ⟨S50000x2, .f32⟩
  | 101 => ⟨S1x2, .f32⟩
  | 102 => ⟨S50000x2, .f32⟩
  | 103 => ⟨S50000x2, .f32⟩
  | 104 => ⟨S_, .f32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x2, .f32⟩
  | 111 => ⟨S50000x2, .f32⟩
  | 112 => ⟨S50000x2, .f32⟩
  | 113 => ⟨S_, .f32⟩
  | 114 => ⟨S50000, .f32⟩
  | 115 => ⟨S50000x1, .f32⟩
  | 116 => ⟨S50000x2, .f32⟩
  | 117 => ⟨S50000x2, .f32⟩
  | 118 => ⟨S50000x1, .f32⟩
  | 119 => ⟨S50000x128, .f32⟩
  | 120 => ⟨S50000x128, .f32⟩
  | 121 => ⟨S50000x1, .f32⟩
  | 122 => ⟨S50000x128, .f32⟩
  | 123 => ⟨S50000x128, .f32⟩
  | 124 => ⟨S_, .f32⟩
  | 125 => ⟨S50000, .f32⟩
  | 126 => ⟨S_, .f32⟩
  | 127 => ⟨S128, .f32⟩
  | _ => ⟨S50000x128, .f32⟩

abbrev hbmTy0_2 (i : Nat) : BufTy := match i % 128 with
  | 0 => ⟨S50000x1, .i32⟩
  | 1 => ⟨S128, .f32⟩
  | 2 => ⟨S_, .f32⟩
  | 3 => ⟨S128, .f32⟩
  | 4 => ⟨S128, .f32⟩
  | 5 => ⟨S_, .f32⟩
  | 6 => ⟨S128x128, .f32⟩
  | 7 => ⟨S50000x1, .i32⟩
  | 8 => ⟨S128x128, .f32⟩
  | 9 => ⟨S128x1, .f32⟩
  | 10 => ⟨S128x128, .f32⟩
  | 11 => ⟨S128x128, .f32⟩
  | 12 => ⟨S_, .f32⟩
  | 13 => ⟨S128x128, .f32⟩
  | 14 => ⟨S50000x1, .i32⟩
  | 15 => ⟨S128x128, .f32⟩
  | 16 => ⟨S128x1, .f32⟩
  | 17 => ⟨S128x128, .f32⟩
  | 18 => ⟨S128x128, .f32⟩
  | 19 => ⟨S_, .f32⟩
  | 20 => ⟨S128, .f32⟩
  | 21 => ⟨S_, .f32⟩
  | 22 => ⟨S128, .f32⟩
  | 23 => ⟨S128, .f32⟩
  | 24 => ⟨S1x128, .f32⟩
  | 25 => ⟨S128x128, .f32⟩
  | 26 => ⟨S128x128, .f32⟩
  | 27 => ⟨S128x128, .f32⟩
  | 28 => ⟨S_, .f32⟩
  | 29 => ⟨S128, .f32⟩
  | 30 => ⟨S_, .f32⟩
  | 31 => ⟨S128, .f32⟩
  | 32 => ⟨S128, .f32⟩
  | 33 => ⟨S1x128, .f32⟩
  | 34 => ⟨S128x128, .f32⟩
  | 35 => ⟨S128x128, .f32⟩
  | 36 => ⟨S_, .f32⟩
  | 37 => ⟨S128, .f32⟩
  | 38 => ⟨S128, .f32⟩
  | 39 => ⟨S128, .f32⟩
  | 40 => ⟨S1x128, .f32⟩
  | 41 => ⟨S128x128, .f32⟩
  | 42 => ⟨S128x128, .f32⟩
  | 43 => ⟨S1x128, .f32⟩
  | 44 => ⟨S128x128, .f32⟩
  | 45 => ⟨S128x128, .f32⟩
  | 46 => ⟨S1x128, .f32⟩
  | 47 => ⟨S128x128, .f32⟩
  | 48 => ⟨S128x128, .f32⟩
  | 49 => ⟨S128x10, .f32⟩
  | 50 => ⟨S1x10, .f32⟩
  | 51 => ⟨S128x10, .f32⟩
  | 52 => ⟨S128x10, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S128x128, .f32⟩
  | 60 => ⟨S128x128, .f32⟩
  | 61 => ⟨S128x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S128x128, .f32⟩
  | 69 => ⟨S128x128, .f32⟩
  | 70 => ⟨S_, .f32⟩
  | 71 => ⟨S128, .f32⟩
  | 72 => ⟨S128, .f32⟩
  | 73 => ⟨S128, .f32⟩
  | 74 => ⟨S1x128, .f32⟩
  | 75 => ⟨S128x128, .f32⟩
  | 76 => ⟨S128x128, .f32⟩
  | 77 => ⟨S1x128, .f32⟩
  | 78 => ⟨S128x128, .f32⟩
  | 79 => ⟨S128x128, .f32⟩
  | 80 => ⟨S1x128, .f32⟩
  | 81 => ⟨S128x128, .f32⟩
  | 82 => ⟨S128x128, .f32⟩
  | 83 => ⟨S128x10, .f32⟩
  | 84 => ⟨S1x10, .f32⟩
  | 85 => ⟨S128x10, .f32⟩
  | 86 => ⟨S128x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_10 : Ref sig .tc := ⟨.hbm, 88, rfl⟩
abbrev main_v55 : Ref sig .tc := ⟨.hbm, 89, rfl⟩
abbrev main_v56 : Ref sig .tc := ⟨.hbm, 90, rfl⟩
abbrev main_c_11 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_12 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call0_cst : Ref sig .tc := ⟨.hbm, 107, rfl⟩
abbrev main_call0_v0 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_13 : Ref sig .tc := ⟨.hbm, 115, rfl⟩
abbrev main_v77 : Ref sig .tc := ⟨.hbm, 116, rfl⟩
abbrev main_v78 : Ref sig .tc := ⟨.hbm, 117, rfl⟩
abbrev main_c_14 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_15 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call1_cst : Ref sig .tc := ⟨.hbm, 134, rfl⟩
abbrev main_call1_v0 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_16 : Ref sig .tc := ⟨.hbm, 142, rfl⟩
abbrev main_v99 : Ref sig .tc := ⟨.hbm, 143, rfl⟩
abbrev main_v100 : Ref sig .tc := ⟨.hbm, 144, rfl⟩
abbrev main_c_17 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_18 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_call2_cst : Ref sig .tc := ⟨.hbm, 161, rfl⟩
abbrev main_call2_v0 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_19 : Ref sig .tc := ⟨.hbm, 169, rfl⟩
abbrev main_v121 : Ref sig .tc := ⟨.hbm, 170, rfl⟩
abbrev main_v122 : Ref sig .tc := ⟨.hbm, 171, rfl⟩
abbrev main_c_20 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_21 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_call3_cst : Ref sig .tc := ⟨.hbm, 188, rfl⟩
abbrev main_call3_v0 : Ref sig .tc := ⟨.hbm, 189, rfl⟩
abbrev main_v137 : Ref sig .tc := ⟨.hbm, 190, rfl⟩
abbrev main_c_22 : Ref sig .tc := ⟨.hbm, 191, rfl⟩
abbrev main_v138 : Ref sig .tc := ⟨.hbm, 192, rfl⟩
abbrev main_v139 : Ref sig .tc := ⟨.hbm, 193, rfl⟩
abbrev main_c_23 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_c_24 : Ref sig .tc := ⟨.hbm, 200, rfl⟩
abbrev main_v145 : Ref sig .tc := ⟨.hbm, 201, rfl⟩
abbrev main_v146 : Ref sig .tc := ⟨.hbm, 202, rfl⟩
abbrev main_c_25 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_26 : Ref sig .tc := ⟨.hbm, 214, rfl⟩
abbrev main_v157 : Ref sig .tc := ⟨.hbm, 215, rfl⟩
abbrev main_cst_27 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_28 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_29 : Ref sig .tc := ⟨.hbm, 232, rfl⟩
abbrev main_v172 : Ref sig .tc := ⟨.hbm, 233, rfl⟩
abbrev main_cst_30 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_cst_31 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst_32 : Ref sig .tc := ⟨.hbm, 252, rfl⟩
abbrev main_v189 : Ref sig .tc := ⟨.hbm, 253, rfl⟩
abbrev main_cst_33 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_cst_34 : Ref sig .tc := ⟨.hbm, 258, rfl⟩
abbrev main_v193 : Ref sig .tc := ⟨.hbm, 259, rfl⟩
abbrev main_v194 : Ref sig .tc := ⟨.hbm, 260, rfl⟩
abbrev main_cst_35 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_cst_36 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_cst_37 : Ref sig .tc := ⟨.hbm, 275, rfl⟩
abbrev main_v207 : Ref sig .tc := ⟨.hbm, 276, rfl⟩
abbrev main_cst_38 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_cst_39 : Ref sig .tc := ⟨.hbm, 284, rfl⟩
abbrev main_v214 : Ref sig .tc := ⟨.hbm, 285, rfl⟩
abbrev main_cst_40 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_cst_41 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_cst_42 : Ref sig .tc := ⟨.hbm, 309, rfl⟩
abbrev main_v236 : Ref sig .tc := ⟨.hbm, 310, rfl⟩
abbrev main_cst_43 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_cst_44 : Ref sig .tc := ⟨.hbm, 318, rfl⟩
abbrev main_v243 : Ref sig .tc := ⟨.hbm, 319, rfl⟩
abbrev main_cst_45 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_cst_46 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  reducesTo_S800000x2_S800000_d1 : S800000x2.ReducesTo [1] S800000
  bcast_S800000x1_S800000x2_0_1 : S800000x1.BroadcastsInDim S800000x2 (![0, 1] : Fin 2 → Fin S800000x2.rank)
  bcast_S1x2_S50000x2_0_1 : S1x2.BroadcastsInDim S50000x2 (![0, 1] : Fin 2 → Fin S50000x2.rank)
  reducesTo_S50000x2_S50000_d1 : S50000x2.ReducesTo [1] S50000
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  slices_S50000x2_S50000x1_0_0 : S50000x2.Slices ![0, 0] S50000x1
  bcast_S50000x1_S50000x128_0_1 : S50000x1.BroadcastsInDim S50000x128 (![0, 1] : Fin 2 → Fin S50000x128.rank)
  slices_S50000x2_S50000x1_0_1 : S50000x2.Slices ![0, 1] S50000x1
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  reducesTo_S128x128_S128_d0 : S128x128.ReducesTo [0] S128
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S800000x256_S256x2_S800000x2_1_0_0_1_n_n_wf : DotDims.WF S800000x256 S256x2 S800000x2 [1] [0] [0] [1] [] []
  dot_S50000x128_S128x2_S50000x2_1_0_0_1_n_n_wf : DotDims.WF S50000x128 S128x2 S50000x2 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x10_S128x10_1_0_0_1_n_n_wf : DotDims.WF S128x128 S128x10 S128x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x2_S800000x2_1_0_0_1_n_n : DotDims S800000x256 S256x2 S800000x2 where
  lhsContracting := [1]
  rhsContracting := [0]
  lhsNonContracting := [0]
  rhsNonContracting := [1]
  lhsBatch := []
  rhsBatch := []
  wf := dot_S800000x256_S256x2_S800000x2_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.RefOps.lean ====
/-
  The reference program's @main as nine consecutive pieces of its list of host operations, cut after the operations that
  write the four matrix products, the last aggregation, the attention-scaled arrays, the two pooled means and the two
  results; @main is the run of their concatenation, so every weakly fair execution terminates with each buffer at the
  pieces' operations applied in order to the launch contents.
-/
import proofs.«420551_j59150289601188_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 0 to 66 of @main. -/
abbrev ops1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v5 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    nullary main_c (constantI S_ 32 0#32),
    unary main_c main_v14 (broadcastInDim S850000 ![] bcast_S_S850000 : (⟨S_, .i32⟩ : BufTy).Contents (Elt F) → (⟨S850000, .i32⟩ : BufTy).Contents (Elt F)),
    binary main_v5 main_v14 main_v15 (cmpi .slt : (⟨S850000, .i32⟩ : BufTy).Contents (Elt F) → (⟨S850000, .i32⟩ : BufTy).Contents (Elt F) → (⟨S850000, .i1⟩ : BufTy).Contents (Elt F)),
    nullary main_c_2 (constantI S_ 32 50000#32),
    unary main_c_2 main_v16 (broadcastInDim S850000 ![] bcast_S_S850000 : (⟨S_, .i32⟩ : BufTy).Contents (Elt F) → (⟨S850000, .i32⟩ : BufTy).Contents (Elt F)),
    binary main_v5 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v5 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_3 (constantI S_ 32 0#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (addi : (⟨S850000, .i32⟩ : BufTy).Contents (Elt F) → (⟨S850000, .i32⟩ : BufTy).Contents (Elt F) → (⟨S850000, .i32⟩ : BufTy).Contents (Elt F)),
    ternary main_v22 main_v24 main_v6 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v25 main_v26 (broadcastInDim S850000x1 ![0] bcast_S850000_S850000x1_0 : (⟨S850000, .i32⟩ : BufTy).Contents (Elt F) → (⟨S850000x1, .i32⟩ : BufTy).Contents (Elt F)),
    binary main_v13 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v20 main_v27 main_v28 (mulf : (⟨S850000, .f32⟩ : BufTy).Contents (Elt F) → (⟨S850000, .f32⟩ : BufTy).Contents (Elt F) → (⟨S850000, .f32⟩ : BufTy).Contents (Elt F)),
    nullary main_cst_5 (constant S_ .f32 0x00000000#32),
    binary main_arg0 main_cst_5 main_v29 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_6 (constant S_ .f32 0x47435000#32),
    unary main_cst_6 main_v30 (broadcastInDim S128 ![] bcast_S_S128 : (⟨S_, .f32⟩ : BufTy).Contents (Elt F) → (⟨S128, .f32⟩ : BufTy).Contents (Elt F)),
    binary main_v29 main_v30 main_v31 (Host.divf : (⟨S128, .f32⟩ : BufTy).Contents (Elt F) → (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_arg0 main_v33 main_v34 (subf : (⟨S50000x128, .f32⟩ : BufTy).Contents (Elt F) → (⟨S50000x128, .f32⟩ : BufTy).Contents (Elt F) → (⟨S50000x128, .f32⟩ : BufTy).Contents (Elt F)),
    binary main_v34 main_v34 main_v35 (mulf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x00000000#32),
    binary main_v35 main_cst_7 main_v36 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_8 (constant S_ .f32 0x47435000#32),
    unary main_cst_8 main_v37 (broadcastInDim S128 ![] bcast_S_S128 : (⟨S_, .f32⟩ : BufTy).Contents (Elt F) → (⟨S128, .f32⟩ : BufTy).Contents (Elt F)),
    binary main_v36 main_v37 main_v38 (Host.divf : (⟨S128, .f32⟩ : BufTy).Contents (Elt F) → (⟨S128, .f32⟩ : BufTy).Contents (Elt F) → (⟨S128, .f32⟩ : BufTy).Contents (Elt F)),
    unary main_v31 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_arg0 main_v40 main_v41 (subf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x3727C5AC#32),
    unary main_cst_9 main_v42 (broadcastInDim S128 ![] bcast_S_S128 : (⟨S_, .f32⟩ : BufTy).Contents (Elt F) → (⟨S128, .f32⟩ : BufTy).Contents (Elt F)),
    binary main_v38 main_v42 main_v43 (addf : (⟨S128, .f32⟩ : BufTy).Contents (Elt F) → (⟨S128, .f32⟩ : BufTy).Contents (Elt F) → (⟨S128, .f32⟩ : BufTy).Contents (Elt F)),
    unary main_v43 main_v44 (Host.rsqrt : (⟨S128, .f32⟩ : BufTy).Contents (Elt F) → (⟨S128, .f32⟩ : BufTy).Contents (Elt F)),
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v41 main_v46 main_v47 (mulf : (⟨S50000x128, .f32⟩ : BufTy).Contents (Elt F) → (⟨S50000x128, .f32⟩ : BufTy).Contents (Elt F) → (⟨S50000x128, .f32⟩ : BufTy).Contents (Elt F)),
    unary main_arg3 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (mulf : (⟨S50000x128, .f32⟩ : BufTy).Contents (Elt F) → (⟨S50000x128, .f32⟩ : BufTy).Contents (Elt F) → (⟨S50000x128, .f32⟩ : BufTy).Contents (Elt F)),
    unary main_arg4 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    binary main_v53 main_arg5 main_v54 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
set_option maxHeartbeats 4000000 in
theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩
set_option maxHeartbeats 4000000 in
theorem ops1_fresh : ∀ op ∈ (ops1 : List (HloOp τ sig (Elt F))), op.fresh = ∅ := by
  intro _ h; (repeat (cases h with | head => rfl | tail _ h => ?_)); exact nomatch h

set_option maxHeartbeats 4000000 in
/-- Operations 67 to 93 of @main. -/
abbrev ops2 : List (HloOp τ sig (Elt F)) :=
  [ nullary main_c_10 (constantI S_ 32 0#32),
    unary main_c_10 main_v55 (broadcastInDim S850000 ![] bcast_S_S850000 : (⟨S_, .i32⟩ : BufTy).Contents (Elt F) → (⟨S850000, .i32⟩ : BufTy).Contents (Elt F)),
    binary main_v6 main_v55 main_v56 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v57 (broadcastInDim S850000 ![] bcast_S_S850000 : (⟨S_, .i32⟩ : BufTy).Contents (Elt F) → (⟨S850000, .i32⟩ : BufTy).Contents (Elt F)),
    binary main_v6 main_v57 main_v58 (addi : (⟨S850000, .i32⟩ : BufTy).Contents (Elt F) → (⟨S850000, .i32⟩ : BufTy).Contents (Elt F) → (⟨S850000, .i32⟩ : BufTy).Contents (Elt F)),
    ternary main_v56 main_v58 main_v6 main_v59 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v59 main_v60 (broadcastInDim S850000x1 ![0] bcast_S850000_S850000x1_0 : (⟨S850000, .i32⟩ : BufTy).Contents (Elt F) → (⟨S850000x1, .i32⟩ : BufTy).Contents (Elt F)),
    binary main_v54 main_v60 main_v61 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v28 main_v62 (broadcastInDim S850000x1 ![0] bcast_S850000_S850000x1_0 : (⟨S850000, .f32⟩ : BufTy).Contents (Elt F) → (⟨S850000x1, .f32⟩ : BufTy).Contents (Elt F)),
    unary main_v62 main_v63 (broadcastInDim S850000x128 ![0, 1] bcast_S850000x1_S850000x128_0_1 : (⟨S850000x1, .f32⟩ : BufTy).Contents (Elt F) → (⟨S850000x128, .f32⟩ : BufTy).Contents (Elt F)),
    binary main_v61 main_v63 main_v64 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v65 (broadcastInDim S50000x128 ![] bcast_S_S50000x128 : (⟨S_, .f32⟩ : BufTy).Contents (Elt F) → (⟨S50000x128, .f32⟩ : BufTy).Contents (Elt F)),
    unary main_v5 main_v66 (broadcastInDim S850000x1 ![0] bcast_S850000_S850000x1_0 : (⟨S850000, .i32⟩ : BufTy).Contents (Elt F) → (⟨S850000x1, .i32⟩ : BufTy).Contents (Elt F)),
    ternary main_v65 main_v66 main_v64 main_v67 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v67 main_v69 main_v70 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v70) (TRef.of (T := ⟨S50000x128, .f32⟩) main_call0_v0) (TRef.of (T := ⟨S50000x128, .f32⟩) main_v71) maximumf,
    unary main_arg7 main_v72 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v72 main_v73 rfl shapeCasts_S1x128x128_S128x128,
    unary main_arg8 main_v74 ((extractStridedSlice S1x128 ![0, 0] · slices_S3x128_S1x128_0_0) : (⟨S3x128, .f32⟩ : BufTy).Contents (Elt F) → (⟨S1x128, .f32⟩ : BufTy).Contents (Elt F)),
    reshape main_v74 main_v75 rfl shapeCasts_S1x128_S128,
    binary main_v71 main_v73 main_v76 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
set_option maxHeartbeats 4000000 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub ..⟩
set_option maxHeartbeats 4000000 in
theorem ops2_fresh : ∀ op ∈ (ops2 : List (HloOp τ sig (Elt F))), op.fresh = ∅ := by
  intro _ h; (repeat (cases h with | head => rfl | tail _ h => ?_)); exact nomatch h

set_option maxHeartbeats 4000000 in
/-- Operations 94 to 120 of @main. -/
abbrev ops3 : List (HloOp τ sig (Elt F)) :=
  [ nullary main_c_13 (constantI S_ 32 0#32),
    unary main_c_13 main_v77 (broadcastInDim S850000 ![] bcast_S_S850000 : (⟨S_, .i32⟩ : BufTy).Contents (Elt F) → (⟨S850000, .i32⟩ : BufTy).Contents (Elt F)),
    binary main_v6 main_v77 main_v78 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v79 (broadcastInDim S850000 ![] bcast_S_S850000 : (⟨S_, .i32⟩ : BufTy).Contents (Elt F) → (⟨S850000, .i32⟩ : BufTy).Contents (Elt F)),
    binary main_v6 main_v79 main_v80 (addi : (⟨S850000, .i32⟩ : BufTy).Contents (Elt F) → (⟨S850000, .i32⟩ : BufTy).Contents (Elt F) → (⟨S850000, .i32⟩ : BufTy).Contents (Elt F)),
    ternary main_v78 main_v80 main_v6 main_v81 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v81 main_v82 (broadcastInDim S850000x1 ![0] bcast_S850000_S850000x1_0 : (⟨S850000, .i32⟩ : BufTy).Contents (Elt F) → (⟨S850000x1, .i32⟩ : BufTy).Contents (Elt F)),
    binary main_v76 main_v82 main_v83 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v28 main_v84 (broadcastInDim S850000x1 ![0] bcast_S850000_S850000x1_0 : (⟨S850000, .f32⟩ : BufTy).Contents (Elt F) → (⟨S850000x1, .f32⟩ : BufTy).Contents (Elt F)),
    unary main_v84 main_v85 (broadcastInDim S850000x128 ![0, 1] bcast_S850000x1_S850000x128_0_1 : (⟨S850000x1, .f32⟩ : BufTy).Contents (Elt F) → (⟨S850000x128, .f32⟩ : BufTy).Contents (Elt F)),
    binary main_v83 main_v85 main_v86 (mulf : (⟨S850000x128, .f32⟩ : BufTy).Contents (Elt F) → (⟨S850000x128, .f32⟩ : BufTy).Contents (Elt F) → (⟨S850000x128, .f32⟩ : BufTy).Contents (Elt F)),
    nullary main_cst_15 (constant S_ .f32 0x00000000#32),
    unary main_cst_15 main_v87 (broadcastInDim S50000x128 ![] bcast_S_S50000x128 : (⟨S_, .f32⟩ : BufTy).Contents (Elt F) → (⟨S50000x128, .f32⟩ : BufTy).Contents (Elt F)),
    unary main_v5 main_v88 (broadcastInDim S850000x1 ![0] bcast_S850000_S850000x1_0 : (⟨S850000, .i32⟩ : BufTy).Contents (Elt F) → (⟨S850000x1, .i32⟩ : BufTy).Contents (Elt F)),
    ternary main_v87 main_v88 main_v86 main_v89 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v75 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v92) (TRef.of (T := ⟨S50000x128, .f32⟩) main_call1_v0) (TRef.of (T := ⟨S50000x128, .f32⟩) main_v93) maximumf,
    unary main_arg7 main_v94 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v94 main_v95 rfl shapeCasts_S1x128x128_S128x128,
    unary main_arg8 main_v96 ((extractStridedSlice S1x128 ![1, 0] · slices_S3x128_S1x128_1_0) : (⟨S3x128, .f32⟩ : BufTy).Contents (Elt F) → (⟨S1x128, .f32⟩ : BufTy).Contents (Elt F)),
    reshape main_v96 main_v97 rfl shapeCasts_S1x128_S128,
    binary main_v93 main_v95 main_v98 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
set_option maxHeartbeats 4000000 in
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub ..⟩
set_option maxHeartbeats 4000000 in
theorem ops3_fresh : ∀ op ∈ (ops3 : List (HloOp τ sig (Elt F))), op.fresh = ∅ := by
  intro _ h; (repeat (cases h with | head => rfl | tail _ h => ?_)); exact nomatch h

set_option maxHeartbeats 4000000 in
/-- Operations 121 to 147 of @main. -/
abbrev ops4 : List (HloOp τ sig (Elt F)) :=
  [ nullary main_c_16 (constantI S_ 32 0#32),
    unary main_c_16 main_v99 (broadcastInDim S850000 ![] bcast_S_S850000 : (⟨S_, .i32⟩ : BufTy).Contents (Elt F) → (⟨S850000, .i32⟩ : BufTy).Contents (Elt F)),
    binary main_v6 main_v99 main_v100 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v101 (broadcastInDim S850000 ![] bcast_S_S850000 : (⟨S_, .i32⟩ : BufTy).Contents (Elt F) → (⟨S850000, .i32⟩ : BufTy).Contents (Elt F)),
    binary main_v6 main_v101 main_v102 (addi : (⟨S850000, .i32⟩ : BufTy).Contents (Elt F) → (⟨S850000, .i32⟩ : BufTy).Contents (Elt F) → (⟨S850000, .i32⟩ : BufTy).Contents (Elt F)),
    ternary main_v100 main_v102 main_v6 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v103 main_v104 (broadcastInDim S850000x1 ![0] bcast_S850000_S850000x1_0 : (⟨S850000, .i32⟩ : BufTy).Contents (Elt F) → (⟨S850000x1, .i32⟩ : BufTy).Contents (Elt F)),
    binary main_v98 main_v104 main_v105 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v28 main_v106 (broadcastInDim S850000x1 ![0] bcast_S850000_S850000x1_0 : (⟨S850000, .f32⟩ : BufTy).Contents (Elt F) → (⟨S850000x1, .f32⟩ : BufTy).Contents (Elt F)),
    unary main_v106 main_v107 (broadcastInDim S850000x128 ![0, 1] bcast_S850000x1_S850000x128_0_1 : (⟨S850000x1, .f32⟩ : BufTy).Contents (Elt F) → (⟨S850000x128, .f32⟩ : BufTy).Contents (Elt F)),
    binary main_v105 main_v107 main_v108 (mulf : (⟨S850000x128, .f32⟩ : BufTy).Contents (Elt F) → (⟨S850000x128, .f32⟩ : BufTy).Contents (Elt F) → (⟨S850000x128, .f32⟩ : BufTy).Contents (Elt F)),
    nullary main_cst_18 (constant S_ .f32 0x00000000#32),
    unary main_cst_18 main_v109 (broadcastInDim S50000x128 ![] bcast_S_S50000x128 : (⟨S_, .f32⟩ : BufTy).Contents (Elt F) → (⟨S50000x128, .f32⟩ : BufTy).Contents (Elt F)),
    unary main_v5 main_v110 (broadcastInDim S850000x1 ![0] bcast_S850000_S850000x1_0 : (⟨S850000, .i32⟩ : BufTy).Contents (Elt F) → (⟨S850000x1, .i32⟩ : BufTy).Contents (Elt F)),
    ternary main_v109 main_v110 main_v108 main_v111 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v97 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v111 main_v113 main_v114 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v114) (TRef.of (T := ⟨S50000x128, .f32⟩) main_call2_v0) (TRef.of (T := ⟨S50000x128, .f32⟩) main_v115) maximumf,
    unary main_arg7 main_v116 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v116 main_v117 rfl shapeCasts_S1x128x128_S128x128,
    unary main_arg8 main_v118 ((extractStridedSlice S1x128 ![2, 0] · slices_S3x128_S1x128_2_0) : (⟨S3x128, .f32⟩ : BufTy).Contents (Elt F) → (⟨S1x128, .f32⟩ : BufTy).Contents (Elt F)),
    reshape main_v118 main_v119 rfl shapeCasts_S1x128_S128,
    binary main_v115 main_v117 main_v120 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
set_option maxHeartbeats 4000000 in
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub ..⟩
set_option maxHeartbeats 4000000 in
theorem ops4_fresh : ∀ op ∈ (ops4 : List (HloOp τ sig (Elt F))), op.fresh = ∅ := by
  intro _ h; (repeat (cases h with | head => rfl | tail _ h => ?_)); exact nomatch h

set_option maxHeartbeats 4000000 in
/-- Operations 148 to 163 of @main. -/
abbrev ops5 : List (HloOp τ sig (Elt F)) :=
  [ nullary main_c_19 (constantI S_ 32 0#32),
    unary main_c_19 main_v121 (broadcastInDim S850000 ![] bcast_S_S850000 : (⟨S_, .i32⟩ : BufTy).Contents (Elt F) → (⟨S850000, .i32⟩ : BufTy).Contents (Elt F)),
    binary main_v6 main_v121 main_v122 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v123 (broadcastInDim S850000 ![] bcast_S_S850000 : (⟨S_, .i32⟩ : BufTy).Contents (Elt F) → (⟨S850000, .i32⟩ : BufTy).Contents (Elt F)),
    binary main_v6 main_v123 main_v124 (addi : (⟨S850000, .i32⟩ : BufTy).Contents (Elt F) → (⟨S850000, .i32⟩ : BufTy).Contents (Elt F) → (⟨S850000, .i32⟩ : BufTy).Contents (Elt F)),
    ternary main_v122 main_v124 main_v6 main_v125 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v125 main_v126 (broadcastInDim S850000x1 ![0] bcast_S850000_S850000x1_0 : (⟨S850000, .i32⟩ : BufTy).Contents (Elt F) → (⟨S850000x1, .i32⟩ : BufTy).Contents (Elt F)),
    binary main_v120 main_v126 main_v127 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v28 main_v128 (broadcastInDim S850000x1 ![0] bcast_S850000_S850000x1_0 : (⟨S850000, .f32⟩ : BufTy).Contents (Elt F) → (⟨S850000x1, .f32⟩ : BufTy).Contents (Elt F)),
    unary main_v128 main_v129 (broadcastInDim S850000x128 ![0, 1] bcast_S850000x1_S850000x128_0_1 : (⟨S850000x1, .f32⟩ : BufTy).Contents (Elt F) → (⟨S850000x128, .f32⟩ : BufTy).Contents (Elt F)),
    binary main_v127 main_v129 main_v130 (mulf : (⟨S850000x128, .f32⟩ : BufTy).Contents (Elt F) → (⟨S850000x128, .f32⟩ : BufTy).Contents (Elt F) → (⟨S850000x128, .f32⟩ : BufTy).Contents (Elt F)),
    nullary main_cst_21 (constant S_ .f32 0x00000000#32),
    unary main_cst_21 main_v131 (broadcastInDim S50000x128 ![] bcast_S_S50000x128 : (⟨S_, .f32⟩ : BufTy).Contents (Elt F) → (⟨S50000x128, .f32⟩ : BufTy).Contents (Elt F)),
    unary main_v5 main_v132 (broadcastInDim S850000x1 ![0] bcast_S850000_S850000x1_0 : (⟨S850000, .i32⟩ : BufTy).Contents (Elt F) → (⟨S850000x1, .i32⟩ : BufTy).Contents (Elt F)),
    ternary main_v131 main_v132 main_v130 main_v133 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]
set_option maxHeartbeats 4000000 in
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
set_option maxHeartbeats 4000000 in
theorem ops5_fresh : ∀ op ∈ (ops5 : List (HloOp τ sig (Elt F))), op.fresh = ∅ := by
  intro _ h; (repeat (cases h with | head => rfl | tail _ h => ?_)); exact nomatch h

set_option maxHeartbeats 4000000 in
/-- Operations 164 to 230 of @main. -/
abbrev ops6 : List (HloOp τ sig (Elt F)) :=
  [ unary main_v119 main_v134 (broadcastInDim S1x128 ![1] bcast_S128_S1x128_1 : (⟨S128, .f32⟩ : BufTy).Contents (Elt F) → (⟨S1x128, .f32⟩ : BufTy).Contents (Elt F)),
    unary main_v134 main_v135 (broadcastInDim S50000x128 ![0, 1] bcast_S1x128_S50000x128_0_1 : (⟨S1x128, .f32⟩ : BufTy).Contents (Elt F) → (⟨S50000x128, .f32⟩ : BufTy).Contents (Elt F)),
    binary main_v133 main_v135 main_v136 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v136) (TRef.of (T := ⟨S50000x128, .f32⟩) main_call3_v0) (TRef.of (T := ⟨S50000x128, .f32⟩) main_v137) maximumf,
    nullary main_c_22 (constantI S_ 32 0#32),
    unary main_c_22 main_v138 (broadcastInDim S800000 ![] bcast_S_S800000 : (⟨S_, .i32⟩ : BufTy).Contents (Elt F) → (⟨S800000, .i32⟩ : BufTy).Contents (Elt F)),
    binary main_v1 main_v138 main_v139 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v140 (broadcastInDim S800000 ![] bcast_S_S800000 : (⟨S_, .i32⟩ : BufTy).Contents (Elt F) → (⟨S800000, .i32⟩ : BufTy).Contents (Elt F)),
    binary main_v1 main_v140 main_v141 (addi : (⟨S800000, .i32⟩ : BufTy).Contents (Elt F) → (⟨S800000, .i32⟩ : BufTy).Contents (Elt F) → (⟨S800000, .i32⟩ : BufTy).Contents (Elt F)),
    ternary main_v139 main_v141 main_v1 main_v142 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v142 main_v143 (broadcastInDim S800000x1 ![0] bcast_S800000_S800000x1_0 : (⟨S800000, .i32⟩ : BufTy).Contents (Elt F) → (⟨S800000x1, .i32⟩ : BufTy).Contents (Elt F)),
    binary main_v137 main_v143 main_v144 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_24 (constantI S_ 32 0#32),
    unary main_c_24 main_v145 (broadcastInDim S800000 ![] bcast_S_S800000 : (⟨S_, .i32⟩ : BufTy).Contents (Elt F) → (⟨S800000, .i32⟩ : BufTy).Contents (Elt F)),
    binary main_v3 main_v145 main_v146 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v147 (broadcastInDim S800000 ![] bcast_S_S800000 : (⟨S_, .i32⟩ : BufTy).Contents (Elt F) → (⟨S800000, .i32⟩ : BufTy).Contents (Elt F)),
    binary main_v3 main_v147 main_v148 (addi : (⟨S800000, .i32⟩ : BufTy).Contents (Elt F) → (⟨S800000, .i32⟩ : BufTy).Contents (Elt F) → (⟨S800000, .i32⟩ : BufTy).Contents (Elt F)),
    ternary main_v146 main_v148 main_v3 main_v149 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v149 main_v150 (broadcastInDim S800000x1 ![0] bcast_S800000_S800000x1_0 : (⟨S800000, .i32⟩ : BufTy).Contents (Elt F) → (⟨S800000x1, .i32⟩ : BufTy).Contents (Elt F)),
    binary main_v137 main_v150 main_v151 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v144 main_v151 main_v152 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v152 main_arg9 main_v153 ((fun l r => Host.dotGeneral dot_S800000x256_S256x2_S800000x2_1_0_0_1_n_n none l r) : (⟨S800000x256, .f32⟩ : BufTy).Contents (Elt F) → (⟨S256x2, .f32⟩ : BufTy).Contents (Elt F) → (⟨S800000x2, .f32⟩ : BufTy).Contents (Elt F)),
    unary main_arg10 main_v154 (broadcastInDim S1x2 ![1] bcast_S2_S1x2_1 : (⟨S2, .f32⟩ : BufTy).Contents (Elt F) → (⟨S1x2, .f32⟩ : BufTy).Contents (Elt F)),
    unary main_v154 main_v155 (broadcastInDim S800000x2 ![0, 1] bcast_S1x2_S800000x2_0_1 : (⟨S1x2, .f32⟩ : BufTy).Contents (Elt F) → (⟨S800000x2, .f32⟩ : BufTy).Contents (Elt F)),
    binary main_v153 main_v155 main_v156 (addf : (⟨S800000x2, .f32⟩ : BufTy).Contents (Elt F) → (⟨S800000x2, .f32⟩ : BufTy).Contents (Elt F) → (⟨S800000x2, .f32⟩ : BufTy).Contents (Elt F)),
    nullary main_cst_26 (constant S_ .f32 0xFF800000#32),
    binary main_v156 main_cst_26 main_v157 ((fun x v => Host.reduce FloatOps.maximumf x v reducesTo_S800000x2_S800000_d1 h_S_) : (⟨S800000x2, .f32⟩ : BufTy).Contents (Elt F) → (⟨S_, .f32⟩ : BufTy).Contents (Elt F) → (⟨S800000, .f32⟩ : BufTy).Contents (Elt F)),
    nullary main_cst_27 (constant S_ .f32 0xFF800000#32),
    unary main_cst_27 main_v158 (broadcastInDim S800000 ![] bcast_S_S800000 : (⟨S_, .f32⟩ : BufTy).Contents (Elt F) → (⟨S800000, .f32⟩ : BufTy).Contents (Elt F)),
    binary main_v158 main_v157 main_v159 (maximumf : (⟨S800000, .f32⟩ : BufTy).Contents (Elt F) → (⟨S800000, .f32⟩ : BufTy).Contents (Elt F) → (⟨S800000, .f32⟩ : BufTy).Contents (Elt F)),
    unary main_v159 main_v160 (broadcastInDim S800000x1 ![0] bcast_S800000_S800000x1_0 : (⟨S800000, .f32⟩ : BufTy).Contents (Elt F) → (⟨S800000x1, .f32⟩ : BufTy).Contents (Elt F)),
    unary main_v160 main_v161 (broadcastInDim S800000x2 ![0, 1] bcast_S800000x1_S800000x2_0_1 : (⟨S800000x1, .f32⟩ : BufTy).Contents (Elt F) → (⟨S800000x2, .f32⟩ : BufTy).Contents (Elt F)),
    binary main_v156 main_v161 main_v162 (subf : (⟨S800000x2, .f32⟩ : BufTy).Contents (Elt F) → (⟨S800000x2, .f32⟩ : BufTy).Contents (Elt F) → (⟨S800000x2, .f32⟩ : BufTy).Contents (Elt F)),
    unary main_v162 main_v163 (Host.exp : (⟨S800000x2, .f32⟩ : BufTy).Contents (Elt F) → (⟨S800000x2, .f32⟩ : BufTy).Contents (Elt F)),
    nullary main_cst_28 (constant S_ .f32 0x00000000#32),
    binary main_v163 main_cst_28 main_v164 ((fun x v => Host.reduceAdd x v reducesTo_S800000x2_S800000_d1 h_S_) : (⟨S800000x2, .f32⟩ : BufTy).Contents (Elt F) → (⟨S_, .f32⟩ : BufTy).Contents (Elt F) → (⟨S800000, .f32⟩ : BufTy).Contents (Elt F)),
    unary main_v164 main_v165 (broadcastInDim S800000x1 ![0] bcast_S800000_S800000x1_0 : (⟨S800000, .f32⟩ : BufTy).Contents (Elt F) → (⟨S800000x1, .f32⟩ : BufTy).Contents (Elt F)),
    unary main_v165 main_v166 (broadcastInDim S800000x2 ![0, 1] bcast_S800000x1_S800000x2_0_1 : (⟨S800000x1, .f32⟩ : BufTy).Contents (Elt F) → (⟨S800000x2, .f32⟩ : BufTy).Contents (Elt F)),
    binary main_v163 main_v166 main_v167 (Host.divf : (⟨S800000x2, .f32⟩ : BufTy).Contents (Elt F) → (⟨S800000x2, .f32⟩ : BufTy).Contents (Elt F) → (⟨S800000x2, .f32⟩ : BufTy).Contents (Elt F)),
    binary main_v137 main_arg11 main_v168 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    unary main_arg12 main_v169 (broadcastInDim S1x2 ![1] bcast_S2_S1x2_1 : (⟨S2, .f32⟩ : BufTy).Contents (Elt F) → (⟨S1x2, .f32⟩ : BufTy).Contents (Elt F)),
    unary main_v169 main_v170 (broadcastInDim S50000x2 ![0, 1] bcast_S1x2_S50000x2_0_1 : (⟨S1x2, .f32⟩ : BufTy).Contents (Elt F) → (⟨S50000x2, .f32⟩ : BufTy).Contents (Elt F)),
    binary main_v168 main_v170 main_v171 (addf : (⟨S50000x2, .f32⟩ : BufTy).Contents (Elt F) → (⟨S50000x2, .f32⟩ : BufTy).Contents (Elt F) → (⟨S50000x2, .f32⟩ : BufTy).Contents (Elt F)),
    nullary main_cst_29 (constant S_ .f32 0xFF800000#32),
    binary main_v171 main_cst_29 main_v172 ((fun x v => Host.reduce FloatOps.maximumf x v reducesTo_S50000x2_S50000_d1 h_S_) : (⟨S50000x2, .f32⟩ : BufTy).Contents (Elt F) → (⟨S_, .f32⟩ : BufTy).Contents (Elt F) → (⟨S50000, .f32⟩ : BufTy).Contents (Elt F)),
    nullary main_cst_30 (constant S_ .f32 0xFF800000#32),
    unary main_cst_30 main_v173 (broadcastInDim S50000 ![] bcast_S_S50000 : (⟨S_, .f32⟩ : BufTy).Contents (Elt F) → (⟨S50000, .f32⟩ : BufTy).Contents (Elt F)),
    binary main_v173 main_v172 main_v174 (maximumf : (⟨S50000, .f32⟩ : BufTy).Contents (Elt F) → (⟨S50000, .f32⟩ : BufTy).Contents (Elt F) → (⟨S50000, .f32⟩ : BufTy).Contents (Elt F)),
    unary main_v174 main_v175 (broadcastInDim S50000x1 ![0] bcast_S50000_S50000x1_0 : (⟨S50000, .f32⟩ : BufTy).Contents (Elt F) → (⟨S50000x1, .f32⟩ : BufTy).Contents (Elt F)),
    unary main_v175 main_v176 (broadcastInDim S50000x2 ![0, 1] bcast_S50000x1_S50000x2_0_1 : (⟨S50000x1, .f32⟩ : BufTy).Contents (Elt F) → (⟨S50000x2, .f32⟩ : BufTy).Contents (Elt F)),
    binary main_v171 main_v176 main_v177 (subf : (⟨S50000x2, .f32⟩ : BufTy).Contents (Elt F) → (⟨S50000x2, .f32⟩ : BufTy).Contents (Elt F) → (⟨S50000x2, .f32⟩ : BufTy).Contents (Elt F)),
    unary main_v177 main_v178 (Host.exp : (⟨S50000x2, .f32⟩ : BufTy).Contents (Elt F) → (⟨S50000x2, .f32⟩ : BufTy).Contents (Elt F)),
    nullary main_cst_31 (constant S_ .f32 0x00000000#32),
    binary main_v178 main_cst_31 main_v179 ((fun x v => Host.reduceAdd x v reducesTo_S50000x2_S50000_d1 h_S_) : (⟨S50000x2, .f32⟩ : BufTy).Contents (Elt F) → (⟨S_, .f32⟩ : BufTy).Contents (Elt F) → (⟨S50000, .f32⟩ : BufTy).Contents (Elt F)),
    unary main_v179 main_v180 (broadcastInDim S50000x1 ![0] bcast_S50000_S50000x1_0 : (⟨S50000, .f32⟩ : BufTy).Contents (Elt F) → (⟨S50000x1, .f32⟩ : BufTy).Contents (Elt F)),
    unary main_v180 main_v181 (broadcastInDim S50000x2 ![0, 1] bcast_S50000x1_S50000x2_0_1 : (⟨S50000x1, .f32⟩ : BufTy).Contents (Elt F) → (⟨S50000x2, .f32⟩ : BufTy).Contents (Elt F)),
    binary main_v178 main_v181 main_v182 (Host.divf : (⟨S50000x2, .f32⟩ : BufTy).Contents (Elt F) → (⟨S50000x2, .f32⟩ : BufTy).Contents (Elt F) → (⟨S50000x2, .f32⟩ : BufTy).Contents (Elt F)),
    unary main_v182 main_v183 ((extractStridedSlice S50000x1 ![0, 0] · slices_S50000x2_S50000x1_0_0) : (⟨S50000x2, .f32⟩ : BufTy).Contents (Elt F) → (⟨S50000x1, .f32⟩ : BufTy).Contents (Elt F)),
    unary main_v183 main_v184 (broadcastInDim S50000x128 ![0, 1] bcast_S50000x1_S50000x128_0_1 : (⟨S50000x1, .f32⟩ : BufTy).Contents (Elt F) → (⟨S50000x128, .f32⟩ : BufTy).Contents (Elt F)),
    binary main_v184 main_v137 main_v185 (mulf : (⟨S50000x128, .f32⟩ : BufTy).Contents (Elt F) → (⟨S50000x128, .f32⟩ : BufTy).Contents (Elt F) → (⟨S50000x128, .f32⟩ : BufTy).Contents (Elt F)),
    unary main_v182 main_v186 ((extractStridedSlice S50000x1 ![0, 1] · slices_S50000x2_S50000x1_0_1) : (⟨S50000x2, .f32⟩ : BufTy).Contents (Elt F) → (⟨S50000x1, .f32⟩ : BufTy).Contents (Elt F)),
    unary main_v186 main_v187 (broadcastInDim S50000x128 ![0, 1] bcast_S50000x1_S50000x128_0_1 : (⟨S50000x1, .f32⟩ : BufTy).Contents (Elt F) → (⟨S50000x128, .f32⟩ : BufTy).Contents (Elt F)),
    binary main_v187 main_v137 main_v188 (mulf : (⟨S50000x128, .f32⟩ : BufTy).Contents (Elt F) → (⟨S50000x128, .f32⟩ : BufTy).Contents (Elt F) → (⟨S50000x128, .f32⟩ : BufTy).Contents (Elt F)) ]
set_option maxHeartbeats 4000000 in
theorem ops6_sub : (ops6 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub ..⟩
set_option maxHeartbeats 4000000 in
theorem ops6_fresh : ∀ op ∈ (ops6 : List (HloOp τ sig (Elt F))), op.fresh = ∅ := by
  intro _ h; (repeat (cases h with | head => rfl | tail _ h => ?_)); exact nomatch h

set_option maxHeartbeats 4000000 in
/-- Operations 231 to 253 of @main. -/
abbrev ops7 : List (HloOp τ sig (Elt F)) :=
  [ nullary main_cst_32 (constant S_ .f32 0x3F800000#32),
    unary main_cst_32 main_v189 (broadcastInDim S50000 ![] bcast_S_S50000 : (⟨S_, .f32⟩ : BufTy).Contents (Elt F) → (⟨S50000, .f32⟩ : BufTy).Contents (Elt F)),
    nullary main_cst_33 (constant S_ .f32 0x00000000#32),
    unary main_cst_33 main_v190 (broadcastInDim S128 ![] bcast_S_S128 : (⟨S_, .f32⟩ : BufTy).Contents (Elt F) → (⟨S128, .f32⟩ : BufTy).Contents (Elt F)),
    unary main_arg2 main_v191 (broadcastInDim S50000x1 ![0] bcast_S50000_S50000x1_0 : (⟨S50000, .i32⟩ : BufTy).Contents (Elt F) → (⟨S50000x1, .i32⟩ : BufTy).Contents (Elt F)),
    ternary main_v190 main_v191 main_v189 main_v192 ((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)),
    nullary main_cst_34 (constant S_ .f32 0x3F800000#32),
    unary main_cst_34 main_v193 (broadcastInDim S128 ![] bcast_S_S128 : (⟨S_, .f32⟩ : BufTy).Contents (Elt F) → (⟨S128, .f32⟩ : BufTy).Contents (Elt F)),
    binary main_v192 main_v193 main_v194 (maximumf : (⟨S128, .f32⟩ : BufTy).Contents (Elt F) → (⟨S128, .f32⟩ : BufTy).Contents (Elt F) → (⟨S128, .f32⟩ : BufTy).Contents (Elt F)),
    nullary main_cst_35 (constant S_ .f32 0x00000000#32),
    unary main_cst_35 main_v195 (broadcastInDim S128x128 ![] bcast_S_S128x128 : (⟨S_, .f32⟩ : BufTy).Contents (Elt F) → (⟨S128x128, .f32⟩ : BufTy).Contents (Elt F)),
    unary main_arg2 main_v196 (broadcastInDim S50000x1 ![0] bcast_S50000_S50000x1_0 : (⟨S50000, .i32⟩ : BufTy).Contents (Elt F) → (⟨S50000x1, .i32⟩ : BufTy).Contents (Elt F)),
    ternary main_v195 main_v196 main_v185 main_v197 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v194 main_v198 (broadcastInDim S128x1 ![0] bcast_S128_S128x1_0 : (⟨S128, .f32⟩ : BufTy).Contents (Elt F) → (⟨S128x1, .f32⟩ : BufTy).Contents (Elt F)),
    unary main_v198 main_v199 (broadcastInDim S128x128 ![0, 1] bcast_S128x1_S128x128_0_1 : (⟨S128x1, .f32⟩ : BufTy).Contents (Elt F) → (⟨S128x128, .f32⟩ : BufTy).Contents (Elt F)),
    binary main_v197 main_v199 main_v200 (Host.divf : (⟨S128x128, .f32⟩ : BufTy).Contents (Elt F) → (⟨S128x128, .f32⟩ : BufTy).Contents (Elt F) → (⟨S128x128, .f32⟩ : BufTy).Contents (Elt F)),
    nullary main_cst_36 (constant S_ .f32 0x00000000#32),
    unary main_cst_36 main_v201 (broadcastInDim S128x128 ![] bcast_S_S128x128 : (⟨S_, .f32⟩ : BufTy).Contents (Elt F) → (⟨S128x128, .f32⟩ : BufTy).Contents (Elt F)),
    unary main_arg2 main_v202 (broadcastInDim S50000x1 ![0] bcast_S50000_S50000x1_0 : (⟨S50000, .i32⟩ : BufTy).Contents (Elt F) → (⟨S50000x1, .i32⟩ : BufTy).Contents (Elt F)),
    ternary main_v201 main_v202 main_v188 main_v203 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    unary main_v194 main_v204 (broadcastInDim S128x1 ![0] bcast_S128_S128x1_0 : (⟨S128, .f32⟩ : BufTy).Contents (Elt F) → (⟨S128x1, .f32⟩ : BufTy).Contents (Elt F)),
    unary main_v204 main_v205 (broadcastInDim S128x128 ![0, 1] bcast_S128x1_S128x128_0_1 : (⟨S128x1, .f32⟩ : BufTy).Contents (Elt F) → (⟨S128x128, .f32⟩ : BufTy).Contents (Elt F)),
    binary main_v203 main_v205 main_v206 (Host.divf : (⟨S128x128, .f32⟩ : BufTy).Contents (Elt F) → (⟨S128x128, .f32⟩ : BufTy).Contents (Elt F) → (⟨S128x128, .f32⟩ : BufTy).Contents (Elt F)) ]
set_option maxHeartbeats 4000000 in
theorem ops7_sub : (ops7 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxHeartbeats 4000000 in
theorem ops7_fresh : ∀ op ∈ (ops7 : List (HloOp τ sig (Elt F))), op.fresh = ∅ := by
  intro _ h; (repeat (cases h with | head => rfl | tail _ h => ?_)); exact nomatch h

set_option maxHeartbeats 4000000 in
/-- Operations 254 to 287 of @main. -/
abbrev ops8 : List (HloOp τ sig (Elt F)) :=
  [ nullary main_cst_37 (constant S_ .f32 0x00000000#32),
    binary main_v200 main_cst_37 main_v207 ((fun x v => Host.reduceAdd x v reducesTo_S128x128_S128_d0 h_S_) : (⟨S128x128, .f32⟩ : BufTy).Contents (Elt F) → (⟨S_, .f32⟩ : BufTy).Contents (Elt F) → (⟨S128, .f32⟩ : BufTy).Contents (Elt F)),
    nullary main_cst_38 (constant S_ .f32 0x43000000#32),
    unary main_cst_38 main_v208 (broadcastInDim S128 ![] bcast_S_S128 : (⟨S_, .f32⟩ : BufTy).Contents (Elt F) → (⟨S128, .f32⟩ : BufTy).Contents (Elt F)),
    binary main_v207 main_v208 main_v209 (Host.divf : (⟨S128, .f32⟩ : BufTy).Contents (Elt F) → (⟨S128, .f32⟩ : BufTy).Contents (Elt F) → (⟨S128, .f32⟩ : BufTy).Contents (Elt F)),
    unary main_v209 main_v210 (broadcastInDim S1x128 ![1] bcast_S128_S1x128_1 : (⟨S128, .f32⟩ : BufTy).Contents (Elt F) → (⟨S1x128, .f32⟩ : BufTy).Contents (Elt F)),
    unary main_v210 main_v211 (broadcastInDim S128x128 ![0, 1] bcast_S1x128_S128x128_0_1 : (⟨S1x128, .f32⟩ : BufTy).Contents (Elt F) → (⟨S128x128, .f32⟩ : BufTy).Contents (Elt F)),
    binary main_v200 main_v211 main_v212 (subf : (⟨S128x128, .f32⟩ : BufTy).Contents (Elt F) → (⟨S128x128, .f32⟩ : BufTy).Contents (Elt F) → (⟨S128x128, .f32⟩ : BufTy).Contents (Elt F)),
    binary main_v212 main_v212 main_v213 (mulf : (⟨S128x128, .f32⟩ : BufTy).Contents (Elt F) → (⟨S128x128, .f32⟩ : BufTy).Contents (Elt F) → (⟨S128x128, .f32⟩ : BufTy).Contents (Elt F)),
    nullary main_cst_39 (constant S_ .f32 0x00000000#32),
    binary main_v213 main_cst_39 main_v214 ((fun x v => Host.reduceAdd x v reducesTo_S128x128_S128_d0 h_S_) : (⟨S128x128, .f32⟩ : BufTy).Contents (Elt F) → (⟨S_, .f32⟩ : BufTy).Contents (Elt F) → (⟨S128, .f32⟩ : BufTy).Contents (Elt F)),
    nullary main_cst_40 (constant S_ .f32 0x43000000#32),
    unary main_cst_40 main_v215 (broadcastInDim S128 ![] bcast_S_S128 : (⟨S_, .f32⟩ : BufTy).Contents (Elt F) → (⟨S128, .f32⟩ : BufTy).Contents (Elt F)),
    binary main_v214 main_v215 main_v216 (Host.divf : (⟨S128, .f32⟩ : BufTy).Contents (Elt F) → (⟨S128, .f32⟩ : BufTy).Contents (Elt F) → (⟨S128, .f32⟩ : BufTy).Contents (Elt F)),
    unary main_v209 main_v217 (broadcastInDim S1x128 ![1] bcast_S128_S1x128_1 : (⟨S128, .f32⟩ : BufTy).Contents (Elt F) → (⟨S1x128, .f32⟩ : BufTy).Contents (Elt F)),
    unary main_v217 main_v218 (broadcastInDim S128x128 ![0, 1] bcast_S1x128_S128x128_0_1 : (⟨S1x128, .f32⟩ : BufTy).Contents (Elt F) → (⟨S128x128, .f32⟩ : BufTy).Contents (Elt F)),
    binary main_v200 main_v218 main_v219 (subf : (⟨S128x128, .f32⟩ : BufTy).Contents (Elt F) → (⟨S128x128, .f32⟩ : BufTy).Contents (Elt F) → (⟨S128x128, .f32⟩ : BufTy).Contents (Elt F)),
    nullary main_cst_41 (constant S_ .f32 0x3727C5AC#32),
    unary main_cst_41 main_v220 (broadcastInDim S128 ![] bcast_S_S128 : (⟨S_, .f32⟩ : BufTy).Contents (Elt F) → (⟨S128, .f32⟩ : BufTy).Contents (Elt F)),
    binary main_v216 main_v220 main_v221 (addf : (⟨S128, .f32⟩ : BufTy).Contents (Elt F) → (⟨S128, .f32⟩ : BufTy).Contents (Elt F) → (⟨S128, .f32⟩ : BufTy).Contents (Elt F)),
    unary main_v221 main_v222 (Host.rsqrt : (⟨S128, .f32⟩ : BufTy).Contents (Elt F) → (⟨S128, .f32⟩ : BufTy).Contents (Elt F)),
    unary main_v222 main_v223 (broadcastInDim S1x128 ![1] bcast_S128_S1x128_1 : (⟨S128, .f32⟩ : BufTy).Contents (Elt F) → (⟨S1x128, .f32⟩ : BufTy).Contents (Elt F)),
    unary main_v223 main_v224 (broadcastInDim S128x128 ![0, 1] bcast_S1x128_S128x128_0_1 : (⟨S1x128, .f32⟩ : BufTy).Contents (Elt F) → (⟨S128x128, .f32⟩ : BufTy).Contents (Elt F)),
    binary main_v219 main_v224 main_v225 (mulf : (⟨S128x128, .f32⟩ : BufTy).Contents (Elt F) → (⟨S128x128, .f32⟩ : BufTy).Contents (Elt F) → (⟨S128x128, .f32⟩ : BufTy).Contents (Elt F)),
    unary main_arg13 main_v226 (broadcastInDim S1x128 ![1] bcast_S128_S1x128_1 : (⟨S128, .f32⟩ : BufTy).Contents (Elt F) → (⟨S1x128, .f32⟩ : BufTy).Contents (Elt F)),
    unary main_v226 main_v227 (broadcastInDim S128x128 ![0, 1] bcast_S1x128_S128x128_0_1 : (⟨S1x128, .f32⟩ : BufTy).Contents (Elt F) → (⟨S128x128, .f32⟩ : BufTy).Contents (Elt F)),
    binary main_v225 main_v227 main_v228 (mulf : (⟨S128x128, .f32⟩ : BufTy).Contents (Elt F) → (⟨S128x128, .f32⟩ : BufTy).Contents (Elt F) → (⟨S128x128, .f32⟩ : BufTy).Contents (Elt F)),
    unary main_arg14 main_v229 (broadcastInDim S1x128 ![1] bcast_S128_S1x128_1 : (⟨S128, .f32⟩ : BufTy).Contents (Elt F) → (⟨S1x128, .f32⟩ : BufTy).Contents (Elt F)),
    unary main_v229 main_v230 (broadcastInDim S128x128 ![0, 1] bcast_S1x128_S128x128_0_1 : (⟨S1x128, .f32⟩ : BufTy).Contents (Elt F) → (⟨S128x128, .f32⟩ : BufTy).Contents (Elt F)),
    binary main_v228 main_v230 main_v231 (addf : (⟨S128x128, .f32⟩ : BufTy).Contents (Elt F) → (⟨S128x128, .f32⟩ : BufTy).Contents (Elt F) → (⟨S128x128, .f32⟩ : BufTy).Contents (Elt F)),
    binary main_v231 main_arg15 main_v232 ((fun l r => Host.dotGeneral dot_S128x128_S128x10_S128x10_1_0_0_1_n_n none l r) : (⟨S128x128, .f32⟩ : BufTy).Contents (Elt F) → (⟨S128x10, .f32⟩ : BufTy).Contents (Elt F) → (⟨S128x10, .f32⟩ : BufTy).Contents (Elt F)),
    unary main_arg16 main_v233 (broadcastInDim S1x10 ![1] bcast_S10_S1x10_1 : (⟨S10, .f32⟩ : BufTy).Contents (Elt F) → (⟨S1x10, .f32⟩ : BufTy).Contents (Elt F)),
    unary main_v233 main_v234 (broadcastInDim S128x10 ![0, 1] bcast_S1x10_S128x10_0_1 : (⟨S1x10, .f32⟩ : BufTy).Contents (Elt F) → (⟨S128x10, .f32⟩ : BufTy).Contents (Elt F)),
    binary main_v232 main_v234 main_v235 (addf : (⟨S128x10, .f32⟩ : BufTy).Contents (Elt F) → (⟨S128x10, .f32⟩ : BufTy).Contents (Elt F) → (⟨S128x10, .f32⟩ : BufTy).Contents (Elt F)) ]
set_option maxHeartbeats 4000000 in
theorem ops8_sub : (ops8 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩
set_option maxHeartbeats 4000000 in
theorem ops8_fresh : ∀ op ∈ (ops8 : List (HloOp τ sig (Elt F))), op.fresh = ∅ := by
  intro _ h; (repeat (cases h with | head => rfl | tail _ h => ?_)); exact nomatch h

set_option maxHeartbeats 4000000 in
/-- Operations 288 to 321 of @main. -/
abbrev ops9 : List (HloOp τ sig (Elt F)) :=
  [ nullary main_cst_42 (constant S_ .f32 0x00000000#32),
    binary main_v206 main_cst_42 main_v236 ((fun x v => Host.reduceAdd x v reducesTo_S128x128_S128_d0 h_S_) : (⟨S128x128, .f32⟩ : BufTy).Contents (Elt F) → (⟨S_, .f32⟩ : BufTy).Contents (Elt F) → (⟨S128, .f32⟩ : BufTy).Contents (Elt F)),
    nullary main_cst_43 (constant S_ .f32 0x43000000#32),
    unary main_cst_43 main_v237 (broadcastInDim S128 ![] bcast_S_S128 : (⟨S_, .f32⟩ : BufTy).Contents (Elt F) → (⟨S128, .f32⟩ : BufTy).Contents (Elt F)),
    binary main_v236 main_v237 main_v238 (Host.divf : (⟨S128, .f32⟩ : BufTy).Contents (Elt F) → (⟨S128, .f32⟩ : BufTy).Contents (Elt F) → (⟨S128, .f32⟩ : BufTy).Contents (Elt F)),
    unary main_v238 main_v239 (broadcastInDim S1x128 ![1] bcast_S128_S1x128_1 : (⟨S128, .f32⟩ : BufTy).Contents (Elt F) → (⟨S1x128, .f32⟩ : BufTy).Contents (Elt F)),
    unary main_v239 main_v240 (broadcastInDim S128x128 ![0, 1] bcast_S1x128_S128x128_0_1 : (⟨S1x128, .f32⟩ : BufTy).Contents (Elt F) → (⟨S128x128, .f32⟩ : BufTy).Contents (Elt F)),
    binary main_v206 main_v240 main_v241 (subf : (⟨S128x128, .f32⟩ : BufTy).Contents (Elt F) → (⟨S128x128, .f32⟩ : BufTy).Contents (Elt F) → (⟨S128x128, .f32⟩ : BufTy).Contents (Elt F)),
    binary main_v241 main_v241 main_v242 (mulf : (⟨S128x128, .f32⟩ : BufTy).Contents (Elt F) → (⟨S128x128, .f32⟩ : BufTy).Contents (Elt F) → (⟨S128x128, .f32⟩ : BufTy).Contents (Elt F)),
    nullary main_cst_44 (constant S_ .f32 0x00000000#32),
    binary main_v242 main_cst_44 main_v243 ((fun x v => Host.reduceAdd x v reducesTo_S128x128_S128_d0 h_S_) : (⟨S128x128, .f32⟩ : BufTy).Contents (Elt F) → (⟨S_, .f32⟩ : BufTy).Contents (Elt F) → (⟨S128, .f32⟩ : BufTy).Contents (Elt F)),
    nullary main_cst_45 (constant S_ .f32 0x43000000#32),
    unary main_cst_45 main_v244 (broadcastInDim S128 ![] bcast_S_S128 : (⟨S_, .f32⟩ : BufTy).Contents (Elt F) → (⟨S128, .f32⟩ : BufTy).Contents (Elt F)),
    binary main_v243 main_v244 main_v245 (Host.divf : (⟨S128, .f32⟩ : BufTy).Contents (Elt F) → (⟨S128, .f32⟩ : BufTy).Contents (Elt F) → (⟨S128, .f32⟩ : BufTy).Contents (Elt F)),
    unary main_v238 main_v246 (broadcastInDim S1x128 ![1] bcast_S128_S1x128_1 : (⟨S128, .f32⟩ : BufTy).Contents (Elt F) → (⟨S1x128, .f32⟩ : BufTy).Contents (Elt F)),
    unary main_v246 main_v247 (broadcastInDim S128x128 ![0, 1] bcast_S1x128_S128x128_0_1 : (⟨S1x128, .f32⟩ : BufTy).Contents (Elt F) → (⟨S128x128, .f32⟩ : BufTy).Contents (Elt F)),
    binary main_v206 main_v247 main_v248 (subf : (⟨S128x128, .f32⟩ : BufTy).Contents (Elt F) → (⟨S128x128, .f32⟩ : BufTy).Contents (Elt F) → (⟨S128x128, .f32⟩ : BufTy).Contents (Elt F)),
    nullary main_cst_46 (constant S_ .f32 0x3727C5AC#32),
    unary main_cst_46 main_v249 (broadcastInDim S128 ![] bcast_S_S128 : (⟨S_, .f32⟩ : BufTy).Contents (Elt F) → (⟨S128, .f32⟩ : BufTy).Contents (Elt F)),
    binary main_v245 main_v249 main_v250 (addf : (⟨S128, .f32⟩ : BufTy).Contents (Elt F) → (⟨S128, .f32⟩ : BufTy).Contents (Elt F) → (⟨S128, .f32⟩ : BufTy).Contents (Elt F)),
    unary main_v250 main_v251 (Host.rsqrt : (⟨S128, .f32⟩ : BufTy).Contents (Elt F) → (⟨S128, .f32⟩ : BufTy).Contents (Elt F)),
    unary main_v251 main_v252 (broadcastInDim S1x128 ![1] bcast_S128_S1x128_1 : (⟨S128, .f32⟩ : BufTy).Contents (Elt F) → (⟨S1x128, .f32⟩ : BufTy).Contents (Elt F)),
    unary main_v252 main_v253 (broadcastInDim S128x128 ![0, 1] bcast_S1x128_S128x128_0_1 : (⟨S1x128, .f32⟩ : BufTy).Contents (Elt F) → (⟨S128x128, .f32⟩ : BufTy).Contents (Elt F)),
    binary main_v248 main_v253 main_v254 (mulf : (⟨S128x128, .f32⟩ : BufTy).Contents (Elt F) → (⟨S128x128, .f32⟩ : BufTy).Contents (Elt F) → (⟨S128x128, .f32⟩ : BufTy).Contents (Elt F)),
    unary main_arg17 main_v255 (broadcastInDim S1x128 ![1] bcast_S128_S1x128_1 : (⟨S128, .f32⟩ : BufTy).Contents (Elt F) → (⟨S1x128, .f32⟩ : BufTy).Contents (Elt F)),
    unary main_v255 main_v256 (broadcastInDim S128x128 ![0, 1] bcast_S1x128_S128x128_0_1 : (⟨S1x128, .f32⟩ : BufTy).Contents (Elt F) → (⟨S128x128, .f32⟩ : BufTy).Contents (Elt F)),
    binary main_v254 main_v256 main_v257 (mulf : (⟨S128x128, .f32⟩ : BufTy).Contents (Elt F) → (⟨S128x128, .f32⟩ : BufTy).Contents (Elt F) → (⟨S128x128, .f32⟩ : BufTy).Contents (Elt F)),
    unary main_arg18 main_v258 (broadcastInDim S1x128 ![1] bcast_S128_S1x128_1 : (⟨S128, .f32⟩ : BufTy).Contents (Elt F) → (⟨S1x128, .f32⟩ : BufTy).Contents (Elt F)),
    unary main_v258 main_v259 (broadcastInDim S128x128 ![0, 1] bcast_S1x128_S128x128_0_1 : (⟨S1x128, .f32⟩ : BufTy).Contents (Elt F) → (⟨S128x128, .f32⟩ : BufTy).Contents (Elt F)),
    binary main_v257 main_v259 main_v260 (addf : (⟨S128x128, .f32⟩ : BufTy).Contents (Elt F) → (⟨S128x128, .f32⟩ : BufTy).Contents (Elt F) → (⟨S128x128, .f32⟩ : BufTy).Contents (Elt F)),
    binary main_v260 main_arg19 main_v261 ((fun l r => Host.dotGeneral dot_S128x128_S128x10_S128x10_1_0_0_1_n_n none l r) : (⟨S128x128, .f32⟩ : BufTy).Contents (Elt F) → (⟨S128x10, .f32⟩ : BufTy).Contents (Elt F) → (⟨S128x10, .f32⟩ : BufTy).Contents (Elt F)),
    unary main_arg20 main_v262 (broadcastInDim S1x10 ![1] bcast_S10_S1x10_1 : (⟨S10, .f32⟩ : BufTy).Contents (Elt F) → (⟨S1x10, .f32⟩ : BufTy).Contents (Elt F)),
    unary main_v262 main_v263 (broadcastInDim S128x10 ![0, 1] bcast_S1x10_S128x10_0_1 : (⟨S1x10, .f32⟩ : BufTy).Contents (Elt F) → (⟨S128x10, .f32⟩ : BufTy).Contents (Elt F)),
    binary main_v261 main_v263 main_v264 (addf : (⟨S128x10, .f32⟩ : BufTy).Contents (Elt F) → (⟨S128x10, .f32⟩ : BufTy).Contents (Elt F) → (⟨S128x10, .f32⟩ : BufTy).Contents (Elt F)) ]
set_option maxHeartbeats 4000000 in
theorem ops9_sub : (ops9 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩
set_option maxHeartbeats 4000000 in
theorem ops9_fresh : ∀ op ∈ (ops9 : List (HloOp τ sig (Elt F))), op.fresh = ∅ := by
  intro _ h; (repeat (cases h with | head => rfl | tail _ h => ?_)); exact nomatch h

/-- @main's 322 operations: the nine pieces in order. -/
abbrev ops : List (HloOp τ sig (Elt F)) := ops1 ++ (ops2 ++ (ops3 ++ (ops4 ++ (ops5 ++ (ops6 ++ (ops7 ++ (ops8 ++ (ops9))))))))

set_option maxRecDepth 8192 in
set_option maxHeartbeats 16000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨ops1_sub, ⟨ops2_sub, ⟨ops3_sub, ⟨ops4_sub, ⟨ops5_sub, ⟨ops6_sub, ⟨ops7_sub, ⟨ops8_sub, ops9_sub⟩⟩⟩⟩⟩⟩⟩⟩

theorem ops_fresh : ∀ op ∈ (ops : List (HloOp τ sig (Elt F))), op.fresh = ∅ := by
  intro op h
  simp only [ops, List.mem_append] at h
  rcases h with h | h | h | h | h | h | h | h | h
  · exact ops1_fresh op h
  · exact ops2_fresh op h
  · exact ops3_fresh op h
  · exact ops4_fresh op h
  · exact ops5_fresh op h
  · exact ops6_fresh op h
  · exact ops7_fresh op h
  · exact ops8_fresh op h
  · exact ops9_fresh op h

/-- Every weakly fair execution of @main terminates, and every final state has each buffer at the operations' results folded
    over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (launchContents m d) (Proc.devRef .tc b) :=
  run_seq scopedRefs_eq scopedSems_eq defs main (fun _ => ops) main_eq (fun _ => ops_sub) m ρ (fun _ => ops_fresh)

end Cert.ReferenceIdeal.Ops

end
-- ==== Proof.RefKeptA.lean ====
/-
  No operation of the reference writes one of @main's argument arrays: pieces 1 to 3 of the operation list, argument by argument.
-/
import proofs.«420551_j59150289601188_1_alg».proof.Proof.RefOps

noncomputable section

namespace Cert.ReferenceIdeal.Kept

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F] (V : Valuation τ sig (Elt F))

set_option maxHeartbeats 4000000 in
theorem kept1_arg0 : StableHlo.after ops1 V (Proc.devRef .tc main_arg0) = V (Proc.devRef .tc main_arg0) :=
  StableHlo.after_of_forall_not_mem (b := Proc.devRef .tc main_arg0) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg1 : StableHlo.after ops1 V (Proc.devRef .tc main_arg1) = V (Proc.devRef .tc main_arg1) :=
  StableHlo.after_of_forall_not_mem (b := Proc.devRef .tc main_arg1) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg2 : StableHlo.after ops1 V (Proc.devRef .tc main_arg2) = V (Proc.devRef .tc main_arg2) :=
  StableHlo.after_of_forall_not_mem (b := Proc.devRef .tc main_arg2) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg3 : StableHlo.after ops1 V (Proc.devRef .tc main_arg3) = V (Proc.devRef .tc main_arg3) :=
  StableHlo.after_of_forall_not_mem (b := Proc.devRef .tc main_arg3) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg4 : StableHlo.after ops1 V (Proc.devRef .tc main_arg4) = V (Proc.devRef .tc main_arg4) :=
  StableHlo.after_of_forall_not_mem (b := Proc.devRef .tc main_arg4) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg5 : StableHlo.after ops1 V (Proc.devRef .tc main_arg5) = V (Proc.devRef .tc main_arg5) :=
  StableHlo.after_of_forall_not_mem (b := Proc.devRef .tc main_arg5) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg6 : StableHlo.after ops1 V (Proc.devRef .tc main_arg6) = V (Proc.devRef .tc main_arg6) :=
  StableHlo.after_of_forall_not_mem (b := Proc.devRef .tc main_arg6) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg7 : StableHlo.after ops1 V (Proc.devRef .tc main_arg7) = V (Proc.devRef .tc main_arg7) :=
  StableHlo.after_of_forall_not_mem (b := Proc.devRef .tc main_arg7) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg8 : StableHlo.after ops1 V (Proc.devRef .tc main_arg8) = V (Proc.devRef .tc main_arg8) :=
  StableHlo.after_of_forall_not_mem (b := Proc.devRef .tc main_arg8) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg9 : StableHlo.after ops1 V (Proc.devRef .tc main_arg9) = V (Proc.devRef .tc main_arg9) :=
  StableHlo.after_of_forall_not_mem (b := Proc.devRef .tc main_arg9) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg10 : StableHlo.after ops1 V (Proc.devRef .tc main_arg10) = V (Proc.devRef .tc main_arg10) :=
  StableHlo.after_of_forall_not_mem (b := Proc.devRef .tc main_arg10) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg11 : StableHlo.after ops1 V (Proc.devRef .tc main_arg11) = V (Proc.devRef .tc main_arg11) :=
  StableHlo.after_of_forall_not_mem (b := Proc.devRef .tc main_arg11) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg12 : StableHlo.after ops1 V (Proc.devRef .tc main_arg12) = V (Proc.devRef .tc main_arg12) :=
  StableHlo.after_of_forall_not_mem (b := Proc.devRef .tc main_arg12) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg13 : StableHlo.after ops1 V (Proc.devRef .tc main_arg13) = V (Proc.devRef .tc main_arg13) :=
  StableHlo.after_of_forall_not_mem (b := Proc.devRef .tc main_arg13) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg14 : StableHlo.after ops1 V (Proc.devRef .tc main_arg14) = V (Proc.devRef .tc main_arg14) :=
  StableHlo.after_of_forall_not_mem (b := Proc.devRef .tc main_arg14) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg15 : StableHlo.after ops1 V (Proc.devRef .tc main_arg15) = V (Proc.devRef .tc main_arg15) :=
  StableHlo.after_of_forall_not_mem (b := Proc.devRef .tc main_arg15) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg16 : StableHlo.after ops1 V (Proc.devRef .tc main_arg16) = V (Proc.devRef .tc main_arg16) :=
  StableHlo.after_of_forall_not_mem (b := Proc.devRef .tc main_arg16) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg17 : StableHlo.after ops1 V (Proc.devRef .tc main_arg17) = V (Proc.devRef .tc main_arg17) :=
  StableHlo.after_of_forall_not_mem (b := Proc.devRef .tc main_arg17) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg18 : StableHlo.after ops1 V (Proc.devRef .tc main_arg18) = V (Proc.devRef .tc main_arg18) :=
  StableHlo.after_of_forall_not_mem (b := Proc.devRef .tc main_arg18) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg19 : StableHlo.after ops1 V (Proc.devRef .tc main_arg19) = V (Proc.devRef .tc main_arg19) :=
  StableHlo.after_of_forall_not_mem (b := Proc.devRef .tc main_arg19) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept1_arg20 : StableHlo.after ops1 V (Proc.devRef .tc main_arg20) = V (Proc.devRef .tc main_arg20) :=
  StableHlo.after_of_forall_not_mem (b := Proc.devRef .tc main_arg20) _ _ (List.forall_iff_forall_mem.mp (by
    simp only [ops1, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem kept2_arg0 : StableHlo.after ops2 V (Proc.devRef .tc main_arg0) = V (Proc.devRef .tc main_arg0) :=
  StableHlo.after_of_forall_not_mem (b := Proc.devRef .tc main_arg0) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg1 : StableHlo.after ops2 V (Proc.devRef .tc main_arg1) = V (Proc.devRef .tc main_arg1) :=
  StableHlo.after_of_forall_not_mem (b := Proc.devRef .tc main_arg1) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg2 : StableHlo.after ops2 V (Proc.devRef .tc main_arg2) = V (Proc.devRef .tc main_arg2) :=
  StableHlo.after_of_forall_not_mem (b := Proc.devRef .tc main_arg2) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg3 : StableHlo.after ops2 V (Proc.devRef .tc main_arg3) = V (Proc.devRef .tc main_arg3) :=
  StableHlo.after_of_forall_not_mem (b := Proc.devRef .tc main_arg3) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg4 : StableHlo.after ops2 V (Proc.devRef .tc main_arg4) = V (Proc.devRef .tc main_arg4) :=
  StableHlo.after_of_forall_not_mem (b := Proc.devRef .tc main_arg4) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg5 : StableHlo.after ops2 V (Proc.devRef .tc main_arg5) = V (Proc.devRef .tc main_arg5) :=
  StableHlo.after_of_forall_not_mem (b := Proc.devRef .tc main_arg5) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg6 : StableHlo.after ops2 V (Proc.devRef .tc main_arg6) = V (Proc.devRef .tc main_arg6) :=
  StableHlo.after_of_forall_not_mem (b := Proc.devRef .tc main_arg6) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg7 : StableHlo.after ops2 V (Proc.devRef .tc main_arg7) = V (Proc.devRef .tc main_arg7) :=
  StableHlo.after_of_forall_not_mem (b := Proc.devRef .tc main_arg7) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg8 : StableHlo.after ops2 V (Proc.devRef .tc main_arg8) = V (Proc.devRef .tc main_arg8) :=
  StableHlo.after_of_forall_not_mem (b := Proc.devRef .tc main_arg8) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg9 : StableHlo.after ops2 V (Proc.devRef .tc main_arg9) = V (Proc.devRef .tc main_arg9) :=
  StableHlo.after_of_forall_not_mem (b := Proc.devRef .tc main_arg9) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg10 : StableHlo.after ops2 V (Proc.devRef .tc main_arg10) = V (Proc.devRef .tc main_arg10) :=
  StableHlo.after_of_forall_not_mem (b := Proc.devRef .tc main_arg10) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg11 : StableHlo.after ops2 V (Proc.devRef .tc main_arg11) = V (Proc.devRef .tc main_arg11) :=
  StableHlo.after_of_forall_not_mem (b := Proc.devRef .tc main_arg11) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg12 : StableHlo.after ops2 V (Proc.devRef .tc main_arg12) = V (Proc.devRef .tc main_arg12) :=
  StableHlo.after_of_forall_not_mem (b := Proc.devRef .tc main_arg12) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg13 : StableHlo.after ops2 V (Proc.devRef .tc main_arg13) = V (Proc.devRef .tc main_arg13) :=
  StableHlo.after_of_forall_not_mem (b := Proc.devRef .tc main_arg13) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg14 : StableHlo.after ops2 V (Proc.devRef .tc main_arg14) = V (Proc.devRef .tc main_arg14) :=
  StableHlo.after_of_forall_not_mem (b := Proc.devRef .tc main_arg14) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg15 : StableHlo.after ops2 V (Proc.devRef .tc main_arg15) = V (Proc.devRef .tc main_arg15) :=
  StableHlo.after_of_forall_not_mem (b := Proc.devRef .tc main_arg15) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg16 : StableHlo.after ops2 V (Proc.devRef .tc main_arg16) = V (Proc.devRef .tc main_arg16) :=
  StableHlo.after_of_forall_not_mem (b := Proc.devRef .tc main_arg16) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg17 : StableHlo.after ops2 V (Proc.devRef .tc main_arg17) = V (Proc.devRef .tc main_arg17) :=
  StableHlo.after_of_forall_not_mem (b := Proc.devRef .tc main_arg17) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg18 : StableHlo.after ops2 V (Proc.devRef .tc main_arg18) = V (Proc.devRef .tc main_arg18) :=
  StableHlo.after_of_forall_not_mem (b := Proc.devRef .tc main_arg18) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg19 : StableHlo.after ops2 V (Proc.devRef .tc main_arg19) = V (Proc.devRef .tc main_arg19) :=
  StableHlo.after_of_forall_not_mem (b := Proc.devRef .tc main_arg19) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept2_arg20 : StableHlo.after ops2 V (Proc.devRef .tc main_arg20) = V (Proc.devRef .tc main_arg20) :=
  StableHlo.after_of_forall_not_mem (b := Proc.devRef .tc main_arg20) _ _ (List.forall_iff_forall_mem.mp (by
    simp only [ops2, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem kept3_arg0 : StableHlo.after ops3 V (Proc.devRef .tc main_arg0) = V (Proc.devRef .tc main_arg0) :=
  StableHlo.after_of_forall_not_mem (b := Proc.devRef .tc main_arg0) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg1 : StableHlo.after ops3 V (Proc.devRef .tc main_arg1) = V (Proc.devRef .tc main_arg1) :=
  StableHlo.after_of_forall_not_mem (b := Proc.devRef .tc main_arg1) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg2 : StableHlo.after ops3 V (Proc.devRef .tc main_arg2) = V (Proc.devRef .tc main_arg2) :=
  StableHlo.after_of_forall_not_mem (b := Proc.devRef .tc main_arg2) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg3 : StableHlo.after ops3 V (Proc.devRef .tc main_arg3) = V (Proc.devRef .tc main_arg3) :=
  StableHlo.after_of_forall_not_mem (b := Proc.devRef .tc main_arg3) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg4 : StableHlo.after ops3 V (Proc.devRef .tc main_arg4) = V (Proc.devRef .tc main_arg4) :=
  StableHlo.after_of_forall_not_mem (b := Proc.devRef .tc main_arg4) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg5 : StableHlo.after ops3 V (Proc.devRef .tc main_arg5) = V (Proc.devRef .tc main_arg5) :=
  StableHlo.after_of_forall_not_mem (b := Proc.devRef .tc main_arg5) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg6 : StableHlo.after ops3 V (Proc.devRef .tc main_arg6) = V (Proc.devRef .tc main_arg6) :=
  StableHlo.after_of_forall_not_mem (b := Proc.devRef .tc main_arg6) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg7 : StableHlo.after ops3 V (Proc.devRef .tc main_arg7) = V (Proc.devRef .tc main_arg7) :=
  StableHlo.after_of_forall_not_mem (b := Proc.devRef .tc main_arg7) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg8 : StableHlo.after ops3 V (Proc.devRef .tc main_arg8) = V (Proc.devRef .tc main_arg8) :=
  StableHlo.after_of_forall_not_mem (b := Proc.devRef .tc main_arg8) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg9 : StableHlo.after ops3 V (Proc.devRef .tc main_arg9) = V (Proc.devRef .tc main_arg9) :=
  StableHlo.after_of_forall_not_mem (b := Proc.devRef .tc main_arg9) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg10 : StableHlo.after ops3 V (Proc.devRef .tc main_arg10) = V (Proc.devRef .tc main_arg10) :=
  StableHlo.after_of_forall_not_mem (b := Proc.devRef .tc main_arg10) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg11 : StableHlo.after ops3 V (Proc.devRef .tc main_arg11) = V (Proc.devRef .tc main_arg11) :=
  StableHlo.after_of_forall_not_mem (b := Proc.devRef .tc main_arg11) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg12 : StableHlo.after ops3 V (Proc.devRef .tc main_arg12) = V (Proc.devRef .tc main_arg12) :=
  StableHlo.after_of_forall_not_mem (b := Proc.devRef .tc main_arg12) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg13 : StableHlo.after ops3 V (Proc.devRef .tc main_arg13) = V (Proc.devRef .tc main_arg13) :=
  StableHlo.after_of_forall_not_mem (b := Proc.devRef .tc main_arg13) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg14 : StableHlo.after ops3 V (Proc.devRef .tc main_arg14) = V (Proc.devRef .tc main_arg14) :=
  StableHlo.after_of_forall_not_mem (b := Proc.devRef .tc main_arg14) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg15 : StableHlo.after ops3 V (Proc.devRef .tc main_arg15) = V (Proc.devRef .tc main_arg15) :=
  StableHlo.after_of_forall_not_mem (b := Proc.devRef .tc main_arg15) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg16 : StableHlo.after ops3 V (Proc.devRef .tc main_arg16) = V (Proc.devRef .tc main_arg16) :=
  StableHlo.after_of_forall_not_mem (b := Proc.devRef .tc main_arg16) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg17 : StableHlo.after ops3 V (Proc.devRef .tc main_arg17) = V (Proc.devRef .tc main_arg17) :=
  StableHlo.after_of_forall_not_mem (b := Proc.devRef .tc main_arg17) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg18 : StableHlo.after ops3 V (Proc.devRef .tc main_arg18) = V (Proc.devRef .tc main_arg18) :=
  StableHlo.after_of_forall_not_mem (b := Proc.devRef .tc main_arg18) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg19 : StableHlo.after ops3 V (Proc.devRef .tc main_arg19) = V (Proc.devRef .tc main_arg19) :=
  StableHlo.after_of_forall_not_mem (b := Proc.devRef .tc main_arg19) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept3_arg20 : StableHlo.after ops3 V (Proc.devRef .tc main_arg20) = V (Proc.devRef .tc main_arg20) :=
  StableHlo.after_of_forall_not_mem (b := Proc.devRef .tc main_arg20) _ _ (List.forall_iff_forall_mem.mp (by
    simp only [ops3, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.ReferenceIdeal.Kept

end
-- ==== Proof.RefKeptB.lean ====
/-
  No operation of the reference writes one of @main's argument arrays: pieces 4 to 6 of the operation list, argument by argument.
-/
import proofs.«420551_j59150289601188_1_alg».proof.Proof.RefOps

noncomputable section

namespace Cert.ReferenceIdeal.Kept

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F] (V : Valuation τ sig (Elt F))

set_option maxHeartbeats 4000000 in
theorem kept4_arg0 : StableHlo.after ops4 V (Proc.devRef .tc main_arg0) = V (Proc.devRef .tc main_arg0) :=
  StableHlo.after_of_forall_not_mem (b := Proc.devRef .tc main_arg0) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg1 : StableHlo.after ops4 V (Proc.devRef .tc main_arg1) = V (Proc.devRef .tc main_arg1) :=
  StableHlo.after_of_forall_not_mem (b := Proc.devRef .tc main_arg1) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg2 : StableHlo.after ops4 V (Proc.devRef .tc main_arg2) = V (Proc.devRef .tc main_arg2) :=
  StableHlo.after_of_forall_not_mem (b := Proc.devRef .tc main_arg2) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg3 : StableHlo.after ops4 V (Proc.devRef .tc main_arg3) = V (Proc.devRef .tc main_arg3) :=
  StableHlo.after_of_forall_not_mem (b := Proc.devRef .tc main_arg3) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg4 : StableHlo.after ops4 V (Proc.devRef .tc main_arg4) = V (Proc.devRef .tc main_arg4) :=
  StableHlo.after_of_forall_not_mem (b := Proc.devRef .tc main_arg4) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg5 : StableHlo.after ops4 V (Proc.devRef .tc main_arg5) = V (Proc.devRef .tc main_arg5) :=
  StableHlo.after_of_forall_not_mem (b := Proc.devRef .tc main_arg5) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg6 : StableHlo.after ops4 V (Proc.devRef .tc main_arg6) = V (Proc.devRef .tc main_arg6) :=
  StableHlo.after_of_forall_not_mem (b := Proc.devRef .tc main_arg6) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg7 : StableHlo.after ops4 V (Proc.devRef .tc main_arg7) = V (Proc.devRef .tc main_arg7) :=
  StableHlo.after_of_forall_not_mem (b := Proc.devRef .tc main_arg7) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg8 : StableHlo.after ops4 V (Proc.devRef .tc main_arg8) = V (Proc.devRef .tc main_arg8) :=
  StableHlo.after_of_forall_not_mem (b := Proc.devRef .tc main_arg8) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg9 : StableHlo.after ops4 V (Proc.devRef .tc main_arg9) = V (Proc.devRef .tc main_arg9) :=
  StableHlo.after_of_forall_not_mem (b := Proc.devRef .tc main_arg9) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg10 : StableHlo.after ops4 V (Proc.devRef .tc main_arg10) = V (Proc.devRef .tc main_arg10) :=
  StableHlo.after_of_forall_not_mem (b := Proc.devRef .tc main_arg10) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg11 : StableHlo.after ops4 V (Proc.devRef .tc main_arg11) = V (Proc.devRef .tc main_arg11) :=
  StableHlo.after_of_forall_not_mem (b := Proc.devRef .tc main_arg11) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg12 : StableHlo.after ops4 V (Proc.devRef .tc main_arg12) = V (Proc.devRef .tc main_arg12) :=
  StableHlo.after_of_forall_not_mem (b := Proc.devRef .tc main_arg12) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg13 : StableHlo.after ops4 V (Proc.devRef .tc main_arg13) = V (Proc.devRef .tc main_arg13) :=
  StableHlo.after_of_forall_not_mem (b := Proc.devRef .tc main_arg13) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg14 : StableHlo.after ops4 V (Proc.devRef .tc main_arg14) = V (Proc.devRef .tc main_arg14) :=
  StableHlo.after_of_forall_not_mem (b := Proc.devRef .tc main_arg14) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg15 : StableHlo.after ops4 V (Proc.devRef .tc main_arg15) = V (Proc.devRef .tc main_arg15) :=
  StableHlo.after_of_forall_not_mem (b := Proc.devRef .tc main_arg15) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg16 : StableHlo.after ops4 V (Proc.devRef .tc main_arg16) = V (Proc.devRef .tc main_arg16) :=
  StableHlo.after_of_forall_not_mem (b := Proc.devRef .tc main_arg16) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg17 : StableHlo.after ops4 V (Proc.devRef .tc main_arg17) = V (Proc.devRef .tc main_arg17) :=
  StableHlo.after_of_forall_not_mem (b := Proc.devRef .tc main_arg17) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg18 : StableHlo.after ops4 V (Proc.devRef .tc main_arg18) = V (Proc.devRef .tc main_arg18) :=
  StableHlo.after_of_forall_not_mem (b := Proc.devRef .tc main_arg18) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg19 : StableHlo.after ops4 V (Proc.devRef .tc main_arg19) = V (Proc.devRef .tc main_arg19) :=
  StableHlo.after_of_forall_not_mem (b := Proc.devRef .tc main_arg19) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept4_arg20 : StableHlo.after ops4 V (Proc.devRef .tc main_arg20) = V (Proc.devRef .tc main_arg20) :=
  StableHlo.after_of_forall_not_mem (b := Proc.devRef .tc main_arg20) _ _ (List.forall_iff_forall_mem.mp (by
    simp only [ops4, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem kept5_arg0 : StableHlo.after ops5 V (Proc.devRef .tc main_arg0) = V (Proc.devRef .tc main_arg0) :=
  StableHlo.after_of_forall_not_mem (b := Proc.devRef .tc main_arg0) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg1 : StableHlo.after ops5 V (Proc.devRef .tc main_arg1) = V (Proc.devRef .tc main_arg1) :=
  StableHlo.after_of_forall_not_mem (b := Proc.devRef .tc main_arg1) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg2 : StableHlo.after ops5 V (Proc.devRef .tc main_arg2) = V (Proc.devRef .tc main_arg2) :=
  StableHlo.after_of_forall_not_mem (b := Proc.devRef .tc main_arg2) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg3 : StableHlo.after ops5 V (Proc.devRef .tc main_arg3) = V (Proc.devRef .tc main_arg3) :=
  StableHlo.after_of_forall_not_mem (b := Proc.devRef .tc main_arg3) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg4 : StableHlo.after ops5 V (Proc.devRef .tc main_arg4) = V (Proc.devRef .tc main_arg4) :=
  StableHlo.after_of_forall_not_mem (b := Proc.devRef .tc main_arg4) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg5 : StableHlo.after ops5 V (Proc.devRef .tc main_arg5) = V (Proc.devRef .tc main_arg5) :=
  StableHlo.after_of_forall_not_mem (b := Proc.devRef .tc main_arg5) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg6 : StableHlo.after ops5 V (Proc.devRef .tc main_arg6) = V (Proc.devRef .tc main_arg6) :=
  StableHlo.after_of_forall_not_mem (b := Proc.devRef .tc main_arg6) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg7 : StableHlo.after ops5 V (Proc.devRef .tc main_arg7) = V (Proc.devRef .tc main_arg7) :=
  StableHlo.after_of_forall_not_mem (b := Proc.devRef .tc main_arg7) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg8 : StableHlo.after ops5 V (Proc.devRef .tc main_arg8) = V (Proc.devRef .tc main_arg8) :=
  StableHlo.after_of_forall_not_mem (b := Proc.devRef .tc main_arg8) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg9 : StableHlo.after ops5 V (Proc.devRef .tc main_arg9) = V (Proc.devRef .tc main_arg9) :=
  StableHlo.after_of_forall_not_mem (b := Proc.devRef .tc main_arg9) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg10 : StableHlo.after ops5 V (Proc.devRef .tc main_arg10) = V (Proc.devRef .tc main_arg10) :=
  StableHlo.after_of_forall_not_mem (b := Proc.devRef .tc main_arg10) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg11 : StableHlo.after ops5 V (Proc.devRef .tc main_arg11) = V (Proc.devRef .tc main_arg11) :=
  StableHlo.after_of_forall_not_mem (b := Proc.devRef .tc main_arg11) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg12 : StableHlo.after ops5 V (Proc.devRef .tc main_arg12) = V (Proc.devRef .tc main_arg12) :=
  StableHlo.after_of_forall_not_mem (b := Proc.devRef .tc main_arg12) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg13 : StableHlo.after ops5 V (Proc.devRef .tc main_arg13) = V (Proc.devRef .tc main_arg13) :=
  StableHlo.after_of_forall_not_mem (b := Proc.devRef .tc main_arg13) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg14 : StableHlo.after ops5 V (Proc.devRef .tc main_arg14) = V (Proc.devRef .tc main_arg14) :=
  StableHlo.after_of_forall_not_mem (b := Proc.devRef .tc main_arg14) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg15 : StableHlo.after ops5 V (Proc.devRef .tc main_arg15) = V (Proc.devRef .tc main_arg15) :=
  StableHlo.after_of_forall_not_mem (b := Proc.devRef .tc main_arg15) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg16 : StableHlo.after ops5 V (Proc.devRef .tc main_arg16) = V (Proc.devRef .tc main_arg16) :=
  StableHlo.after_of_forall_not_mem (b := Proc.devRef .tc main_arg16) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg17 : StableHlo.after ops5 V (Proc.devRef .tc main_arg17) = V (Proc.devRef .tc main_arg17) :=
  StableHlo.after_of_forall_not_mem (b := Proc.devRef .tc main_arg17) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg18 : StableHlo.after ops5 V (Proc.devRef .tc main_arg18) = V (Proc.devRef .tc main_arg18) :=
  StableHlo.after_of_forall_not_mem (b := Proc.devRef .tc main_arg18) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg19 : StableHlo.after ops5 V (Proc.devRef .tc main_arg19) = V (Proc.devRef .tc main_arg19) :=
  StableHlo.after_of_forall_not_mem (b := Proc.devRef .tc main_arg19) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept5_arg20 : StableHlo.after ops5 V (Proc.devRef .tc main_arg20) = V (Proc.devRef .tc main_arg20) :=
  StableHlo.after_of_forall_not_mem (b := Proc.devRef .tc main_arg20) _ _ (List.forall_iff_forall_mem.mp (by
    simp only [ops5, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem kept6_arg0 : StableHlo.after ops6 V (Proc.devRef .tc main_arg0) = V (Proc.devRef .tc main_arg0) :=
  StableHlo.after_of_forall_not_mem (b := Proc.devRef .tc main_arg0) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg1 : StableHlo.after ops6 V (Proc.devRef .tc main_arg1) = V (Proc.devRef .tc main_arg1) :=
  StableHlo.after_of_forall_not_mem (b := Proc.devRef .tc main_arg1) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg2 : StableHlo.after ops6 V (Proc.devRef .tc main_arg2) = V (Proc.devRef .tc main_arg2) :=
  StableHlo.after_of_forall_not_mem (b := Proc.devRef .tc main_arg2) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg3 : StableHlo.after ops6 V (Proc.devRef .tc main_arg3) = V (Proc.devRef .tc main_arg3) :=
  StableHlo.after_of_forall_not_mem (b := Proc.devRef .tc main_arg3) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg4 : StableHlo.after ops6 V (Proc.devRef .tc main_arg4) = V (Proc.devRef .tc main_arg4) :=
  StableHlo.after_of_forall_not_mem (b := Proc.devRef .tc main_arg4) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg5 : StableHlo.after ops6 V (Proc.devRef .tc main_arg5) = V (Proc.devRef .tc main_arg5) :=
  StableHlo.after_of_forall_not_mem (b := Proc.devRef .tc main_arg5) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg6 : StableHlo.after ops6 V (Proc.devRef .tc main_arg6) = V (Proc.devRef .tc main_arg6) :=
  StableHlo.after_of_forall_not_mem (b := Proc.devRef .tc main_arg6) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg7 : StableHlo.after ops6 V (Proc.devRef .tc main_arg7) = V (Proc.devRef .tc main_arg7) :=
  StableHlo.after_of_forall_not_mem (b := Proc.devRef .tc main_arg7) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg8 : StableHlo.after ops6 V (Proc.devRef .tc main_arg8) = V (Proc.devRef .tc main_arg8) :=
  StableHlo.after_of_forall_not_mem (b := Proc.devRef .tc main_arg8) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg9 : StableHlo.after ops6 V (Proc.devRef .tc main_arg9) = V (Proc.devRef .tc main_arg9) :=
  StableHlo.after_of_forall_not_mem (b := Proc.devRef .tc main_arg9) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg10 : StableHlo.after ops6 V (Proc.devRef .tc main_arg10) = V (Proc.devRef .tc main_arg10) :=
  StableHlo.after_of_forall_not_mem (b := Proc.devRef .tc main_arg10) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg11 : StableHlo.after ops6 V (Proc.devRef .tc main_arg11) = V (Proc.devRef .tc main_arg11) :=
  StableHlo.after_of_forall_not_mem (b := Proc.devRef .tc main_arg11) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg12 : StableHlo.after ops6 V (Proc.devRef .tc main_arg12) = V (Proc.devRef .tc main_arg12) :=
  StableHlo.after_of_forall_not_mem (b := Proc.devRef .tc main_arg12) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg13 : StableHlo.after ops6 V (Proc.devRef .tc main_arg13) = V (Proc.devRef .tc main_arg13) :=
  StableHlo.after_of_forall_not_mem (b := Proc.devRef .tc main_arg13) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg14 : StableHlo.after ops6 V (Proc.devRef .tc main_arg14) = V (Proc.devRef .tc main_arg14) :=
  StableHlo.after_of_forall_not_mem (b := Proc.devRef .tc main_arg14) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg15 : StableHlo.after ops6 V (Proc.devRef .tc main_arg15) = V (Proc.devRef .tc main_arg15) :=
  StableHlo.after_of_forall_not_mem (b := Proc.devRef .tc main_arg15) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg16 : StableHlo.after ops6 V (Proc.devRef .tc main_arg16) = V (Proc.devRef .tc main_arg16) :=
  StableHlo.after_of_forall_not_mem (b := Proc.devRef .tc main_arg16) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg17 : StableHlo.after ops6 V (Proc.devRef .tc main_arg17) = V (Proc.devRef .tc main_arg17) :=
  StableHlo.after_of_forall_not_mem (b := Proc.devRef .tc main_arg17) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg18 : StableHlo.after ops6 V (Proc.devRef .tc main_arg18) = V (Proc.devRef .tc main_arg18) :=
  StableHlo.after_of_forall_not_mem (b := Proc.devRef .tc main_arg18) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg19 : StableHlo.after ops6 V (Proc.devRef .tc main_arg19) = V (Proc.devRef .tc main_arg19) :=
  StableHlo.after_of_forall_not_mem (b := Proc.devRef .tc main_arg19) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept6_arg20 : StableHlo.after ops6 V (Proc.devRef .tc main_arg20) = V (Proc.devRef .tc main_arg20) :=
  StableHlo.after_of_forall_not_mem (b := Proc.devRef .tc main_arg20) _ _ (List.forall_iff_forall_mem.mp (by
    simp only [ops6, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.ReferenceIdeal.Kept

end
-- ==== Proof.RefKeptC.lean ====
/-
  No operation of the reference writes one of @main's argument arrays: pieces 7 to 9 of the operation list, argument by argument.
-/
import proofs.«420551_j59150289601188_1_alg».proof.Proof.RefOps

noncomputable section

namespace Cert.ReferenceIdeal.Kept

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F] (V : Valuation τ sig (Elt F))

set_option maxHeartbeats 4000000 in
theorem kept7_arg0 : StableHlo.after ops7 V (Proc.devRef .tc main_arg0) = V (Proc.devRef .tc main_arg0) :=
  StableHlo.after_of_forall_not_mem (b := Proc.devRef .tc main_arg0) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg1 : StableHlo.after ops7 V (Proc.devRef .tc main_arg1) = V (Proc.devRef .tc main_arg1) :=
  StableHlo.after_of_forall_not_mem (b := Proc.devRef .tc main_arg1) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg2 : StableHlo.after ops7 V (Proc.devRef .tc main_arg2) = V (Proc.devRef .tc main_arg2) :=
  StableHlo.after_of_forall_not_mem (b := Proc.devRef .tc main_arg2) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg3 : StableHlo.after ops7 V (Proc.devRef .tc main_arg3) = V (Proc.devRef .tc main_arg3) :=
  StableHlo.after_of_forall_not_mem (b := Proc.devRef .tc main_arg3) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg4 : StableHlo.after ops7 V (Proc.devRef .tc main_arg4) = V (Proc.devRef .tc main_arg4) :=
  StableHlo.after_of_forall_not_mem (b := Proc.devRef .tc main_arg4) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg5 : StableHlo.after ops7 V (Proc.devRef .tc main_arg5) = V (Proc.devRef .tc main_arg5) :=
  StableHlo.after_of_forall_not_mem (b := Proc.devRef .tc main_arg5) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg6 : StableHlo.after ops7 V (Proc.devRef .tc main_arg6) = V (Proc.devRef .tc main_arg6) :=
  StableHlo.after_of_forall_not_mem (b := Proc.devRef .tc main_arg6) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg7 : StableHlo.after ops7 V (Proc.devRef .tc main_arg7) = V (Proc.devRef .tc main_arg7) :=
  StableHlo.after_of_forall_not_mem (b := Proc.devRef .tc main_arg7) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg8 : StableHlo.after ops7 V (Proc.devRef .tc main_arg8) = V (Proc.devRef .tc main_arg8) :=
  StableHlo.after_of_forall_not_mem (b := Proc.devRef .tc main_arg8) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg9 : StableHlo.after ops7 V (Proc.devRef .tc main_arg9) = V (Proc.devRef .tc main_arg9) :=
  StableHlo.after_of_forall_not_mem (b := Proc.devRef .tc main_arg9) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg10 : StableHlo.after ops7 V (Proc.devRef .tc main_arg10) = V (Proc.devRef .tc main_arg10) :=
  StableHlo.after_of_forall_not_mem (b := Proc.devRef .tc main_arg10) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg11 : StableHlo.after ops7 V (Proc.devRef .tc main_arg11) = V (Proc.devRef .tc main_arg11) :=
  StableHlo.after_of_forall_not_mem (b := Proc.devRef .tc main_arg11) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg12 : StableHlo.after ops7 V (Proc.devRef .tc main_arg12) = V (Proc.devRef .tc main_arg12) :=
  StableHlo.after_of_forall_not_mem (b := Proc.devRef .tc main_arg12) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg13 : StableHlo.after ops7 V (Proc.devRef .tc main_arg13) = V (Proc.devRef .tc main_arg13) :=
  StableHlo.after_of_forall_not_mem (b := Proc.devRef .tc main_arg13) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg14 : StableHlo.after ops7 V (Proc.devRef .tc main_arg14) = V (Proc.devRef .tc main_arg14) :=
  StableHlo.after_of_forall_not_mem (b := Proc.devRef .tc main_arg14) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg15 : StableHlo.after ops7 V (Proc.devRef .tc main_arg15) = V (Proc.devRef .tc main_arg15) :=
  StableHlo.after_of_forall_not_mem (b := Proc.devRef .tc main_arg15) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg16 : StableHlo.after ops7 V (Proc.devRef .tc main_arg16) = V (Proc.devRef .tc main_arg16) :=
  StableHlo.after_of_forall_not_mem (b := Proc.devRef .tc main_arg16) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg17 : StableHlo.after ops7 V (Proc.devRef .tc main_arg17) = V (Proc.devRef .tc main_arg17) :=
  StableHlo.after_of_forall_not_mem (b := Proc.devRef .tc main_arg17) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg18 : StableHlo.after ops7 V (Proc.devRef .tc main_arg18) = V (Proc.devRef .tc main_arg18) :=
  StableHlo.after_of_forall_not_mem (b := Proc.devRef .tc main_arg18) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg19 : StableHlo.after ops7 V (Proc.devRef .tc main_arg19) = V (Proc.devRef .tc main_arg19) :=
  StableHlo.after_of_forall_not_mem (b := Proc.devRef .tc main_arg19) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept7_arg20 : StableHlo.after ops7 V (Proc.devRef .tc main_arg20) = V (Proc.devRef .tc main_arg20) :=
  StableHlo.after_of_forall_not_mem (b := Proc.devRef .tc main_arg20) _ _ (List.forall_iff_forall_mem.mp (by
    simp only [ops7, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem kept8_arg0 : StableHlo.after ops8 V (Proc.devRef .tc main_arg0) = V (Proc.devRef .tc main_arg0) :=
  StableHlo.after_of_forall_not_mem (b := Proc.devRef .tc main_arg0) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg1 : StableHlo.after ops8 V (Proc.devRef .tc main_arg1) = V (Proc.devRef .tc main_arg1) :=
  StableHlo.after_of_forall_not_mem (b := Proc.devRef .tc main_arg1) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg2 : StableHlo.after ops8 V (Proc.devRef .tc main_arg2) = V (Proc.devRef .tc main_arg2) :=
  StableHlo.after_of_forall_not_mem (b := Proc.devRef .tc main_arg2) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg3 : StableHlo.after ops8 V (Proc.devRef .tc main_arg3) = V (Proc.devRef .tc main_arg3) :=
  StableHlo.after_of_forall_not_mem (b := Proc.devRef .tc main_arg3) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg4 : StableHlo.after ops8 V (Proc.devRef .tc main_arg4) = V (Proc.devRef .tc main_arg4) :=
  StableHlo.after_of_forall_not_mem (b := Proc.devRef .tc main_arg4) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg5 : StableHlo.after ops8 V (Proc.devRef .tc main_arg5) = V (Proc.devRef .tc main_arg5) :=
  StableHlo.after_of_forall_not_mem (b := Proc.devRef .tc main_arg5) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg6 : StableHlo.after ops8 V (Proc.devRef .tc main_arg6) = V (Proc.devRef .tc main_arg6) :=
  StableHlo.after_of_forall_not_mem (b := Proc.devRef .tc main_arg6) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg7 : StableHlo.after ops8 V (Proc.devRef .tc main_arg7) = V (Proc.devRef .tc main_arg7) :=
  StableHlo.after_of_forall_not_mem (b := Proc.devRef .tc main_arg7) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg8 : StableHlo.after ops8 V (Proc.devRef .tc main_arg8) = V (Proc.devRef .tc main_arg8) :=
  StableHlo.after_of_forall_not_mem (b := Proc.devRef .tc main_arg8) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg9 : StableHlo.after ops8 V (Proc.devRef .tc main_arg9) = V (Proc.devRef .tc main_arg9) :=
  StableHlo.after_of_forall_not_mem (b := Proc.devRef .tc main_arg9) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg10 : StableHlo.after ops8 V (Proc.devRef .tc main_arg10) = V (Proc.devRef .tc main_arg10) :=
  StableHlo.after_of_forall_not_mem (b := Proc.devRef .tc main_arg10) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg11 : StableHlo.after ops8 V (Proc.devRef .tc main_arg11) = V (Proc.devRef .tc main_arg11) :=
  StableHlo.after_of_forall_not_mem (b := Proc.devRef .tc main_arg11) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg12 : StableHlo.after ops8 V (Proc.devRef .tc main_arg12) = V (Proc.devRef .tc main_arg12) :=
  StableHlo.after_of_forall_not_mem (b := Proc.devRef .tc main_arg12) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg13 : StableHlo.after ops8 V (Proc.devRef .tc main_arg13) = V (Proc.devRef .tc main_arg13) :=
  StableHlo.after_of_forall_not_mem (b := Proc.devRef .tc main_arg13) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg14 : StableHlo.after ops8 V (Proc.devRef .tc main_arg14) = V (Proc.devRef .tc main_arg14) :=
  StableHlo.after_of_forall_not_mem (b := Proc.devRef .tc main_arg14) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg15 : StableHlo.after ops8 V (Proc.devRef .tc main_arg15) = V (Proc.devRef .tc main_arg15) :=
  StableHlo.after_of_forall_not_mem (b := Proc.devRef .tc main_arg15) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg16 : StableHlo.after ops8 V (Proc.devRef .tc main_arg16) = V (Proc.devRef .tc main_arg16) :=
  StableHlo.after_of_forall_not_mem (b := Proc.devRef .tc main_arg16) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg17 : StableHlo.after ops8 V (Proc.devRef .tc main_arg17) = V (Proc.devRef .tc main_arg17) :=
  StableHlo.after_of_forall_not_mem (b := Proc.devRef .tc main_arg17) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg18 : StableHlo.after ops8 V (Proc.devRef .tc main_arg18) = V (Proc.devRef .tc main_arg18) :=
  StableHlo.after_of_forall_not_mem (b := Proc.devRef .tc main_arg18) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg19 : StableHlo.after ops8 V (Proc.devRef .tc main_arg19) = V (Proc.devRef .tc main_arg19) :=
  StableHlo.after_of_forall_not_mem (b := Proc.devRef .tc main_arg19) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept8_arg20 : StableHlo.after ops8 V (Proc.devRef .tc main_arg20) = V (Proc.devRef .tc main_arg20) :=
  StableHlo.after_of_forall_not_mem (b := Proc.devRef .tc main_arg20) _ _ (List.forall_iff_forall_mem.mp (by
    simp only [ops8, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 4000000 in
theorem kept9_arg0 : StableHlo.after ops9 V (Proc.devRef .tc main_arg0) = V (Proc.devRef .tc main_arg0) :=
  StableHlo.after_of_forall_not_mem (b := Proc.devRef .tc main_arg0) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg1 : StableHlo.after ops9 V (Proc.devRef .tc main_arg1) = V (Proc.devRef .tc main_arg1) :=
  StableHlo.after_of_forall_not_mem (b := Proc.devRef .tc main_arg1) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg2 : StableHlo.after ops9 V (Proc.devRef .tc main_arg2) = V (Proc.devRef .tc main_arg2) :=
  StableHlo.after_of_forall_not_mem (b := Proc.devRef .tc main_arg2) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg3 : StableHlo.after ops9 V (Proc.devRef .tc main_arg3) = V (Proc.devRef .tc main_arg3) :=
  StableHlo.after_of_forall_not_mem (b := Proc.devRef .tc main_arg3) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg4 : StableHlo.after ops9 V (Proc.devRef .tc main_arg4) = V (Proc.devRef .tc main_arg4) :=
  StableHlo.after_of_forall_not_mem (b := Proc.devRef .tc main_arg4) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg5 : StableHlo.after ops9 V (Proc.devRef .tc main_arg5) = V (Proc.devRef .tc main_arg5) :=
  StableHlo.after_of_forall_not_mem (b := Proc.devRef .tc main_arg5) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg6 : StableHlo.after ops9 V (Proc.devRef .tc main_arg6) = V (Proc.devRef .tc main_arg6) :=
  StableHlo.after_of_forall_not_mem (b := Proc.devRef .tc main_arg6) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg7 : StableHlo.after ops9 V (Proc.devRef .tc main_arg7) = V (Proc.devRef .tc main_arg7) :=
  StableHlo.after_of_forall_not_mem (b := Proc.devRef .tc main_arg7) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg8 : StableHlo.after ops9 V (Proc.devRef .tc main_arg8) = V (Proc.devRef .tc main_arg8) :=
  StableHlo.after_of_forall_not_mem (b := Proc.devRef .tc main_arg8) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg9 : StableHlo.after ops9 V (Proc.devRef .tc main_arg9) = V (Proc.devRef .tc main_arg9) :=
  StableHlo.after_of_forall_not_mem (b := Proc.devRef .tc main_arg9) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg10 : StableHlo.after ops9 V (Proc.devRef .tc main_arg10) = V (Proc.devRef .tc main_arg10) :=
  StableHlo.after_of_forall_not_mem (b := Proc.devRef .tc main_arg10) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg11 : StableHlo.after ops9 V (Proc.devRef .tc main_arg11) = V (Proc.devRef .tc main_arg11) :=
  StableHlo.after_of_forall_not_mem (b := Proc.devRef .tc main_arg11) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg12 : StableHlo.after ops9 V (Proc.devRef .tc main_arg12) = V (Proc.devRef .tc main_arg12) :=
  StableHlo.after_of_forall_not_mem (b := Proc.devRef .tc main_arg12) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg13 : StableHlo.after ops9 V (Proc.devRef .tc main_arg13) = V (Proc.devRef .tc main_arg13) :=
  StableHlo.after_of_forall_not_mem (b := Proc.devRef .tc main_arg13) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg14 : StableHlo.after ops9 V (Proc.devRef .tc main_arg14) = V (Proc.devRef .tc main_arg14) :=
  StableHlo.after_of_forall_not_mem (b := Proc.devRef .tc main_arg14) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg15 : StableHlo.after ops9 V (Proc.devRef .tc main_arg15) = V (Proc.devRef .tc main_arg15) :=
  StableHlo.after_of_forall_not_mem (b := Proc.devRef .tc main_arg15) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg16 : StableHlo.after ops9 V (Proc.devRef .tc main_arg16) = V (Proc.devRef .tc main_arg16) :=
  StableHlo.after_of_forall_not_mem (b := Proc.devRef .tc main_arg16) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg17 : StableHlo.after ops9 V (Proc.devRef .tc main_arg17) = V (Proc.devRef .tc main_arg17) :=
  StableHlo.after_of_forall_not_mem (b := Proc.devRef .tc main_arg17) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg18 : StableHlo.after ops9 V (Proc.devRef .tc main_arg18) = V (Proc.devRef .tc main_arg18) :=
  StableHlo.after_of_forall_not_mem (b := Proc.devRef .tc main_arg18) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg19 : StableHlo.after ops9 V (Proc.devRef .tc main_arg19) = V (Proc.devRef .tc main_arg19) :=
  StableHlo.after_of_forall_not_mem (b := Proc.devRef .tc main_arg19) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
set_option maxHeartbeats 4000000 in
theorem kept9_arg20 : StableHlo.after ops9 V (Proc.devRef .tc main_arg20) = V (Proc.devRef .tc main_arg20) :=
  StableHlo.after_of_forall_not_mem (b := Proc.devRef .tc main_arg20) _ _ (List.forall_iff_forall_mem.mp (by
    simp only [ops9, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.ReferenceIdeal.Kept

end
-- ==== Proof.RefKept.lean ====
/-
  The whole operation list is its nine pieces run in order, and none of them writes an argument array: after all of
  @main's operations every argument's buffer holds what it held at the start.
-/
import proofs.«420551_j59150289601188_1_alg».proof.Proof.RefKeptA
import proofs.«420551_j59150289601188_1_alg».proof.Proof.RefKeptB
import proofs.«420551_j59150289601188_1_alg».proof.Proof.RefKeptC

noncomputable section

namespace Cert.ReferenceIdeal.Kept

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F] (V : Valuation τ sig (Elt F))

/-- Operations run one list after another are the lists' operations in order. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The whole list is the nine pieces in order. -/
theorem after_ops : StableHlo.after ops V = StableHlo.after ops9 (StableHlo.after ops8 (StableHlo.after ops7 (StableHlo.after ops6 (StableHlo.after ops5 (StableHlo.after ops4 (StableHlo.after ops3 (StableHlo.after ops2 (StableHlo.after ops1 V)))))))) := by
  simp only [ops, after_append]

theorem kept_arg0 : StableHlo.after ops V (Proc.devRef .tc main_arg0) = V (Proc.devRef .tc main_arg0) := by
  rw [after_ops, kept9_arg0, kept8_arg0, kept7_arg0, kept6_arg0, kept5_arg0, kept4_arg0, kept3_arg0, kept2_arg0, kept1_arg0]
theorem kept_arg1 : StableHlo.after ops V (Proc.devRef .tc main_arg1) = V (Proc.devRef .tc main_arg1) := by
  rw [after_ops, kept9_arg1, kept8_arg1, kept7_arg1, kept6_arg1, kept5_arg1, kept4_arg1, kept3_arg1, kept2_arg1, kept1_arg1]
theorem kept_arg2 : StableHlo.after ops V (Proc.devRef .tc main_arg2) = V (Proc.devRef .tc main_arg2) := by
  rw [after_ops, kept9_arg2, kept8_arg2, kept7_arg2, kept6_arg2, kept5_arg2, kept4_arg2, kept3_arg2, kept2_arg2, kept1_arg2]
theorem kept_arg3 : StableHlo.after ops V (Proc.devRef .tc main_arg3) = V (Proc.devRef .tc main_arg3) := by
  rw [after_ops, kept9_arg3, kept8_arg3, kept7_arg3, kept6_arg3, kept5_arg3, kept4_arg3, kept3_arg3, kept2_arg3, kept1_arg3]
theorem kept_arg4 : StableHlo.after ops V (Proc.devRef .tc main_arg4) = V (Proc.devRef .tc main_arg4) := by
  rw [after_ops, kept9_arg4, kept8_arg4, kept7_arg4, kept6_arg4, kept5_arg4, kept4_arg4, kept3_arg4, kept2_arg4, kept1_arg4]
theorem kept_arg5 : StableHlo.after ops V (Proc.devRef .tc main_arg5) = V (Proc.devRef .tc main_arg5) := by
  rw [after_ops, kept9_arg5, kept8_arg5, kept7_arg5, kept6_arg5, kept5_arg5, kept4_arg5, kept3_arg5, kept2_arg5, kept1_arg5]
theorem kept_arg6 : StableHlo.after ops V (Proc.devRef .tc main_arg6) = V (Proc.devRef .tc main_arg6) := by
  rw [after_ops, kept9_arg6, kept8_arg6, kept7_arg6, kept6_arg6, kept5_arg6, kept4_arg6, kept3_arg6, kept2_arg6, kept1_arg6]
theorem kept_arg7 : StableHlo.after ops V (Proc.devRef .tc main_arg7) = V (Proc.devRef .tc main_arg7) := by
  rw [after_ops, kept9_arg7, kept8_arg7, kept7_arg7, kept6_arg7, kept5_arg7, kept4_arg7, kept3_arg7, kept2_arg7, kept1_arg7]
theorem kept_arg8 : StableHlo.after ops V (Proc.devRef .tc main_arg8) = V (Proc.devRef .tc main_arg8) := by
  rw [after_ops, kept9_arg8, kept8_arg8, kept7_arg8, kept6_arg8, kept5_arg8, kept4_arg8, kept3_arg8, kept2_arg8, kept1_arg8]
theorem kept_arg9 : StableHlo.after ops V (Proc.devRef .tc main_arg9) = V (Proc.devRef .tc main_arg9) := by
  rw [after_ops, kept9_arg9, kept8_arg9, kept7_arg9, kept6_arg9, kept5_arg9, kept4_arg9, kept3_arg9, kept2_arg9, kept1_arg9]
theorem kept_arg10 : StableHlo.after ops V (Proc.devRef .tc main_arg10) = V (Proc.devRef .tc main_arg10) := by
  rw [after_ops, kept9_arg10, kept8_arg10, kept7_arg10, kept6_arg10, kept5_arg10, kept4_arg10, kept3_arg10, kept2_arg10, kept1_arg10]
theorem kept_arg11 : StableHlo.after ops V (Proc.devRef .tc main_arg11) = V (Proc.devRef .tc main_arg11) := by
  rw [after_ops, kept9_arg11, kept8_arg11, kept7_arg11, kept6_arg11, kept5_arg11, kept4_arg11, kept3_arg11, kept2_arg11, kept1_arg11]
theorem kept_arg12 : StableHlo.after ops V (Proc.devRef .tc main_arg12) = V (Proc.devRef .tc main_arg12) := by
  rw [after_ops, kept9_arg12, kept8_arg12, kept7_arg12, kept6_arg12, kept5_arg12, kept4_arg12, kept3_arg12, kept2_arg12, kept1_arg12]
theorem kept_arg13 : StableHlo.after ops V (Proc.devRef .tc main_arg13) = V (Proc.devRef .tc main_arg13) := by
  rw [after_ops, kept9_arg13, kept8_arg13, kept7_arg13, kept6_arg13, kept5_arg13, kept4_arg13, kept3_arg13, kept2_arg13, kept1_arg13]
theorem kept_arg14 : StableHlo.after ops V (Proc.devRef .tc main_arg14) = V (Proc.devRef .tc main_arg14) := by
  rw [after_ops, kept9_arg14, kept8_arg14, kept7_arg14, kept6_arg14, kept5_arg14, kept4_arg14, kept3_arg14, kept2_arg14, kept1_arg14]
theorem kept_arg15 : StableHlo.after ops V (Proc.devRef .tc main_arg15) = V (Proc.devRef .tc main_arg15) := by
  rw [after_ops, kept9_arg15, kept8_arg15, kept7_arg15, kept6_arg15, kept5_arg15, kept4_arg15, kept3_arg15, kept2_arg15, kept1_arg15]
theorem kept_arg16 : StableHlo.after ops V (Proc.devRef .tc main_arg16) = V (Proc.devRef .tc main_arg16) := by
  rw [after_ops, kept9_arg16, kept8_arg16, kept7_arg16, kept6_arg16, kept5_arg16, kept4_arg16, kept3_arg16, kept2_arg16, kept1_arg16]
theorem kept_arg17 : StableHlo.after ops V (Proc.devRef .tc main_arg17) = V (Proc.devRef .tc main_arg17) := by
  rw [after_ops, kept9_arg17, kept8_arg17, kept7_arg17, kept6_arg17, kept5_arg17, kept4_arg17, kept3_arg17, kept2_arg17, kept1_arg17]
theorem kept_arg18 : StableHlo.after ops V (Proc.devRef .tc main_arg18) = V (Proc.devRef .tc main_arg18) := by
  rw [after_ops, kept9_arg18, kept8_arg18, kept7_arg18, kept6_arg18, kept5_arg18, kept4_arg18, kept3_arg18, kept2_arg18, kept1_arg18]
theorem kept_arg19 : StableHlo.after ops V (Proc.devRef .tc main_arg19) = V (Proc.devRef .tc main_arg19) := by
  rw [after_ops, kept9_arg19, kept8_arg19, kept7_arg19, kept6_arg19, kept5_arg19, kept4_arg19, kept3_arg19, kept2_arg19, kept1_arg19]
theorem kept_arg20 : StableHlo.after ops V (Proc.devRef .tc main_arg20) = V (Proc.devRef .tc main_arg20) := by
  rw [after_ops, kept9_arg20, kept8_arg20, kept7_arg20, kept6_arg20, kept5_arg20, kept4_arg20, kept3_arg20, kept2_arg20, kept1_arg20]

end Cert.ReferenceIdeal.Kept

end
-- ==== Proof.RefStagesA.lean ====
/-
  The reference's buffers after each of the first five pieces of its operation list, from what they held before the
  piece: each piece's operations are exactly the definitions of the stage functions, applied to the previous stages.
-/
import proofs.«420551_j59150289601188_1_alg».proof.Proof.RefOps
import proofs.«420551_j59150289601188_1_alg».proof.Proof.RefRead

noncomputable section

namespace Cert.ReferenceIdeal.Stages

open Cert.ReferenceIdeal Cert.ReferenceIdeal.Gen Cert.ReferenceIdeal.Ops Cert.ReferenceIdeal.Read Idealize.ShloMosaic Idealize.ShloMosaic.TcCoe Idealize.SL.Sem Idealize.ShloMosaic.StableHlo

variable {F : FTy → Type} [FloatOps F] (V : Valuation τ sig (Elt F))

set_option maxHeartbeats 8000000 in
/-- After the first piece: the first product, the two index vectors with self-loops and the edge normalisation. -/
theorem s1 (x0 : (⟨S50000x128, .f32⟩ : BufTy).Contents (Elt F)) (x1 : (⟨S2x800000, .i32⟩ : BufTy).Contents (Elt F)) (x3 : (⟨S128, .f32⟩ : BufTy).Contents (Elt F)) (x4 : (⟨S128, .f32⟩ : BufTy).Contents (Elt F)) (x5 : (⟨S128x128, .f32⟩ : BufTy).Contents (Elt F))
    (h0 : V (Proc.devRef .tc main_arg0) = x0) (h1 : V (Proc.devRef .tc main_arg1) = x1) (h3 : V (Proc.devRef .tc main_arg3) = x3) (h4 : V (Proc.devRef .tc main_arg4) = x4) (h5 : V (Proc.devRef .tc main_arg5) = x5) :
    StableHlo.after ops1 V (Proc.devRef .tc main_v54) = val_main_v54 (F := F) x0 x3 x4 x5
      ∧ StableHlo.after ops1 V (Proc.devRef .tc main_v5) = val_main_v5 (F := F) x1 ∧ StableHlo.after ops1 V (Proc.devRef .tc main_v6) = val_main_v6 (F := F) x1 ∧ StableHlo.after ops1 V (Proc.devRef .tc main_v28) = val_main_v28 (F := F) x1 := by
  refine ⟨?_, ?_, ?_, ?_⟩
  · after_results_simp
    rw [h0, h3, h4, h5]
    rfl
  · after_results
    rw [h1]
    rfl
  · after_results
    rw [h1]
    rfl
  · after_results
    rw [h1]
    rfl

set_option maxHeartbeats 8000000 in
/-- After the second piece: the second product and the next layer's bias; the index vectors and the normalisation are kept. -/
theorem s2 (x0 : (⟨S50000x128, .f32⟩ : BufTy).Contents (Elt F)) (x1 : (⟨S2x800000, .i32⟩ : BufTy).Contents (Elt F)) (x3 : (⟨S128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x128x128, .f32⟩ : BufTy).Contents (Elt F)) (x8 : (⟨S3x128, .f32⟩ : BufTy).Contents (Elt F))
    (h54 : V (Proc.devRef .tc main_v54) = val_main_v54 (F := F) x0 x3 x4 x5) (h5 : V (Proc.devRef .tc main_v5) = val_main_v5 (F := F) x1) (h6 : V (Proc.devRef .tc main_v6) = val_main_v6 (F := F) x1) (h28 : V (Proc.devRef .tc main_v28) = val_main_v28 (F := F) x1)
    (ha6 : V (Proc.devRef .tc main_arg6) = x6) (ha7 : V (Proc.devRef .tc main_arg7) = x7) (ha8 : V (Proc.devRef .tc main_arg8) = x8) :
    StableHlo.after ops2 V (Proc.devRef .tc main_v76) = val_main_v76 (F := F) x0 x1 x3 x4 x5 x6 x7 ∧ StableHlo.after ops2 V (Proc.devRef .tc main_v75) = val_main_v75 (F := F) x8
      ∧ StableHlo.after ops2 V (Proc.devRef .tc main_v5) = V (Proc.devRef .tc main_v5) ∧ StableHlo.after ops2 V (Proc.devRef .tc main_v6) = V (Proc.devRef .tc main_v6) ∧ StableHlo.after ops2 V (Proc.devRef .tc main_v28) = V (Proc.devRef .tc main_v28) := by
  refine ⟨?_, ?_, ?_, ?_, ?_⟩
  · after_results_simp
    rw [h54, h5, h6, h28, ha6, ha7]
    rfl
  · after_results_simp
    rw [ha8]
    rfl
  · after_results_simp
  · after_results_simp
  · after_results_simp

set_option maxHeartbeats 8000000 in
/-- After the third piece: the third product and the next layer's bias. -/
theorem s3 (x0 : (⟨S50000x128, .f32⟩ : BufTy).Contents (Elt F)) (x1 : (⟨S2x800000, .i32⟩ : BufTy).Contents (Elt F)) (x3 : (⟨S128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x128x128, .f32⟩ : BufTy).Contents (Elt F)) (x8 : (⟨S3x128, .f32⟩ : BufTy).Contents (Elt F))
    (h76 : V (Proc.devRef .tc main_v76) = val_main_v76 (F := F) x0 x1 x3 x4 x5 x6 x7) (h75 : V (Proc.devRef .tc main_v75) = val_main_v75 (F := F) x8) (h5 : V (Proc.devRef .tc main_v5) = val_main_v5 (F := F) x1) (h6 : V (Proc.devRef .tc main_v6) = val_main_v6 (F := F) x1) (h28 : V (Proc.devRef .tc main_v28) = val_main_v28 (F := F) x1)
    (ha7 : V (Proc.devRef .tc main_arg7) = x7) (ha8 : V (Proc.devRef .tc main_arg8) = x8) :
    StableHlo.after ops3 V (Proc.devRef .tc main_v98) = val_main_v98 (F := F) x0 x1 x3 x4 x5 x6 x7 x8 ∧ StableHlo.after ops3 V (Proc.devRef .tc main_v97) = val_main_v97 (F := F) x8
      ∧ StableHlo.after ops3 V (Proc.devRef .tc main_v5) = V (Proc.devRef .tc main_v5) ∧ StableHlo.after ops3 V (Proc.devRef .tc main_v6) = V (Proc.devRef .tc main_v6) ∧ StableHlo.after ops3 V (Proc.devRef .tc main_v28) = V (Proc.devRef .tc main_v28) := by
  refine ⟨?_, ?_, ?_, ?_, ?_⟩
  · after_results_simp
    rw [h76, h5, h6, h28, h75, ha7]
    rfl
  · after_results_simp
    rw [ha8]
    rfl
  · after_results_simp
  · after_results_simp
  · after_results_simp

set_option maxHeartbeats 8000000 in
/-- After the fourth piece: the fourth product and the last bias. -/
theorem s4 (x0 : (⟨S50000x128, .f32⟩ : BufTy).Contents (Elt F)) (x1 : (⟨S2x800000, .i32⟩ : BufTy).Contents (Elt F)) (x3 : (⟨S128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x128x128, .f32⟩ : BufTy).Contents (Elt F)) (x8 : (⟨S3x128, .f32⟩ : BufTy).Contents (Elt F))
    (h98 : V (Proc.devRef .tc main_v98) = val_main_v98 (F := F) x0 x1 x3 x4 x5 x6 x7 x8) (h97 : V (Proc.devRef .tc main_v97) = val_main_v97 (F := F) x8) (h5 : V (Proc.devRef .tc main_v5) = val_main_v5 (F := F) x1) (h6 : V (Proc.devRef .tc main_v6) = val_main_v6 (F := F) x1) (h28 : V (Proc.devRef .tc main_v28) = val_main_v28 (F := F) x1)
    (ha7 : V (Proc.devRef .tc main_arg7) = x7) (ha8 : V (Proc.devRef .tc main_arg8) = x8) :
    StableHlo.after ops4 V (Proc.devRef .tc main_v120) = val_main_v120 (F := F) x0 x1 x3 x4 x5 x6 x7 x8 ∧ StableHlo.after ops4 V (Proc.devRef .tc main_v119) = val_main_v119 (F := F) x8
      ∧ StableHlo.after ops4 V (Proc.devRef .tc main_v5) = V (Proc.devRef .tc main_v5) ∧ StableHlo.after ops4 V (Proc.devRef .tc main_v6) = V (Proc.devRef .tc main_v6) ∧ StableHlo.after ops4 V (Proc.devRef .tc main_v28) = V (Proc.devRef .tc main_v28) := by
  refine ⟨?_, ?_, ?_, ?_, ?_⟩
  · after_results_simp
    rw [h98, h5, h6, h28, h97, ha7]
    rfl
  · after_results_simp
    rw [ha8]
    rfl
  · after_results_simp
  · after_results_simp
  · after_results_simp

set_option maxHeartbeats 8000000 in
/-- After the fifth piece: the last aggregation; the last bias is kept. -/
theorem s5 (x0 : (⟨S50000x128, .f32⟩ : BufTy).Contents (Elt F)) (x1 : (⟨S2x800000, .i32⟩ : BufTy).Contents (Elt F)) (x3 : (⟨S128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x128x128, .f32⟩ : BufTy).Contents (Elt F)) (x8 : (⟨S3x128, .f32⟩ : BufTy).Contents (Elt F))
    (h120 : V (Proc.devRef .tc main_v120) = val_main_v120 (F := F) x0 x1 x3 x4 x5 x6 x7 x8) (h5 : V (Proc.devRef .tc main_v5) = val_main_v5 (F := F) x1) (h6 : V (Proc.devRef .tc main_v6) = val_main_v6 (F := F) x1) (h28 : V (Proc.devRef .tc main_v28) = val_main_v28 (F := F) x1) :
    StableHlo.after ops5 V (Proc.devRef .tc main_v133) = val_main_v133 (F := F) x0 x1 x3 x4 x5 x6 x7 x8 ∧ StableHlo.after ops5 V (Proc.devRef .tc main_v119) = V (Proc.devRef .tc main_v119) := by
  refine ⟨?_, ?_⟩
  · after_results_simp
    rw [h120, h5, h6, h28]
    rfl
  · after_results_simp

end Cert.ReferenceIdeal.Stages

end
-- ==== Proof.RefStagesB.lean ====
/-
  The reference's buffers after each of the last four pieces of its operation list, from what they held before the
  piece: each piece's operations are exactly the definitions of the stage functions, applied to the previous stages.
-/
import proofs.«420551_j59150289601188_1_alg».proof.Proof.RefOps
import proofs.«420551_j59150289601188_1_alg».proof.Proof.RefRead

noncomputable section

namespace Cert.ReferenceIdeal.Stages

open Cert.ReferenceIdeal Cert.ReferenceIdeal.Gen Cert.ReferenceIdeal.Ops Cert.ReferenceIdeal.Read Idealize.ShloMosaic Idealize.ShloMosaic.TcCoe Idealize.SL.Sem Idealize.ShloMosaic.StableHlo

variable {F : FTy → Type} [FloatOps F] (V : Valuation τ sig (Elt F))

set_option maxHeartbeats 8000000 in
/-- After the sixth piece: the two attention-scaled arrays. -/
theorem s6 (x0 : (⟨S50000x128, .f32⟩ : BufTy).Contents (Elt F)) (x1 : (⟨S2x800000, .i32⟩ : BufTy).Contents (Elt F)) (x3 : (⟨S128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x128x128, .f32⟩ : BufTy).Contents (Elt F)) (x8 : (⟨S3x128, .f32⟩ : BufTy).Contents (Elt F)) (x11 : (⟨S128x2, .f32⟩ : BufTy).Contents (Elt F)) (x12 : (⟨S2, .f32⟩ : BufTy).Contents (Elt F))
    (h133 : V (Proc.devRef .tc main_v133) = val_main_v133 (F := F) x0 x1 x3 x4 x5 x6 x7 x8) (h119 : V (Proc.devRef .tc main_v119) = val_main_v119 (F := F) x8) (ha11 : V (Proc.devRef .tc main_arg11) = x11) (ha12 : V (Proc.devRef .tc main_arg12) = x12) :
    StableHlo.after ops6 V (Proc.devRef .tc main_v185) = val_main_v185 (F := F) x0 x1 x3 x4 x5 x6 x7 x8 x11 x12 ∧ StableHlo.after ops6 V (Proc.devRef .tc main_v188) = val_main_v188 (F := F) x0 x1 x3 x4 x5 x6 x7 x8 x11 x12 := by
  refine ⟨?_, ?_⟩
  · after_results_simp
    rw [h133, h119, ha11, ha12]
    rfl
  · after_results_simp
    rw [h133, h119, ha11, ha12]
    rfl

set_option maxHeartbeats 8000000 in
/-- After the seventh piece: the two pooled means. -/
theorem s7 (x0 : (⟨S50000x128, .f32⟩ : BufTy).Contents (Elt F)) (x1 : (⟨S2x800000, .i32⟩ : BufTy).Contents (Elt F)) (x2 : (⟨S50000, .i32⟩ : BufTy).Contents (Elt F)) (x3 : (⟨S128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x128x128, .f32⟩ : BufTy).Contents (Elt F)) (x8 : (⟨S3x128, .f32⟩ : BufTy).Contents (Elt F)) (x11 : (⟨S128x2, .f32⟩ : BufTy).Contents (Elt F)) (x12 : (⟨S2, .f32⟩ : BufTy).Contents (Elt F))
    (h185 : V (Proc.devRef .tc main_v185) = val_main_v185 (F := F) x0 x1 x3 x4 x5 x6 x7 x8 x11 x12) (h188 : V (Proc.devRef .tc main_v188) = val_main_v188 (F := F) x0 x1 x3 x4 x5 x6 x7 x8 x11 x12) (ha2 : V (Proc.devRef .tc main_arg2) = x2) :
    StableHlo.after ops7 V (Proc.devRef .tc main_v200) = val_main_v200 (F := F) x0 x1 x2 x3 x4 x5 x6 x7 x8 x11 x12 ∧ StableHlo.after ops7 V (Proc.devRef .tc main_v206) = val_main_v206 (F := F) x0 x1 x2 x3 x4 x5 x6 x7 x8 x11 x12 := by
  refine ⟨?_, ?_⟩
  · after_results_simp
    rw [h185, ha2]
    rfl
  · after_results_simp
    rw [h188, ha2]
    rfl

set_option maxHeartbeats 8000000 in
/-- After the eighth piece: the first result; the second pooled mean is kept. -/
theorem s8 (x0 : (⟨S50000x128, .f32⟩ : BufTy).Contents (Elt F)) (x1 : (⟨S2x800000, .i32⟩ : BufTy).Contents (Elt F)) (x2 : (⟨S50000, .i32⟩ : BufTy).Contents (Elt F)) (x3 : (⟨S128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x128x128, .f32⟩ : BufTy).Contents (Elt F)) (x8 : (⟨S3x128, .f32⟩ : BufTy).Contents (Elt F)) (x11 : (⟨S128x2, .f32⟩ : BufTy).Contents (Elt F)) (x12 : (⟨S2, .f32⟩ : BufTy).Contents (Elt F)) (x13 : (⟨S128, .f32⟩ : BufTy).Contents (Elt F)) (x14 : (⟨S128, .f32⟩ : BufTy).Contents (Elt F)) (x15 : (⟨S128x10, .f32⟩ : BufTy).Contents (Elt F)) (x16 : (⟨S10, .f32⟩ : BufTy).Contents (Elt F))
    (h200 : V (Proc.devRef .tc main_v200) = val_main_v200 (F := F) x0 x1 x2 x3 x4 x5 x6 x7 x8 x11 x12) (ha13 : V (Proc.devRef .tc main_arg13) = x13) (ha14 : V (Proc.devRef .tc main_arg14) = x14) (ha15 : V (Proc.devRef .tc main_arg15) = x15) (ha16 : V (Proc.devRef .tc main_arg16) = x16) :
    StableHlo.after ops8 V (Proc.devRef .tc main_v235) = val_main_v235 (F := F) x0 x1 x2 x3 x4 x5 x6 x7 x8 x11 x12 x13 x14 x15 x16 ∧ StableHlo.after ops8 V (Proc.devRef .tc main_v206) = V (Proc.devRef .tc main_v206) := by
  refine ⟨?_, ?_⟩
  · after_results_simp
    rw [h200, ha13, ha14, ha15, ha16]
    rfl
  · after_results_simp

set_option maxHeartbeats 8000000 in
/-- After the ninth piece: the second result; the first is kept. -/
theorem s9 (x0 : (⟨S50000x128, .f32⟩ : BufTy).Contents (Elt F)) (x1 : (⟨S2x800000, .i32⟩ : BufTy).Contents (Elt F)) (x2 : (⟨S50000, .i32⟩ : BufTy).Contents (Elt F)) (x3 : (⟨S128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S3x128x128, .f32⟩ : BufTy).Contents (Elt F)) (x8 : (⟨S3x128, .f32⟩ : BufTy).Contents (Elt F)) (x11 : (⟨S128x2, .f32⟩ : BufTy).Contents (Elt F)) (x12 : (⟨S2, .f32⟩ : BufTy).Contents (Elt F)) (x17 : (⟨S128, .f32⟩ : BufTy).Contents (Elt F)) (x18 : (⟨S128, .f32⟩ : BufTy).Contents (Elt F)) (x19 : (⟨S128x10, .f32⟩ : BufTy).Contents (Elt F)) (x20 : (⟨S10, .f32⟩ : BufTy).Contents (Elt F))
    (h206 : V (Proc.devRef .tc main_v206) = val_main_v206 (F := F) x0 x1 x2 x3 x4 x5 x6 x7 x8 x11 x12) (ha17 : V (Proc.devRef .tc main_arg17) = x17) (ha18 : V (Proc.devRef .tc main_arg18) = x18) (ha19 : V (Proc.devRef .tc main_arg19) = x19) (ha20 : V (Proc.devRef .tc main_arg20) = x20) :
    StableHlo.after ops9 V (Proc.devRef .tc main_v264) = val_main_v264 (F := F) x0 x1 x2 x3 x4 x5 x6 x7 x8 x11 x12 x17 x18 x19 x20 ∧ StableHlo.after ops9 V (Proc.devRef .tc main_v235) = V (Proc.devRef .tc main_v235) := by
  refine ⟨?_, ?_⟩
  · after_results_simp
    rw [h206, ha17, ha18, ha19, ha20]
    rfl
  · after_results_simp

end Cert.ReferenceIdeal.Stages

end
-- ==== Proof.RefRunS.lean ====
/-
  The reference program runs, and its two result buffers end at its last stages of the launch contents.

  @main is its nine pieces of host operations run in order. From the launch contents, each piece leaves in the buffers it
  writes the next stage functions of the arguments, given that the buffers it reads hold the previous ones; no piece
  writes an argument. Chaining the nine steps gives the two results, and the library's run theorem for a straight line of
  host operations turns the fold of the operations over the launch contents into the final state of every execution.
-/
import proofs.«420551_j59150289601188_1_alg».proof.Proof.RefOps
import proofs.«420551_j59150289601188_1_alg».proof.Proof.RefKept
import proofs.«420551_j59150289601188_1_alg».proof.Proof.RefStagesA
import proofs.«420551_j59150289601188_1_alg».proof.Proof.RefStagesB

noncomputable section

namespace Cert.ReferenceIdeal.RunS

open Cert.ReferenceIdeal Cert.ReferenceIdeal.Gen Cert.ReferenceIdeal.Ops Cert.ReferenceIdeal.Kept Cert.ReferenceIdeal.Stages Cert.ReferenceIdeal.Read
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-- Core `c`'s buffer contents at the launch. -/
abbrev V0 : Valuation τ sig (Elt F) := launchContents m c
/-- … after the first 1 piece. -/
abbrev V1 : Valuation τ sig (Elt F) := StableHlo.after ops1 (V0 m c)
/-- … after the first 2 pieces. -/
abbrev V2 : Valuation τ sig (Elt F) := StableHlo.after ops2 (V1 m c)
/-- … after the first 3 pieces. -/
abbrev V3 : Valuation τ sig (Elt F) := StableHlo.after ops3 (V2 m c)
/-- … after the first 4 pieces. -/
abbrev V4 : Valuation τ sig (Elt F) := StableHlo.after ops4 (V3 m c)
/-- … after the first 5 pieces. -/
abbrev V5 : Valuation τ sig (Elt F) := StableHlo.after ops5 (V4 m c)
/-- … after the first 6 pieces. -/
abbrev V6 : Valuation τ sig (Elt F) := StableHlo.after ops6 (V5 m c)
/-- … after the first 7 pieces. -/
abbrev V7 : Valuation τ sig (Elt F) := StableHlo.after ops7 (V6 m c)
/-- … after the first 8 pieces. -/
abbrev V8 : Valuation τ sig (Elt F) := StableHlo.after ops8 (V7 m c)
/-- … after the first 9 pieces. -/
abbrev V9 : Valuation τ sig (Elt F) := StableHlo.after ops9 (V8 m c)

/-- After all of @main's operations the two result buffers hold the last stages of the launch contents of the arguments. -/
theorem results :
    StableHlo.after ops (V0 m c) (Proc.devRef .tc main_v235) = val_main_v235 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    ∧ StableHlo.after ops (V0 m c) (Proc.devRef .tc main_v264) = val_main_v264 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) := by
  rw [after_ops]
  obtain ⟨h54, h5, h6, h28⟩ := s1 (V0 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) rfl rfl rfl rfl rfl
  obtain ⟨h76, h75, k5, k6, k28⟩ := s2 (V1 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h54 h5 h6 h28 (kept1_arg6 (V0 m c)) (kept1_arg7 (V0 m c)) (kept1_arg8 (V0 m c))
  have h5₂ := k5.trans h5; have h6₂ := k6.trans h6; have h28₂ := k28.trans h28
  obtain ⟨h98, h97, k5, k6, k28⟩ := s3 (V2 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h76 h75 h5₂ h6₂ h28₂ ((kept2_arg7 (V1 m c)).trans (kept1_arg7 (V0 m c))) ((kept2_arg8 (V1 m c)).trans (kept1_arg8 (V0 m c)))
  have h5₃ := k5.trans h5₂; have h6₃ := k6.trans h6₂; have h28₃ := k28.trans h28₂
  obtain ⟨h120, h119, k5, k6, k28⟩ := s4 (V3 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h98 h97 h5₃ h6₃ h28₃ (((kept3_arg7 (V2 m c)).trans (kept2_arg7 (V1 m c))).trans (kept1_arg7 (V0 m c))) (((kept3_arg8 (V2 m c)).trans (kept2_arg8 (V1 m c))).trans (kept1_arg8 (V0 m c)))
  have h5₄ := k5.trans h5₃; have h6₄ := k6.trans h6₃; have h28₄ := k28.trans h28₃
  obtain ⟨h133, k119⟩ := s5 (V4 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h120 h5₄ h6₄ h28₄
  obtain ⟨h185, h188⟩ := s6 (V5 m c) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) h133 (k119.trans h119) (((((kept5_arg11 (V4 m c)).trans (kept4_arg11 (V3 m c))).trans (kept3_arg11 (V2 m c))).trans (kept2_arg11 (V1 m c))).trans (kept1_arg11 (V0 m c))) (((((kept5_arg12 (V4 m c)).trans (kept4_arg12 (V3 m c))).trans (kept3_arg12 (V2 m c))).trans (kept2_arg12 (V1 m c))).trans (kept1_arg12 (V0 m c)))
  obtain ⟨h200, h206⟩ := s7 (V6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) h185 h188 ((((((kept6_arg2 (V5 m c)).trans (kept5_arg2 (V4 m c))).trans (kept4_arg2 (V3 m c))).trans (kept3_arg2 (V2 m c))).trans (kept2_arg2 (V1 m c))).trans (kept1_arg2 (V0 m c)))
  obtain ⟨h235, k206⟩ := s8 (V7 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) h200 (((((((kept7_arg13 (V6 m c)).trans (kept6_arg13 (V5 m c))).trans (kept5_arg13 (V4 m c))).trans (kept4_arg13 (V3 m c))).trans (kept3_arg13 (V2 m c))).trans (kept2_arg13 (V1 m c))).trans (kept1_arg13 (V0 m c))) (((((((kept7_arg14 (V6 m c)).trans (kept6_arg14 (V5 m c))).trans (kept5_arg14 (V4 m c))).trans (kept4_arg14 (V3 m c))).trans (kept3_arg14 (V2 m c))).trans (kept2_arg14 (V1 m c))).trans (kept1_arg14 (V0 m c))) (((((((kept7_arg15 (V6 m c)).trans (kept6_arg15 (V5 m c))).trans (kept5_arg15 (V4 m c))).trans (kept4_arg15 (V3 m c))).trans (kept3_arg15 (V2 m c))).trans (kept2_arg15 (V1 m c))).trans (kept1_arg15 (V0 m c))) (((((((kept7_arg16 (V6 m c)).trans (kept6_arg16 (V5 m c))).trans (kept5_arg16 (V4 m c))).trans (kept4_arg16 (V3 m c))).trans (kept3_arg16 (V2 m c))).trans (kept2_arg16 (V1 m c))).trans (kept1_arg16 (V0 m c)))
  obtain ⟨h264, k235⟩ := s9 (V8 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20)) (k206.trans h206) ((((((((kept8_arg17 (V7 m c)).trans (kept7_arg17 (V6 m c))).trans (kept6_arg17 (V5 m c))).trans (kept5_arg17 (V4 m c))).trans (kept4_arg17 (V3 m c))).trans (kept3_arg17 (V2 m c))).trans (kept2_arg17 (V1 m c))).trans (kept1_arg17 (V0 m c))) ((((((((kept8_arg18 (V7 m c)).trans (kept7_arg18 (V6 m c))).trans (kept6_arg18 (V5 m c))).trans (kept5_arg18 (V4 m c))).trans (kept4_arg18 (V3 m c))).trans (kept3_arg18 (V2 m c))).trans (kept2_arg18 (V1 m c))).trans (kept1_arg18 (V0 m c))) ((((((((kept8_arg19 (V7 m c)).trans (kept7_arg19 (V6 m c))).trans (kept6_arg19 (V5 m c))).trans (kept5_arg19 (V4 m c))).trans (kept4_arg19 (V3 m c))).trans (kept3_arg19 (V2 m c))).trans (kept2_arg19 (V1 m c))).trans (kept1_arg19 (V0 m c))) ((((((((kept8_arg20 (V7 m c)).trans (kept7_arg20 (V6 m c))).trans (kept6_arg20 (V5 m c))).trans (kept5_arg20 (V4 m c))).trans (kept4_arg20 (V3 m c))).trans (kept3_arg20 (V2 m c))).trans (kept2_arg20 (V1 m c))).trans (kept1_arg20 (V0 m c)))
  exact ⟨k235.trans h235, h264⟩

/-- On every device, from any memory with zero counters: every weakly fair execution of @main terminates with each result
    at the reference's last stage of the launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v235) = val_main_v235 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v264) = val_main_v264 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c =>
    ⟨(h c main_v235).trans (results m c).1, (h c main_v264).trans (results m c).2,
     (h c main_arg0).trans (kept_arg0 (V0 m c)),
     (h c main_arg1).trans (kept_arg1 (V0 m c)),
     (h c main_arg2).trans (kept_arg2 (V0 m c)),
     (h c main_arg3).trans (kept_arg3 (V0 m c)),
     (h c main_arg4).trans (kept_arg4 (V0 m c)),
     (h c main_arg5).trans (kept_arg5 (V0 m c)),
     (h c main_arg6).trans (kept_arg6 (V0 m c)),
     (h c main_arg7).trans (kept_arg7 (V0 m c)),
     (h c main_arg8).trans (kept_arg8 (V0 m c)),
     (h c main_arg9).trans (kept_arg9 (V0 m c)),
     (h c main_arg10).trans (kept_arg10 (V0 m c)),
     (h c main_arg11).trans (kept_arg11 (V0 m c)),
     (h c main_arg12).trans (kept_arg12 (V0 m c)),
     (h c main_arg13).trans (kept_arg13 (V0 m c)),
     (h c main_arg14).trans (kept_arg14 (V0 m c)),
     (h c main_arg15).trans (kept_arg15 (V0 m c)),
     (h c main_arg16).trans (kept_arg16 (V0 m c)),
     (h c main_arg17).trans (kept_arg17 (V0 m c)),
     (h c main_arg18).trans (kept_arg18 (V0 m c)),
     (h c main_arg19).trans (kept_arg19 (V0 m c)),
     (h c main_arg20).trans (kept_arg20 (V0 m c))⟩)
    (run_after m ρ)

end Cert.ReferenceIdeal.RunS

end
-- ==== Proof.LayerDefs.lean ====
/-
  What the kernel program's buffers hold at each boundary between its host stretches and its six regions, stated
  against the reference program's own stages (each a function of the launch contents of @main's arguments): after
  region `k` the region's output array holds the reference's `k`-th matrix product (then the two attention-scaled
  arrays, then the two pooled arrays), and the three arrays the host computes once and reads in every layer, the
  edge list's two index vectors with self-loops and the edge normalisation, still hold the reference's.
-/
import proofs.«420551_j59150289601188_1_alg».proof.Proof.Gen.KernelIdeal.Frame
import proofs.«420551_j59150289601188_1_alg».proof.Proof.RefRead
import Idealize.ShloMosaic.PureOps.Ideal

noncomputable section

namespace Cert.KernelIdeal.Layer

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The launch contents of argument 0 on core `c`. -/
abbrev a0 : Buf (Elt Ideal) ((c.tc : Thread nD τ).loc main_arg0) := m ((c.tc : Thread nD τ).loc main_arg0)
/-- The launch contents of argument 1 on core `c`. -/
abbrev a1 : Buf (Elt Ideal) ((c.tc : Thread nD τ).loc main_arg1) := m ((c.tc : Thread nD τ).loc main_arg1)
/-- The launch contents of argument 2 on core `c`. -/
abbrev a2 : Buf (Elt Ideal) ((c.tc : Thread nD τ).loc main_arg2) := m ((c.tc : Thread nD τ).loc main_arg2)
/-- The launch contents of argument 3 on core `c`. -/
abbrev a3 : Buf (Elt Ideal) ((c.tc : Thread nD τ).loc main_arg3) := m ((c.tc : Thread nD τ).loc main_arg3)
/-- The launch contents of argument 4 on core `c`. -/
abbrev a4 : Buf (Elt Ideal) ((c.tc : Thread nD τ).loc main_arg4) := m ((c.tc : Thread nD τ).loc main_arg4)
/-- The launch contents of argument 5 on core `c`. -/
abbrev a5 : Buf (Elt Ideal) ((c.tc : Thread nD τ).loc main_arg5) := m ((c.tc : Thread nD τ).loc main_arg5)
/-- The launch contents of argument 6 on core `c`. -/
abbrev a6 : Buf (Elt Ideal) ((c.tc : Thread nD τ).loc main_arg6) := m ((c.tc : Thread nD τ).loc main_arg6)
/-- The launch contents of argument 7 on core `c`. -/
abbrev a7 : Buf (Elt Ideal) ((c.tc : Thread nD τ).loc main_arg7) := m ((c.tc : Thread nD τ).loc main_arg7)
/-- The launch contents of argument 8 on core `c`. -/
abbrev a8 : Buf (Elt Ideal) ((c.tc : Thread nD τ).loc main_arg8) := m ((c.tc : Thread nD τ).loc main_arg8)
/-- The launch contents of argument 11 on core `c`. -/
abbrev a11 : Buf (Elt Ideal) ((c.tc : Thread nD τ).loc main_arg11) := m ((c.tc : Thread nD τ).loc main_arg11)
/-- The launch contents of argument 12 on core `c`. -/
abbrev a12 : Buf (Elt Ideal) ((c.tc : Thread nD τ).loc main_arg12) := m ((c.tc : Thread nD τ).loc main_arg12)
/-- The launch contents of argument 13 on core `c`. -/
abbrev a13 : Buf (Elt Ideal) ((c.tc : Thread nD τ).loc main_arg13) := m ((c.tc : Thread nD τ).loc main_arg13)
/-- The launch contents of argument 14 on core `c`. -/
abbrev a14 : Buf (Elt Ideal) ((c.tc : Thread nD τ).loc main_arg14) := m ((c.tc : Thread nD τ).loc main_arg14)
/-- The launch contents of argument 15 on core `c`. -/
abbrev a15 : Buf (Elt Ideal) ((c.tc : Thread nD τ).loc main_arg15) := m ((c.tc : Thread nD τ).loc main_arg15)
/-- The launch contents of argument 16 on core `c`. -/
abbrev a16 : Buf (Elt Ideal) ((c.tc : Thread nD τ).loc main_arg16) := m ((c.tc : Thread nD τ).loc main_arg16)
/-- The launch contents of argument 17 on core `c`. -/
abbrev a17 : Buf (Elt Ideal) ((c.tc : Thread nD τ).loc main_arg17) := m ((c.tc : Thread nD τ).loc main_arg17)
/-- The launch contents of argument 18 on core `c`. -/
abbrev a18 : Buf (Elt Ideal) ((c.tc : Thread nD τ).loc main_arg18) := m ((c.tc : Thread nD τ).loc main_arg18)
/-- The launch contents of argument 19 on core `c`. -/
abbrev a19 : Buf (Elt Ideal) ((c.tc : Thread nD τ).loc main_arg19) := m ((c.tc : Thread nD τ).loc main_arg19)
/-- The launch contents of argument 20 on core `c`. -/
abbrev a20 : Buf (Elt Ideal) ((c.tc : Thread nD τ).loc main_arg20) := m ((c.tc : Thread nD τ).loc main_arg20)

/-- At region 0's exit. -/
structure At2 : Prop where
  v43 : W2 m ρ c (Proc.devRef .tc main_v43) = Cert.ReferenceIdeal.Read.val_main_v54 (F := Ideal) (a0 m c) (a3 m c) (a4 m c) (a5 m c)
  v5 : W2 m ρ c (Proc.devRef .tc main_v5) = Cert.ReferenceIdeal.Read.val_main_v5 (F := Ideal) (a1 m c)
  v6 : W2 m ρ c (Proc.devRef .tc main_v6) = Cert.ReferenceIdeal.Read.val_main_v6 (F := Ideal) (a1 m c)
  v28 : W2 m ρ c (Proc.devRef .tc main_v28) = Cert.ReferenceIdeal.Read.val_main_v28 (F := Ideal) (a1 m c)

/-- At region 1's exit. -/
structure At4 : Prop where
  v60 : W4 m ρ c (Proc.devRef .tc main_v60) = Cert.ReferenceIdeal.Read.val_main_v76 (F := Ideal) (a0 m c) (a1 m c) (a3 m c) (a4 m c) (a5 m c) (a6 m c) (a7 m c)
  v5 : W4 m ρ c (Proc.devRef .tc main_v5) = Cert.ReferenceIdeal.Read.val_main_v5 (F := Ideal) (a1 m c)
  v6 : W4 m ρ c (Proc.devRef .tc main_v6) = Cert.ReferenceIdeal.Read.val_main_v6 (F := Ideal) (a1 m c)
  v28 : W4 m ρ c (Proc.devRef .tc main_v28) = Cert.ReferenceIdeal.Read.val_main_v28 (F := Ideal) (a1 m c)

/-- At region 2's exit. -/
structure At6 : Prop where
  v79 : W6 m ρ c (Proc.devRef .tc main_v79) = Cert.ReferenceIdeal.Read.val_main_v98 (F := Ideal) (a0 m c) (a1 m c) (a3 m c) (a4 m c) (a5 m c) (a6 m c) (a7 m c) (a8 m c)
  v5 : W6 m ρ c (Proc.devRef .tc main_v5) = Cert.ReferenceIdeal.Read.val_main_v5 (F := Ideal) (a1 m c)
  v6 : W6 m ρ c (Proc.devRef .tc main_v6) = Cert.ReferenceIdeal.Read.val_main_v6 (F := Ideal) (a1 m c)
  v28 : W6 m ρ c (Proc.devRef .tc main_v28) = Cert.ReferenceIdeal.Read.val_main_v28 (F := Ideal) (a1 m c)

/-- At region 3's exit. -/
structure At8 : Prop where
  v98 : W8 m ρ c (Proc.devRef .tc main_v98) = Cert.ReferenceIdeal.Read.val_main_v120 (F := Ideal) (a0 m c) (a1 m c) (a3 m c) (a4 m c) (a5 m c) (a6 m c) (a7 m c) (a8 m c)
  v5 : W8 m ρ c (Proc.devRef .tc main_v5) = Cert.ReferenceIdeal.Read.val_main_v5 (F := Ideal) (a1 m c)
  v6 : W8 m ρ c (Proc.devRef .tc main_v6) = Cert.ReferenceIdeal.Read.val_main_v6 (F := Ideal) (a1 m c)
  v28 : W8 m ρ c (Proc.devRef .tc main_v28) = Cert.ReferenceIdeal.Read.val_main_v28 (F := Ideal) (a1 m c)

/-- At region 4's exit. -/
structure At10 : Prop where
  v116_0 : W10 m ρ c (Proc.devRef .tc main_v116_0) = Cert.ReferenceIdeal.Read.val_main_v185 (F := Ideal) (a0 m c) (a1 m c) (a3 m c) (a4 m c) (a5 m c) (a6 m c) (a7 m c) (a8 m c) (a11 m c) (a12 m c)
  v116_1 : W10 m ρ c (Proc.devRef .tc main_v116_1) = Cert.ReferenceIdeal.Read.val_main_v188 (F := Ideal) (a0 m c) (a1 m c) (a3 m c) (a4 m c) (a5 m c) (a6 m c) (a7 m c) (a8 m c) (a11 m c) (a12 m c)

/-- At region 5's exit. -/
structure At12 : Prop where
  v118_0 : W12 m ρ c (Proc.devRef .tc main_v118_0) = Cert.ReferenceIdeal.Read.val_main_v197 (F := Ideal) (a0 m c) (a1 m c) (a2 m c) (a3 m c) (a4 m c) (a5 m c) (a6 m c) (a7 m c) (a8 m c) (a11 m c) (a12 m c)
  v118_1 : W12 m ρ c (Proc.devRef .tc main_v118_1) = Cert.ReferenceIdeal.Read.val_main_v203 (F := Ideal) (a0 m c) (a1 m c) (a2 m c) (a3 m c) (a4 m c) (a5 m c) (a6 m c) (a7 m c) (a8 m c) (a11 m c) (a12 m c)

/-- At @main's return: the two results. -/
structure At13 : Prop where
  v159 : W13 m ρ c (Proc.devRef .tc main_v159) = Cert.ReferenceIdeal.Read.val_main_v235 (F := Ideal) (a0 m c) (a1 m c) (a2 m c) (a3 m c) (a4 m c) (a5 m c) (a6 m c) (a7 m c) (a8 m c) (a11 m c) (a12 m c) (a13 m c) (a14 m c) (a15 m c) (a16 m c)
  v188 : W13 m ρ c (Proc.devRef .tc main_v188) = Cert.ReferenceIdeal.Read.val_main_v264 (F := Ideal) (a0 m c) (a1 m c) (a2 m c) (a3 m c) (a4 m c) (a5 m c) (a6 m c) (a7 m c) (a8 m c) (a11 m c) (a12 m c) (a17 m c) (a18 m c) (a19 m c) (a20 m c)

end Cert.KernelIdeal.Layer

end
-- ==== Proof.KArgs.lean ====
/-
  An argument array is written by no host operation and by no region (a region reads it through an input window or
  leaves it alone), so at every segment boundary of @main its buffer still holds what it held at the launch.
-/
import proofs.«420551_j59150289601188_1_alg».proof.Proof.Gen.KernelIdeal.Frame

set_option maxRecDepth 16384

noncomputable section

namespace Cert.KernelIdeal.ArgsAt

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

set_option maxHeartbeats 1000000 in
/-- Argument 0's buffer at boundary 1 holds its launch contents. -/
theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

set_option maxHeartbeats 1000000 in
/-- Argument 5's buffer at boundary 1 holds its launch contents. -/
theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

set_option maxHeartbeats 1000000 in
/-- Argument 6's buffer at boundary 2 holds its launch contents. -/
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

set_option maxHeartbeats 1000000 in
/-- Argument 7's buffer at boundary 2 holds its launch contents. -/
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

set_option maxHeartbeats 1000000 in
/-- Argument 7's buffer at boundary 4 holds its launch contents. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

set_option maxHeartbeats 1000000 in
/-- Argument 8's buffer at boundary 4 holds its launch contents. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

set_option maxHeartbeats 1000000 in
/-- Argument 7's buffer at boundary 6 holds its launch contents. -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

set_option maxHeartbeats 1000000 in
/-- Argument 8's buffer at boundary 6 holds its launch contents. -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

set_option maxHeartbeats 1000000 in
/-- Argument 8's buffer at boundary 8 holds its launch contents. -/
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

set_option maxHeartbeats 1000000 in
/-- Argument 12's buffer at boundary 8 holds its launch contents. -/
theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

set_option maxHeartbeats 1000000 in
/-- Argument 11's buffer at boundary 9 holds its launch contents. -/
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

set_option maxHeartbeats 1000000 in
/-- Argument 2's buffer at boundary 10 holds its launch contents. -/
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

set_option maxHeartbeats 1000000 in
/-- Argument 2's buffer at boundary 12 holds its launch contents. -/
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

set_option maxHeartbeats 1000000 in
/-- Argument 13's buffer at boundary 12 holds its launch contents. -/
theorem W12_main_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

set_option maxHeartbeats 1000000 in
/-- Argument 14's buffer at boundary 12 holds its launch contents. -/
theorem W12_main_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

set_option maxHeartbeats 1000000 in
/-- Argument 15's buffer at boundary 12 holds its launch contents. -/
theorem W12_main_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

set_option maxHeartbeats 1000000 in
/-- Argument 16's buffer at boundary 12 holds its launch contents. -/
theorem W12_main_arg16 (c : Dev nD) : W12 m ρ c (Proc.devRef .tc main_arg16) = m ((c : Thread nD τ).loc main_arg16) :=
  calc W12 m ρ c (Proc.devRef .tc main_arg16)
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

set_option maxHeartbeats 1000000 in
/-- Argument 17's buffer at boundary 12 holds its launch contents. -/
theorem W12_main_arg17 (c : Dev nD) : W12 m ρ c (Proc.devRef .tc main_arg17) = m ((c : Thread nD τ).loc main_arg17) :=
  calc W12 m ρ c (Proc.devRef .tc main_arg17)
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

set_option maxHeartbeats 1000000 in
/-- Argument 18's buffer at boundary 12 holds its launch contents. -/
theorem W12_main_arg18 (c : Dev nD) : W12 m ρ c (Proc.devRef .tc main_arg18) = m ((c : Thread nD τ).loc main_arg18) :=
  calc W12 m ρ c (Proc.devRef .tc main_arg18)
    _ = W11 m ρ c (Proc.devRef .tc main_arg18) := W12_of_ne m ρ c main_arg18 (by decide)
    _ = W10 m ρ c (Proc.devRef .tc main_arg18) := StableHlo.after_of_forall_not_mem (b := Proc.devRef .tc main_arg18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg18) := W10_of_ne m ρ c main_arg18 (by decide)
    _ = W8 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

set_option maxHeartbeats 1000000 in
/-- Argument 19's buffer at boundary 12 holds its launch contents. -/
theorem W12_main_arg19 (c : Dev nD) : W12 m ρ c (Proc.devRef .tc main_arg19) = m ((c : Thread nD τ).loc main_arg19) :=
  calc W12 m ρ c (Proc.devRef .tc main_arg19)
    _ = W11 m ρ c (Proc.devRef .tc main_arg19) := W12_of_ne m ρ c main_arg19 (by decide)
    _ = W10 m ρ c (Proc.devRef .tc main_arg19) := StableHlo.after_of_forall_not_mem (b := Proc.devRef .tc main_arg19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg19) := W10_of_ne m ρ c main_arg19 (by decide)
    _ = W8 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

set_option maxHeartbeats 1000000 in
/-- Argument 20's buffer at boundary 12 holds its launch contents. -/
theorem W12_main_arg20 (c : Dev nD) : W12 m ρ c (Proc.devRef .tc main_arg20) = m ((c : Thread nD τ).loc main_arg20) :=
  calc W12 m ρ c (Proc.devRef .tc main_arg20)
    _ = W11 m ρ c (Proc.devRef .tc main_arg20) := W12_of_ne m ρ c main_arg20 (by decide)
    _ = W10 m ρ c (Proc.devRef .tc main_arg20) := StableHlo.after_of_forall_not_mem (b := Proc.devRef .tc main_arg20) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg20) := W10_of_ne m ρ c main_arg20 (by decide)
    _ = W8 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

end Cert.KernelIdeal.ArgsAt

end
-- ==== Proof.Spec.lean ====
/-
  The mathematics both programs compute, one graph-convolution layer at a time, as functions of ROWS.

  Every dense step of the network acts on a node's feature row alone: the batch-normalised input row times a weight
  matrix (`bnRow`), a hidden row `max (a + b) 0` times a weight matrix (`reluRow`), and a hidden row scaled by one
  of its two attention weights, the softmax of its two logits (`attnRow`). A kernel that walks the 50000 nodes in ten
  blocks of 5000 rows and a host program that treats all rows at once therefore compute the same array, row by row.
  The pooling step sums, for each of the 128 graphs, the rows of the nodes assigned to it (`pool`): as a matrix product
  with the 0/1 membership matrix, or as a scatter-add over the assignment, it is this one sum, because on the extended
  reals `0 * x = 0` and `1 * x = x` for every `x`, and addition is commutative and associative.
  The three float words that occur are kept as words: the zero word, the word of negative infinity and the word of the
  variance offset; the same word on both sides is never evaluated.
-/
import Idealize.ShloMosaic.PureOps.Ideal

noncomputable section

namespace Cert.Spec

open Idealize.ShloMosaic

/-- The zero word, as an extended real. -/
abbrev zero : EReal := Ideal.ofBits .f32 0x00000000#32
/-- The word of negative infinity: the initial value of a running maximum. -/
abbrev ninf : EReal := Ideal.ofBits .f32 0xFF800000#32
/-- The word added to a variance before the reciprocal square root. -/
abbrev eps : EReal := Ideal.ofBits .f32 0x3727C5AC#32

/-- Entry `j` of a batch-normalised row `xr` times `W`: each feature `k` is centred by `mu k`, scaled by
    `rsqrt (var k + eps)` and by `g k`, shifted by `b k`, and the products with column `j` of `W` are summed. -/
def bnRow (mu var g b : Fin 128 → EReal) (W : Fin 128 → Fin 128 → EReal) (xr : Fin 128 → EReal) (j : Fin 128) : EReal :=
  ∑ k : Fin 128, ((xr k - mu k) * Ideal.rsqrt (var k + eps) * g k + b k) * W k j

/-- Feature `k` of the hidden row: the aggregated row `ar` plus the bias, cut off below at the zero word. -/
def hid (b : Fin 128 → EReal) (ar : Fin 128 → EReal) (k : Fin 128) : EReal := max (ar k + b k) zero

/-- Entry `j` of the hidden row times `W`. -/
def reluRow (b : Fin 128 → EReal) (W : Fin 128 → Fin 128 → EReal) (ar : Fin 128 → EReal) (j : Fin 128) : EReal :=
  ∑ k : Fin 128, hid b ar k * W k j

/-- Attention logit `a` of a hidden row `h`: its product with column `a` of the 128 × 2 matrix, plus the bias. -/
def logit (Wna : Fin 128 → Fin 2 → EReal) (bna : Fin 2 → EReal) (h : Fin 128 → EReal) (a : Fin 2) : EReal :=
  (∑ k : Fin 128, h k * Wna k a) + bna a

/-- The larger of the two logits, as both programs take it: a running maximum from negative infinity, met once more
    with negative infinity. -/
def rowMax (l : Fin 2 → EReal) : EReal := max ninf ((Finset.univ : Finset (Fin 2)).fold max ninf l)

/-- Softmax weight `a` of two logits: `exp (l a - max)` over the sum of both such exponentials. -/
def attW (l : Fin 2 → EReal) (a : Fin 2) : EReal :=
  Ideal.div (Ideal.exp (l a - rowMax l)) (∑ a' : Fin 2, Ideal.exp (l a' - rowMax l))

/-- Entry `j` of the hidden row scaled by its attention weight `a`. -/
def attnRow (a : Fin 2) (b : Fin 128 → EReal) (Wna : Fin 128 → Fin 2 → EReal) (bna : Fin 2 → EReal)
    (ar : Fin 128 → EReal) (j : Fin 128) : EReal :=
  attW (logit Wna bna (hid b ar)) a * hid b ar j

/-- Entry `(g, j)` of the pooled array: the sum of `x n j` over the nodes `n` whose segment word, read signed, is `g`. -/
def pool (seg : Fin 50000 → BitVec 32) (x : Fin 50000 → Fin 128 → EReal) (g j : Fin 128) : EReal :=
  ∑ n : Fin 50000, if (seg n).toInt = (g.val : Int) then x n j else 0

end Cert.Spec

end
-- ==== Proof.SpecArr.lean ====
/-
  The row functions of `Spec.lean` laid out over whole arrays: what each dense step leaves in its output array as a
  function of the arrays it reads. Row `i` of the result is the step's row function of row `i` of the input; the bias and
  normalisation vectors are taken as functions of the feature index, whatever the rank of the array that carries them.
-/
import proofs.«420551_j59150289601188_1_alg».proof.Proof.Spec
import Idealize.ShloMosaic.Lib.ValueIdx

noncomputable section

namespace Cert.Spec

open Idealize.ShloMosaic Idealize.ShloMosaic.ValueIdx

/-- A rank-2 array of extended reals. -/
abbrev A2 (n0 n1 : Nat) : Type := (⟨2, ![n0, n1]⟩ : Shape).Idx → EReal

/-- The batch-normalised input times the first weight matrix, over all 50000 rows. -/
def bnArr (x : A2 50000 128) (mu var g b : Fin 128 → EReal) (W : A2 128 128) : A2 50000 128 :=
  fun i => bnRow mu var g b (fun k j => W (ix2 k j)) (fun k => x (ix2 (i 0) k)) (i 1)

/-- The hidden rows times a weight matrix, over all 50000 rows. -/
def reluArr (a : A2 50000 128) (b : Fin 128 → EReal) (W : A2 128 128) : A2 50000 128 :=
  fun i => reluRow b (fun k j => W (ix2 k j)) (fun k => a (ix2 (i 0) k)) (i 1)

/-- The hidden rows scaled by attention weight `sel`, over all 50000 rows. -/
def attnArr (sel : Fin 2) (a : A2 50000 128) (b : Fin 128 → EReal) (Wna : A2 128 2) (bna : Fin 2 → EReal) : A2 50000 128 :=
  fun i => attnRow sel b (fun k a' => Wna (ix2 k a')) bna (fun k => a (ix2 (i 0) k)) (i 1)

/-- The rows of `x` summed per segment: 128 segments, 128 features. -/
def poolArr (seg : Fin 50000 → BitVec 32) (x : A2 50000 128) : A2 128 128 :=
  fun i => pool seg (fun n j => x (ix2 n j)) (i 0) (i 1)

end Cert.Spec

end
-- ==== Proof.KReg0.lean ====
/-
  The first dense step as the kernel computes it: ten blocks of 5000 rows, each row batch-normalised with the
  statistics the host hands in as 1 × 128 arrays and multiplied by the 128 × 128 weight matrix. Block `t` holds rows
  `5000 t … 5000 t + 4999`, the blocks tile the array, and a row's result depends on that row alone, so the array the
  ten write-backs leave is the row function laid out over all 50000 rows.
-/
import proofs.«420551_j59150289601188_1_alg».proof.Proof.Gen.KernelIdeal.Frame
import proofs.«420551_j59150289601188_1_alg».proof.Proof.SpecArr
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- Left operand's row coordinate: the output's row. -/
private theorem lhs_k0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand's column coordinate: the contraction index. -/
private theorem lhs_k0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Right operand's row coordinate: the contraction index. -/
private theorem rhs_k0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Right operand's column coordinate: the output's column. -/
private theorem rhs_k0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 1 × 128 row broadcast over the block's rows, read at row `r`, feature `k`: the row at feature `k`. -/
private theorem bcast0_at (x : Vec Ideal S1x128 .f32) (r : Fin 5000) (k : Fin 128) :
    broadcastTo S5000x128 x broadcasts_S1x128_S5000x128 (ix2 r k) = x (ix2 0 k) :=
  broadcastTo_apply x broadcasts_S1x128_S5000x128 (ix2 r k) (ix2 0 k) (fun a => match a with
    | ⟨0, _⟩ => by show 0 = if (1 : Nat) = 1 then 0 else r.val; rw [if_pos rfl]
    | ⟨1, _⟩ => by show k.val = if (128 : Nat) = 1 then 0 else k.val; rw [if_neg (by decide)])

/-- Entry `(r, j)` of the body's result: the row function of row `r` of the input block, at `j`. -/
private theorem pay0_apply (x0 : Vec Ideal S5000x128 .f32) (x1 x2 x3 x4 : Vec Ideal S1x128 .f32) (x5 : Vec Ideal S128x128 .f32) (r : Fin 5000) (j : Fin 128) :
    k0_pay1 (F := Ideal) x0 x1 x2 x3 x4 x5 (ix2 r j)
      = Spec.bnRow (fun k => x1 (ix2 0 k)) (fun k => x2 (ix2 0 k)) (fun k => x3 (ix2 0 k)) (fun k => x4 (ix2 0 k))
          (fun k j => x5 (ix2 k j)) (fun k => x0 (ix2 r k)) j := by
  unfold k0_pay1
  refine (Ideal.matmul_constant_zero_apply dot_S5000x128_S128x128_S5000x128_1_0_0_1_n_n none _ _ (ix2 r j)).trans ?_
  refine (Equiv.sum_comp (contrEquiv1 dot_S5000x128_S128x128_S5000x128_1_0_0_1_n_n 128 rfl rfl).symm _).symm.trans ?_
  unfold Spec.bnRow
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_k0_0 _ _
    | ⟨1, _⟩ => exact (lhs_k0_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_k0_0 _ _).trans hk
    | ⟨1, _⟩ => exact rhs_k0_1 _ _)
  rw [el, er]
  refine congrArg₂ (· * ·) ?_ ?_
  · show (x0 (ix2 r k) - broadcastTo S5000x128 (shapeCast S1x128 x1 shapeCasts_S1x128_S1x128) broadcasts_S1x128_S5000x128 (ix2 r k))
          * broadcastTo S5000x128 (rsqrt (addf (shapeCast S1x128 x2 shapeCasts_S1x128_S1x128) (broadcast S1x128 (Ideal.ofBits .f32 0x3727C5AC#32)))) broadcasts_S1x128_S5000x128 (ix2 r k)
          * broadcastTo S5000x128 (shapeCast S1x128 x3 shapeCasts_S1x128_S1x128) broadcasts_S1x128_S5000x128 (ix2 r k)
          + broadcastTo S5000x128 (shapeCast S1x128 x4 shapeCasts_S1x128_S1x128) broadcasts_S1x128_S5000x128 (ix2 r k)
        = (x0 (ix2 r k) - x1 (ix2 0 k)) * Ideal.rsqrt (x2 (ix2 0 k) + Spec.eps) * x3 (ix2 0 k) + x4 (ix2 0 k)
    rw [bcast0_at, bcast0_at, bcast0_at, bcast0_at]
    show (x0 (ix2 r k) - shapeCast S1x128 x1 shapeCasts_S1x128_S1x128 (ix2 0 k))
          * Ideal.rsqrt (shapeCast S1x128 x2 shapeCasts_S1x128_S1x128 (ix2 0 k) + Spec.eps)
          * shapeCast S1x128 x3 shapeCasts_S1x128_S1x128 (ix2 0 k)
          + shapeCast S1x128 x4 shapeCasts_S1x128_S1x128 (ix2 0 k) = _
    rw [shapeCast_self, shapeCast_self, shapeCast_self, shapeCast_self]
  · show x5 (ix2 k j) = x5 (ix2 k j)
    rfl

/-- The offset `(0, 0)` is the zero offset. -/
private theorem zero_off0 : (![0, 0] : Fin 2 → Nat) = fun _ => 0 := funext fun a => by fin_cases a <;> rfl

/-- The printed index maps over the grid: the row windows sit at block `(t, 0)`, the four statistics windows and the
    weight window at `(0, 0)`. -/
private theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A block's entry `(r, j)` is the array's entry `i` once the block's row `r` is the array's row `i 0`, the statistics
    and weight blocks are the whole arrays, and `j` is `i`'s column: the row function reads nothing else. -/
private theorem block0_at (x0 : Vec Ideal S5000x128 .f32) (x1 x2 x3 x4 : Vec Ideal S1x128 .f32) (x5 : Vec Ideal S128x128 .f32)
    (A : Spec.A2 50000 128) (mu var g b : Spec.A2 1 128) (W : Spec.A2 128 128) (r : Fin 5000) (j : Fin 128) (i : (⟨2, ![50000, 128]⟩ : Shape).Idx)
    (h0 : ∀ k : Fin 128, x0 (ix2 r k) = A (ix2 (i 0) k)) (h1 : ∀ k : Fin 128, x1 (ix2 0 k) = mu (ix2 0 k))
    (h2 : ∀ k : Fin 128, x2 (ix2 0 k) = var (ix2 0 k)) (h3 : ∀ k : Fin 128, x3 (ix2 0 k) = g (ix2 0 k))
    (h4 : ∀ k : Fin 128, x4 (ix2 0 k) = b (ix2 0 k)) (h5 : ∀ k j : Fin 128, x5 (ix2 k j) = W (ix2 k j)) (hj : j = i 1) :
    k0_pay1 (F := Ideal) x0 x1 x2 x3 x4 x5 (ix2 r j)
      = Spec.bnArr A (fun k => mu (ix2 0 k)) (fun k => var (ix2 0 k)) (fun k => g (ix2 0 k)) (fun k => b (ix2 0 k)) W i := by
  refine (pay0_apply x0 x1 x2 x3 x4 x5 r j).trans ?_
  have e0 : (fun k => x0 (ix2 r k)) = fun k => A (ix2 (i 0) k) := funext h0
  have e1 : (fun k => x1 (ix2 0 k)) = fun k => mu (ix2 0 k) := funext h1
  have e2 : (fun k => x2 (ix2 0 k)) = fun k => var (ix2 0 k) := funext h2
  have e3 : (fun k => x3 (ix2 0 k)) = fun k => g (ix2 0 k) := funext h3
  have e4 : (fun k => x4 (ix2 0 k)) = fun k => b (ix2 0 k) := funext h4
  have e5 : (fun k j => x5 (ix2 k j)) = fun k j => W (ix2 k j) := funext fun k => funext (h5 k)
  subst hj
  unfold Spec.bnArr
  rw [e0, e1, e2, e3, e4, e5]

/-- What point `t` writes back is block `t` of the row function laid out over the arrays the region finds. -/
private theorem flushed0_eq (c : Dev nD) (t : Fin cfg0.N) :
    (dat0 (F := Ideal) V c).flushed 6 t = ((cfg0.win 6).blk t).view.read (Elt Ideal)
      (Spec.bnArr (V c main_arg0) (fun k => (V c main_v39 : Spec.A2 1 128) (ix2 0 k)) (fun k => (V c main_v40 : Spec.A2 1 128) (ix2 0 k))
          (fun k => (V c main_v41 : Spec.A2 1 128) (ix2 0 k)) (fun k => (V c main_v42 : Spec.A2 1 128) (ix2 0 k)) (V c main_arg5)) := by
  show (cfg0.win 6).cut (grid0.coords t) ((dat0 V c).after 6 t) = _
  rw [after0_6]
  unfold out0_6
  rw [View.canon_unit_zero zero_off0]
  simp only [View.ld_unit_zero (S := S5000x128) zero_off0, View.ld_unit_zero (S := S1x128) zero_off0, View.ld_unit_zero (S := S128x128) zero_off0]
  obtain ⟨e00, e01, e10, e11, e20, e21, e30, e31, e40, e41, e50, e51, e60, e61⟩ := idx_facts0 t
  funext y
  obtain ⟨r, j, rfl⟩ : ∃ (r : Fin 5000) (j : Fin 128), y = ix2 r j := ⟨y 0, y 1, eq_ix2 y⟩
  show k0_pay1 (F := Ideal) (iblk0 V c 0 t) (iblk0 V c 1 t) (iblk0 V c 2 t) (iblk0 V c 3 t) (iblk0 V c 4 t) (iblk0 V c 5 t) (ix2 r j)
    = Spec.bnArr (V c main_arg0) (fun k => (V c main_v39 : Spec.A2 1 128) (ix2 0 k)) (fun k => (V c main_v40 : Spec.A2 1 128) (ix2 0 k))
          (fun k => (V c main_v41 : Spec.A2 1 128) (ix2 0 k)) (fun k => (V c main_v42 : Spec.A2 1 128) (ix2 0 k)) (V c main_arg5)
        (((cfg0.win 6).blk t).view.emb (ix2 r j))
  refine block0_at _ _ _ _ _ _ _ _ _ _ _ _ r j _ (fun k => ?_) (fun k => ?_) (fun k => ?_) (fun k => ?_) (fun k => ?_) (fun k j' => ?_) ?_
  · show V c main_arg0 (((cfg0.win 0).blk t).view.emb (ix2 r k)) = V c main_arg0 (ix2 ((((cfg0.win 6).blk t).view.emb (ix2 r j)) 0) k)
    refine congrArg _ (funext fun a => Fin.ext ?_)
    match a with
    | ⟨0, _⟩ => show win0_0.index t (0 : Fin 2) * 5000 + 1 * r.val = win0_6.index t (0 : Fin 2) * 5000 + 1 * r.val; rw [e00, e60]
    | ⟨1, _⟩ => show win0_0.index t (1 : Fin 2) * 128 + 1 * k.val = k.val; rw [e01]; omega
  · show V c main_v39 (((cfg0.win 1).blk t).view.emb (ix2 0 k)) = V c main_v39 (ix2 0 k)
    refine congrArg _ (funext fun a => Fin.ext ?_)
    match a with
    | ⟨0, _⟩ => show win0_1.index t (0 : Fin 2) * 1 + 1 * 0 = 0; rw [e10]
    | ⟨1, _⟩ => show win0_1.index t (1 : Fin 2) * 128 + 1 * k.val = k.val; rw [e11]; omega
  · show V c main_v40 (((cfg0.win 2).blk t).view.emb (ix2 0 k)) = V c main_v40 (ix2 0 k)
    refine congrArg _ (funext fun a => Fin.ext ?_)
    match a with
    | ⟨0, _⟩ => show win0_2.index t (0 : Fin 2) * 1 + 1 * 0 = 0; rw [e20]
    | ⟨1, _⟩ => show win0_2.index t (1 : Fin 2) * 128 + 1 * k.val = k.val; rw [e21]; omega
  · show V c main_v41 (((cfg0.win 3).blk t).view.emb (ix2 0 k)) = V c main_v41 (ix2 0 k)
    refine congrArg _ (funext fun a => Fin.ext ?_)
    match a with
    | ⟨0, _⟩ => show win0_3.index t (0 : Fin 2) * 1 + 1 * 0 = 0; rw [e30]
    | ⟨1, _⟩ => show win0_3.index t (1 : Fin 2) * 128 + 1 * k.val = k.val; rw [e31]; omega
  · show V c main_v42 (((cfg0.win 4).blk t).view.emb (ix2 0 k)) = V c main_v42 (ix2 0 k)
    refine congrArg _ (funext fun a => Fin.ext ?_)
    match a with
    | ⟨0, _⟩ => show win0_4.index t (0 : Fin 2) * 1 + 1 * 0 = 0; rw [e40]
    | ⟨1, _⟩ => show win0_4.index t (1 : Fin 2) * 128 + 1 * k.val = k.val; rw [e41]; omega
  · show V c main_arg5 (((cfg0.win 5).blk t).view.emb (ix2 k j')) = V c main_arg5 (ix2 k j')
    refine congrArg _ (funext fun a => Fin.ext ?_)
    match a with
    | ⟨0, _⟩ => show win0_5.index t (0 : Fin 2) * 128 + 1 * k.val = k.val; rw [e50]; omega
    | ⟨1, _⟩ => show win0_5.index t (1 : Fin 2) * 128 + 1 * j'.val = j'.val; rw [e51]; omega
  · refine Fin.ext ?_
    show j.val = win0_6.index t (1 : Fin 2) * 128 + 1 * j.val
    rw [e61]; omega

/-- An index of the array is in point `t`'s block iff each coordinate is in the block's range on its axis. -/
private theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  have h : ((cfg0.win 6).blk t).view.set = (win0_6.rect t).set := View.set_slice_whole _ _
  rw [h, Rect.mem_set_unit]
  exact Iff.rfl

/-- Row `i 0` lies in the block of point `i 0 / 5000`, and every point writes its block back. -/
private theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := by decide
  obtain ⟨t, ht⟩ : ∃ t : Fin cfg0.N, t.val = (i 0).val / 5000 := ⟨⟨(i 0).val / 5000, by show _ < grid0.N; rw [hN]; omega⟩, rfl⟩
  obtain ⟨-, -, -, -, -, -, -, -, -, -, -, -, e60, e61⟩ := idx_facts0 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    rw [e60, ht]; omega
  | ⟨1, _⟩ =>
    show win0_6.index t (1 : Fin 2) * 128 ≤ (i 1).val ∧ (i 1).val < win0_6.index t (1 : Fin 2) * 128 + 128
    rw [e61]; omega

/-- Region 0's output array after its ten points: `bnArr` of the arrays the region finds. -/
theorem reg0 (c : Dev nD) :
    ((dat0 (F := Ideal) V c).arrAt 6 cfg0.N : Spec.A2 50000 128)
      = Spec.bnArr (V c main_arg0) (fun k => (V c main_v39 : Spec.A2 1 128) (ix2 0 k)) (fun k => (V c main_v40 : Spec.A2 1 128) (ix2 0 k))
          (fun k => (V c main_v41 : Spec.A2 1 128) (ix2 0 k)) (fun k => (V c main_v42 : Spec.A2 1 128) (ix2 0 k)) (V c main_arg5) :=
  (dat0 (F := Ideal) V c).arrAt_eq_of_cover 6 _ (fun t _ => flushed0_eq V c t) cover0

end Cert.KernelIdeal.RegVal

end
-- ==== Proof.RSpecMM.lean ====
/-
  The reference's four matrix products, each as the row function of the stage before it. A host `dot_general` over the
  feature axis is, at the exact values, the sum over that axis of the products; its left operand is, entry by entry, the
  batch-normalised input (first layer) or `max (a + b) 0` of the aggregated array (later layers), the bias broadcast
  along the rows. So row `i` of each product is the row function of row `i` of the array that feeds it.
-/
import proofs.«420551_j59150289601188_1_alg».proof.Proof.RefRead
import proofs.«420551_j59150289601188_1_alg».proof.Proof.SpecArr
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefSpec

open Cert.ReferenceIdeal Cert.ReferenceIdeal.Gen Cert.ReferenceIdeal.Read Idealize.ShloMosaic Idealize.ShloMosaic.TcCoe Idealize.ShloMosaic.ValueIdx

/-- The first layer's product: `bnArr` of the input, its column means and variances, the scale, the shift and the weights. -/
theorem v54_eq (x0 : (⟨S50000x128, .f32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) :
    (val_main_v54 (F := Ideal) x0 x3 x4 x5 : Spec.A2 50000 128)
      = Spec.bnArr x0 (fun k => val_main_v31 (F := Ideal) x0 (ix1 k)) (fun k => val_main_v38 (F := Ideal) x0 (ix1 k)) (fun k => x3 (ix1 k)) (fun k => x4 (ix1 k)) x5 := by
  funext i
  obtain ⟨p, q, rfl⟩ : ∃ (p : Fin 50000) (q : Fin 128), i = ix2 p q := ⟨i 0, i 1, eq_ix2 i⟩
  -- entry (p, q) of the product is the sum over the feature k of left (p, k) times right (k, q)
  rw [val_main_v54_apply]
  show _ = Spec.bnRow _ _ _ _ _ _ _
  unfold Spec.bnRow
  refine Finset.sum_congr rfl fun k _ => ?_
  have hl : lidx_main_v54 (ix2 p q) k = ix2 p k := funext fun a => Fin.ext (by match a with | ⟨0, _⟩ => rfl | ⟨1, _⟩ => rfl)
  have hr : ridx_main_v54 (ix2 p q) k = ix2 k q := funext fun a => Fin.ext (by match a with | ⟨0, _⟩ => rfl | ⟨1, _⟩ => rfl)
  rw [hl, hr]
  -- left (p, k): the input entry minus the mean of column k, times rsqrt (variance of column k + the offset word),
  -- times the scale at k, plus the shift at k; each row vector is read at the feature coordinate alone
  rw [val_main_v53_apply, val_main_v50_apply, val_main_v47_apply, val_main_v41_apply, val_main_v40_apply, val_main_v39_apply,
    val_main_v46_apply, val_main_v45_apply, val_main_v44_apply, val_main_v43_apply, val_main_v42_apply, val_main_cst_9_apply,
    val_main_v49_apply, val_main_v48_apply, val_main_v52_apply, val_main_v51_apply]
  have e1 : idx_main_v39 (idx_main_v40 (ix2 p k)) = ix1 k := funext fun a => Fin.ext (by match a with | ⟨0, _⟩ => rfl)
  have e2 : idx_main_v45 (idx_main_v46 (ix2 p k)) = ix1 k := funext fun a => Fin.ext (by match a with | ⟨0, _⟩ => rfl)
  have e3 : idx_main_v48 (idx_main_v49 (ix2 p k)) = ix1 k := funext fun a => Fin.ext (by match a with | ⟨0, _⟩ => rfl)
  have e4 : idx_main_v51 (idx_main_v52 (ix2 p k)) = ix1 k := funext fun a => Fin.ext (by match a with | ⟨0, _⟩ => rfl)
  rw [e1, e2, e3, e4]
  simp only [Ideal.addf_def, Ideal.mulf_def, Ideal.subf_def, Ideal.hostUnary_rsqrt_def, Ideal.ofBits_def]

/-- The second layer's product: `reluArr` of the first aggregation. -/
theorem v76_eq (x0 : (⟨S50000x128, .f32⟩ : BufTy).Contents (Elt Ideal)) (x1 : (⟨S2x800000, .i32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) :
    (val_main_v76 (F := Ideal) x0 x1 x3 x4 x5 x6 x7 : Spec.A2 50000 128)
      = Spec.reluArr (val_main_v67 (F := Ideal) x0 x1 x3 x4 x5) (fun k => x6 (ix1 k)) (val_main_v73 (F := Ideal) x7) := by
  funext i
  obtain ⟨p, q, rfl⟩ : ∃ (p : Fin 50000) (q : Fin 128), i = ix2 p q := ⟨i 0, i 1, eq_ix2 i⟩
  -- entry (p, q) of the product is the sum over the feature k of left (p, k) times right (k, q)
  rw [val_main_v76_apply]
  generalize val_main_v73 (F := Ideal) x7 = W
  show _ = Spec.reluRow _ _ _ _
  unfold Spec.reluRow Spec.hid
  refine Finset.sum_congr rfl fun k _ => ?_
  have hl : lidx_main_v76 (ix2 p q) k = ix2 p k := funext fun a => Fin.ext (by match a with | ⟨0, _⟩ => rfl | ⟨1, _⟩ => rfl)
  have hr : ridx_main_v76 (ix2 p q) k = ix2 k q := funext fun a => Fin.ext (by match a with | ⟨0, _⟩ => rfl | ⟨1, _⟩ => rfl)
  rw [hl, hr]
  -- left (p, k): the larger of the aggregated entry plus the bias at k, and the zero word; the bias is read at the
  -- feature coordinate alone, the aggregated array stays as it is
  rw [val_main_v71_apply, val_main_v70_apply, val_main_v69_apply, val_main_v68_apply, val_main_call0_v0_apply, val_main_call0_cst_apply]
  generalize val_main_v67 (F := Ideal) x0 x1 x3 x4 x5 = ag
  have e1 : idx_main_v68 (idx_main_v69 (ix2 p k)) = ix1 k := funext fun a => Fin.ext (by match a with | ⟨0, _⟩ => rfl)
  rw [e1]
  simp only [Ideal.addf_def, Ideal.maximumf_def, Ideal.ofBits_def]

/-- The third layer's product: `reluArr` of the second aggregation. -/
theorem v98_eq (x0 : (⟨S50000x128, .f32⟩ : BufTy).Contents (Elt Ideal)) (x1 : (⟨S2x800000, .i32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) :
    (val_main_v98 (F := Ideal) x0 x1 x3 x4 x5 x6 x7 x8 : Spec.A2 50000 128)
      = Spec.reluArr (val_main_v89 (F := Ideal) x0 x1 x3 x4 x5 x6 x7) (fun k => val_main_v75 (F := Ideal) x8 (ix1 k)) (val_main_v95 (F := Ideal) x7) := by
  funext i
  obtain ⟨p, q, rfl⟩ : ∃ (p : Fin 50000) (q : Fin 128), i = ix2 p q := ⟨i 0, i 1, eq_ix2 i⟩
  -- entry (p, q) of the product is the sum over the feature k of left (p, k) times right (k, q)
  rw [val_main_v98_apply]
  generalize val_main_v95 (F := Ideal) x7 = W
  show _ = Spec.reluRow _ _ _ _
  unfold Spec.reluRow Spec.hid
  refine Finset.sum_congr rfl fun k _ => ?_
  have hl : lidx_main_v98 (ix2 p q) k = ix2 p k := funext fun a => Fin.ext (by match a with | ⟨0, _⟩ => rfl | ⟨1, _⟩ => rfl)
  have hr : ridx_main_v98 (ix2 p q) k = ix2 k q := funext fun a => Fin.ext (by match a with | ⟨0, _⟩ => rfl | ⟨1, _⟩ => rfl)
  rw [hl, hr]
  -- left (p, k): the larger of the aggregated entry plus the bias at k, and the zero word; the bias is read at the
  -- feature coordinate alone, the aggregated array stays as it is
  rw [val_main_v93_apply, val_main_v92_apply, val_main_v91_apply, val_main_v90_apply, val_main_call1_v0_apply, val_main_call1_cst_apply]
  generalize val_main_v89 (F := Ideal) x0 x1 x3 x4 x5 x6 x7 = ag
  generalize val_main_v75 (F := Ideal) x8 = b
  have e1 : idx_main_v90 (idx_main_v91 (ix2 p k)) = ix1 k := funext fun a => Fin.ext (by match a with | ⟨0, _⟩ => rfl)
  rw [e1]
  simp only [Ideal.addf_def, Ideal.maximumf_def, Ideal.ofBits_def]

/-- The fourth layer's product: `reluArr` of the third aggregation. -/
theorem v120_eq (x0 : (⟨S50000x128, .f32⟩ : BufTy).Contents (Elt Ideal)) (x1 : (⟨S2x800000, .i32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) :
    (val_main_v120 (F := Ideal) x0 x1 x3 x4 x5 x6 x7 x8 : Spec.A2 50000 128)
      = Spec.reluArr (val_main_v111 (F := Ideal) x0 x1 x3 x4 x5 x6 x7 x8) (fun k => val_main_v97 (F := Ideal) x8 (ix1 k)) (val_main_v117 (F := Ideal) x7) := by
  funext i
  obtain ⟨p, q, rfl⟩ : ∃ (p : Fin 50000) (q : Fin 128), i = ix2 p q := ⟨i 0, i 1, eq_ix2 i⟩
  -- entry (p, q) of the product is the sum over the feature k of left (p, k) times right (k, q)
  rw [val_main_v120_apply]
  generalize val_main_v117 (F := Ideal) x7 = W
  show _ = Spec.reluRow _ _ _ _
  unfold Spec.reluRow Spec.hid
  refine Finset.sum_congr rfl fun k _ => ?_
  have hl : lidx_main_v120 (ix2 p q) k = ix2 p k := funext fun a => Fin.ext (by match a with | ⟨0, _⟩ => rfl | ⟨1, _⟩ => rfl)
  have hr : ridx_main_v120 (ix2 p q) k = ix2 k q := funext fun a => Fin.ext (by match a with | ⟨0, _⟩ => rfl | ⟨1, _⟩ => rfl)
  rw [hl, hr]
  -- left (p, k): the larger of the aggregated entry plus the bias at k, and the zero word; the bias is read at the
  -- feature coordinate alone, the aggregated array stays as it is
  rw [val_main_v115_apply, val_main_v114_apply, val_main_v113_apply, val_main_v112_apply, val_main_call2_v0_apply, val_main_call2_cst_apply]
  generalize val_main_v111 (F := Ideal) x0 x1 x3 x4 x5 x6 x7 x8 = ag
  generalize val_main_v97 (F := Ideal) x8 = b
  have e1 : idx_main_v112 (idx_main_v113 (ix2 p k)) = ix1 k := funext fun a => Fin.ext (by match a with | ⟨0, _⟩ => rfl)
  rw [e1]
  simp only [Ideal.addf_def, Ideal.maximumf_def, Ideal.ofBits_def]

end Cert.ReferenceIdeal.RefSpec

end
-- ==== Proof.Layer0.lean ====
/-
  From the launch to region 0's exit. The first host stretch builds, from the edge list, the two index vectors with
  self-loops and the edge normalisation by exactly the reference's operations, and the input's column means and
  variances, which it hands to region 0 as 1 × 128 arrays (a reshape where the reference broadcasts: the same entries).
  Region 0 then leaves the batch-normalised input times the first weight matrix, which is the reference's first product.
-/
import proofs.«420551_j59150289601188_1_alg».proof.Proof.LayerDefs
import proofs.«420551_j59150289601188_1_alg».proof.Proof.KArgs
import proofs.«420551_j59150289601188_1_alg».proof.Proof.KReg0
import proofs.«420551_j59150289601188_1_alg».proof.Proof.RSpecMM
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Layer

open Cert.KernelIdeal Cert.KernelIdeal.Gen Idealize.ShloMosaic Idealize.ShloMosaic.TcCoe Idealize.SL.Sem Idealize.ShloMosaic.StableHlo Idealize.ShloMosaic.ValueIdx

/-! ## The first host stretch, at any float family: the reference's own operations on the launch contents -/
section Host
variable {F : FTy → Type} [FloatOps F]
variable (m : (ℓ : Loc nD τ sig) → Buf (Elt F) ℓ) (ρ : Dev nD → PrngReg) (c : Dev nD)

set_option maxHeartbeats 4000000 in
/-- The row indices with self-loops, as the first host stretch leaves them: the reference's operations %0, %1, %4, %5. -/
theorem w1_v5 : W1 m ρ c (Proc.devRef .tc main_v5) = Cert.ReferenceIdeal.Read.val_main_v5 (F := F) (m ((c.tc : Thread nD τ).loc main_arg1)) := by
  show StableHlo.after hostOps0 (W0 m ρ c) (Proc.devRef .tc main_v5) = _
  after_results
  rfl

set_option maxHeartbeats 4000000 in
/-- The column indices with self-loops: the reference's operations %2, %3, %4, %6. -/
theorem w1_v6 : W1 m ρ c (Proc.devRef .tc main_v6) = Cert.ReferenceIdeal.Read.val_main_v6 (F := F) (m ((c.tc : Thread nD τ).loc main_arg1)) := by
  show StableHlo.after hostOps0 (W0 m ρ c) (Proc.devRef .tc main_v6) = _
  after_results
  rfl

set_option maxHeartbeats 4000000 in
/-- The edge normalisation: the reference's operations %0 to %28, one for one. -/
theorem w1_v28 : W1 m ρ c (Proc.devRef .tc main_v28) = Cert.ReferenceIdeal.Read.val_main_v28 (F := F) (m ((c.tc : Thread nD τ).loc main_arg1)) := by
  show StableHlo.after hostOps0 (W0 m ρ c) (Proc.devRef .tc main_v28) = _
  after_results
  rfl

set_option maxHeartbeats 4000000 in
/-- The column means as a 1 × 128 array: the reference's mean %31, recast. -/
theorem w1_v39 : (W1 m ρ c (Proc.devRef .tc main_v39) : (⟨S1x128, .f32⟩ : BufTy).Contents (Elt F))
    = shapeCast S1x128 (Cert.ReferenceIdeal.Read.val_main_v31 (F := F) (m ((c.tc : Thread nD τ).loc main_arg0))) shapeCasts_S128_S1x128 := by
  show StableHlo.after hostOps0 (W0 m ρ c) (Proc.devRef .tc main_v39) = _
  after_results
  rfl

set_option maxHeartbeats 4000000 in
/-- The column variances as a 1 × 128 array: the reference's variance %38, recast. -/
theorem w1_v40 : (W1 m ρ c (Proc.devRef .tc main_v40) : (⟨S1x128, .f32⟩ : BufTy).Contents (Elt F))
    = shapeCast S1x128 (Cert.ReferenceIdeal.Read.val_main_v38 (F := F) (m ((c.tc : Thread nD τ).loc main_arg0))) shapeCasts_S128_S1x128 := by
  show StableHlo.after hostOps0 (W0 m ρ c) (Proc.devRef .tc main_v40) = _
  after_results
  rfl

set_option maxHeartbeats 4000000 in
/-- The scale vector as a 1 × 128 array. -/
theorem w1_v41 : (W1 m ρ c (Proc.devRef .tc main_v41) : (⟨S1x128, .f32⟩ : BufTy).Contents (Elt F))
    = shapeCast S1x128 (m ((c.tc : Thread nD τ).loc main_arg3) : (⟨S128, .f32⟩ : BufTy).Contents (Elt F)) shapeCasts_S128_S1x128 := by
  show StableHlo.after hostOps0 (W0 m ρ c) (Proc.devRef .tc main_v41) = _
  after_results
  rfl

set_option maxHeartbeats 4000000 in
/-- The shift vector as a 1 × 128 array. -/
theorem w1_v42 : (W1 m ρ c (Proc.devRef .tc main_v42) : (⟨S1x128, .f32⟩ : BufTy).Contents (Elt F))
    = shapeCast S1x128 (m ((c.tc : Thread nD τ).loc main_arg4) : (⟨S128, .f32⟩ : BufTy).Contents (Elt F)) shapeCasts_S128_S1x128 := by
  show StableHlo.after hostOps0 (W0 m ρ c) (Proc.devRef .tc main_v42) = _
  after_results
  rfl

end Host

/-! ## The layer, at the exact values -/

variable (m : (ℓ : Loc nD τ sig) → Buf (Elt Ideal) ℓ) (ρ : Dev nD → PrngReg) (c : Dev nD)

/-- A vector laid out as a 1 × 128 array, read at `(0, k)`: the vector at `k` (both sit at place `k` of the row-major order). -/
theorem row0_cast (x : (⟨S128, .f32⟩ : BufTy).Contents (Elt Ideal)) (k : Fin 128) :
    (shapeCast S1x128 x shapeCasts_S128_S1x128 : Spec.A2 1 128) (ix2 0 k) = x (ix1 k) := by
  refine shapeCast_apply _ shapeCasts_S128_S1x128 (ix2 0 k) (ix1 k) ?_
  rw [Shape.rowMajor_val_one, Shape.rowMajor_val_two]
  show k.val = 0 * 128 + k.val
  omega

/-- The mean row the region reads, entry by entry: the reference's column means. -/
theorem mean_row (k : Fin 128) :
    (W1 m ρ c (Proc.devRef .tc main_v39) : Spec.A2 1 128) (ix2 0 k)
      = Cert.ReferenceIdeal.Read.val_main_v31 (F := Ideal) (a0 m c) (ix1 k) := by
  rw [w1_v39 m ρ c]
  exact row0_cast _ k

/-- The variance row the region reads, entry by entry: the reference's column variances. -/
theorem var_row (k : Fin 128) :
    (W1 m ρ c (Proc.devRef .tc main_v40) : Spec.A2 1 128) (ix2 0 k)
      = Cert.ReferenceIdeal.Read.val_main_v38 (F := Ideal) (a0 m c) (ix1 k) := by
  rw [w1_v40 m ρ c]
  exact row0_cast _ k

/-- The scale row the region reads, entry by entry: the scale vector as launched. -/
theorem scale_row (k : Fin 128) :
    (W1 m ρ c (Proc.devRef .tc main_v41) : Spec.A2 1 128) (ix2 0 k) = a3 m c (ix1 k) := by
  rw [w1_v41 m ρ c]
  exact row0_cast _ k

/-- The shift row the region reads, entry by entry: the shift vector as launched. -/
theorem shift_row (k : Fin 128) :
    (W1 m ρ c (Proc.devRef .tc main_v42) : Spec.A2 1 128) (ix2 0 k) = a4 m c (ix1 k) := by
  rw [w1_v42 m ρ c]
  exact row0_cast _ k

/-- The facts at region 0's exit. -/
theorem at2 : At2 m ρ c where
  v43 := by
    have hK := (W2_arr m ρ c 6).trans (Cert.KernelIdeal.RegVal.reg0 (V1 m ρ) c)
    have hR := Cert.ReferenceIdeal.RefSpec.v54_eq (a0 m c) (a3 m c) (a4 m c) (a5 m c)
    have e0 : V1 m ρ c main_arg0 = a0 m c := Cert.KernelIdeal.ArgsAt.W1_main_arg0 m ρ c
    have e1 : (fun k => (V1 m ρ c main_v39 : Spec.A2 1 128) (ix2 0 k))
        = fun k => Cert.ReferenceIdeal.Read.val_main_v31 (F := Ideal) (a0 m c) (ix1 k) := funext fun k => mean_row m ρ c k
    have e2 : (fun k => (V1 m ρ c main_v40 : Spec.A2 1 128) (ix2 0 k))
        = fun k => Cert.ReferenceIdeal.Read.val_main_v38 (F := Ideal) (a0 m c) (ix1 k) := funext fun k => var_row m ρ c k
    have e3 : (fun k => (V1 m ρ c main_v41 : Spec.A2 1 128) (ix2 0 k)) = fun k => a3 m c (ix1 k) := funext fun k => scale_row m ρ c k
    have e4 : (fun k => (V1 m ρ c main_v42 : Spec.A2 1 128) (ix2 0 k)) = fun k => a4 m c (ix1 k) := funext fun k => shift_row m ρ c k
    have e5 : V1 m ρ c main_arg5 = a5 m c := Cert.KernelIdeal.ArgsAt.W1_main_arg5 m ρ c
    exact hK.trans ((congr (congr (congr (congr (congr (congrArg Spec.bnArr e0) e1) e2) e3) e4) e5).trans hR.symm)
  v5 := (W2_of_ne m ρ c main_v5 (by decide)).trans (w1_v5 m ρ c)
  v6 := (W2_of_ne m ρ c main_v6 (by decide)).trans (w1_v6 m ρ c)
  v28 := (W2_of_ne m ρ c main_v28 (by decide)).trans (w1_v28 m ρ c)

end Cert.KernelIdeal.Layer

end
-- ==== Proof.KReg1.lean ====
/-
  A middle dense step as the kernel computes it: ten blocks of 5000 rows; each aggregated row gets the bias (a 1 × 128
  array), is cut off below at zero and is multiplied by the 128 × 128 weight matrix. The blocks tile the array and a
  row's result depends on that row alone, so the ten write-backs leave the row function laid out over all 50000 rows.
-/
import proofs.«420551_j59150289601188_1_alg».proof.Proof.Gen.KernelIdeal.Frame
import proofs.«420551_j59150289601188_1_alg».proof.Proof.SpecArr
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- Left operand's row coordinate: the output's row. -/
private theorem lhs_k1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand's column coordinate: the contraction index. -/
private theorem lhs_k1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Right operand's row coordinate: the contraction index. -/
private theorem rhs_k1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Right operand's column coordinate: the output's column. -/
private theorem rhs_k1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The bias row broadcast over the block's rows, read at row `r`, feature `k`: the bias at feature `k`. -/
private theorem bias1_at (x1 : Vec Ideal S1x128 .f32) (r : Fin 5000) (k : Fin 128) :
    broadcastTo S5000x128 (shapeCast S1x128 x1 shapeCasts_S1x128_S1x128) broadcasts_S1x128_S5000x128 (ix2 r k) = x1 (ix2 0 k) := by
  rw [shapeCast_self]
  exact broadcastTo_apply x1 broadcasts_S1x128_S5000x128 (ix2 r k) (ix2 0 k) (fun a => match a with
    | ⟨0, _⟩ => by show 0 = if (1 : Nat) = 1 then 0 else r.val; rw [if_pos rfl]
    | ⟨1, _⟩ => by show k.val = if (128 : Nat) = 1 then 0 else k.val; rw [if_neg (by decide)])

/-- Entry `(r, j)` of the body's result: the row function of row `r` of the aggregated block, at `j`. -/
private theorem pay1_apply (x0 : Vec Ideal S5000x128 .f32) (x1 : Vec Ideal S1x128 .f32) (x2 : Vec Ideal S128x128 .f32) (r : Fin 5000) (j : Fin 128) :
    k1_pay1 (F := Ideal) x0 x1 x2 (ix2 r j)
      = Spec.reluRow (fun k => x1 (ix2 0 k)) (fun k j => x2 (ix2 k j)) (fun k => x0 (ix2 r k)) j := by
  unfold k1_pay1
  refine (Ideal.matmul_constant_zero_apply dot_S5000x128_S128x128_S5000x128_1_0_0_1_n_n none _ _ (ix2 r j)).trans ?_
  refine (Equiv.sum_comp (contrEquiv1 dot_S5000x128_S128x128_S5000x128_1_0_0_1_n_n 128 rfl rfl).symm _).symm.trans ?_
  unfold Spec.reluRow Spec.hid
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_k1_0 _ _
    | ⟨1, _⟩ => exact (lhs_k1_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_k1_0 _ _).trans hk
    | ⟨1, _⟩ => exact rhs_k1_1 _ _)
  rw [el, er]
  refine congrArg₂ (· * ·) ?_ ?_
  · show max (shapeCast S5000x128 x0 shapeCasts_S5000x128_S5000x128 (ix2 r k) + broadcastTo S5000x128 (shapeCast S1x128 x1 shapeCasts_S1x128_S1x128) broadcasts_S1x128_S5000x128 (ix2 r k)) (Ideal.ofBits .f32 0x00000000#32) = max (x0 (ix2 r k) + x1 (ix2 0 k)) Spec.zero
    rw [bias1_at, shapeCast_self]
  · show shapeCast S128x128 x2 shapeCasts_S128x128_S128x128 (ix2 k j) = x2 (ix2 k j)
    rw [shapeCast_self]

/-- The offset `(0, 0)` is the zero offset. -/
private theorem zero_off1 : (![0, 0] : Fin 2 → Nat) = fun _ => 0 := funext fun a => by fin_cases a <;> rfl

/-- The printed index maps over the grid: the row windows sit at block `(t, 0)`, the bias and weight windows at `(0, 0)`. -/
private theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A block's entry `(r, j)` is the array's entry `i` once the block's row `r` is the array's row `i 0`, the bias and
    weight blocks are the whole arrays, and `j` is `i`'s column: the row function reads nothing else. -/
private theorem block1_at (x0 : Vec Ideal S5000x128 .f32) (x1 : Vec Ideal S1x128 .f32) (x2 : Vec Ideal S128x128 .f32)
    (A : Spec.A2 50000 128) (b : Spec.A2 1 128) (W : Spec.A2 128 128) (r : Fin 5000) (j : Fin 128) (i : (⟨2, ![50000, 128]⟩ : Shape).Idx)
    (h0 : ∀ k : Fin 128, x0 (ix2 r k) = A (ix2 (i 0) k)) (h1 : ∀ k : Fin 128, x1 (ix2 0 k) = b (ix2 0 k))
    (h2 : ∀ k j : Fin 128, x2 (ix2 k j) = W (ix2 k j)) (hj : j = i 1) :
    k1_pay1 (F := Ideal) x0 x1 x2 (ix2 r j) = Spec.reluArr A (fun k => b (ix2 0 k)) W i := by
  refine (pay1_apply x0 x1 x2 r j).trans ?_
  have e0 : (fun k => x0 (ix2 r k)) = fun k => A (ix2 (i 0) k) := funext h0
  have e1 : (fun k => x1 (ix2 0 k)) = fun k => b (ix2 0 k) := funext h1
  have e2 : (fun k j => x2 (ix2 k j)) = fun k j => W (ix2 k j) := funext fun k => funext (h2 k)
  subst hj
  unfold Spec.reluArr
  rw [e0, e1, e2]

/-- What point `t` writes back is block `t` of the row function laid out over the arrays the region finds. -/
private theorem flushed1_eq (c : Dev nD) (t : Fin cfg1.N) :
    (dat1 (F := Ideal) V c).flushed 3 t = ((cfg1.win 3).blk t).view.read (Elt Ideal)
      (Spec.reluArr (V c main_v56) (fun k => (V c main_v59 : Spec.A2 1 128) (ix2 0 k)) (V c main_v58)) := by
  show (cfg1.win 3).cut (grid1.coords t) ((dat1 V c).after 3 t) = _
  rw [after1_3]
  unfold out1_3
  rw [View.canon_unit_zero zero_off1]
  simp only [View.ld_unit_zero (S := S5000x128) zero_off1, View.ld_unit_zero (S := S1x128) zero_off1, View.ld_unit_zero (S := S128x128) zero_off1]
  obtain ⟨e00, e01, e10, e11, e20, e21, e30, e31⟩ := idx_facts1 t
  funext y
  obtain ⟨r, j, rfl⟩ : ∃ (r : Fin 5000) (j : Fin 128), y = ix2 r j := ⟨y 0, y 1, eq_ix2 y⟩
  show k1_pay1 (F := Ideal) (iblk1 V c 0 t) (iblk1 V c 1 t) (iblk1 V c 2 t) (ix2 r j)
    = Spec.reluArr (V c main_v56) (fun k => (V c main_v59 : Spec.A2 1 128) (ix2 0 k)) (V c main_v58) (((cfg1.win 3).blk t).view.emb (ix2 r j))
  refine block1_at _ _ _ _ _ _ r j _ (fun k => ?_) (fun k => ?_) (fun k j' => ?_) ?_
  · show V c main_v56 (((cfg1.win 0).blk t).view.emb (ix2 r k)) = V c main_v56 (ix2 ((((cfg1.win 3).blk t).view.emb (ix2 r j)) 0) k)
    refine congrArg _ (funext fun a => Fin.ext ?_)
    match a with
    | ⟨0, _⟩ => show win1_0.index t (0 : Fin 2) * 5000 + 1 * r.val = win1_3.index t (0 : Fin 2) * 5000 + 1 * r.val; rw [e00, e30]
    | ⟨1, _⟩ => show win1_0.index t (1 : Fin 2) * 128 + 1 * k.val = k.val; rw [e01]; omega
  · show V c main_v59 (((cfg1.win 1).blk t).view.emb (ix2 0 k)) = V c main_v59 (ix2 0 k)
    refine congrArg _ (funext fun a => Fin.ext ?_)
    match a with
    | ⟨0, _⟩ => show win1_1.index t (0 : Fin 2) * 1 + 1 * 0 = 0; rw [e10]
    | ⟨1, _⟩ => show win1_1.index t (1 : Fin 2) * 128 + 1 * k.val = k.val; rw [e11]; omega
  · show V c main_v58 (((cfg1.win 2).blk t).view.emb (ix2 k j')) = V c main_v58 (ix2 k j')
    refine congrArg _ (funext fun a => Fin.ext ?_)
    match a with
    | ⟨0, _⟩ => show win1_2.index t (0 : Fin 2) * 128 + 1 * k.val = k.val; rw [e20]; omega
    | ⟨1, _⟩ => show win1_2.index t (1 : Fin 2) * 128 + 1 * j'.val = j'.val; rw [e21]; omega
  · refine Fin.ext ?_
    show j.val = win1_3.index t (1 : Fin 2) * 128 + 1 * j.val
    rw [e31]; omega

/-- An index of the array is in point `t`'s block iff each coordinate is in the block's range on its axis. -/
private theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  have h : ((cfg1.win 3).blk t).view.set = (win1_3.rect t).set := View.set_slice_whole _ _
  rw [h, Rect.mem_set_unit]
  exact Iff.rfl

/-- Row `i 0` lies in the block of point `i 0 / 5000`, and every point writes its block back. -/
private theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := by decide
  obtain ⟨t, ht⟩ : ∃ t : Fin cfg1.N, t.val = (i 0).val / 5000 := ⟨⟨(i 0).val / 5000, by show _ < grid1.N; rw [hN]; omega⟩, rfl⟩
  obtain ⟨-, -, -, -, -, -, e30, e31⟩ := idx_facts1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 128 ≤ (i 1).val ∧ (i 1).val < win1_3.index t (1 : Fin 2) * 128 + 128
    rw [e31]; omega

/-- Region 1's output array after its ten points: `reluArr` of the arrays the region finds. -/
theorem reg1 (c : Dev nD) :
    ((dat1 (F := Ideal) V c).arrAt 3 cfg1.N : Spec.A2 50000 128)
      = Spec.reluArr (V c main_v56) (fun k => (V c main_v59 : Spec.A2 1 128) (ix2 0 k)) (V c main_v58) :=
  (dat1 (F := Ideal) V c).arrAt_eq_of_cover 3 _ (fun t _ => flushed1_eq V c t) cover1

end Cert.KernelIdeal.RegVal

end
-- ==== Proof.Layer1.lean ====
/-
  From region 0's exit to region 1's. The host stretch gathers the previous product's rows at the column indices,
  scales each by its edge's normalisation and scatter-adds them at the row indices, by exactly the reference's
  operations, and hands the layer's bias to the region as a 1 × 128 array (the same entries the reference broadcasts).
  Region 1 leaves `max (a + b) 0` times the layer's weight matrix, which is the reference's next product. The index
  vectors and the normalisation are touched by neither.
-/
import proofs.«420551_j59150289601188_1_alg».proof.Proof.LayerDefs
import proofs.«420551_j59150289601188_1_alg».proof.Proof.KArgs
import proofs.«420551_j59150289601188_1_alg».proof.Proof.KReg1
import proofs.«420551_j59150289601188_1_alg».proof.Proof.RSpecMM
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Layer

open Cert.KernelIdeal Cert.KernelIdeal.Gen Idealize.ShloMosaic Idealize.ShloMosaic.TcCoe Idealize.SL.Sem Idealize.ShloMosaic.StableHlo Idealize.ShloMosaic.ValueIdx

/-! ## The host stretch, at any float family: the reference's own operations on equal inputs -/

section Host

variable {F : FTy → Type} [FloatOps F]
variable (m : (ℓ : Loc nD τ sig) → Buf (Elt F) ℓ) (ρ : Dev nD → PrngReg) (c : Dev nD)

set_option maxHeartbeats 4000000 in
/-- The first aggregation: the first product's rows gathered at the column indices, scaled by the edge normalisation
    and scatter-added at the row indices, is the reference's, when the four arrays it is built from are. -/
theorem agg1_eq (x0 : (⟨Cert.ReferenceIdeal.S50000x128, .f32⟩ : BufTy).Contents (Elt F)) (x1 : (⟨Cert.ReferenceIdeal.S2x800000, .i32⟩ : BufTy).Contents (Elt F)) (x3 x4 : (⟨Cert.ReferenceIdeal.S128, .f32⟩ : BufTy).Contents (Elt F))
    (x5 : (⟨Cert.ReferenceIdeal.S128x128, .f32⟩ : BufTy).Contents (Elt F))
    (h43 : W2 m ρ c (Proc.devRef .tc main_v43) = Cert.ReferenceIdeal.Read.val_main_v54 (F := F) x0 x3 x4 x5)
    (h5 : W2 m ρ c (Proc.devRef .tc main_v5) = Cert.ReferenceIdeal.Read.val_main_v5 (F := F) x1)
    (h6 : W2 m ρ c (Proc.devRef .tc main_v6) = Cert.ReferenceIdeal.Read.val_main_v6 (F := F) x1)
    (h28 : W2 m ρ c (Proc.devRef .tc main_v28) = Cert.ReferenceIdeal.Read.val_main_v28 (F := F) x1) :
    W3 m ρ c (Proc.devRef .tc main_v56) = Cert.ReferenceIdeal.Read.val_main_v67 (F := F) x0 x1 x3 x4 x5 := by
  show StableHlo.after hostOps1 (W2 m ρ c) (Proc.devRef .tc main_v56) = _
  after_results
  rw [h43, h5, h6, h28]
  rfl

set_option maxHeartbeats 4000000 in
/-- The layer's weight matrix: the first slab of the stacked weights, as the reference slices it. -/
theorem wgt1_eq (x7 : (⟨Cert.ReferenceIdeal.S3x128x128, .f32⟩ : BufTy).Contents (Elt F)) (h7 : W2 m ρ c (Proc.devRef .tc main_arg7) = x7) :
    W3 m ρ c (Proc.devRef .tc main_v58) = Cert.ReferenceIdeal.Read.val_main_v73 (F := F) x7 := by
  show StableHlo.after hostOps1 (W2 m ρ c) (Proc.devRef .tc main_v58) = _
  after_results
  rw [h7]
  rfl

set_option maxHeartbeats 4000000 in
/-- The layer's bias as the region takes it: the first layer's bias vector itself, laid out as a 1 × 128 array. -/
theorem bias1_eq (x6 : (⟨Cert.ReferenceIdeal.S128, .f32⟩ : BufTy).Contents (Elt F)) (h6 : W2 m ρ c (Proc.devRef .tc main_arg6) = x6) :
    W3 m ρ c (Proc.devRef .tc main_v59) = shapeCast S1x128 x6 shapeCasts_S128_S1x128 := by
  show StableHlo.after hostOps1 (W2 m ρ c) (Proc.devRef .tc main_v59) = _
  after_results
  rw [h6]
  rfl

set_option maxHeartbeats 4000000 in
/-- A buffer the stretch does not write holds after it what it held before: the row indices. -/
theorem keep1_v5 : W3 m ρ c (Proc.devRef .tc main_v5) = W2 m ρ c (Proc.devRef .tc main_v5) := by
  show StableHlo.after hostOps1 (W2 m ρ c) (Proc.devRef .tc main_v5) = _
  after_results

set_option maxHeartbeats 4000000 in
/-- The column indices likewise. -/
theorem keep1_v6 : W3 m ρ c (Proc.devRef .tc main_v6) = W2 m ρ c (Proc.devRef .tc main_v6) := by
  show StableHlo.after hostOps1 (W2 m ρ c) (Proc.devRef .tc main_v6) = _
  after_results

set_option maxHeartbeats 4000000 in
/-- The edge normalisation likewise. -/
theorem keep1_v28 : W3 m ρ c (Proc.devRef .tc main_v28) = W2 m ρ c (Proc.devRef .tc main_v28) := by
  show StableHlo.after hostOps1 (W2 m ρ c) (Proc.devRef .tc main_v28) = _
  after_results

end Host

/-! ## The layer, at the exact values -/

variable (m : (ℓ : Loc nD τ sig) → Buf (Elt Ideal) ℓ) (ρ : Dev nD → PrngReg) (c : Dev nD)

/-- The bias row the region reads, entry by entry: the first layer's bias vector. -/
theorem bias1_row (k : Fin 128) :
    (W3 m ρ c (Proc.devRef .tc main_v59) : Spec.A2 1 128) (ix2 0 k) = a6 m c (ix1 k) := by
  rw [bias1_eq m ρ c (a6 m c) (Cert.KernelIdeal.ArgsAt.W2_main_arg6 m ρ c)]
  refine shapeCast_apply _ shapeCasts_S128_S1x128 (ix2 0 k) (ix1 k) ?_
  rw [Shape.rowMajor_val_one, Shape.rowMajor_val_two]
  show k.val = 0 * 128 + k.val
  omega

/-- The facts at region 1's exit, from those at region 0's. -/
theorem at4 (h : At2 m ρ c) : At4 m ρ c := by
  refine { v60 := ?_, v5 := ?_, v6 := ?_, v28 := ?_ }
  · have hK := (W4_arr m ρ c 3).trans (Cert.KernelIdeal.RegVal.reg1 (V3 m ρ) c)
    have hR := Cert.ReferenceIdeal.RefSpec.v76_eq (a0 m c) (a1 m c) (a3 m c) (a4 m c) (a5 m c) (a6 m c) (a7 m c)
    have e1 := agg1_eq m ρ c (a0 m c) (a1 m c) (a3 m c) (a4 m c) (a5 m c) h.v43 h.v5 h.v6 h.v28
    have e2 : (fun k => (V3 m ρ c main_v59 : Spec.A2 1 128) (ix2 0 k)) = fun k => a6 m c (ix1 k) := funext fun k => bias1_row m ρ c k
    have e3 := wgt1_eq m ρ c (a7 m c) (Cert.KernelIdeal.ArgsAt.W2_main_arg7 m ρ c)
    exact hK.trans ((congr (congr (congrArg Spec.reluArr e1) e2) e3).trans hR.symm)
  · exact (W4_of_ne m ρ c main_v5 (by decide)).trans ((keep1_v5 m ρ c).trans h.v5)
  · exact (W4_of_ne m ρ c main_v6 (by decide)).trans ((keep1_v6 m ρ c).trans h.v6)
  · exact (W4_of_ne m ρ c main_v28 (by decide)).trans ((keep1_v28 m ρ c).trans h.v28)

end Cert.KernelIdeal.Layer

end
-- ==== Proof.KReg2.lean ====
/-
  A middle dense step as the kernel computes it: ten blocks of 5000 rows; each aggregated row gets the bias (a 1 × 128
  array), is cut off below at zero and is multiplied by the 128 × 128 weight matrix. The blocks tile the array and a
  row's result depends on that row alone, so the ten write-backs leave the row function laid out over all 50000 rows.
-/
import proofs.«420551_j59150289601188_1_alg».proof.Proof.Gen.KernelIdeal.Frame
import proofs.«420551_j59150289601188_1_alg».proof.Proof.SpecArr
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- Left operand's row coordinate: the output's row. -/
private theorem lhs_k2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand's column coordinate: the contraction index. -/
private theorem lhs_k2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Right operand's row coordinate: the contraction index. -/
private theorem rhs_k2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Right operand's column coordinate: the output's column. -/
private theorem rhs_k2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The bias row broadcast over the block's rows, read at row `r`, feature `k`: the bias at feature `k`. -/
private theorem bias2_at (x1 : Vec Ideal S1x128 .f32) (r : Fin 5000) (k : Fin 128) :
    broadcastTo S5000x128 (shapeCast S1x128 x1 shapeCasts_S1x128_S1x128) broadcasts_S1x128_S5000x128 (ix2 r k) = x1 (ix2 0 k) := by
  rw [shapeCast_self]
  exact broadcastTo_apply x1 broadcasts_S1x128_S5000x128 (ix2 r k) (ix2 0 k) (fun a => match a with
    | ⟨0, _⟩ => by show 0 = if (1 : Nat) = 1 then 0 else r.val; rw [if_pos rfl]
    | ⟨1, _⟩ => by show k.val = if (128 : Nat) = 1 then 0 else k.val; rw [if_neg (by decide)])

/-- Entry `(r, j)` of the body's result: the row function of row `r` of the aggregated block, at `j`. -/
private theorem pay2_apply (x0 : Vec Ideal S5000x128 .f32) (x1 : Vec Ideal S1x128 .f32) (x2 : Vec Ideal S128x128 .f32) (r : Fin 5000) (j : Fin 128) :
    k2_pay1 (F := Ideal) x0 x1 x2 (ix2 r j)
      = Spec.reluRow (fun k => x1 (ix2 0 k)) (fun k j => x2 (ix2 k j)) (fun k => x0 (ix2 r k)) j := by
  unfold k2_pay1
  refine (Ideal.matmul_constant_zero_apply dot_S5000x128_S128x128_S5000x128_1_0_0_1_n_n none _ _ (ix2 r j)).trans ?_
  refine (Equiv.sum_comp (contrEquiv1 dot_S5000x128_S128x128_S5000x128_1_0_0_1_n_n 128 rfl rfl).symm _).symm.trans ?_
  unfold Spec.reluRow Spec.hid
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_k2_0 _ _
    | ⟨1, _⟩ => exact (lhs_k2_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_k2_0 _ _).trans hk
    | ⟨1, _⟩ => exact rhs_k2_1 _ _)
  rw [el, er]
  refine congrArg₂ (· * ·) ?_ ?_
  · show max (shapeCast S5000x128 x0 shapeCasts_S5000x128_S5000x128 (ix2 r k) + broadcastTo S5000x128 (shapeCast S1x128 x1 shapeCasts_S1x128_S1x128) broadcasts_S1x128_S5000x128 (ix2 r k)) (Ideal.ofBits .f32 0x00000000#32) = max (x0 (ix2 r k) + x1 (ix2 0 k)) Spec.zero
    rw [bias2_at, shapeCast_self]
  · show shapeCast S128x128 x2 shapeCasts_S128x128_S128x128 (ix2 k j) = x2 (ix2 k j)
    rw [shapeCast_self]

/-- The offset `(0, 0)` is the zero offset. -/
private theorem zero_off2 : (![0, 0] : Fin 2 → Nat) = fun _ => 0 := funext fun a => by fin_cases a <;> rfl

/-- The printed index maps over the grid: the row windows sit at block `(t, 0)`, the bias and weight windows at `(0, 0)`. -/
private theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A block's entry `(r, j)` is the array's entry `i` once the block's row `r` is the array's row `i 0`, the bias and
    weight blocks are the whole arrays, and `j` is `i`'s column: the row function reads nothing else. -/
private theorem block2_at (x0 : Vec Ideal S5000x128 .f32) (x1 : Vec Ideal S1x128 .f32) (x2 : Vec Ideal S128x128 .f32)
    (A : Spec.A2 50000 128) (b : Spec.A2 1 128) (W : Spec.A2 128 128) (r : Fin 5000) (j : Fin 128) (i : (⟨2, ![50000, 128]⟩ : Shape).Idx)
    (h0 : ∀ k : Fin 128, x0 (ix2 r k) = A (ix2 (i 0) k)) (h1 : ∀ k : Fin 128, x1 (ix2 0 k) = b (ix2 0 k))
    (h2 : ∀ k j : Fin 128, x2 (ix2 k j) = W (ix2 k j)) (hj : j = i 1) :
    k2_pay1 (F := Ideal) x0 x1 x2 (ix2 r j) = Spec.reluArr A (fun k => b (ix2 0 k)) W i := by
  refine (pay2_apply x0 x1 x2 r j).trans ?_
  have e0 : (fun k => x0 (ix2 r k)) = fun k => A (ix2 (i 0) k) := funext h0
  have e1 : (fun k => x1 (ix2 0 k)) = fun k => b (ix2 0 k) := funext h1
  have e2 : (fun k j => x2 (ix2 k j)) = fun k j => W (ix2 k j) := funext fun k => funext (h2 k)
  subst hj
  unfold Spec.reluArr
  rw [e0, e1, e2]

/-- What point `t` writes back is block `t` of the row function laid out over the arrays the region finds. -/
private theorem flushed2_eq (c : Dev nD) (t : Fin cfg2.N) :
    (dat2 (F := Ideal) V c).flushed 3 t = ((cfg2.win 3).blk t).view.read (Elt Ideal)
      (Spec.reluArr (V c main_v73) (fun k => (V c main_v78 : Spec.A2 1 128) (ix2 0 k)) (V c main_v77)) := by
  show (cfg2.win 3).cut (grid2.coords t) ((dat2 V c).after 3 t) = _
  rw [after2_3]
  unfold out2_3
  rw [View.canon_unit_zero zero_off2]
  simp only [View.ld_unit_zero (S := S5000x128) zero_off2, View.ld_unit_zero (S := S1x128) zero_off2, View.ld_unit_zero (S := S128x128) zero_off2]
  obtain ⟨e00, e01, e10, e11, e20, e21, e30, e31⟩ := idx_facts2 t
  funext y
  obtain ⟨r, j, rfl⟩ : ∃ (r : Fin 5000) (j : Fin 128), y = ix2 r j := ⟨y 0, y 1, eq_ix2 y⟩
  show k2_pay1 (F := Ideal) (iblk2 V c 0 t) (iblk2 V c 1 t) (iblk2 V c 2 t) (ix2 r j)
    = Spec.reluArr (V c main_v73) (fun k => (V c main_v78 : Spec.A2 1 128) (ix2 0 k)) (V c main_v77) (((cfg2.win 3).blk t).view.emb (ix2 r j))
  refine block2_at _ _ _ _ _ _ r j _ (fun k => ?_) (fun k => ?_) (fun k j' => ?_) ?_
  · show V c main_v73 (((cfg2.win 0).blk t).view.emb (ix2 r k)) = V c main_v73 (ix2 ((((cfg2.win 3).blk t).view.emb (ix2 r j)) 0) k)
    refine congrArg _ (funext fun a => Fin.ext ?_)
    match a with
    | ⟨0, _⟩ => show win2_0.index t (0 : Fin 2) * 5000 + 1 * r.val = win2_3.index t (0 : Fin 2) * 5000 + 1 * r.val; rw [e00, e30]
    | ⟨1, _⟩ => show win2_0.index t (1 : Fin 2) * 128 + 1 * k.val = k.val; rw [e01]; omega
  · show V c main_v78 (((cfg2.win 1).blk t).view.emb (ix2 0 k)) = V c main_v78 (ix2 0 k)
    refine congrArg _ (funext fun a => Fin.ext ?_)
    match a with
    | ⟨0, _⟩ => show win2_1.index t (0 : Fin 2) * 1 + 1 * 0 = 0; rw [e10]
    | ⟨1, _⟩ => show win2_1.index t (1 : Fin 2) * 128 + 1 * k.val = k.val; rw [e11]; omega
  · show V c main_v77 (((cfg2.win 2).blk t).view.emb (ix2 k j')) = V c main_v77 (ix2 k j')
    refine congrArg _ (funext fun a => Fin.ext ?_)
    match a with
    | ⟨0, _⟩ => show win2_2.index t (0 : Fin 2) * 128 + 1 * k.val = k.val; rw [e20]; omega
    | ⟨1, _⟩ => show win2_2.index t (1 : Fin 2) * 128 + 1 * j'.val = j'.val; rw [e21]; omega
  · refine Fin.ext ?_
    show j.val = win2_3.index t (1 : Fin 2) * 128 + 1 * j.val
    rw [e31]; omega

/-- An index of the array is in point `t`'s block iff each coordinate is in the block's range on its axis. -/
private theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  have h : ((cfg2.win 3).blk t).view.set = (win2_3.rect t).set := View.set_slice_whole _ _
  rw [h, Rect.mem_set_unit]
  exact Iff.rfl

/-- Row `i 0` lies in the block of point `i 0 / 5000`, and every point writes its block back. -/
private theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := by decide
  obtain ⟨t, ht⟩ : ∃ t : Fin cfg2.N, t.val = (i 0).val / 5000 := ⟨⟨(i 0).val / 5000, by show _ < grid2.N; rw [hN]; omega⟩, rfl⟩
  obtain ⟨-, -, -, -, -, -, e30, e31⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e30, ht]; omega
  | ⟨1, _⟩ =>
    show win2_3.index t (1 : Fin 2) * 128 ≤ (i 1).val ∧ (i 1).val < win2_3.index t (1 : Fin 2) * 128 + 128
    rw [e31]; omega

/-- Region 2's output array after its ten points: `reluArr` of the arrays the region finds. -/
theorem reg2 (c : Dev nD) :
    ((dat2 (F := Ideal) V c).arrAt 3 cfg2.N : Spec.A2 50000 128)
      = Spec.reluArr (V c main_v73) (fun k => (V c main_v78 : Spec.A2 1 128) (ix2 0 k)) (V c main_v77) :=
  (dat2 (F := Ideal) V c).arrAt_eq_of_cover 3 _ (fun t _ => flushed2_eq V c t) cover2

end Cert.KernelIdeal.RegVal

end
-- ==== Proof.Layer2.lean ====
/-
  From region 1's exit to region 2's. The host stretch gathers the previous product's rows at the column indices,
  scales each by its edge's normalisation and scatter-adds them at the row indices, by exactly the reference's
  operations, and hands the layer's bias to the region as a 1 × 128 array (the same entries the reference broadcasts).
  Region 2 leaves `max (a + b) 0` times the layer's weight matrix, which is the reference's next product. The index
  vectors and the normalisation are touched by neither.
-/
import proofs.«420551_j59150289601188_1_alg».proof.Proof.LayerDefs
import proofs.«420551_j59150289601188_1_alg».proof.Proof.KArgs
import proofs.«420551_j59150289601188_1_alg».proof.Proof.KReg2
import proofs.«420551_j59150289601188_1_alg».proof.Proof.RSpecMM
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Layer

open Cert.KernelIdeal Cert.KernelIdeal.Gen Idealize.ShloMosaic Idealize.ShloMosaic.TcCoe Idealize.SL.Sem Idealize.ShloMosaic.StableHlo Idealize.ShloMosaic.ValueIdx

/-! ## The host stretch, at any float family: the reference's own operations on equal inputs -/

section Host

variable {F : FTy → Type} [FloatOps F]
variable (m : (ℓ : Loc nD τ sig) → Buf (Elt F) ℓ) (ρ : Dev nD → PrngReg) (c : Dev nD)

set_option maxHeartbeats 4000000 in
/-- The second aggregation: the second product's rows gathered at the column indices, scaled by the edge normalisation
    and scatter-added at the row indices, is the reference's, when the four arrays it is built from are. -/
theorem agg2_eq (x0 : (⟨Cert.ReferenceIdeal.S50000x128, .f32⟩ : BufTy).Contents (Elt F)) (x1 : (⟨Cert.ReferenceIdeal.S2x800000, .i32⟩ : BufTy).Contents (Elt F)) (x3 x4 : (⟨Cert.ReferenceIdeal.S128, .f32⟩ : BufTy).Contents (Elt F))
    (x5 : (⟨Cert.ReferenceIdeal.S128x128, .f32⟩ : BufTy).Contents (Elt F)) (x6 : (⟨Cert.ReferenceIdeal.S128, .f32⟩ : BufTy).Contents (Elt F)) (x7 : (⟨Cert.ReferenceIdeal.S3x128x128, .f32⟩ : BufTy).Contents (Elt F))
    (h60 : W4 m ρ c (Proc.devRef .tc main_v60) = Cert.ReferenceIdeal.Read.val_main_v76 (F := F) x0 x1 x3 x4 x5 x6 x7)
    (h5 : W4 m ρ c (Proc.devRef .tc main_v5) = Cert.ReferenceIdeal.Read.val_main_v5 (F := F) x1)
    (h6 : W4 m ρ c (Proc.devRef .tc main_v6) = Cert.ReferenceIdeal.Read.val_main_v6 (F := F) x1)
    (h28 : W4 m ρ c (Proc.devRef .tc main_v28) = Cert.ReferenceIdeal.Read.val_main_v28 (F := F) x1) :
    W5 m ρ c (Proc.devRef .tc main_v73) = Cert.ReferenceIdeal.Read.val_main_v89 (F := F) x0 x1 x3 x4 x5 x6 x7 := by
  show StableHlo.after hostOps2 (W4 m ρ c) (Proc.devRef .tc main_v73) = _
  after_results
  rw [h60, h5, h6, h28]
  rfl

set_option maxHeartbeats 4000000 in
/-- The layer's weight matrix: the second slab of the stacked weights, as the reference slices it. -/
theorem wgt2_eq (x7 : (⟨Cert.ReferenceIdeal.S3x128x128, .f32⟩ : BufTy).Contents (Elt F)) (h7 : W4 m ρ c (Proc.devRef .tc main_arg7) = x7) :
    W5 m ρ c (Proc.devRef .tc main_v77) = Cert.ReferenceIdeal.Read.val_main_v95 (F := F) x7 := by
  show StableHlo.after hostOps2 (W4 m ρ c) (Proc.devRef .tc main_v77) = _
  after_results
  rw [h7]
  rfl

set_option maxHeartbeats 4000000 in
/-- The layer's bias as the region takes it: the first row of the stacked biases, as the reference slices it, laid
    out as a 1 × 128 array. -/
theorem bias2_eq (x8 : (⟨Cert.ReferenceIdeal.S3x128, .f32⟩ : BufTy).Contents (Elt F)) (h8 : W4 m ρ c (Proc.devRef .tc main_arg8) = x8) :
    W5 m ρ c (Proc.devRef .tc main_v78)
      = shapeCast S1x128 (Cert.ReferenceIdeal.Read.val_main_v75 (F := F) x8) shapeCasts_S128_S1x128 := by
  show StableHlo.after hostOps2 (W4 m ρ c) (Proc.devRef .tc main_v78) = _
  after_results
  rw [h8]
  rfl

set_option maxHeartbeats 4000000 in
/-- A buffer the stretch does not write holds after it what it held before: the row indices. -/
theorem keep2_v5 : W5 m ρ c (Proc.devRef .tc main_v5) = W4 m ρ c (Proc.devRef .tc main_v5) := by
  show StableHlo.after hostOps2 (W4 m ρ c) (Proc.devRef .tc main_v5) = _
  after_results

set_option maxHeartbeats 4000000 in
/-- The column indices likewise. -/
theorem keep2_v6 : W5 m ρ c (Proc.devRef .tc main_v6) = W4 m ρ c (Proc.devRef .tc main_v6) := by
  show StableHlo.after hostOps2 (W4 m ρ c) (Proc.devRef .tc main_v6) = _
  after_results

set_option maxHeartbeats 4000000 in
/-- The edge normalisation likewise. -/
theorem keep2_v28 : W5 m ρ c (Proc.devRef .tc main_v28) = W4 m ρ c (Proc.devRef .tc main_v28) := by
  show StableHlo.after hostOps2 (W4 m ρ c) (Proc.devRef .tc main_v28) = _
  after_results

end Host

/-! ## The layer, at the exact values -/

variable (m : (ℓ : Loc nD τ sig) → Buf (Elt Ideal) ℓ) (ρ : Dev nD → PrngReg) (c : Dev nD)

/-- The bias row the region reads, entry by entry: the reference's bias vector. -/
theorem bias2_row (k : Fin 128) :
    (W5 m ρ c (Proc.devRef .tc main_v78) : Spec.A2 1 128) (ix2 0 k)
      = Cert.ReferenceIdeal.Read.val_main_v75 (F := Ideal) (a8 m c) (ix1 k) := by
  rw [bias2_eq m ρ c (a8 m c) (Cert.KernelIdeal.ArgsAt.W4_main_arg8 m ρ c)]
  refine shapeCast_apply _ shapeCasts_S128_S1x128 (ix2 0 k) (ix1 k) ?_
  rw [Shape.rowMajor_val_one, Shape.rowMajor_val_two]
  show k.val = 0 * 128 + k.val
  omega

/-- The facts at region 2's exit, from those at region 1's. -/
theorem at6 (h : At4 m ρ c) : At6 m ρ c where
  v79 := by
    have hK := (W6_arr m ρ c 3).trans (Cert.KernelIdeal.RegVal.reg2 (V5 m ρ) c)
    have hR := Cert.ReferenceIdeal.RefSpec.v98_eq (a0 m c) (a1 m c) (a3 m c) (a4 m c) (a5 m c) (a6 m c) (a7 m c) (a8 m c)
    have e1 := agg2_eq m ρ c (a0 m c) (a1 m c) (a3 m c) (a4 m c) (a5 m c) (a6 m c) (a7 m c) h.v60 h.v5 h.v6 h.v28
    have e2 : (fun k => (V5 m ρ c main_v78 : Spec.A2 1 128) (ix2 0 k))
        = fun k => Cert.ReferenceIdeal.Read.val_main_v75 (F := Ideal) (a8 m c) (ix1 k) := funext fun k => bias2_row m ρ c k
    have e3 := wgt2_eq m ρ c (a7 m c) (Cert.KernelIdeal.ArgsAt.W4_main_arg7 m ρ c)
    exact hK.trans ((congr (congr (congrArg Spec.reluArr e1) e2) e3).trans hR.symm)
  v5 := (W6_of_ne m ρ c main_v5 (by decide)).trans ((keep2_v5 m ρ c).trans h.v5)
  v6 := (W6_of_ne m ρ c main_v6 (by decide)).trans ((keep2_v6 m ρ c).trans h.v6)
  v28 := (W6_of_ne m ρ c main_v28 (by decide)).trans ((keep2_v28 m ρ c).trans h.v28)

end Cert.KernelIdeal.Layer

end
-- ==== Proof.KReg3.lean ====
/-
  A middle dense step as the kernel computes it: ten blocks of 5000 rows; each aggregated row gets the bias (a 1 × 128
  array), is cut off below at zero and is multiplied by the 128 × 128 weight matrix. The blocks tile the array and a
  row's result depends on that row alone, so the ten write-backs leave the row function laid out over all 50000 rows.
-/
import proofs.«420551_j59150289601188_1_alg».proof.Proof.Gen.KernelIdeal.Frame
import proofs.«420551_j59150289601188_1_alg».proof.Proof.SpecArr
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- Left operand's row coordinate: the output's row. -/
private theorem lhs_k3_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand's column coordinate: the contraction index. -/
private theorem lhs_k3_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Right operand's row coordinate: the contraction index. -/
private theorem rhs_k3_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Right operand's column coordinate: the output's column. -/
private theorem rhs_k3_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The bias row broadcast over the block's rows, read at row `r`, feature `k`: the bias at feature `k`. -/
private theorem bias3_at (x1 : Vec Ideal S1x128 .f32) (r : Fin 5000) (k : Fin 128) :
    broadcastTo S5000x128 (shapeCast S1x128 x1 shapeCasts_S1x128_S1x128) broadcasts_S1x128_S5000x128 (ix2 r k) = x1 (ix2 0 k) := by
  rw [shapeCast_self]
  exact broadcastTo_apply x1 broadcasts_S1x128_S5000x128 (ix2 r k) (ix2 0 k) (fun a => match a with
    | ⟨0, _⟩ => by show 0 = if (1 : Nat) = 1 then 0 else r.val; rw [if_pos rfl]
    | ⟨1, _⟩ => by show k.val = if (128 : Nat) = 1 then 0 else k.val; rw [if_neg (by decide)])

/-- Entry `(r, j)` of the body's result: the row function of row `r` of the aggregated block, at `j`. -/
private theorem pay3_apply (x0 : Vec Ideal S5000x128 .f32) (x1 : Vec Ideal S1x128 .f32) (x2 : Vec Ideal S128x128 .f32) (r : Fin 5000) (j : Fin 128) :
    k3_pay1 (F := Ideal) x0 x1 x2 (ix2 r j)
      = Spec.reluRow (fun k => x1 (ix2 0 k)) (fun k j => x2 (ix2 k j)) (fun k => x0 (ix2 r k)) j := by
  unfold k3_pay1
  refine (Ideal.matmul_constant_zero_apply dot_S5000x128_S128x128_S5000x128_1_0_0_1_n_n none _ _ (ix2 r j)).trans ?_
  refine (Equiv.sum_comp (contrEquiv1 dot_S5000x128_S128x128_S5000x128_1_0_0_1_n_n 128 rfl rfl).symm _).symm.trans ?_
  unfold Spec.reluRow Spec.hid
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_k3_0 _ _
    | ⟨1, _⟩ => exact (lhs_k3_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_k3_0 _ _).trans hk
    | ⟨1, _⟩ => exact rhs_k3_1 _ _)
  rw [el, er]
  refine congrArg₂ (· * ·) ?_ ?_
  · show max (shapeCast S5000x128 x0 shapeCasts_S5000x128_S5000x128 (ix2 r k) + broadcastTo S5000x128 (shapeCast S1x128 x1 shapeCasts_S1x128_S1x128) broadcasts_S1x128_S5000x128 (ix2 r k)) (Ideal.ofBits .f32 0x00000000#32) = max (x0 (ix2 r k) + x1 (ix2 0 k)) Spec.zero
    rw [bias3_at, shapeCast_self]
  · show shapeCast S128x128 x2 shapeCasts_S128x128_S128x128 (ix2 k j) = x2 (ix2 k j)
    rw [shapeCast_self]

/-- The offset `(0, 0)` is the zero offset. -/
private theorem zero_off3 : (![0, 0] : Fin 2 → Nat) = fun _ => 0 := funext fun a => by fin_cases a <;> rfl

/-- The printed index maps over the grid: the row windows sit at block `(t, 0)`, the bias and weight windows at `(0, 0)`. -/
private theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A block's entry `(r, j)` is the array's entry `i` once the block's row `r` is the array's row `i 0`, the bias and
    weight blocks are the whole arrays, and `j` is `i`'s column: the row function reads nothing else. -/
private theorem block3_at (x0 : Vec Ideal S5000x128 .f32) (x1 : Vec Ideal S1x128 .f32) (x2 : Vec Ideal S128x128 .f32)
    (A : Spec.A2 50000 128) (b : Spec.A2 1 128) (W : Spec.A2 128 128) (r : Fin 5000) (j : Fin 128) (i : (⟨2, ![50000, 128]⟩ : Shape).Idx)
    (h0 : ∀ k : Fin 128, x0 (ix2 r k) = A (ix2 (i 0) k)) (h1 : ∀ k : Fin 128, x1 (ix2 0 k) = b (ix2 0 k))
    (h2 : ∀ k j : Fin 128, x2 (ix2 k j) = W (ix2 k j)) (hj : j = i 1) :
    k3_pay1 (F := Ideal) x0 x1 x2 (ix2 r j) = Spec.reluArr A (fun k => b (ix2 0 k)) W i := by
  refine (pay3_apply x0 x1 x2 r j).trans ?_
  have e0 : (fun k => x0 (ix2 r k)) = fun k => A (ix2 (i 0) k) := funext h0
  have e1 : (fun k => x1 (ix2 0 k)) = fun k => b (ix2 0 k) := funext h1
  have e2 : (fun k j => x2 (ix2 k j)) = fun k j => W (ix2 k j) := funext fun k => funext (h2 k)
  subst hj
  unfold Spec.reluArr
  rw [e0, e1, e2]

/-- What point `t` writes back is block `t` of the row function laid out over the arrays the region finds. -/
private theorem flushed3_eq (c : Dev nD) (t : Fin cfg3.N) :
    (dat3 (F := Ideal) V c).flushed 3 t = ((cfg3.win 3).blk t).view.read (Elt Ideal)
      (Spec.reluArr (V c main_v92) (fun k => (V c main_v97 : Spec.A2 1 128) (ix2 0 k)) (V c main_v96)) := by
  show (cfg3.win 3).cut (grid3.coords t) ((dat3 V c).after 3 t) = _
  rw [after3_3]
  unfold out3_3
  rw [View.canon_unit_zero zero_off3]
  simp only [View.ld_unit_zero (S := S5000x128) zero_off3, View.ld_unit_zero (S := S1x128) zero_off3, View.ld_unit_zero (S := S128x128) zero_off3]
  obtain ⟨e00, e01, e10, e11, e20, e21, e30, e31⟩ := idx_facts3 t
  funext y
  obtain ⟨r, j, rfl⟩ : ∃ (r : Fin 5000) (j : Fin 128), y = ix2 r j := ⟨y 0, y 1, eq_ix2 y⟩
  show k3_pay1 (F := Ideal) (iblk3 V c 0 t) (iblk3 V c 1 t) (iblk3 V c 2 t) (ix2 r j)
    = Spec.reluArr (V c main_v92) (fun k => (V c main_v97 : Spec.A2 1 128) (ix2 0 k)) (V c main_v96) (((cfg3.win 3).blk t).view.emb (ix2 r j))
  refine block3_at _ _ _ _ _ _ r j _ (fun k => ?_) (fun k => ?_) (fun k j' => ?_) ?_
  · show V c main_v92 (((cfg3.win 0).blk t).view.emb (ix2 r k)) = V c main_v92 (ix2 ((((cfg3.win 3).blk t).view.emb (ix2 r j)) 0) k)
    refine congrArg _ (funext fun a => Fin.ext ?_)
    match a with
    | ⟨0, _⟩ => show win3_0.index t (0 : Fin 2) * 5000 + 1 * r.val = win3_3.index t (0 : Fin 2) * 5000 + 1 * r.val; rw [e00, e30]
    | ⟨1, _⟩ => show win3_0.index t (1 : Fin 2) * 128 + 1 * k.val = k.val; rw [e01]; omega
  · show V c main_v97 (((cfg3.win 1).blk t).view.emb (ix2 0 k)) = V c main_v97 (ix2 0 k)
    refine congrArg _ (funext fun a => Fin.ext ?_)
    match a with
    | ⟨0, _⟩ => show win3_1.index t (0 : Fin 2) * 1 + 1 * 0 = 0; rw [e10]
    | ⟨1, _⟩ => show win3_1.index t (1 : Fin 2) * 128 + 1 * k.val = k.val; rw [e11]; omega
  · show V c main_v96 (((cfg3.win 2).blk t).view.emb (ix2 k j')) = V c main_v96 (ix2 k j')
    refine congrArg _ (funext fun a => Fin.ext ?_)
    match a with
    | ⟨0, _⟩ => show win3_2.index t (0 : Fin 2) * 128 + 1 * k.val = k.val; rw [e20]; omega
    | ⟨1, _⟩ => show win3_2.index t (1 : Fin 2) * 128 + 1 * j'.val = j'.val; rw [e21]; omega
  · refine Fin.ext ?_
    show j.val = win3_3.index t (1 : Fin 2) * 128 + 1 * j.val
    rw [e31]; omega

/-- An index of the array is in point `t`'s block iff each coordinate is in the block's range on its axis. -/
private theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  have h : ((cfg3.win 3).blk t).view.set = (win3_3.rect t).set := View.set_slice_whole _ _
  rw [h, Rect.mem_set_unit]
  exact Iff.rfl

/-- Row `i 0` lies in the block of point `i 0 / 5000`, and every point writes its block back. -/
private theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := by decide
  obtain ⟨t, ht⟩ : ∃ t : Fin cfg3.N, t.val = (i 0).val / 5000 := ⟨⟨(i 0).val / 5000, by show _ < grid3.N; rw [hN]; omega⟩, rfl⟩
  obtain ⟨-, -, -, -, -, -, e30, e31⟩ := idx_facts3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    rw [e30, ht]; omega
  | ⟨1, _⟩ =>
    show win3_3.index t (1 : Fin 2) * 128 ≤ (i 1).val ∧ (i 1).val < win3_3.index t (1 : Fin 2) * 128 + 128
    rw [e31]; omega

/-- Region 3's output array after its ten points: `reluArr` of the arrays the region finds. -/
theorem reg3 (c : Dev nD) :
    ((dat3 (F := Ideal) V c).arrAt 3 cfg3.N : Spec.A2 50000 128)
      = Spec.reluArr (V c main_v92) (fun k => (V c main_v97 : Spec.A2 1 128) (ix2 0 k)) (V c main_v96) :=
  (dat3 (F := Ideal) V c).arrAt_eq_of_cover 3 _ (fun t _ => flushed3_eq V c t) cover3

end Cert.KernelIdeal.RegVal

end
-- ==== Proof.Layer3.lean ====
/-
  From region 2's exit to region 3's. The host stretch gathers the previous product's rows at the column indices,
  scales each by its edge's normalisation and scatter-adds them at the row indices, by exactly the reference's
  operations, and hands the layer's bias to the region as a 1 × 128 array (the same entries the reference broadcasts).
  Region 3 leaves `max (a + b) 0` times the layer's weight matrix, which is the reference's next product. The index
  vectors and the normalisation are touched by neither.
-/
import proofs.«420551_j59150289601188_1_alg».proof.Proof.LayerDefs
import proofs.«420551_j59150289601188_1_alg».proof.Proof.KArgs
import proofs.«420551_j59150289601188_1_alg».proof.Proof.KReg3
import proofs.«420551_j59150289601188_1_alg».proof.Proof.RSpecMM
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Layer

open Cert.KernelIdeal Cert.KernelIdeal.Gen Idealize.ShloMosaic Idealize.ShloMosaic.TcCoe Idealize.SL.Sem Idealize.ShloMosaic.StableHlo Idealize.ShloMosaic.ValueIdx

/-! ## The host stretch, at any float family: the reference's own operations on equal inputs -/

section Host

variable {F : FTy → Type} [FloatOps F]
variable (m : (ℓ : Loc nD τ sig) → Buf (Elt F) ℓ) (ρ : Dev nD → PrngReg) (c : Dev nD)

set_option maxHeartbeats 4000000 in
/-- The third aggregation: the third product's rows gathered at the column indices, scaled by the edge normalisation
    and scatter-added at the row indices, is the reference's, when the four arrays it is built from are. -/
theorem agg3_eq (x0 : (⟨Cert.ReferenceIdeal.S50000x128, .f32⟩ : BufTy).Contents (Elt F)) (x1 : (⟨Cert.ReferenceIdeal.S2x800000, .i32⟩ : BufTy).Contents (Elt F)) (x3 x4 : (⟨Cert.ReferenceIdeal.S128, .f32⟩ : BufTy).Contents (Elt F))
    (x5 : (⟨Cert.ReferenceIdeal.S128x128, .f32⟩ : BufTy).Contents (Elt F)) (x6 : (⟨Cert.ReferenceIdeal.S128, .f32⟩ : BufTy).Contents (Elt F)) (x7 : (⟨Cert.ReferenceIdeal.S3x128x128, .f32⟩ : BufTy).Contents (Elt F))
    (x8 : (⟨Cert.ReferenceIdeal.S3x128, .f32⟩ : BufTy).Contents (Elt F))
    (h79 : W6 m ρ c (Proc.devRef .tc main_v79) = Cert.ReferenceIdeal.Read.val_main_v98 (F := F) x0 x1 x3 x4 x5 x6 x7 x8)
    (h5 : W6 m ρ c (Proc.devRef .tc main_v5) = Cert.ReferenceIdeal.Read.val_main_v5 (F := F) x1)
    (h6 : W6 m ρ c (Proc.devRef .tc main_v6) = Cert.ReferenceIdeal.Read.val_main_v6 (F := F) x1)
    (h28 : W6 m ρ c (Proc.devRef .tc main_v28) = Cert.ReferenceIdeal.Read.val_main_v28 (F := F) x1) :
    W7 m ρ c (Proc.devRef .tc main_v92) = Cert.ReferenceIdeal.Read.val_main_v111 (F := F) x0 x1 x3 x4 x5 x6 x7 x8 := by
  show StableHlo.after hostOps3 (W6 m ρ c) (Proc.devRef .tc main_v92) = _
  after_results
  rw [h79, h5, h6, h28]
  rfl

set_option maxHeartbeats 4000000 in
/-- The layer's weight matrix: the third slab of the stacked weights, as the reference slices it. -/
theorem wgt3_eq (x7 : (⟨Cert.ReferenceIdeal.S3x128x128, .f32⟩ : BufTy).Contents (Elt F)) (h7 : W6 m ρ c (Proc.devRef .tc main_arg7) = x7) :
    W7 m ρ c (Proc.devRef .tc main_v96) = Cert.ReferenceIdeal.Read.val_main_v117 (F := F) x7 := by
  show StableHlo.after hostOps3 (W6 m ρ c) (Proc.devRef .tc main_v96) = _
  after_results
  rw [h7]
  rfl

set_option maxHeartbeats 4000000 in
/-- The layer's bias as the region takes it: the second row of the stacked biases, as the reference slices it, laid
    out as a 1 × 128 array. -/
theorem bias3_eq (x8 : (⟨Cert.ReferenceIdeal.S3x128, .f32⟩ : BufTy).Contents (Elt F)) (h8 : W6 m ρ c (Proc.devRef .tc main_arg8) = x8) :
    W7 m ρ c (Proc.devRef .tc main_v97)
      = shapeCast S1x128 (Cert.ReferenceIdeal.Read.val_main_v97 (F := F) x8) shapeCasts_S128_S1x128 := by
  show StableHlo.after hostOps3 (W6 m ρ c) (Proc.devRef .tc main_v97) = _
  after_results
  rw [h8]
  rfl

set_option maxHeartbeats 4000000 in
/-- A buffer the stretch does not write holds after it what it held before: the row indices. -/
theorem keep3_v5 : W7 m ρ c (Proc.devRef .tc main_v5) = W6 m ρ c (Proc.devRef .tc main_v5) := by
  show StableHlo.after hostOps3 (W6 m ρ c) (Proc.devRef .tc main_v5) = _
  after_results

set_option maxHeartbeats 4000000 in
/-- The column indices likewise. -/
theorem keep3_v6 : W7 m ρ c (Proc.devRef .tc main_v6) = W6 m ρ c (Proc.devRef .tc main_v6) := by
  show StableHlo.after hostOps3 (W6 m ρ c) (Proc.devRef .tc main_v6) = _
  after_results

set_option maxHeartbeats 4000000 in
/-- The edge normalisation likewise. -/
theorem keep3_v28 : W7 m ρ c (Proc.devRef .tc main_v28) = W6 m ρ c (Proc.devRef .tc main_v28) := by
  show StableHlo.after hostOps3 (W6 m ρ c) (Proc.devRef .tc main_v28) = _
  after_results

end Host

/-! ## The layer, at the exact values -/

variable (m : (ℓ : Loc nD τ sig) → Buf (Elt Ideal) ℓ) (ρ : Dev nD → PrngReg) (c : Dev nD)

/-- The bias row the region reads, entry by entry: the reference's bias vector. -/
theorem bias3_row (k : Fin 128) :
    (W7 m ρ c (Proc.devRef .tc main_v97) : Spec.A2 1 128) (ix2 0 k)
      = Cert.ReferenceIdeal.Read.val_main_v97 (F := Ideal) (a8 m c) (ix1 k) := by
  rw [bias3_eq m ρ c (a8 m c) (Cert.KernelIdeal.ArgsAt.W6_main_arg8 m ρ c)]
  refine shapeCast_apply _ shapeCasts_S128_S1x128 (ix2 0 k) (ix1 k) ?_
  rw [Shape.rowMajor_val_one, Shape.rowMajor_val_two]
  show k.val = 0 * 128 + k.val
  omega

/-- The facts at region 3's exit, from those at region 2's. -/
theorem at8 (h : At6 m ρ c) : At8 m ρ c where
  v98 := by
    have hK := (W8_arr m ρ c 3).trans (Cert.KernelIdeal.RegVal.reg3 (V7 m ρ) c)
    have hR := Cert.ReferenceIdeal.RefSpec.v120_eq (a0 m c) (a1 m c) (a3 m c) (a4 m c) (a5 m c) (a6 m c) (a7 m c) (a8 m c)
    have e1 := agg3_eq m ρ c (a0 m c) (a1 m c) (a3 m c) (a4 m c) (a5 m c) (a6 m c) (a7 m c) (a8 m c) h.v79 h.v5 h.v6 h.v28
    have e2 : (fun k => (V7 m ρ c main_v97 : Spec.A2 1 128) (ix2 0 k))
        = fun k => Cert.ReferenceIdeal.Read.val_main_v97 (F := Ideal) (a8 m c) (ix1 k) := funext fun k => bias3_row m ρ c k
    have e3 := wgt3_eq m ρ c (a7 m c) (Cert.KernelIdeal.ArgsAt.W6_main_arg7 m ρ c)
    exact hK.trans ((congr (congr (congrArg Spec.reluArr e1) e2) e3).trans hR.symm)
  v5 := (W8_of_ne m ρ c main_v5 (by decide)).trans ((keep3_v5 m ρ c).trans h.v5)
  v6 := (W8_of_ne m ρ c main_v6 (by decide)).trans ((keep3_v6 m ρ c).trans h.v6)
  v28 := (W8_of_ne m ρ c main_v28 (by decide)).trans ((keep3_v28 m ρ c).trans h.v28)

end Cert.KernelIdeal.Layer

end
-- ==== Proof.KReg4.lean ====
/-
  The attention step as the kernel computes it: per block of 5000 rows, the hidden row `max (a + b) 0`, its two logits
  (a 128 × 2 product plus a 1 × 2 bias), their softmax (running maximum from negative infinity, exponentials, their
  sum, the quotient), and the hidden row scaled by the first weight into one output and by the second into the other.
  Every quantity is a function of the row alone, so the write-backs leave the row function over all 50000 rows.
-/
import proofs.«420551_j59150289601188_1_alg».proof.Proof.Gen.KernelIdeal.Frame
import proofs.«420551_j59150289601188_1_alg».proof.Proof.SpecArr
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-! ## Layout and reduction steps read at an index -/

/-- A column of 5000 values laid beside itself: entry (r, a) of the two-column form is entry r. -/
private theorem col2_apply (v : FVec Ideal S5000 .f32) (h1 : S5000.ShapeCasts S5000x1) (h2 : S5000x1.Broadcasts S5000x2)
    (r : Fin 5000) (a : Fin 2) :
    broadcastTo S5000x2 (shapeCast S5000x1 v h1) h2 (ix2 r a) = v (ix1 r) := by
  refine (broadcastTo_apply _ h2 (ix2 r a) (ix2 r 0) (fun c => ?_)).trans ?_
  · match c with
    | ⟨0, _⟩ => show r.val = if (5000 : Nat) = 1 then 0 else r.val; rw [if_neg (by decide)]
    | ⟨1, _⟩ => show 0 = if (1 : Nat) = 1 then 0 else a.val; rw [if_pos rfl]
  · refine shapeCast_apply v h1 (ix2 r 0) (ix1 r) ?_
    rw [Shape.rowMajor_val_one, Shape.rowMajor_val_two]
    show r.val = r.val * 1 + 0
    omega

/-- One of the two columns laid across 128 features: entry (r, k) is entry (r, a0) of the two-column array. -/
private theorem sel_apply (w : FVec Ideal S5000x2 .f32) (a0 : Fin 2) (off : Fin 2 → Nat) (hoff : off = ![0, a0.val])
    (h1 : S5000x2.Slices off S5000x1) (h2 : S5000x1.Broadcasts S5000x128)
    (r : Fin 5000) (k : Fin 128) :
    broadcastTo S5000x128 (extractStridedSlice S5000x1 off w h1) h2 (ix2 r k) = w (ix2 r a0) := by
  subst hoff
  refine (broadcastTo_apply _ h2 (ix2 r k) (ix2 r 0) (fun c => ?_)).trans ?_
  · match c with
    | ⟨0, _⟩ => show r.val = if (5000 : Nat) = 1 then 0 else r.val; rw [if_neg (by decide)]
    | ⟨1, _⟩ => show 0 = if (1 : Nat) = 1 then 0 else k.val; rw [if_pos rfl]
  · refine extractStridedSlice_apply _ w h1 (ix2 r 0) (ix2 r a0) (fun c => ?_)
    match c with
    | ⟨0, _⟩ => show r.val = 0 + r.val; omega
    | ⟨1, _⟩ => show a0.val = a0.val + 0; omega

/-- A row vector laid under every row: entry (r, k) is entry (0, k). -/
private theorem row_apply {n : Nat} (hn : n ≠ 1) (v : (⟨2, ![1, n]⟩ : Shape).Idx → EReal) (h1 : (⟨2, ![1, n]⟩ : Shape).ShapeCasts ⟨2, ![1, n]⟩)
    (h2 : (⟨2, ![1, n]⟩ : Shape).Broadcasts ⟨2, ![5000, n]⟩) (r : Fin 5000) (k : Fin n) :
    broadcastTo ⟨2, ![5000, n]⟩ (shapeCast ⟨2, ![1, n]⟩ v h1) h2 (ix2 r k) = v (ix2 0 k) := by
  rw [shapeCast_self]
  refine broadcastTo_apply v h2 (ix2 r k) (ix2 0 k) (fun c => ?_)
  match c with
  | ⟨0, _⟩ => show 0 = if (1 : Nat) = 1 then 0 else r.val; rw [if_pos rfl]
  | ⟨1, _⟩ => show k.val = if n = 1 then 0 else k.val; rw [if_neg hn]

/-- The running maximum of a row of the two-column array. -/
private theorem rmax_apply (w : FVec Ideal S5000x2 .f32) (h : S5000x2.Reduces [1] S5000) (hφ : FKind.Formats .f32)
    (hacc : (0xFF800000#32 : BitVec (FTy.bits .f32)) = FKind.maximumf.neutral .f32 hφ) (r : Fin 5000) :
    multiReduction (F := Ideal) .maximumf [1] S5000 w 0xFF800000#32 h hφ hacc (ix1 r)
      = (Finset.univ : Finset (Fin 2)).fold max Spec.ninf (fun a => w (ix2 r a)) := by
  refine (Ideal.multiReduction_maximumf_single w _ h hφ hacc (ix1 r)).trans ?_
  have e : (w ∘ h.lift (ix1 r)) = fun a : Fin 2 => w (ix2 r a) := funext fun a => congrArg w (funext fun c => Fin.ext (by
    match c with
    | ⟨0, _⟩ => rfl
    | ⟨1, _⟩ => rfl))
  rw [e]
  rfl

/-- The sum of a row of the two-column array. -/
private theorem rsum_apply (w : FVec Ideal S5000x2 .f32) (h : S5000x2.Reduces [1] S5000) (hφ : FKind.Formats .f32)
    (hacc : (0x00000000#32 : BitVec (FTy.bits .f32)) = FKind.add.neutral .f32 hφ) (r : Fin 5000) :
    multiReduction (F := Ideal) .add [1] S5000 w 0x00000000#32 h hφ hacc (ix1 r)
      = ∑ a : Fin 2, w (ix2 r a) := by
  refine (Ideal.multiReduction_add_single w _ h hφ hacc (ix1 r)).trans ?_
  refine Finset.sum_congr rfl fun a _ => congrArg w (funext fun c => Fin.ext (by
    match c with
    | ⟨0, _⟩ => rfl
    | ⟨1, _⟩ => rfl))

private theorem dotL0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
private theorem dotL1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
private theorem dotR0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
private theorem dotR1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The 128 × 2 product into the zero array: entry (r, a) is the sum over the features of the products. -/
private theorem mm_apply (hL : FVec Ideal S5000x128 .bf16) (wR : FVec Ideal S128x2 .bf16) (r : Fin 5000) (a : Fin 2) :
    matmul dot_S5000x128_S128x2_S5000x2_1_0_0_1_n_n none hL wR (constant (F := Ideal) S5000x2 .f32 0x00000000#32) (ix2 r a)
      = ∑ k : Fin 128, hL (ix2 r k) * wR (ix2 k a) := by
  simp only [matmul]
  rw [Ideal.matmul_constant_zero_apply, ← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 r a) ((ValueIdx.contrEquiv1 dot_S5000x128_S128x2_S5000x2_1_0_0_1_n_n 128 rfl rfl).symm k) = ix2 r k := funext fun c => Fin.ext (by
    match c with
    | ⟨0, _⟩ => exact dotL0 _ _
    | ⟨1, _⟩ => exact (dotL1 _ _).trans hk)
  have er : dot_S5000x128_S128x2_S5000x2_1_0_0_1_n_n.rhsIdx (ix2 r a) ((ValueIdx.contrEquiv1 dot_S5000x128_S128x2_S5000x2_1_0_0_1_n_n 128 rfl rfl).symm k) = ix2 k a := funext fun c => Fin.ext (by
    match c with
    | ⟨0, _⟩ => exact (dotR0 _ _).trans hk
    | ⟨1, _⟩ => exact dotR1 _ _)
  rw [el, er]

/-! ## The body's values at an index -/

/-- The hidden row of a block: feature k of row r is the aggregated entry plus the bias, cut off below at zero. -/
private theorem pay1_apply (x0 : Vec Ideal S5000x128 .f32) (x1 : Vec Ideal S1x128 .f32) (r : Fin 5000) (k : Fin 128) :
    k4_pay1 (F := Ideal) x0 x1 (ix2 r k) = Spec.hid (fun k => x1 (ix2 0 k)) (fun k => x0 (ix2 r k)) k := by
  unfold k4_pay1 Spec.hid
  refine (maximumf_apply _ _ _).trans ?_
  refine congrArg₂ max ?_ rfl
  refine (addf_apply _ _ _).trans ?_
  refine congrArg₂ (· + ·) ?_ ?_
  · exact congrFun (shapeCast_self x0 _) (ix2 r k)
  · exact row_apply (by decide) x1 _ _ r k

/-- The exponentials of a block's logits less their row maximum. -/
private theorem expo_apply (L : FVec Ideal S5000x2 .f32) (hr : S5000x2.Reduces [1] S5000) (hφ : FKind.Formats .f32)
    (hm : (0xFF800000#32 : BitVec (FTy.bits .f32)) = FKind.maximumf.neutral .f32 hφ)
    (h1 : S5000.ShapeCasts S5000x1) (h2 : S5000x1.Broadcasts S5000x2) (r : Fin 5000) (a : Fin 2) :
    exp (subf L (broadcastTo S5000x2 (shapeCast S5000x1
        (maximumf (broadcast S5000 (Scalar.ofBits (F := Ideal) .f32 0xFF800000#32)) (multiReduction (F := Ideal) .maximumf [1] S5000 L 0xFF800000#32 hr hφ hm)) h1) h2)) (ix2 r a)
      = Ideal.exp (L (ix2 r a) - Spec.rowMax (fun a' => L (ix2 r a'))) := by
  show Ideal.exp _ = _
  refine congrArg Ideal.exp ?_
  refine (subf_apply _ _ _).trans ?_
  refine congrArg (L (ix2 r a) - ·) ?_
  refine (col2_apply _ h1 h2 r a).trans ?_
  refine (maximumf_apply _ _ _).trans ?_
  unfold Spec.rowMax
  refine congrArg₂ max rfl ?_
  exact rmax_apply L hr hφ hm r

/-- The quotient of a two-column array by its row sums. -/
private theorem quot_apply (E : FVec Ideal S5000x2 .f32) (hr : S5000x2.Reduces [1] S5000) (hφ : FKind.Formats .f32)
    (hs : (0x00000000#32 : BitVec (FTy.bits .f32)) = FKind.add.neutral .f32 hφ)
    (h1 : S5000.ShapeCasts S5000x1) (h2 : S5000x1.Broadcasts S5000x2) (r : Fin 5000) (a : Fin 2) :
    divf E (broadcastTo S5000x2 (shapeCast S5000x1 (multiReduction (F := Ideal) .add [1] S5000 E 0x00000000#32 hr hφ hs) h1) h2) (ix2 r a)
      = Ideal.div (E (ix2 r a)) (∑ a' : Fin 2, E (ix2 r a')) := by
  refine (divf_apply _ _ _).trans ?_
  refine congrArg (Ideal.div (E (ix2 r a))) ?_
  refine (col2_apply _ h1 h2 r a).trans ?_
  exact rsum_apply E hr hφ hs r

/-- The two logits of a row of a block. -/
private theorem lgt_apply (H : FVec Ideal S5000x128 .f32) (x2 : Vec Ideal S128x2 .f32) (x3 : Vec Ideal S1x2 .f32)
    (hb : FTy.bits .bf16 < FTy.bits .f32) (h1 : S1x2.ShapeCasts S1x2) (h2 : S1x2.Broadcasts S5000x2) (r : Fin 5000) (a : Fin 2) :
    addf (matmul dot_S5000x128_S128x2_S5000x2_1_0_0_1_n_n none (truncf .bf16 H hb) (truncf .bf16 x2 hb) (constant (F := Ideal) S5000x2 .f32 0x00000000#32))
        (broadcastTo S5000x2 (shapeCast S1x2 x3 h1) h2) (ix2 r a)
      = Spec.logit (fun k a' => x2 (ix2 k a')) (fun a' => x3 (ix2 0 a')) (fun k => H (ix2 r k)) a := by
  refine (addf_apply _ _ _).trans ?_
  unfold Spec.logit
  refine congrArg₂ (· + ·) ?_ ?_
  · exact mm_apply _ _ r a
  · exact row_apply (by decide) x3 h1 h2 r a

/-- The softmax of a block's logits: entry (r, a) is softmax weight a of row r. -/
private theorem smx_apply (L : FVec Ideal S5000x2 .f32) (hr : S5000x2.Reduces [1] S5000) (hφ : FKind.Formats .f32)
    (hm : (0xFF800000#32 : BitVec (FTy.bits .f32)) = FKind.maximumf.neutral .f32 hφ)
    (hs : (0x00000000#32 : BitVec (FTy.bits .f32)) = FKind.add.neutral .f32 hφ)
    (h1 : S5000.ShapeCasts S5000x1) (h2 : S5000x1.Broadcasts S5000x2) (r : Fin 5000) (a : Fin 2) :
    divf (exp (subf L (broadcastTo S5000x2 (shapeCast S5000x1
          (maximumf (broadcast S5000 (Scalar.ofBits (F := Ideal) .f32 0xFF800000#32)) (multiReduction (F := Ideal) .maximumf [1] S5000 L 0xFF800000#32 hr hφ hm)) h1) h2)))
        (broadcastTo S5000x2 (shapeCast S5000x1 (multiReduction (F := Ideal) .add [1] S5000
          (exp (subf L (broadcastTo S5000x2 (shapeCast S5000x1
            (maximumf (broadcast S5000 (Scalar.ofBits (F := Ideal) .f32 0xFF800000#32)) (multiReduction (F := Ideal) .maximumf [1] S5000 L 0xFF800000#32 hr hφ hm)) h1) h2)))
          0x00000000#32 hr hφ hs) h1) h2) (ix2 r a)
      = Spec.attW (fun a' => L (ix2 r a')) a := by
  refine (quot_apply _ hr hφ hs h1 h2 r a).trans ?_
  unfold Spec.attW
  rw [expo_apply L hr hφ hm h1 h2 r a, Finset.sum_congr rfl fun a' _ => expo_apply L hr hφ hm h1 h2 r a']

/-- The attention weights of a block: entry (r, a) is softmax weight a of row r's logits. -/
private theorem pay2_apply (x0 : Vec Ideal S5000x128 .f32) (x1 : Vec Ideal S1x128 .f32) (x2 : Vec Ideal S128x2 .f32) (x3 : Vec Ideal S1x2 .f32)
    (r : Fin 5000) (a : Fin 2) :
    k4_pay2 (F := Ideal) x0 x1 x2 x3 (ix2 r a)
      = Spec.attW (Spec.logit (fun k a' => x2 (ix2 k a')) (fun a' => x3 (ix2 0 a')) (Spec.hid (fun k => x1 (ix2 0 k)) (fun k => x0 (ix2 r k)))) a := by
  unfold k4_pay2
  refine (smx_apply _ _ _ _ _ _ _ r a).trans ?_
  refine congrArg (fun l => Spec.attW l a) (funext fun a' => ?_)
  exact (lgt_apply _ x2 x3 _ _ _ r a').trans (congrArg (fun h => Spec.logit _ _ h a') (funext fun k => pay1_apply x0 x1 r k))

/-- The first output block: the hidden row scaled by attention weight 0. -/
private theorem pay3_apply (x0 : Vec Ideal S5000x128 .f32) (x1 : Vec Ideal S1x128 .f32) (x2 : Vec Ideal S128x2 .f32) (x3 : Vec Ideal S1x2 .f32)
    (r : Fin 5000) (k : Fin 128) :
    k4_pay3 (F := Ideal) x0 x1 x2 x3 (ix2 r k)
      = Spec.attnRow 0 (fun k => x1 (ix2 0 k)) (fun k a' => x2 (ix2 k a')) (fun a' => x3 (ix2 0 a')) (fun k => x0 (ix2 r k)) k := by
  unfold k4_pay3 Spec.attnRow
  refine (mulf_apply _ _ _).trans ?_
  refine congrArg₂ (· * ·) ?_ (pay1_apply x0 x1 r k)
  refine (sel_apply _ 0 _ rfl _ _ r k).trans ?_
  exact pay2_apply x0 x1 x2 x3 r 0

/-- The second output block: the hidden row scaled by attention weight 1. -/
private theorem pay4_apply (x0 : Vec Ideal S5000x128 .f32) (x1 : Vec Ideal S1x128 .f32) (x2 : Vec Ideal S128x2 .f32) (x3 : Vec Ideal S1x2 .f32)
    (r : Fin 5000) (k : Fin 128) :
    k4_pay4 (F := Ideal) x0 x1 x2 x3 (ix2 r k)
      = Spec.attnRow 1 (fun k => x1 (ix2 0 k)) (fun k a' => x2 (ix2 k a')) (fun a' => x3 (ix2 0 a')) (fun k => x0 (ix2 r k)) k := by
  unfold k4_pay4 Spec.attnRow
  refine (mulf_apply _ _ _).trans ?_
  refine congrArg₂ (· * ·) ?_ (pay1_apply x0 x1 r k)
  refine (sel_apply _ 1 _ rfl _ _ r k).trans ?_
  exact pay2_apply x0 x1 x2 x3 r 1

/-! ## From the blocks to the arrays -/

private theorem hz4 : (![0, 0] : Fin 2 → Nat) = fun _ => 0 := funext fun a => by fin_cases a <;> rfl

/-- The block indices of region 4's windows, decided over its ten points: the row windows sit at block t, the others at block 0. -/
private theorem idx4 : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Row p of block t of the aggregated array is row 5000 t + p of the array. -/
private theorem blk0_read (c : Dev nD) (t : Fin cfg4.N) (p : Fin 5000) (k : Fin 128) (i : Fin 50000) (hi : i.val = t.val * 5000 + p.val) :
    iblk4 (F := Ideal) V c 0 t (ix2 p k) = (V c main_v111 : Spec.A2 50000 128) (ix2 i k) := by
  obtain ⟨e0, e1, -⟩ := idx4 t
  show V c main_v111 (((cfg4.win 0).blk t).view.emb (ix2 p k)) = V c main_v111 (ix2 i k)
  refine congrArg (V c main_v111) (funext fun a => Fin.ext ?_)
  match a with
  | ⟨0, _⟩ => show win4_0.index t (0 : Fin 2) * 5000 + 1 * p.val = i.val; omega
  | ⟨1, _⟩ => show win4_0.index t (1 : Fin 2) * 128 + 1 * k.val = k.val; omega

/-- The bias window's block is the whole bias array at every point. -/
private theorem blk1_read (c : Dev nD) (t : Fin cfg4.N) (k : Fin 128) :
    iblk4 (F := Ideal) V c 1 t (ix2 0 k) = (V c main_v114 : Spec.A2 1 128) (ix2 0 k) := by
  obtain ⟨-, -, e0, e1, -⟩ := idx4 t
  show V c main_v114 (((cfg4.win 1).blk t).view.emb (ix2 0 k)) = V c main_v114 (ix2 0 k)
  refine congrArg (V c main_v114) (funext fun a => Fin.ext ?_)
  match a with
  | ⟨0, _⟩ => show win4_1.index t (0 : Fin 2) * 1 + 1 * 0 = 0; omega
  | ⟨1, _⟩ => show win4_1.index t (1 : Fin 2) * 128 + 1 * k.val = k.val; omega

/-- The 128 × 2 matrix window's block is the whole matrix at every point. -/
private theorem blk2_read (c : Dev nD) (t : Fin cfg4.N) (k : Fin 128) (a' : Fin 2) :
    iblk4 (F := Ideal) V c 2 t (ix2 k a') = (V c main_arg11 : Spec.A2 128 2) (ix2 k a') := by
  obtain ⟨-, -, -, -, e0, e1, -⟩ := idx4 t
  show V c main_arg11 (((cfg4.win 2).blk t).view.emb (ix2 k a')) = V c main_arg11 (ix2 k a')
  refine congrArg (V c main_arg11) (funext fun a => Fin.ext ?_)
  match a with
  | ⟨0, _⟩ => show win4_2.index t (0 : Fin 2) * 128 + 1 * k.val = k.val; omega
  | ⟨1, _⟩ => show win4_2.index t (1 : Fin 2) * 2 + 1 * a'.val = a'.val; omega

/-- The logit bias window's block is the whole 1 × 2 array at every point. -/
private theorem blk3_read (c : Dev nD) (t : Fin cfg4.N) (a' : Fin 2) :
    iblk4 (F := Ideal) V c 3 t (ix2 0 a') = (V c main_v115 : Spec.A2 1 2) (ix2 0 a') := by
  obtain ⟨-, -, -, -, -, -, e0, e1, -⟩ := idx4 t
  show V c main_v115 (((cfg4.win 3).blk t).view.emb (ix2 0 a')) = V c main_v115 (ix2 0 a')
  refine congrArg (V c main_v115) (funext fun a => Fin.ext ?_)
  match a with
  | ⟨0, _⟩ => show win4_3.index t (0 : Fin 2) * 1 + 1 * 0 = 0; omega
  | ⟨1, _⟩ => show win4_3.index t (1 : Fin 2) * 2 + 1 * a'.val = a'.val; omega

/-- The row function depends on its arguments only through their values. -/
private theorem attnRow_congr (sel : Fin 2) {b b' : Fin 128 → EReal} {W W' : Fin 128 → Fin 2 → EReal} {bna bna' : Fin 2 → EReal}
    {ar ar' : Fin 128 → EReal} {j j' : Fin 128} (hb : b = b') (hW : W = W') (hn : bna = bna') (ha : ar = ar') (hj : j = j') :
    Spec.attnRow sel b W bna ar j = Spec.attnRow sel b' W' bna' ar' j' := by
  subst hb hW hn ha hj; rfl

/-- What point t writes back to the first output is block t of the row function over the whole arrays. -/
private theorem flushed4_eq (c : Dev nD) (t : Fin cfg4.N) :
    (dat4 (F := Ideal) V c).flushed 4 t = ((cfg4.win 4).blk t).view.read (Elt Ideal)
      (Spec.attnArr 0 (V c main_v111) (fun k => (V c main_v114 : Spec.A2 1 128) (ix2 0 k)) (V c main_arg11)
          (fun a => (V c main_v115 : Spec.A2 1 2) (ix2 0 a))) := by
  show (cfg4.win 4).cut (grid4.coords t) ((dat4 (F := Ideal) V c).after 4 t) = _
  rw [after4_4]
  unfold out4_4
  rw [View.canon_unit_zero hz4]
  simp only [View.ld_unit_zero (S := S5000x128) hz4, View.ld_unit_zero (S := S1x128) hz4, View.ld_unit_zero (S := S128x2) hz4, View.ld_unit_zero (S := S1x2) hz4]
  refine funext fun (j : (⟨2, ![5000, 128]⟩ : Shape).Idx) => ?_
  obtain ⟨p, q, rfl⟩ : ∃ (p : Fin 5000) (q : Fin 128), j = ix2 p q := ⟨j 0, j 1, eq_ix2 j⟩
  obtain ⟨-, -, -, -, -, -, -, -, e0, e1, -⟩ := idx4 t
  show k4_pay3 (F := Ideal) (iblk4 V c 0 t) (iblk4 V c 1 t) (iblk4 V c 2 t) (iblk4 V c 3 t) (ix2 p q)
    = Spec.attnRow 0 _ _ _ (fun k => (V c main_v111 : Spec.A2 50000 128) (ix2 ((((cfg4.win 4).blk t).view.emb (ix2 p q)) 0) k)) ((((cfg4.win 4).blk t).view.emb (ix2 p q)) 1)
  refine (pay3_apply _ _ _ _ p q).trans ?_
  refine attnRow_congr 0 (funext fun k => blk1_read V c t k) (funext fun k => funext fun a' => blk2_read V c t k a')
    (funext fun a' => blk3_read V c t a') (funext fun k => blk0_read V c t p k _ ?_) (Fin.ext ?_)
  · show win4_4.index t (0 : Fin 2) * 5000 + 1 * p.val = t.val * 5000 + p.val; omega
  · show q.val = win4_4.index t (1 : Fin 2) * 128 + 1 * q.val; omega

/-- An index of the first output array is in point t's block iff each coordinate is in the block's range. -/
private theorem mem_blk4_4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v116_0).slice (win4_4.rect t)).set ↔ _
  rw [View.set_slice_whole, Rect.mem_set_unit]
  exact Iff.rfl

/-- Row i is in the block of point i / 5000. -/
private theorem cover4_4w (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  have ht : (i 0).val / 5000 < 10 := by omega
  obtain ⟨-, -, -, -, -, -, -, -, e0, e1, -⟩ := idx4 ⟨(i 0).val / 5000, ht⟩
  refine ⟨⟨(i 0).val / 5000, ht⟩, flush4_4 _, ?_⟩
  rw [mem_blk4_4]
  intro a
  match a with
  | ⟨0, _⟩ => show win4_4.index ⟨(i 0).val / 5000, ht⟩ (0 : Fin 2) * 5000 ≤ (i 0).val ∧ (i 0).val < win4_4.index ⟨(i 0).val / 5000, ht⟩ (0 : Fin 2) * 5000 + 5000; have e0' : win4_4.index ⟨(i 0).val / 5000, ht⟩ (0 : Fin 2) = (i 0).val / 5000 := e0; omega
  | ⟨1, _⟩ => show win4_4.index ⟨(i 0).val / 5000, ht⟩ (1 : Fin 2) * 128 ≤ (i 1).val ∧ (i 1).val < win4_4.index ⟨(i 0).val / 5000, ht⟩ (1 : Fin 2) * 128 + 128; omega

/-- Region 4's first output array: the hidden rows scaled by attention weight 0. -/
theorem reg4_c (c : Dev nD) :
    ((dat4 (F := Ideal) V c).arrAt 4 cfg4.N : Spec.A2 50000 128)
      = Spec.attnArr 0 (V c main_v111) (fun k => (V c main_v114 : Spec.A2 1 128) (ix2 0 k)) (V c main_arg11)
          (fun a => (V c main_v115 : Spec.A2 1 2) (ix2 0 a)) :=
  (dat4 (F := Ideal) V c).arrAt_eq_of_cover 4 _ (fun t _ => flushed4_eq V c t) cover4_4w

/-- What point t writes back to the second output is block t of the row function over the whole arrays. -/
private theorem flushed5_eq (c : Dev nD) (t : Fin cfg4.N) :
    (dat4 (F := Ideal) V c).flushed 5 t = ((cfg4.win 5).blk t).view.read (Elt Ideal)
      (Spec.attnArr 1 (V c main_v111) (fun k => (V c main_v114 : Spec.A2 1 128) (ix2 0 k)) (V c main_arg11)
          (fun a => (V c main_v115 : Spec.A2 1 2) (ix2 0 a))) := by
  show (cfg4.win 5).cut (grid4.coords t) ((dat4 (F := Ideal) V c).after 5 t) = _
  rw [after4_5]
  unfold out4_5
  rw [View.canon_unit_zero hz4]
  simp only [View.ld_unit_zero (S := S5000x128) hz4, View.ld_unit_zero (S := S1x128) hz4, View.ld_unit_zero (S := S128x2) hz4, View.ld_unit_zero (S := S1x2) hz4]
  refine funext fun (j : (⟨2, ![5000, 128]⟩ : Shape).Idx) => ?_
  obtain ⟨p, q, rfl⟩ : ∃ (p : Fin 5000) (q : Fin 128), j = ix2 p q := ⟨j 0, j 1, eq_ix2 j⟩
  obtain ⟨-, -, -, -, -, -, -, -, -, -, e0, e1⟩ := idx4 t
  show k4_pay4 (F := Ideal) (iblk4 V c 0 t) (iblk4 V c 1 t) (iblk4 V c 2 t) (iblk4 V c 3 t) (ix2 p q)
    = Spec.attnRow 1 _ _ _ (fun k => (V c main_v111 : Spec.A2 50000 128) (ix2 ((((cfg4.win 5).blk t).view.emb (ix2 p q)) 0) k)) ((((cfg4.win 5).blk t).view.emb (ix2 p q)) 1)
  refine (pay4_apply _ _ _ _ p q).trans ?_
  refine attnRow_congr 1 (funext fun k => blk1_read V c t k) (funext fun k => funext fun a' => blk2_read V c t k a')
    (funext fun a' => blk3_read V c t a') (funext fun k => blk0_read V c t p k _ ?_) (Fin.ext ?_)
  · show win4_5.index t (0 : Fin 2) * 5000 + 1 * p.val = t.val * 5000 + p.val; omega
  · show q.val = win4_5.index t (1 : Fin 2) * 128 + 1 * q.val; omega

/-- An index of the second output array is in point t's block iff each coordinate is in the block's range. -/
private theorem mem_blk4_5 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v116_1).slice (win4_5.rect t)).set ↔ _
  rw [View.set_slice_whole, Rect.mem_set_unit]
  exact Iff.rfl

/-- Row i is in the block of point i / 5000. -/
private theorem cover4_5w (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  have ht : (i 0).val / 5000 < 10 := by omega
  obtain ⟨-, -, -, -, -, -, -, -, -, -, e0, e1⟩ := idx4 ⟨(i 0).val / 5000, ht⟩
  refine ⟨⟨(i 0).val / 5000, ht⟩, flush4_5 _, ?_⟩
  rw [mem_blk4_5]
  intro a
  match a with
  | ⟨0, _⟩ => show win4_5.index ⟨(i 0).val / 5000, ht⟩ (0 : Fin 2) * 5000 ≤ (i 0).val ∧ (i 0).val < win4_5.index ⟨(i 0).val / 5000, ht⟩ (0 : Fin 2) * 5000 + 5000; have e0' : win4_5.index ⟨(i 0).val / 5000, ht⟩ (0 : Fin 2) = (i 0).val / 5000 := e0; omega
  | ⟨1, _⟩ => show win4_5.index ⟨(i 0).val / 5000, ht⟩ (1 : Fin 2) * 128 ≤ (i 1).val ∧ (i 1).val < win4_5.index ⟨(i 0).val / 5000, ht⟩ (1 : Fin 2) * 128 + 128; omega

/-- Region 4's second output array: the hidden rows scaled by attention weight 1. -/
theorem reg4_o (c : Dev nD) :
    ((dat4 (F := Ideal) V c).arrAt 5 cfg4.N : Spec.A2 50000 128)
      = Spec.attnArr 1 (V c main_v111) (fun k => (V c main_v114 : Spec.A2 1 128) (ix2 0 k)) (V c main_arg11)
          (fun a => (V c main_v115 : Spec.A2 1 2) (ix2 0 a)) :=
  (dat4 (F := Ideal) V c).arrAt_eq_of_cover 5 _ (fun t _ => flushed5_eq V c t) cover4_5w

end Cert.KernelIdeal.RegVal

end
-- ==== Proof.RSpecAttn.lean ====
/-
  The reference's attention step as the row function of the last aggregation: the hidden array `max (a + b) 0`, its
  two logits per row (a host `dot_general` with the 128 × 2 matrix plus the bias), the host softmax over the two
  (a `max`-reduce from negative infinity met once more with negative infinity, the exponentials of the differences,
  an `add`-reduce from zero, the quotient), a one-column slice of the weights broadcast along the features, and the
  product with the hidden array.
-/
import proofs.«420551_j59150289601188_1_alg».proof.Proof.RefRead
import proofs.«420551_j59150289601188_1_alg».proof.Proof.SpecArr
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.ReferenceIdeal.RefSpec

open Cert.ReferenceIdeal Cert.ReferenceIdeal.Gen Cert.ReferenceIdeal.Read Idealize.ShloMosaic Idealize.ShloMosaic.TcCoe Idealize.ShloMosaic.ValueIdx

section
variable (x0 : (⟨S50000x128, .f32⟩ : BufTy).Contents (Elt Ideal)) (x1 : (⟨S2x800000, .i32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x11 : (⟨S128x2, .f32⟩ : BufTy).Contents (Elt Ideal)) (x12 : (⟨S2, .f32⟩ : BufTy).Contents (Elt Ideal))

/-- The hidden array at row p, feature k: the aggregation plus the bias, cut off below at the zero word. -/
theorem hid_at (p : Fin 50000) (k : Fin 128) :
    val_main_v137 (F := Ideal) x0 x1 x3 x4 x5 x6 x7 x8 (ix2 p k)
      = Spec.hid (fun k => val_main_v119 (F := Ideal) x8 (ix1 k)) (fun k => val_main_v133 (F := Ideal) x0 x1 x3 x4 x5 x6 x7 x8 (ix2 p k)) k := by
  rw [val_main_v137_apply, val_main_v136_apply, val_main_v135_apply, val_main_v134_apply, val_main_call3_v0_apply,
    val_main_call3_cst_apply]
  have e : idx_main_v134 (idx_main_v135 (ix2 p k)) = ix1 k := funext fun a => Fin.ext (by match a with | ⟨0, _⟩ => rfl)
  rw [e]
  rfl

/-- Logit a of row p: the hidden row times column a of the 128 × 2 matrix, summed over the features, plus the bias. -/
theorem logit_at (p : Fin 50000) (a : Fin 2) :
    val_main_v171 (F := Ideal) x0 x1 x3 x4 x5 x6 x7 x8 x11 x12 (ix2 p a)
      = Spec.logit (fun k a' => x11 (ix2 k a')) (fun a => x12 (ix1 a)) (fun k => val_main_v137 (F := Ideal) x0 x1 x3 x4 x5 x6 x7 x8 (ix2 p k)) a := by
  rw [val_main_v171_apply, val_main_v168_apply, val_main_v170_apply, val_main_v169_apply]
  have e1 : ∀ k : Fin 128, lidx_main_v168 (ix2 p a) k = ix2 p k := fun k => funext fun c => Fin.ext (by match c with | ⟨0, _⟩ => rfl | ⟨1, _⟩ => rfl)
  have e2 : ∀ k : Fin 128, ridx_main_v168 (ix2 p a) k = ix2 k a := fun k => funext fun c => Fin.ext (by match c with | ⟨0, _⟩ => rfl | ⟨1, _⟩ => rfl)
  have e3 : idx_main_v169 (idx_main_v170 (ix2 p a)) = ix1 a := funext fun c => Fin.ext (by match c with | ⟨0, _⟩ => rfl)
  simp only [e1, e2, e3]
  rfl

/-- Row p of a two-axis array with column k put back is (p, k). -/
theorem lift_col {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c
  apply Fin.ext
  match c with
  | ⟨0, _⟩ => rfl
  | ⟨1, _⟩ => rfl

/-- The host's maximum-reduce of a 50000 × 2 array over its columns, from negative infinity: at row p, the fold of max
    over the two column coordinates. -/
theorem hostMax_apply (y : S50000x2.Idx → EReal) (h' : S50000x2.ReducesTo [1] S50000) (h : S50000x2.Reduces [1] S50000)
    (hu : 0 < S_.numel) (p : Fin 50000) :
    Host.reduce (FloatOps.maximumf (F := Ideal) (φ := .f32)) y (constant (F := Ideal) S_ .f32 0xFF800000#32) h' hu (ix1 p)
      = (Finset.univ : Finset (Fin 2)).fold max Spec.ninf (fun a => y (ix2 p a)) := by
  refine (Host.reduce_eq_fold_single (FloatOps.maximumf (F := Ideal) (φ := .f32)) y _ h' h hu (ix1 p)).trans ?_
  have e : (y ∘ h.lift (ix1 p)) = fun a : Fin 2 => y (ix2 p a) := funext fun a => congrArg y (lift_col h p a)
  rw [e]
  rfl

/-- Dropping the second axis of a 50000 × 2 array leaves its 50000 rows. -/
theorem reduces_cols : S50000x2.Reduces [1] S50000 := by decide

/-- The row maximum of row p: the fold of max over the two logits from negative infinity, met once more with negative
    infinity. -/
theorem rowMax_at (p : Fin 50000) :
    val_main_v174 (F := Ideal) x0 x1 x3 x4 x5 x6 x7 x8 x11 x12 (ix1 p)
      = Spec.rowMax (fun a => val_main_v171 (F := Ideal) x0 x1 x3 x4 x5 x6 x7 x8 x11 x12 (ix2 p a)) := by
  rw [val_main_v174_apply, val_main_v173_apply, val_main_cst_30_apply]
  unfold val_main_v172 val_main_cst_29 Spec.rowMax
  exact congrArg (max Spec.ninf) (hostMax_apply _ reducesTo_S50000x2_S50000_d1 reduces_cols h_S_ p)

/-- The exponential of logit b of row p less the row maximum. -/
theorem exp_at (p : Fin 50000) (b : Fin 2) :
    val_main_v178 (F := Ideal) x0 x1 x3 x4 x5 x6 x7 x8 x11 x12 (ix2 p b)
      = Ideal.exp (val_main_v171 (F := Ideal) x0 x1 x3 x4 x5 x6 x7 x8 x11 x12 (ix2 p b)
          - Spec.rowMax (fun a => val_main_v171 (F := Ideal) x0 x1 x3 x4 x5 x6 x7 x8 x11 x12 (ix2 p a))) := by
  rw [val_main_v178_apply, val_main_v177_apply, val_main_v176_apply, val_main_v175_apply]
  have e : idx_main_v175 (idx_main_v176 (ix2 p b)) = ix1 p := funext fun c => Fin.ext (by match c with | ⟨0, _⟩ => rfl)
  rw [e, rowMax_at, Ideal.hostUnary_exp_def, Ideal.subf_def]

/-- Softmax weight a of row p: the exponential over the sum of both exponentials; the sum starts from the zero word, which
    is the extended real 0. -/
theorem attW_at (p : Fin 50000) (a : Fin 2) :
    val_main_v182 (F := Ideal) x0 x1 x3 x4 x5 x6 x7 x8 x11 x12 (ix2 p a)
      = Spec.attW (fun a => val_main_v171 (F := Ideal) x0 x1 x3 x4 x5 x6 x7 x8 x11 x12 (ix2 p a)) a := by
  rw [val_main_v182_apply, val_main_v181_apply, val_main_v180_apply, val_main_v179_apply, val_main_cst_31_apply]
  have e : ∀ k : Fin 2, idx_main_v179 (idx_main_v180 (idx_main_v181 (ix2 p a))) k = ix2 p k :=
    fun k => funext fun c => Fin.ext (by match c with | ⟨0, _⟩ => rfl | ⟨1, _⟩ => rfl)
  simp only [e, exp_at]
  unfold Spec.attW
  show Ideal.div _ (Ideal.ofBits .f32 0x00000000#32 + _) = _
  rw [Ideal.ofBits_zero_f32, zero_add]

end

/-- The hidden array scaled by attention weight 0. -/
theorem v185_eq (x0 : (⟨S50000x128, .f32⟩ : BufTy).Contents (Elt Ideal)) (x1 : (⟨S2x800000, .i32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x11 : (⟨S128x2, .f32⟩ : BufTy).Contents (Elt Ideal)) (x12 : (⟨S2, .f32⟩ : BufTy).Contents (Elt Ideal)) :
    (val_main_v185 (F := Ideal) x0 x1 x3 x4 x5 x6 x7 x8 x11 x12 : Spec.A2 50000 128)
      = Spec.attnArr 0 (val_main_v133 (F := Ideal) x0 x1 x3 x4 x5 x6 x7 x8) (fun k => val_main_v119 (F := Ideal) x8 (ix1 k)) x11 (fun a => x12 (ix1 a)) := by
  funext i
  obtain ⟨p, q, rfl⟩ : ∃ (p : Fin 50000) (q : Fin 128), i = ix2 p q := ⟨i 0, i 1, eq_ix2 i⟩
  rw [val_main_v185_apply, val_main_v184_apply, val_main_v183_apply]
  have e : idx_main_v183 (idx_main_v184 (ix2 p q)) = ix2 p 0 := funext fun c => Fin.ext (by match c with | ⟨0, _⟩ => rfl | ⟨1, _⟩ => rfl)
  rw [e, attW_at]
  simp only [logit_at, hid_at]
  rfl

/-- The hidden array scaled by attention weight 1. -/
theorem v188_eq (x0 : (⟨S50000x128, .f32⟩ : BufTy).Contents (Elt Ideal)) (x1 : (⟨S2x800000, .i32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x11 : (⟨S128x2, .f32⟩ : BufTy).Contents (Elt Ideal)) (x12 : (⟨S2, .f32⟩ : BufTy).Contents (Elt Ideal)) :
    (val_main_v188 (F := Ideal) x0 x1 x3 x4 x5 x6 x7 x8 x11 x12 : Spec.A2 50000 128)
      = Spec.attnArr 1 (val_main_v133 (F := Ideal) x0 x1 x3 x4 x5 x6 x7 x8) (fun k => val_main_v119 (F := Ideal) x8 (ix1 k)) x11 (fun a => x12 (ix1 a)) := by
  funext i
  obtain ⟨p, q, rfl⟩ : ∃ (p : Fin 50000) (q : Fin 128), i = ix2 p q := ⟨i 0, i 1, eq_ix2 i⟩
  rw [val_main_v188_apply, val_main_v187_apply, val_main_v186_apply]
  have e : idx_main_v186 (idx_main_v187 (ix2 p q)) = ix2 p 1 := funext fun c => Fin.ext (by match c with | ⟨0, _⟩ => rfl | ⟨1, _⟩ => rfl)
  rw [e, attW_at]
  simp only [logit_at, hid_at]
  rfl

end Cert.ReferenceIdeal.RefSpec

end
-- ==== Proof.Layer4.lean ====
/-
  From region 3's exit to region 4's. The host stretch aggregates the last product as before and hands the last bias
  and the attention bias to the region as 1 × 128 and 1 × 2 arrays. Region 4 leaves the hidden rows scaled by each
  of their two attention weights, which are the reference's two attention-scaled arrays.
-/
import proofs.«420551_j59150289601188_1_alg».proof.Proof.LayerDefs
import proofs.«420551_j59150289601188_1_alg».proof.Proof.KArgs
import proofs.«420551_j59150289601188_1_alg».proof.Proof.KReg4
import proofs.«420551_j59150289601188_1_alg».proof.Proof.RSpecAttn
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Layer

open Cert.KernelIdeal Cert.KernelIdeal.Gen Idealize.ShloMosaic Idealize.ShloMosaic.TcCoe Idealize.SL.Sem Idealize.ShloMosaic.StableHlo Idealize.ShloMosaic.ValueIdx

/-! ## The host stretch, at any float family: the reference's own operations on equal inputs -/

section Host

variable {F : FTy → Type} [FloatOps F]
variable (m : (ℓ : Loc nD τ sig) → Buf (Elt F) ℓ) (ρ : Dev nD → PrngReg) (c : Dev nD)

set_option maxHeartbeats 4000000 in
/-- The last aggregation: the last product's rows gathered at the column indices, scaled by the edge normalisation
    and scatter-added at the row indices, is the reference's, when the four arrays it is built from are. -/
theorem agg4_eq (x0 : (⟨Cert.ReferenceIdeal.S50000x128, .f32⟩ : BufTy).Contents (Elt F)) (x1 : (⟨Cert.ReferenceIdeal.S2x800000, .i32⟩ : BufTy).Contents (Elt F)) (x3 x4 : (⟨Cert.ReferenceIdeal.S128, .f32⟩ : BufTy).Contents (Elt F))
    (x5 : (⟨Cert.ReferenceIdeal.S128x128, .f32⟩ : BufTy).Contents (Elt F)) (x6 : (⟨Cert.ReferenceIdeal.S128, .f32⟩ : BufTy).Contents (Elt F)) (x7 : (⟨Cert.ReferenceIdeal.S3x128x128, .f32⟩ : BufTy).Contents (Elt F))
    (x8 : (⟨Cert.ReferenceIdeal.S3x128, .f32⟩ : BufTy).Contents (Elt F))
    (h98 : W8 m ρ c (Proc.devRef .tc main_v98) = Cert.ReferenceIdeal.Read.val_main_v120 (F := F) x0 x1 x3 x4 x5 x6 x7 x8)
    (h5 : W8 m ρ c (Proc.devRef .tc main_v5) = Cert.ReferenceIdeal.Read.val_main_v5 (F := F) x1)
    (h6 : W8 m ρ c (Proc.devRef .tc main_v6) = Cert.ReferenceIdeal.Read.val_main_v6 (F := F) x1)
    (h28 : W8 m ρ c (Proc.devRef .tc main_v28) = Cert.ReferenceIdeal.Read.val_main_v28 (F := F) x1) :
    W9 m ρ c (Proc.devRef .tc main_v111) = Cert.ReferenceIdeal.Read.val_main_v133 (F := F) x0 x1 x3 x4 x5 x6 x7 x8 := by
  show StableHlo.after hostOps4 (W8 m ρ c) (Proc.devRef .tc main_v111) = _
  after_results
  rw [h98, h5, h6, h28]
  rfl

set_option maxHeartbeats 4000000 in
/-- The last layer's bias as the region takes it: the third row of the stacked biases, as the reference slices it,
    laid out as a 1 × 128 array. -/
theorem bias4_eq (x8 : (⟨Cert.ReferenceIdeal.S3x128, .f32⟩ : BufTy).Contents (Elt F)) (h8 : W8 m ρ c (Proc.devRef .tc main_arg8) = x8) :
    W9 m ρ c (Proc.devRef .tc main_v114)
      = shapeCast S1x128 (Cert.ReferenceIdeal.Read.val_main_v119 (F := F) x8) shapeCasts_S128_S1x128 := by
  show StableHlo.after hostOps4 (W8 m ρ c) (Proc.devRef .tc main_v114) = _
  after_results
  rw [h8]
  rfl

set_option maxHeartbeats 4000000 in
/-- The attention bias as the region takes it: the argument's two entries laid out as a 1 × 2 array. -/
theorem attb4_eq (x12 : (⟨Cert.ReferenceIdeal.S2, .f32⟩ : BufTy).Contents (Elt F)) (h12 : W8 m ρ c (Proc.devRef .tc main_arg12) = x12) :
    W9 m ρ c (Proc.devRef .tc main_v115) = shapeCast S1x2 x12 shapeCasts_S2_S1x2 := by
  show StableHlo.after hostOps4 (W8 m ρ c) (Proc.devRef .tc main_v115) = _
  after_results
  rw [h12]
  rfl

end Host

/-! ## The layer, at the exact values -/

variable (m : (ℓ : Loc nD τ sig) → Buf (Elt Ideal) ℓ) (ρ : Dev nD → PrngReg) (c : Dev nD)

/-- The bias row the region reads, entry by entry: the reference's bias vector. -/
theorem bias4_row (k : Fin 128) :
    (W9 m ρ c (Proc.devRef .tc main_v114) : Spec.A2 1 128) (ix2 0 k)
      = Cert.ReferenceIdeal.Read.val_main_v119 (F := Ideal) (a8 m c) (ix1 k) := by
  rw [bias4_eq m ρ c (a8 m c) (Cert.KernelIdeal.ArgsAt.W8_main_arg8 m ρ c)]
  refine shapeCast_apply _ shapeCasts_S128_S1x128 (ix2 0 k) (ix1 k) ?_
  rw [Shape.rowMajor_val_one, Shape.rowMajor_val_two]
  show k.val = 0 * 128 + k.val
  omega

/-- The attention-bias row the region reads, entry by entry: the argument's two entries. -/
theorem attb4_row (a : Fin 2) :
    (W9 m ρ c (Proc.devRef .tc main_v115) : Spec.A2 1 2) (ix2 0 a) = a12 m c (ix1 a) := by
  rw [attb4_eq m ρ c (a12 m c) (Cert.KernelIdeal.ArgsAt.W8_main_arg12 m ρ c)]
  refine shapeCast_apply _ shapeCasts_S2_S1x2 (ix2 0 a) (ix1 a) ?_
  rw [Shape.rowMajor_val_one, Shape.rowMajor_val_two]
  show a.val = 0 * 2 + a.val
  omega

/-- The facts at region 4's exit, from those at region 3's. -/
theorem at10 (h : At8 m ρ c) : At10 m ρ c where
  v116_0 := by
    have hK := (W10_arr m ρ c 4).trans (Cert.KernelIdeal.RegVal.reg4_c (V9 m ρ) c)
    have hR := Cert.ReferenceIdeal.RefSpec.v185_eq (a0 m c) (a1 m c) (a3 m c) (a4 m c) (a5 m c) (a6 m c) (a7 m c) (a8 m c) (a11 m c) (a12 m c)
    have e1 := agg4_eq m ρ c (a0 m c) (a1 m c) (a3 m c) (a4 m c) (a5 m c) (a6 m c) (a7 m c) (a8 m c) h.v98 h.v5 h.v6 h.v28
    have e2 : (fun k => (V9 m ρ c main_v114 : Spec.A2 1 128) (ix2 0 k))
        = fun k => Cert.ReferenceIdeal.Read.val_main_v119 (F := Ideal) (a8 m c) (ix1 k) := funext fun k => bias4_row m ρ c k
    have e3 := Cert.KernelIdeal.ArgsAt.W9_main_arg11 m ρ c
    have e4 : (fun a => (V9 m ρ c main_v115 : Spec.A2 1 2) (ix2 0 a)) = fun a => a12 m c (ix1 a) :=
      funext fun a => attb4_row m ρ c a
    exact hK.trans ((congr (congr (congr (congrArg (Spec.attnArr 0) e1) e2) e3) e4).trans hR.symm)
  v116_1 := by
    have hK := (W10_arr m ρ c 5).trans (Cert.KernelIdeal.RegVal.reg4_o (V9 m ρ) c)
    have hR := Cert.ReferenceIdeal.RefSpec.v188_eq (a0 m c) (a1 m c) (a3 m c) (a4 m c) (a5 m c) (a6 m c) (a7 m c) (a8 m c) (a11 m c) (a12 m c)
    have e1 := agg4_eq m ρ c (a0 m c) (a1 m c) (a3 m c) (a4 m c) (a5 m c) (a6 m c) (a7 m c) (a8 m c) h.v98 h.v5 h.v6 h.v28
    have e2 : (fun k => (V9 m ρ c main_v114 : Spec.A2 1 128) (ix2 0 k))
        = fun k => Cert.ReferenceIdeal.Read.val_main_v119 (F := Ideal) (a8 m c) (ix1 k) := funext fun k => bias4_row m ρ c k
    have e3 := Cert.KernelIdeal.ArgsAt.W9_main_arg11 m ρ c
    have e4 : (fun a => (V9 m ρ c main_v115 : Spec.A2 1 2) (ix2 0 a)) = fun a => a12 m c (ix1 a) :=
      funext fun a => attb4_row m ρ c a
    exact hK.trans ((congr (congr (congr (congrArg (Spec.attnArr 1) e1) e2) e3) e4).trans hR.symm)

end Cert.KernelIdeal.Layer

end
-- ==== Proof.KReg5.lean ====
/-
  The pooling step as the kernel computes it: the two 128 × 128 accumulators are zeroed at the first of ten points
  and at every point receive the product of the transposed 0/1 membership matrix of the block's 5000 nodes (entry
  `(n, g)` is one exactly when node `n`'s segment word equals `g`) with the block's 5000 × 128 rows. On the extended
  reals `0 * x = 0` and `1 * x = x` for every `x`, so after point `t` an accumulator holds, at `(g, j)`, the sum of `x n j`
  over the nodes `n < 5000 (t + 1)` of segment `g`; the one write-back, at the last point, leaves the sum over all nodes.
-/
import proofs.«420551_j59150289601188_1_alg».proof.Proof.Gen.KernelIdeal.Frame
import proofs.«420551_j59150289601188_1_alg».proof.Proof.SpecArr
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

section Pieces
variable {F : FTy → Type} [FloatOps F]

private theorem hz5 : (![0, 0] : Fin 2 → Nat) = fun _ => 0 := funext fun a => by fin_cases a <;> rfl

/-- A later point leaves in the first accumulator its update: the previous contents plus the block's product. -/
private theorem piece5_B_3 (c : Dev nD) (i : grid5.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S128x128 .f32) (h4 : a4.IsWhole) (a5 : Memref sig .tc .vmem S128x128 .f32) (h5 : a5.IsWhole)
    (hc : ¬cond5_0 i) (x0 x1 : Vec F S5000x128 .f32) (x2 : Vec F S5000x1 .i32) (xo3 xo4 : Vec F S128x128 .f32) :
    out5_B_3 c i a1 h1 a2 h2 a3 h3 a4 h4 a5 h5 hc x0 x1 x2 xo3 xo4 = k5_pay4 x0 x2 xo3 := by
  unfold out5_B_3
  rw [View.read_writes_eq_canon _ _ _ (cover5_B_3 c i a1 h1 a2 h2 a3 h3 a4 h4 a5 h5 hc x0 x1 x2 xo3 xo4)]
  unfold kernelRun5_B
  dsimp only
  sl_unfold_words
  rw [View.canon_unit_zero hz5]
  simp only [View.readAt_eq_ld, h1.read_unread, h3.read_unread, h4.read_unread, View.ld_unit_zero (S := S5000x128) hz5,
    View.ld_unit_zero (S := S5000x1) hz5, View.ld_unit_zero (S := S128x128) hz5]

/-- A later point leaves in the second accumulator its update. -/
private theorem piece5_B_4 (c : Dev nD) (i : grid5.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S128x128 .f32) (h4 : a4.IsWhole) (a5 : Memref sig .tc .vmem S128x128 .f32) (h5 : a5.IsWhole)
    (hc : ¬cond5_0 i) (x0 x1 : Vec F S5000x128 .f32) (x2 : Vec F S5000x1 .i32) (xo3 xo4 : Vec F S128x128 .f32) :
    out5_B_4 c i a1 h1 a2 h2 a3 h3 a4 h4 a5 h5 hc x0 x1 x2 xo3 xo4 = k5_pay5 x1 x2 xo4 := by
  unfold out5_B_4
  rw [View.read_writes_eq_canon _ _ _ (cover5_B_4 c i a1 h1 a2 h2 a3 h3 a4 h4 a5 h5 hc x0 x1 x2 xo3 xo4)]
  unfold kernelRun5_B
  dsimp only
  sl_unfold_words
  rw [View.canon_unit_zero hz5]
  simp only [View.readAt_eq_ld, h2.read_unread, h3.read_unread, h5.read_unread, View.ld_unit_zero (S := S5000x128) hz5,
    View.ld_unit_zero (S := S5000x1) hz5, View.ld_unit_zero (S := S128x128) hz5]

/-- The first point leaves in the first accumulator the update of the zero fill. -/
private theorem piece5_A_3 (c : Dev nD) (i : grid5.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S128x128 .f32) (h4 : a4.IsWhole) (a5 : Memref sig .tc .vmem S128x128 .f32) (h5 : a5.IsWhole)
    (hc : cond5_0 i) (x0 x1 : Vec F S5000x128 .f32) (x2 : Vec F S5000x1 .i32) :
    out5_A_3 c i a1 h1 a2 h2 a3 h3 a4 h4 a5 h5 hc x0 x1 x2 = k5_pay4 x0 x2 (k5_pay1 (F := F)) := by
  unfold out5_A_3
  rw [View.read_writes_eq_canon _ _ _ (cover5_A_3 c i a1 h1 a2 h2 a3 h3 a4 h4 a5 h5 hc x0 x1 x2)]
  unfold kernelRun5_A
  dsimp only
  sl_unfold_words
  rw [View.canon_cons_unit_zero (S := S128x128) hz5]
  simp only [View.readAt_eq_ld, h1.read_unread, h3.read_unread, View.ld_unit_zero (S := S5000x128) hz5,
    View.ld_unit_zero (S := S5000x1) hz5, View.readCov_unit_zero (S := S128x128) _ hz5]

/-- The first point leaves in the second accumulator the update of the zero fill. -/
private theorem piece5_A_4 (c : Dev nD) (i : grid5.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S128x128 .f32) (h4 : a4.IsWhole) (a5 : Memref sig .tc .vmem S128x128 .f32) (h5 : a5.IsWhole)
    (hc : cond5_0 i) (x0 x1 : Vec F S5000x128 .f32) (x2 : Vec F S5000x1 .i32) :
    out5_A_4 c i a1 h1 a2 h2 a3 h3 a4 h4 a5 h5 hc x0 x1 x2 = k5_pay5 x1 x2 (k5_pay2 (F := F)) := by
  unfold out5_A_4
  rw [View.read_writes_eq_canon _ _ _ (cover5_A_4 c i a1 h1 a2 h2 a3 h3 a4 h4 a5 h5 hc x0 x1 x2)]
  unfold kernelRun5_A
  dsimp only
  sl_unfold_words
  rw [View.canon_cons_unit_zero (S := S128x128) hz5]
  simp only [View.readAt_eq_ld, h2.read_unread, h3.read_unread, View.ld_unit_zero (S := S5000x128) hz5,
    View.ld_unit_zero (S := S5000x1) hz5, View.readCov_unit_zero (S := S128x128) _ hz5]
end Pieces

section Payload

/-- For a segment number below 128, a word is that number exactly when its signed reading is. -/
private theorem word_eq_iff (b : BitVec 32) (g : Fin 128) : b = BitVec.ofNat 32 g.val ↔ b.toInt = (g.val : Int) := by
  have hg := g.isLt
  have hb := b.isLt
  rw [BitVec.toInt_eq_toNat_cond]
  constructor
  · rintro rfl
    simp only [BitVec.toNat_ofNat]
    split <;> omega
  · intro h
    apply BitVec.eq_of_toNat_eq
    simp only [BitVec.toNat_ofNat]
    split at h <;> omega

/-- The 0/1 word of a comparison, widened and read signed as a real, is one or zero. -/
private theorem sitofp_cmpi_eq (x y : BitVec 32) :
    (FloatOps.sitofp (F := Ideal) .f32 ((IntOp.cmpi .eq x y).setWidth 32) : EReal) = if x = y then 1 else 0 := by
  by_cases h : x = y
  · subst h
    rw [if_pos rfl]
    show ((((BitVec.ofBool (x == x)).setWidth 32).toInt : ℝ) : EReal) = 1
    rw [show (x == x) = true from by simp]
    simp
  · rw [if_neg h]
    show ((((BitVec.ofBool (x == y)).setWidth 32).toInt : ℝ) : EReal) = 0
    rw [show (x == y) = false from by simpa using h]
    simp

/-- The membership matrix at (n, g): one exactly when node n's segment word, read signed, is g. -/
private theorem onehot_apply (seg : Vec Ideal S5000x1 .i32) (n : Fin 5000) (g : Fin 128) :
    k5_pay3 (F := Ideal) seg (ix2 n g) = if (seg (ix2 n 0)).toInt = (g.val : Int) then (1 : EReal) else 0 := by
  unfold k5_pay3
  have e10 : broadcastTo S5000x128 (shapeCast S5000x1 seg shapeCasts_S5000x1_S5000x1) broadcasts_S5000x1_S5000x128 (ix2 n g) = seg (ix2 n 0) :=
    (broadcastTo_apply _ _ (ix2 n g) (ix2 n 0) (fun a => by
      match a with
      | ⟨0, _⟩ => rfl
      | ⟨1, _⟩ => rfl)).trans (congrFun (shapeCast_self seg _) (ix2 n 0))
  have e9 : iota .tc S5000x128 32 [1] iota_S5000x128_d1_w32 (ix2 n g) = BitVec.ofNat 32 g.val :=
    iota_single_apply .tc S5000x128 32 1 iota_S5000x128_d1_w32 (ix2 n g)
  refine (sitofp_cmpi_eq _ _).trans ?_
  rw [e10, e9]
  exact if_congr (word_eq_iff _ g) rfl rfl

private theorem lhs5_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
private theorem lhs5_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
private theorem rhs5_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
private theorem rhs5_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- The product of the transposed membership matrix with the block's rows, at (g, j): the rows of segment g summed. -/
private theorem onehot_matmul_apply (x : Vec Ideal S5000x128 .f32) (seg : Vec Ideal S5000x1 .i32) (g j : Fin 128) :
    FloatOps.matmul dot_S5000x128_S5000x128_S128x128_0_0_1_1_n_n none (k5_pay3 (F := Ideal) seg)
        (truncf .bf16 (shapeCast S5000x128 x shapeCasts_S5000x128_S5000x128) bitsLt_bf16_f32) (constant S128x128 .f32 0x00000000#32) (ix2 g j)
      = ∑ n : Fin 5000, if (seg (ix2 n 0)).toInt = (g.val : Int) then x (ix2 n j) else 0 := by
  rw [Ideal.matmul_constant_zero_apply, ← Equiv.sum_comp (contrEquiv1 dot_S5000x128_S5000x128_S128x128_0_0_1_1_n_n 5000 rfl rfl).symm]
  refine Finset.sum_congr rfl fun n _ => ?_
  have hk := contrEquiv1_symm_val dot_S5000x128_S5000x128_S128x128_0_0_1_1_n_n 5000 rfl rfl n
  have el : dot_S5000x128_S5000x128_S128x128_0_0_1_1_n_n.lhsIdx (ix2 g j) ((contrEquiv1 dot_S5000x128_S5000x128_S128x128_0_0_1_1_n_n 5000 rfl rfl).symm n) = ix2 n g := funext fun a => Fin.ext (by
    match a with
    | ⟨0, _⟩ => exact (lhs5_0 _ _).trans hk
    | ⟨1, _⟩ => exact lhs5_1 _ _)
  have er : dot_S5000x128_S5000x128_S128x128_0_0_1_1_n_n.rhsIdx (ix2 g j) ((contrEquiv1 dot_S5000x128_S5000x128_S128x128_0_0_1_1_n_n 5000 rfl rfl).symm n) = ix2 n j := funext fun a => Fin.ext (by
    match a with
    | ⟨0, _⟩ => exact (rhs5_0 _ _).trans hk
    | ⟨1, _⟩ => exact rhs5_1 _ _)
  rw [el, er, onehot_apply]
  have ex : (truncf .bf16 (shapeCast S5000x128 x shapeCasts_S5000x128_S5000x128) bitsLt_bf16_f32 : FVec Ideal S5000x128 .bf16) (ix2 n j) = x (ix2 n j) :=
    congrFun (shapeCast_self x _) (ix2 n j)
  rw [ex]
  split
  · exact one_mul _
  · exact zero_mul _

/-- The first accumulator's update at (g, j): the previous entry plus the block's rows of segment g. -/
private theorem pay4_apply (x : Vec Ideal S5000x128 .f32) (seg : Vec Ideal S5000x1 .i32) (prev : Vec Ideal S128x128 .f32) (g j : Fin 128) :
    k5_pay4 (F := Ideal) x seg prev (ix2 g j)
      = prev (ix2 g j) + ∑ n : Fin 5000, if (seg (ix2 n 0)).toInt = (g.val : Int) then x (ix2 n j) else 0 := by
  unfold k5_pay4
  exact congrArg₂ (· + ·) (congrFun (shapeCast_self prev _) (ix2 g j)) (onehot_matmul_apply x seg g j)

/-- The second accumulator's update at (g, j). -/
private theorem pay5_apply (x : Vec Ideal S5000x128 .f32) (seg : Vec Ideal S5000x1 .i32) (prev : Vec Ideal S128x128 .f32) (g j : Fin 128) :
    k5_pay5 (F := Ideal) x seg prev (ix2 g j)
      = prev (ix2 g j) + ∑ n : Fin 5000, if (seg (ix2 n 0)).toInt = (g.val : Int) then x (ix2 n j) else 0 := by
  unfold k5_pay5
  exact congrArg₂ (· + ·) (congrFun (shapeCast_self prev _) (ix2 g j)) (onehot_matmul_apply x seg g j)

/-- The zero fills read zero. -/
private theorem pay1_apply (i : S128x128.Idx) : k5_pay1 (F := Ideal) i = 0 := Ideal.ofBits_zero_f32
private theorem pay2_apply (i : S128x128.Idx) : k5_pay2 (F := Ideal) i = 0 := Ideal.ofBits_zero_f32

end Payload

section Sums

/-- Node r of block s, among the 50000 nodes. -/
private def node (s : Fin 10) (r : Fin 5000) : Fin 50000 := ⟨5000 * s.val + r.val, by have := s.isLt; have := r.isLt; omega⟩

/-- A sum over the 50000 nodes is the sum over the ten blocks of the sums over each block's 5000 nodes. -/
private theorem sum_nodes (f : Fin 50000 → EReal) : ∑ n : Fin 50000, f n = ∑ s : Fin 10, ∑ r : Fin 5000, f (node s r) := by
  rw [← Fintype.sum_prod_type' (fun s r => f (node s r))]
  exact (Fintype.sum_equiv (finProdFinEquiv (m := 10) (n := 5000)) (fun p => f (node p.1 p.2)) f
    (fun p => congrArg f (Fin.ext (by show 5000 * p.1.val + p.2.val = p.2.val + 5000 * p.1.val; omega)))).symm

/-- Block s's share of entry (g, j) of the pooled array: the rows of its nodes of segment g; nothing past the tenth block. -/
private def blockSum (seg : Fin 50000 → BitVec 32) (x : Spec.A2 50000 128) (g j : Fin 128) (s : ℕ) : EReal :=
  if h : s < 10 then ∑ r : Fin 5000, (if (seg (node ⟨s, h⟩ r)).toInt = (g.val : Int) then x (ix2 (node ⟨s, h⟩ r) j) else 0) else 0

/-- The ten blocks' shares add up to the pooled entry. -/
private theorem sum_blockSum (seg : Fin 50000 → BitVec 32) (x : Spec.A2 50000 128) (g j : Fin 128) :
    ∑ s ∈ Finset.range 10, blockSum seg x g j s = Spec.pool seg (fun n j => x (ix2 n j)) g j := by
  unfold Spec.pool
  rw [sum_nodes, ← Fin.sum_univ_eq_sum_range]
  refine Finset.sum_congr rfl fun s _ => ?_
  unfold blockSum
  rw [dif_pos s.isLt]

end Sums

section Points

/-- The three input blocks at a point and the three input arrays, at their literal types. -/
private abbrev xblk0 (c : Dev nD) (t : Fin cfg5.N) : Vec Ideal S5000x128 .f32 := iblk5 V c 0 t
private abbrev xblk1 (c : Dev nD) (t : Fin cfg5.N) : Vec Ideal S5000x128 .f32 := iblk5 V c 1 t
private abbrev sblk (c : Dev nD) (t : Fin cfg5.N) : Vec Ideal S5000x1 .i32 := iblk5 V c 2 t
private abbrev xarr0 (c : Dev nD) : Spec.A2 50000 128 := V c main_v116_0
private abbrev xarr1 (c : Dev nD) : Spec.A2 50000 128 := V c main_v116_1
private abbrev segf (c : Dev nD) : Fin 50000 → BitVec 32 :=
  fun n => (V c main_v117 : (⟨2, ![50000, 1]⟩ : Shape).Idx → BitVec 32) (ix2 n 0)

/-- Each input window's block index at a point: the point's number on the row axis, zero on the other. -/
private theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- Row r of point t's block of the first input is row 5000 t + r of the array. -/
private theorem xblk0_apply (c : Dev nD) (t : Fin cfg5.N) (r : Fin 5000) (j : Fin 128) (h : t.val < 10) :
    xblk0 V c t (ix2 r j) = xarr0 V c (ix2 (node ⟨t.val, h⟩ r) j) := by
  obtain ⟨e0, e1, -⟩ := idx5 t
  show V c main_v116_0 (((cfg5.win 0).blk t).view.emb (ix2 r j)) = V c main_v116_0 (ix2 (node ⟨t.val, h⟩ r) j)
  refine congrArg _ (funext fun a => Fin.ext ?_)
  match a with
  | ⟨0, _⟩ => show win5_0.index t (0 : Fin 2) * 5000 + 1 * r.val = 5000 * t.val + r.val; omega
  | ⟨1, _⟩ => show win5_0.index t (1 : Fin 2) * 128 + 1 * j.val = j.val; omega

/-- Row r of point t's block of the second input is row 5000 t + r of the array. -/
private theorem xblk1_apply (c : Dev nD) (t : Fin cfg5.N) (r : Fin 5000) (j : Fin 128) (h : t.val < 10) :
    xblk1 V c t (ix2 r j) = xarr1 V c (ix2 (node ⟨t.val, h⟩ r) j) := by
  obtain ⟨-, -, e0, e1, -⟩ := idx5 t
  show V c main_v116_1 (((cfg5.win 1).blk t).view.emb (ix2 r j)) = V c main_v116_1 (ix2 (node ⟨t.val, h⟩ r) j)
  refine congrArg _ (funext fun a => Fin.ext ?_)
  match a with
  | ⟨0, _⟩ => show win5_1.index t (0 : Fin 2) * 5000 + 1 * r.val = 5000 * t.val + r.val; omega
  | ⟨1, _⟩ => show win5_1.index t (1 : Fin 2) * 128 + 1 * j.val = j.val; omega

/-- Entry r of point t's block of segment words is the word of node 5000 t + r. -/
private theorem sblk_apply (c : Dev nD) (t : Fin cfg5.N) (r : Fin 5000) (h : t.val < 10) :
    sblk V c t (ix2 r 0) = segf V c (node ⟨t.val, h⟩ r) := by
  obtain ⟨-, -, -, -, e0, e1⟩ := idx5 t
  show V c main_v117 (((cfg5.win 2).blk t).view.emb (ix2 r 0)) = V c main_v117 (ix2 (node ⟨t.val, h⟩ r) 0)
  refine congrArg _ (funext fun a => Fin.ext ?_)
  match a with
  | ⟨0, _⟩ => show win5_2.index t (0 : Fin 2) * 5000 + 1 * r.val = 5000 * t.val + r.val; omega
  | ⟨1, _⟩ => show win5_2.index t (1 : Fin 2) * 1 + 1 * 0 = 0; omega

/-- A point's update of the first accumulator adds its block's share. -/
private theorem upd3 (c : Dev nD) (t : Fin cfg5.N) (prev : Vec Ideal S128x128 .f32) (g j : Fin 128) :
    k5_pay4 (F := Ideal) (xblk0 V c t) (sblk V c t) prev (ix2 g j)
      = prev (ix2 g j) + blockSum (segf V c) (xarr0 V c) g j t.val := by
  have ht : t.val < 10 := lt_of_lt_of_eq t.isLt (show cfg5.N = 10 from N_5)
  refine (pay4_apply (xblk0 V c t) (sblk V c t) prev g j).trans ?_
  unfold blockSum
  rw [dif_pos ht]
  refine congrArg (prev (ix2 g j) + ·) (Finset.sum_congr rfl fun r _ => ?_)
  rw [xblk0_apply V c t r j ht, sblk_apply V c t r ht]

/-- A point's update of the second accumulator adds its block's share. -/
private theorem upd4 (c : Dev nD) (t : Fin cfg5.N) (prev : Vec Ideal S128x128 .f32) (g j : Fin 128) :
    k5_pay5 (F := Ideal) (xblk1 V c t) (sblk V c t) prev (ix2 g j)
      = prev (ix2 g j) + blockSum (segf V c) (xarr1 V c) g j t.val := by
  have ht : t.val < 10 := lt_of_lt_of_eq t.isLt (show cfg5.N = 10 from N_5)
  refine (pay5_apply (xblk1 V c t) (sblk V c t) prev g j).trans ?_
  unfold blockSum
  rw [dif_pos ht]
  refine congrArg (prev (ix2 g j) + ·) (Finset.sum_congr rfl fun r _ => ?_)
  rw [xblk1_apply V c t r j ht, sblk_apply V c t r ht]

/-- At the first point the first accumulator holds the first block's share. -/
private theorem step3_A (c : Dev nD) (t : Fin cfg5.N) (h0 : t.val % 10 = 0) (g j : Fin 128) :
    (outsAt5 V c t.val t.isLt).1 (ix2 g j) = blockSum (segf V c) (xarr0 V c) g j t.val := by
  rw [outsAt5_A V c t h0]
  dsimp only
  refine (congrFun (piece5_A_3 (F := Ideal) c (grid5.coords t) (ms5_0 t) (hs5_0 t) (ms5_1 t) (hs5_1 t) (ms5_2 t) (hs5_2 t) (ms5_3 t) (hs5_3 t) (ms5_4 t) (hs5_4 t) ((hcond5_0 t).mpr h0) (xblk0 V c t) (xblk1 V c t) (sblk V c t)) (ix2 g j)).trans ?_
  refine (upd3 V c t (k5_pay1 (F := Ideal)) g j).trans ?_
  rw [pay1_apply, zero_add]

/-- At the first point the second accumulator holds the first block's share. -/
private theorem step4_A (c : Dev nD) (t : Fin cfg5.N) (h0 : t.val % 10 = 0) (g j : Fin 128) :
    (outsAt5 V c t.val t.isLt).2 (ix2 g j) = blockSum (segf V c) (xarr1 V c) g j t.val := by
  rw [outsAt5_A V c t h0]
  dsimp only
  refine (congrFun (piece5_A_4 (F := Ideal) c (grid5.coords t) (ms5_0 t) (hs5_0 t) (ms5_1 t) (hs5_1 t) (ms5_2 t) (hs5_2 t) (ms5_3 t) (hs5_3 t) (ms5_4 t) (hs5_4 t) ((hcond5_0 t).mpr h0) (xblk0 V c t) (xblk1 V c t) (sblk V c t)) (ix2 g j)).trans ?_
  refine (upd4 V c t (k5_pay2 (F := Ideal)) g j).trans ?_
  rw [pay2_apply, zero_add]

/-- At a later point the first accumulator holds what the point before left plus the point's block's share. -/
private theorem step3_B (c : Dev nD) (t : Fin cfg5.N) (h0 : ¬t.val % 10 = 0) (g j : Fin 128) :
    (outsAt5 V c t.val t.isLt).1 (ix2 g j)
      = (outsAt5 V c (t.val - 1) (Nat.lt_of_le_of_lt (Nat.sub_le _ _) t.isLt)).1 (ix2 g j) + blockSum (segf V c) (xarr0 V c) g j t.val := by
  rw [outsAt5_B V c t h0]
  dsimp only
  refine (congrFun (piece5_B_3 (F := Ideal) c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (xblk0 V c t) (xblk1 V c t) (sblk V c t)
    (outsAt5 V c (t.val - 1) (Nat.lt_of_le_of_lt (Nat.sub_le _ _) t.isLt)).1 (outsAt5 V c (t.val - 1) (Nat.lt_of_le_of_lt (Nat.sub_le _ _) t.isLt)).2) (ix2 g j)).trans ?_
  exact upd3 V c t (outsAt5 V c (t.val - 1) (Nat.lt_of_le_of_lt (Nat.sub_le _ _) t.isLt)).1 g j

/-- At a later point the second accumulator holds what the point before left plus the point's block's share. -/
private theorem step4_B (c : Dev nD) (t : Fin cfg5.N) (h0 : ¬t.val % 10 = 0) (g j : Fin 128) :
    (outsAt5 V c t.val t.isLt).2 (ix2 g j)
      = (outsAt5 V c (t.val - 1) (Nat.lt_of_le_of_lt (Nat.sub_le _ _) t.isLt)).2 (ix2 g j) + blockSum (segf V c) (xarr1 V c) g j t.val := by
  rw [outsAt5_B V c t h0]
  dsimp only
  refine (congrFun (piece5_B_4 (F := Ideal) c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (xblk0 V c t) (xblk1 V c t) (sblk V c t)
    (outsAt5 V c (t.val - 1) (Nat.lt_of_le_of_lt (Nat.sub_le _ _) t.isLt)).1 (outsAt5 V c (t.val - 1) (Nat.lt_of_le_of_lt (Nat.sub_le _ _) t.isLt)).2) (ix2 g j)).trans ?_
  exact upd4 V c t (outsAt5 V c (t.val - 1) (Nat.lt_of_le_of_lt (Nat.sub_le _ _) t.isLt)).2 g j

/-- After point n the first accumulator holds the shares of blocks 0 to n. -/
private theorem inv3 (c : Dev nD) : ∀ (n : ℕ) (hn : n < cfg5.N) (g j : Fin 128),
    (outsAt5 V c n hn).1 (ix2 g j) = ∑ s ∈ Finset.range (n + 1), blockSum (segf V c) (xarr0 V c) g j s
  | 0, hn, g, j => (step3_A V c ⟨0, hn⟩ rfl g j).trans (Finset.sum_range_one _).symm
  | n + 1, hn, g, j => by
    have hN : cfg5.N = 10 := N_5
    have hB : ¬(⟨n + 1, hn⟩ : Fin cfg5.N).val % 10 = 0 := by dsimp only; omega
    rw [Finset.sum_range_succ _ (n + 1)]
    refine (step3_B V c ⟨n + 1, hn⟩ hB g j).trans ?_
    exact congrArg (· + _) (inv3 c n (Nat.lt_of_succ_lt hn) g j)

/-- After point n the second accumulator holds the shares of blocks 0 to n. -/
private theorem inv4 (c : Dev nD) : ∀ (n : ℕ) (hn : n < cfg5.N) (g j : Fin 128),
    (outsAt5 V c n hn).2 (ix2 g j) = ∑ s ∈ Finset.range (n + 1), blockSum (segf V c) (xarr1 V c) g j s
  | 0, hn, g, j => (step4_A V c ⟨0, hn⟩ rfl g j).trans (Finset.sum_range_one _).symm
  | n + 1, hn, g, j => by
    have hN : cfg5.N = 10 := N_5
    have hB : ¬(⟨n + 1, hn⟩ : Fin cfg5.N).val % 10 = 0 := by dsimp only; omega
    rw [Finset.sum_range_succ _ (n + 1)]
    refine (step4_B V c ⟨n + 1, hn⟩ hB g j).trans ?_
    exact congrArg (· + _) (inv4 c n (Nat.lt_of_succ_lt hn) g j)

/-- After the last point the first accumulator holds the pooled array of the first input. -/
private theorem outs3_final (c : Dev nD) (t : Fin cfg5.N) (ht : t.val = 9) :
    (outsAt5 V c t.val t.isLt).1 = Spec.poolArr (segf V c) (xarr0 V c) := by
  funext i
  obtain ⟨g, j, rfl⟩ : ∃ (g j : Fin 128), i = ix2 g j := ⟨i 0, i 1, eq_ix2 i⟩
  refine (inv3 V c t.val t.isLt g j).trans ?_
  rw [ht]
  exact sum_blockSum (segf V c) (xarr0 V c) g j

/-- After the last point the second accumulator holds the pooled array of the second input. -/
private theorem outs4_final (c : Dev nD) (t : Fin cfg5.N) (ht : t.val = 9) :
    (outsAt5 V c t.val t.isLt).2 = Spec.poolArr (segf V c) (xarr1 V c) := by
  funext i
  obtain ⟨g, j, rfl⟩ : ∃ (g j : Fin 128), i = ix2 g j := ⟨i 0, i 1, eq_ix2 i⟩
  refine (inv4 V c t.val t.isLt g j).trans ?_
  rw [ht]
  exact sum_blockSum (segf V c) (xarr1 V c) g j

end Points

section Array

/-- The one write-back of the first accumulator, at the last point, writes the pooled array: its block is the array. -/
private theorem flushed3_eq (c : Dev nD) (t : Fin cfg5.N) (hf : (cfg5.win 3).flush t = true) :
    (dat5 V c).flushed 3 t = ((cfg5.win 3).blk t).view.read (Elt Ideal) (Spec.poolArr (segf V c) (xarr0 V c)) := by
  have hN : cfg5.N = 10 := N_5
  have h9 : t.val = 9 := by have := (flush5_3 t).mp hf; have := t.isLt; omega
  obtain rfl : t = t5_9 := Fin.ext h9
  show (cfg5.win 3).cut (grid5.coords t5_9) ((dat5 V c).after 3 t5_9) = _
  rw [after5_3, outs3_final V c t5_9 rfl]
  have hz' : (fun a => win5_3.index t5_9 a * main_v118_0.ty.shape.size a) = fun _ => 0 := funext fun a => by fin_cases a <;> decide
  exact (Memref.read_access_unit_zero (Elt Ideal) main_v118_0 hz' (fun a => by rw [congrFun hz' a]; simp) (Spec.poolArr (segf V c) (xarr0 V c))).symm

/-- The one write-back of the second accumulator, at the last point, writes the pooled array: its block is the array. -/
private theorem flushed4_eq (c : Dev nD) (t : Fin cfg5.N) (hf : (cfg5.win 4).flush t = true) :
    (dat5 V c).flushed 4 t = ((cfg5.win 4).blk t).view.read (Elt Ideal) (Spec.poolArr (segf V c) (xarr1 V c)) := by
  have hN : cfg5.N = 10 := N_5
  have h9 : t.val = 9 := by have := (flush5_4 t).mp hf; have := t.isLt; omega
  obtain rfl : t = t5_9 := Fin.ext h9
  show (cfg5.win 4).cut (grid5.coords t5_9) ((dat5 V c).after 4 t5_9) = _
  rw [after5_4, outs4_final V c t5_9 rfl]
  have hz' : (fun a => win5_4.index t5_9 a * main_v118_1.ty.shape.size a) = fun _ => 0 := funext fun a => by fin_cases a <;> decide
  exact (Memref.read_access_unit_zero (Elt Ideal) main_v118_1 hz' (fun a => by rw [congrFun hz' a]; simp) (Spec.poolArr (segf V c) (xarr1 V c))).symm

/-- The last point's block of the first output is the whole array. -/
private theorem cover3 (i : S128x128.Idx) : ∃ t : Fin cfg5.N, (cfg5.win 3).flush t = true ∧ i ∈ ((cfg5.win 3).blk t).view.set :=
  ⟨t5_9, (flush5_3 t5_9).mpr rfl, by
    show i ∈ ((View.whole main_v118_0).slice (win5_3.rect t5_9)).set
    rw [View.set_slice_whole, Rect.mem_set_unit]
    intro a
    have h0 : (i 0 : Nat) < 128 := (i 0).isLt
    have h1 : (i 1 : Nat) < 128 := (i 1).isLt
    match a with
    | ⟨0, _⟩ => show win5_3.index t5_9 0 * win5_3.size 0 ≤ (i 0 : Nat) ∧ (i 0 : Nat) < win5_3.index t5_9 0 * win5_3.size 0 + win5_3.xsize (grid5.coords t5_9) 0
                rw [show win5_3.index t5_9 0 * win5_3.size 0 = 0 from by decide +kernel, show win5_3.xsize (grid5.coords t5_9) 0 = 128 from by decide +kernel]; omega
    | ⟨1, _⟩ => show win5_3.index t5_9 1 * win5_3.size 1 ≤ (i 1 : Nat) ∧ (i 1 : Nat) < win5_3.index t5_9 1 * win5_3.size 1 + win5_3.xsize (grid5.coords t5_9) 1
                rw [show win5_3.index t5_9 1 * win5_3.size 1 = 0 from by decide +kernel, show win5_3.xsize (grid5.coords t5_9) 1 = 128 from by decide +kernel]; omega⟩

/-- The last point's block of the second output is the whole array. -/
private theorem cover4 (i : S128x128.Idx) : ∃ t : Fin cfg5.N, (cfg5.win 4).flush t = true ∧ i ∈ ((cfg5.win 4).blk t).view.set :=
  ⟨t5_9, (flush5_4 t5_9).mpr rfl, by
    show i ∈ ((View.whole main_v118_1).slice (win5_4.rect t5_9)).set
    rw [View.set_slice_whole, Rect.mem_set_unit]
    intro a
    have h0 : (i 0 : Nat) < 128 := (i 0).isLt
    have h1 : (i 1 : Nat) < 128 := (i 1).isLt
    match a with
    | ⟨0, _⟩ => show win5_4.index t5_9 0 * win5_4.size 0 ≤ (i 0 : Nat) ∧ (i 0 : Nat) < win5_4.index t5_9 0 * win5_4.size 0 + win5_4.xsize (grid5.coords t5_9) 0
                rw [show win5_4.index t5_9 0 * win5_4.size 0 = 0 from by decide +kernel, show win5_4.xsize (grid5.coords t5_9) 0 = 128 from by decide +kernel]; omega
    | ⟨1, _⟩ => show win5_4.index t5_9 1 * win5_4.size 1 ≤ (i 1 : Nat) ∧ (i 1 : Nat) < win5_4.index t5_9 1 * win5_4.size 1 + win5_4.xsize (grid5.coords t5_9) 1
                rw [show win5_4.index t5_9 1 * win5_4.size 1 = 0 from by decide +kernel, show win5_4.xsize (grid5.coords t5_9) 1 = 128 from by decide +kernel]; omega⟩

end Array

/-- Region 5's first output array after its ten points: the first input's rows summed per segment. -/
theorem reg5_c (c : Dev nD) :
    ((dat5 (F := Ideal) V c).arrAt 3 cfg5.N : Spec.A2 128 128)
      = Spec.poolArr (fun n => (V c main_v117 : (⟨2, ![50000, 1]⟩ : Shape).Idx → BitVec 32) (ix2 n 0)) (V c main_v116_0) :=
  (dat5 V c).arrAt_eq_of_cover 3 (Spec.poolArr (segf V c) (xarr0 V c)) (flushed3_eq V c) cover3

/-- Region 5's second output array after its ten points: the second input's rows summed per segment. -/
theorem reg5_o (c : Dev nD) :
    ((dat5 (F := Ideal) V c).arrAt 4 cfg5.N : Spec.A2 128 128)
      = Spec.poolArr (fun n => (V c main_v117 : (⟨2, ![50000, 1]⟩ : Shape).Idx → BitVec 32) (ix2 n 0)) (V c main_v116_1) :=
  (dat5 V c).arrAt_eq_of_cover 4 (Spec.poolArr (segf V c) (xarr1 V c)) (flushed4_eq V c) cover4

end Cert.KernelIdeal.RegVal

end
-- ==== Proof.LibPoolScatter.lean ====
/-
  A row scatter-add is a sum per segment.

  A host scatter-add whose updates are the `N` rows of an `N × C` array, row `n` added into row `idx n` of a `G × C`
  operand (update axis 1 a window axis, operand axis 0 scattered and inserted, the index vector on axis 1 of the
  `N × 1` indices), leaves at `(g, j)`, at the exact values, the operand's entry plus the sum of `upd n j` over the rows
  `n` whose index word, read signed, is `g`. Update entry `(n, j')` lands at `(idx n read signed, j')` when that row lies
  in `[0, G)` and nowhere otherwise; the column is never moved. So the update entries landing at `(g, j)` are the entries
  `(n, j)` of the rows with index word `g`, and the filtered sum over the `N × C` update indices is a sum over rows.
-/
import Idealize.ShloMosaic.PureOps.Ideal
import Idealize.ShloMosaic.Lib.ValueIdx

noncomputable section

namespace Cert.LibPoolScatter

open Idealize.ShloMosaic Idealize.ShloMosaic.ValueIdx

/-- The dimension numbers of a row scatter: updates `N × C` into an operand `G × C`, indices `N × 1`; the update's
    axis 1 is a window axis, the operand's axis 0 is scattered and inserted, the index vector lies on axis 1. -/
abbrev rowDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

variable {G N C w : Nat} (wf : ScatterDims.WF ⟨2, ![G, C]⟩ ⟨2, ![N, 1]⟩ ⟨2, ![N, C]⟩ [1] [0] [0] 1)

/-- On the scattered axis the window starts at the index word of the update's row, read signed. -/
theorem rowDims_start0 (j : (⟨2, ![N, C]⟩ : Shape).Idx) (idx : IVec ⟨2, ![N, 1]⟩ w) :
    (rowDims G N C wf).start j idx (0 : Fin 2) = (idx (ix2 (j 0) 0)).toInt := by
  unfold ScatterDims.start
  have h : (0 : Fin 2) ∈ (rowDims G N C wf).scatterDimsToOperandDims := by
    show (0 : Fin 2) ∈ [(0 : Fin 2)]
    exact List.mem_singleton.2 rfl
  rw [dif_pos h]
  congr 2
  funext b
  match b with
  | ⟨0, _⟩ => rfl
  | ⟨1, _⟩ => rfl

/-- On the window axis the start is zero: the index map does not name it. -/
theorem rowDims_start1 (j : (⟨2, ![N, C]⟩ : Shape).Idx) (idx : IVec ⟨2, ![N, 1]⟩ w) :
    (rowDims G N C wf).start j idx (1 : Fin 2) = 0 := by
  unfold ScatterDims.start
  have h : ¬ (1 : Fin 2) ∈ (rowDims G N C wf).scatterDimsToOperandDims := by
    show ¬ (1 : Fin 2) ∈ [(0 : Fin 2)]
    decide
  rw [dif_neg h]

/-- The scattered axis is an inserted one: its window coordinate is zero. -/
theorem rowDims_window0 (j : (⟨2, ![N, C]⟩ : Shape).Idx) :
    (rowDims G N C wf).window j (0 : Fin 2) = 0 := by
  unfold ScatterDims.window
  have h : ¬ (0 : Fin 2) ∈ (rowDims G N C wf).sKept := by
    show ¬ (0 : Fin 2) ∈ [(1 : Fin 2)]
    decide
  rw [dif_neg h]

/-- On the window axis the window coordinate is the update's column. -/
theorem rowDims_window1 (j : (⟨2, ![N, C]⟩ : Shape).Idx) :
    (rowDims G N C wf).window j (1 : Fin 2) = (j 1).val := by
  unfold ScatterDims.window
  have h : (1 : Fin 2) ∈ (rowDims G N C wf).sKept := by
    show (1 : Fin 2) ∈ [(1 : Fin 2)]
    exact List.mem_singleton.2 rfl
  rw [dif_pos h]
  rfl

/-- WHERE AN UPDATE LANDS. Update entry `(n, j')` lands at `(g, j)` exactly when row `n`'s index word, read signed,
    is `g` and the columns agree: the landing row is the signed word itself (the start plus a zero window coordinate),
    kept only when it lies in `[0, G)`, and the landing column is `j'` (a zero start plus the column), always inside. -/
theorem rowDims_resultIdx (n : Fin N) (j' : Fin C) (idx : IVec ⟨2, ![N, 1]⟩ w) (g : Fin G) (j : Fin C) :
    (rowDims G N C wf).resultIdx? (ix2 n j') idx = some (ix2 g j)
      ↔ ((idx (ix2 n 0)).toInt = (g.val : Int) ∧ j' = j) := by
  have hs0 : (rowDims G N C wf).start (ix2 n j') idx (0 : Fin 2) = (idx (ix2 n 0)).toInt :=
    rowDims_start0 wf (ix2 n j') idx
  have hs1 : (rowDims G N C wf).start (ix2 n j') idx (1 : Fin 2) = 0 := rowDims_start1 wf (ix2 n j') idx
  have hw0 : (rowDims G N C wf).window (ix2 n j') (0 : Fin 2) = 0 := rowDims_window0 wf (ix2 n j')
  have hw1 : (rowDims G N C wf).window (ix2 n j') (1 : Fin 2) = j'.val := rowDims_window1 wf (ix2 n j')
  have hg : g.val < G := g.isLt
  have hj' : j'.val < C := j'.isLt
  generalize (idx (ix2 n 0)).toInt = t at hs0 ⊢
  unfold ScatterDims.resultIdx?
  split
  · rename_i h
    have h0 : 0 ≤ (rowDims G N C wf).start (ix2 n j') idx (0 : Fin 2) + (rowDims G N C wf).window (ix2 n j') (0 : Fin 2)
        ∧ (rowDims G N C wf).start (ix2 n j') idx (0 : Fin 2) + (rowDims G N C wf).window (ix2 n j') (0 : Fin 2)
            < ((G : ℕ) : Int) := h 0
    rw [hs0, hw0] at h0
    rw [Option.some.injEq]
    constructor
    · intro hf
      have e0 := congrArg Fin.val (congrFun hf (0 : Fin 2))
      have e1 := congrArg Fin.val (congrFun hf (1 : Fin 2))
      change ((rowDims G N C wf).start (ix2 n j') idx (0 : Fin 2)
        + (rowDims G N C wf).window (ix2 n j') (0 : Fin 2)).toNat = g.val at e0
      change ((rowDims G N C wf).start (ix2 n j') idx (1 : Fin 2)
        + (rowDims G N C wf).window (ix2 n j') (1 : Fin 2)).toNat = j.val at e1
      rw [hs0, hw0] at e0
      rw [hs1, hw1] at e1
      refine ⟨by omega, Fin.ext (by omega)⟩
    · rintro ⟨ht, rfl⟩
      funext a
      match a with
      | ⟨0, _⟩ =>
        apply Fin.ext
        show ((rowDims G N C wf).start (ix2 n j') idx (0 : Fin 2)
          + (rowDims G N C wf).window (ix2 n j') (0 : Fin 2)).toNat = g.val
        rw [hs0, hw0]; omega
      | ⟨1, _⟩ =>
        apply Fin.ext
        show ((rowDims G N C wf).start (ix2 n j') idx (1 : Fin 2)
          + (rowDims G N C wf).window (ix2 n j') (1 : Fin 2)).toNat = j'.val
        rw [hs1, hw1]; omega
  · rename_i h
    constructor
    · intro hf; cases hf
    · rintro ⟨ht, rfl⟩
      exfalso
      apply h
      intro a
      match a with
      | ⟨0, _⟩ =>
        show 0 ≤ (rowDims G N C wf).start (ix2 n j') idx (0 : Fin 2) + (rowDims G N C wf).window (ix2 n j') (0 : Fin 2)
          ∧ (rowDims G N C wf).start (ix2 n j') idx (0 : Fin 2) + (rowDims G N C wf).window (ix2 n j') (0 : Fin 2)
              < ((G : ℕ) : Int)
        rw [hs0, hw0]; omega
      | ⟨1, _⟩ =>
        show 0 ≤ (rowDims G N C wf).start (ix2 n j') idx (1 : Fin 2) + (rowDims G N C wf).window (ix2 n j') (1 : Fin 2)
          ∧ (rowDims G N C wf).start (ix2 n j') idx (1 : Fin 2) + (rowDims G N C wf).window (ix2 n j') (1 : Fin 2)
              < ((C : ℕ) : Int)
        rw [hs1, hw1]; omega

/-- A ROW SCATTER-ADD IS A SUM PER SEGMENT. At `(g, j)` the result is the operand's entry plus the sum of `upd (n, j)`
    over the rows `n` whose index word, read signed, is `g`: the sum over the update entries landing at `(g, j)`, split
    into rows and columns, keeps in row `n` only column `j`, and only when the row's word is `g`. -/
theorem hostScatterAdd_rowDims_apply (x : (⟨2, ![G, C]⟩ : Shape).Idx → EReal) (idx : IVec ⟨2, ![N, 1]⟩ w)
    (upd : (⟨2, ![N, C]⟩ : Shape).Idx → EReal) (g : Fin G) (j : Fin C) :
    Ideal.hostScatterAdd (rowDims G N C wf) x idx upd (ix2 g j)
      = x (ix2 g j) + ∑ n : Fin N, if (idx (ix2 n 0)).toInt = (g.val : Int) then upd (ix2 n j) else 0 := by
  unfold Ideal.hostScatterAdd
  congr 1
  rw [Finset.sum_filter, sum_idx2]
  refine Finset.sum_congr rfl fun n _ => ?_
  simp only [rowDims_resultIdx wf]
  by_cases ht : (idx (ix2 n 0)).toInt = (g.val : Int)
  · simp only [ht, true_and, if_true]
    rw [Finset.sum_ite_eq' Finset.univ j (fun j' => upd (ix2 n j'))]
    simp only [Finset.mem_univ, if_true]
  · simp only [ht, false_and, if_false]
    exact Finset.sum_const_zero

end Cert.LibPoolScatter

end
-- ==== Proof.RSpecPool.lean ====
/-
  The reference's pooling: a host scatter-add of the 50000 rows into a zero 128 × 128 array at the rows' segment words.
  At the exact values the result at `(g, j)` is zero plus the sum of the update entries whose landing index is `(g, j)`;
  update entry `(n, j')` lands at `(seg n read signed, j')` when that is inside the array and nowhere otherwise. So the
  entry is the sum of `x n j` over the nodes `n` whose segment word, read signed, is `g`.
-/
import proofs.«420551_j59150289601188_1_alg».proof.Proof.RefRead
import proofs.«420551_j59150289601188_1_alg».proof.Proof.SpecArr
import proofs.«420551_j59150289601188_1_alg».proof.Proof.LibPoolScatter
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefSpec

open Cert.ReferenceIdeal Cert.ReferenceIdeal.Gen Cert.ReferenceIdeal.Read Idealize.ShloMosaic Idealize.ShloMosaic.TcCoe Idealize.ShloMosaic.ValueIdx

/-- The reference's pooling scatter is a row scatter: the record's dimension numbers are the row scatter's. -/
theorem poolD_eq : scatter_S128x128_S50000x1_S50000x128_1_0_0_1
    = Cert.LibPoolScatter.rowDims 128 50000 128 scatter_S128x128_S50000x1_S50000x128_1_0_0_1_wf := rfl

/-- THE POOLING SCATTER INTO A ZERO ARRAY. With the operand the zero word everywhere and the index entry `(n, 0)` the
    segment word of node `n`, the scatter-add of `X` leaves at `(g, j)` zero plus the sum of `X (n, j)` over the nodes whose
    segment word, read signed, is `g`; the zero word is the real zero, which adds nothing. -/
theorem pool_scatter_eq (z : FVec Ideal S128x128 .f32) (sg : IVec S50000x1 32) (x2 : IVec S50000 32)
    (X : FVec Ideal S50000x128 .f32)
    (hz : ∀ i, z i = Ideal.ofBits .f32 0x00000000#32) (hsg : ∀ n : Fin 50000, sg (ix2 n 0) = x2 (ix1 n)) :
    Host.scatterAdd (F := Ideal) scatter_S128x128_S50000x1_S50000x128_1_0_0_1 z sg X
      = Spec.poolArr (fun n => x2 (ix1 n)) X := by
  funext i
  obtain ⟨g, j, rfl⟩ : ∃ g j, i = ix2 g j := ⟨i 0, i 1, eq_ix2 i⟩
  rw [poolD_eq]
  refine (Cert.LibPoolScatter.hostScatterAdd_rowDims_apply scatter_S128x128_S50000x1_S50000x128_1_0_0_1_wf z sg X g j).trans ?_
  rw [hz, Ideal.ofBits_zero_f32, zero_add]
  show _ = ∑ n : Fin 50000, if (x2 (ix1 n)).toInt = (g.val : Int) then X (ix2 n j) else 0
  refine Finset.sum_congr rfl fun n _ => ?_
  rw [hsg n]

/-- The first pooled array: the weight-0 rows summed per segment. -/
theorem v197_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x11 : (⟨S128x2, .f32⟩ : BufTy).Contents (Elt Ideal)) (x12 : (⟨S2, .f32⟩ : BufTy).Contents (Elt Ideal)) :
    (val_main_v197 (F := Ideal) x0 x1 x2 x3 x4 x5 x6 x7 x8 x11 x12 : Spec.A2 128 128)
      = Spec.poolArr (fun n => x2 (ix1 n)) (val_main_v185 (F := Ideal) x0 x1 x3 x4 x5 x6 x7 x8 x11 x12) := by
  unfold val_main_v197
  generalize val_main_v185 (F := Ideal) x0 x1 x3 x4 x5 x6 x7 x8 x11 x12 = X
  refine pool_scatter_eq _ _ x2 X (fun i => ?_) (fun n => ?_)
  · rw [val_main_v195_apply, val_main_cst_35_apply]; rfl
  · rw [val_main_v196_apply]
    congr 1
    funext a
    match a with
    | ⟨0, _⟩ => rfl

/-- The second pooled array: the weight-1 rows summed per segment. -/
theorem v203_eq (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x11 : (⟨S128x2, .f32⟩ : BufTy).Contents (Elt Ideal)) (x12 : (⟨S2, .f32⟩ : BufTy).Contents (Elt Ideal)) :
    (val_main_v203 (F := Ideal) x0 x1 x2 x3 x4 x5 x6 x7 x8 x11 x12 : Spec.A2 128 128)
      = Spec.poolArr (fun n => x2 (ix1 n)) (val_main_v188 (F := Ideal) x0 x1 x3 x4 x5 x6 x7 x8 x11 x12) := by
  unfold val_main_v203
  generalize val_main_v188 (F := Ideal) x0 x1 x3 x4 x5 x6 x7 x8 x11 x12 = X
  refine pool_scatter_eq _ _ x2 X (fun i => ?_) (fun n => ?_)
  · rw [val_main_v201_apply, val_main_cst_36_apply]; rfl
  · rw [val_main_v202_apply]
    congr 1
    funext a
    match a with
    | ⟨0, _⟩ => rfl

end Cert.ReferenceIdeal.RefSpec

end
-- ==== Proof.Layer5.lean ====
/-
  From region 4's exit to region 5's. The host stretch only reshapes the segment words into a 50000 × 1 array (the
  same entries the reference broadcasts for its scatter). Region 5 leaves the two attention-scaled arrays' rows summed
  per segment, which are the reference's two scatter-adds into zero arrays.
-/
import proofs.«420551_j59150289601188_1_alg».proof.Proof.LayerDefs
import proofs.«420551_j59150289601188_1_alg».proof.Proof.KArgs
import proofs.«420551_j59150289601188_1_alg».proof.Proof.KReg5
import proofs.«420551_j59150289601188_1_alg».proof.Proof.RSpecPool
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Layer

open Cert.KernelIdeal Cert.KernelIdeal.Gen Idealize.ShloMosaic Idealize.ShloMosaic.TcCoe Idealize.SL.Sem Idealize.ShloMosaic.StableHlo Idealize.ShloMosaic.ValueIdx

/-! ## The host stretch, at any float family -/

section Host

variable {F : FTy → Type} [FloatOps F]
variable (m : (ℓ : Loc nD τ sig) → Buf (Elt F) ℓ) (ρ : Dev nD → PrngReg) (c : Dev nD)

set_option maxHeartbeats 4000000 in
/-- The segment words as the region takes them: the argument's 50000 words laid out as a 50000 × 1 array. -/
theorem seg5_eq (x2 : (⟨Cert.ReferenceIdeal.S50000, .i32⟩ : BufTy).Contents (Elt F)) (h2 : W10 m ρ c (Proc.devRef .tc main_arg2) = x2) :
    W11 m ρ c (Proc.devRef .tc main_v117) = shapeCast S50000x1 x2 shapeCasts_S50000_S50000x1 := by
  show StableHlo.after hostOps5 (W10 m ρ c) (Proc.devRef .tc main_v117) = _
  after_results
  rw [h2]
  rfl

set_option maxHeartbeats 4000000 in
/-- A buffer the stretch does not write holds after it what it held before: the first attention-scaled array. -/
theorem keep5_v116_0 : W11 m ρ c (Proc.devRef .tc main_v116_0) = W10 m ρ c (Proc.devRef .tc main_v116_0) := by
  show StableHlo.after hostOps5 (W10 m ρ c) (Proc.devRef .tc main_v116_0) = _
  after_results

set_option maxHeartbeats 4000000 in
/-- The second attention-scaled array likewise. -/
theorem keep5_v116_1 : W11 m ρ c (Proc.devRef .tc main_v116_1) = W10 m ρ c (Proc.devRef .tc main_v116_1) := by
  show StableHlo.after hostOps5 (W10 m ρ c) (Proc.devRef .tc main_v116_1) = _
  after_results

end Host

/-! ## The layer, at the exact values -/

variable (m : (ℓ : Loc nD τ sig) → Buf (Elt Ideal) ℓ) (ρ : Dev nD → PrngReg) (c : Dev nD)

/-- The segment column the region reads, entry by entry: the argument's segment words (row `n` of a one-column array
    sits at row-major position `n`, the position of entry `n` of the vector). -/
theorem seg5_row (n : Fin 50000) :
    (W11 m ρ c (Proc.devRef .tc main_v117) : (⟨2, ![50000, 1]⟩ : Shape).Idx → BitVec 32) (ix2 n 0) = a2 m c (ix1 n) := by
  rw [seg5_eq m ρ c (a2 m c) (Cert.KernelIdeal.ArgsAt.W10_main_arg2 m ρ c)]
  refine shapeCast_apply _ shapeCasts_S50000_S50000x1 (ix2 n 0) (ix1 n) ?_
  rw [Shape.rowMajor_val_one, Shape.rowMajor_val_two]
  show n.val = n.val * 1 + 0
  omega

/-- The facts at region 5's exit, from those at region 4's. -/
theorem at12 (h : At10 m ρ c) : At12 m ρ c where
  v118_0 := by
    have hK := (W12_arr m ρ c 3).trans (Cert.KernelIdeal.RegVal.reg5_c (V11 m ρ) c)
    have hR := Cert.ReferenceIdeal.RefSpec.v197_eq (a0 m c) (a1 m c) (a2 m c) (a3 m c) (a4 m c) (a5 m c) (a6 m c) (a7 m c) (a8 m c) (a11 m c) (a12 m c)
    have e1 : (fun n => (V11 m ρ c main_v117 : (⟨2, ![50000, 1]⟩ : Shape).Idx → BitVec 32) (ix2 n 0))
        = fun n => a2 m c (ix1 n) := funext fun n => seg5_row m ρ c n
    have e2 := (keep5_v116_0 m ρ c).trans h.v116_0
    exact hK.trans ((congr (congrArg Spec.poolArr e1) e2).trans hR.symm)
  v118_1 := by
    have hK := (W12_arr m ρ c 4).trans (Cert.KernelIdeal.RegVal.reg5_o (V11 m ρ) c)
    have hR := Cert.ReferenceIdeal.RefSpec.v203_eq (a0 m c) (a1 m c) (a2 m c) (a3 m c) (a4 m c) (a5 m c) (a6 m c) (a7 m c) (a8 m c) (a11 m c) (a12 m c)
    have e1 : (fun n => (V11 m ρ c main_v117 : (⟨2, ![50000, 1]⟩ : Shape).Idx → BitVec 32) (ix2 n 0))
        = fun n => a2 m c (ix1 n) := funext fun n => seg5_row m ρ c n
    have e2 := (keep5_v116_1 m ρ c).trans h.v116_1
    exact hK.trans ((congr (congrArg Spec.poolArr e1) e2).trans hR.symm)

end Cert.KernelIdeal.Layer

end
-- ==== Proof.Layer6.lean ====
/-
  From region 5's exit to @main's return. The last host stretch counts the nodes of each segment, divides the pooled
  arrays by the counts, batch-normalises each over the 128 segments and applies the two classifiers, by exactly the
  reference's operations on the pooled arrays: one shared chain applied to equal inputs.
-/
import proofs.«420551_j59150289601188_1_alg».proof.Proof.LayerDefs
import proofs.«420551_j59150289601188_1_alg».proof.Proof.KArgs

import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Layer

open Cert.KernelIdeal Cert.KernelIdeal.Gen Idealize.ShloMosaic Idealize.ShloMosaic.TcCoe Idealize.SL.Sem Idealize.ShloMosaic.StableHlo Idealize.ShloMosaic.ValueIdx

/-! ### The last host stretch at any float family

The stretch's operations on the two pooled arrays are, one for one, the reference's operations on its own pooled arrays;
so once the pooled array and the arguments read are the reference's, the composed term is the reference's stage. -/

section Host6
variable {F : FTy → Type} [FloatOps F]
variable (m : (ℓ : Loc nD τ sig) → Buf (Elt F) ℓ) (ρ : Dev nD → PrngReg) (c : Dev nD)

set_option maxHeartbeats 4000000 in
/-- Result main_v159: the last host stretch applied to a pooled array that is the reference's and to the launch contents
    of the arguments it reads is the reference's own chain of operations. -/
theorem host6_v159
    (x0 : Buf (Elt F) ((c.tc : Thread nD τ).loc main_arg0)) (x1 : Buf (Elt F) ((c.tc : Thread nD τ).loc main_arg1)) (x2 : Buf (Elt F) ((c.tc : Thread nD τ).loc main_arg2)) (x3 : Buf (Elt F) ((c.tc : Thread nD τ).loc main_arg3)) (x4 : Buf (Elt F) ((c.tc : Thread nD τ).loc main_arg4)) (x5 : Buf (Elt F) ((c.tc : Thread nD τ).loc main_arg5)) (x6 : Buf (Elt F) ((c.tc : Thread nD τ).loc main_arg6)) (x7 : Buf (Elt F) ((c.tc : Thread nD τ).loc main_arg7)) (x8 : Buf (Elt F) ((c.tc : Thread nD τ).loc main_arg8)) (x11 : Buf (Elt F) ((c.tc : Thread nD τ).loc main_arg11)) (x12 : Buf (Elt F) ((c.tc : Thread nD τ).loc main_arg12)) (x13 : Buf (Elt F) ((c.tc : Thread nD τ).loc main_arg13)) (x14 : Buf (Elt F) ((c.tc : Thread nD τ).loc main_arg14)) (x15 : Buf (Elt F) ((c.tc : Thread nD τ).loc main_arg15)) (x16 : Buf (Elt F) ((c.tc : Thread nD τ).loc main_arg16))
    (h0 : W12 m ρ c (Proc.devRef .tc main_v118_0) = Cert.ReferenceIdeal.Read.val_main_v197 (F := F) x0 x1 x2 x3 x4 x5 x6 x7 x8 x11 x12)
    (h2 : W12 m ρ c (Proc.devRef .tc main_arg2) = x2)
    (h13 : W12 m ρ c (Proc.devRef .tc main_arg13) = x13)
    (h14 : W12 m ρ c (Proc.devRef .tc main_arg14) = x14)
    (h15 : W12 m ρ c (Proc.devRef .tc main_arg15) = x15)
    (h16 : W12 m ρ c (Proc.devRef .tc main_arg16) = x16) :
    W13 m ρ c (Proc.devRef .tc main_v159)
      = Cert.ReferenceIdeal.Read.val_main_v235 (F := F) x0 x1 x2 x3 x4 x5 x6 x7 x8 x11 x12 x13 x14 x15 x16 := by
  show StableHlo.after hostOps6 (W12 m ρ c) (Proc.devRef .tc main_v159) = _
  after_results_simp
  rw [h0, h2, h13, h14, h15, h16]
  rfl

set_option maxHeartbeats 4000000 in
/-- Result main_v188: the last host stretch applied to a pooled array that is the reference's and to the launch contents
    of the arguments it reads is the reference's own chain of operations. -/
theorem host6_v188
    (x0 : Buf (Elt F) ((c.tc : Thread nD τ).loc main_arg0)) (x1 : Buf (Elt F) ((c.tc : Thread nD τ).loc main_arg1)) (x2 : Buf (Elt F) ((c.tc : Thread nD τ).loc main_arg2)) (x3 : Buf (Elt F) ((c.tc : Thread nD τ).loc main_arg3)) (x4 : Buf (Elt F) ((c.tc : Thread nD τ).loc main_arg4)) (x5 : Buf (Elt F) ((c.tc : Thread nD τ).loc main_arg5)) (x6 : Buf (Elt F) ((c.tc : Thread nD τ).loc main_arg6)) (x7 : Buf (Elt F) ((c.tc : Thread nD τ).loc main_arg7)) (x8 : Buf (Elt F) ((c.tc : Thread nD τ).loc main_arg8)) (x11 : Buf (Elt F) ((c.tc : Thread nD τ).loc main_arg11)) (x12 : Buf (Elt F) ((c.tc : Thread nD τ).loc main_arg12)) (x17 : Buf (Elt F) ((c.tc : Thread nD τ).loc main_arg17)) (x18 : Buf (Elt F) ((c.tc : Thread nD τ).loc main_arg18)) (x19 : Buf (Elt F) ((c.tc : Thread nD τ).loc main_arg19)) (x20 : Buf (Elt F) ((c.tc : Thread nD τ).loc main_arg20))
    (h0 : W12 m ρ c (Proc.devRef .tc main_v118_1) = Cert.ReferenceIdeal.Read.val_main_v203 (F := F) x0 x1 x2 x3 x4 x5 x6 x7 x8 x11 x12)
    (h2 : W12 m ρ c (Proc.devRef .tc main_arg2) = x2)
    (h17 : W12 m ρ c (Proc.devRef .tc main_arg17) = x17)
    (h18 : W12 m ρ c (Proc.devRef .tc main_arg18) = x18)
    (h19 : W12 m ρ c (Proc.devRef .tc main_arg19) = x19)
    (h20 : W12 m ρ c (Proc.devRef .tc main_arg20) = x20) :
    W13 m ρ c (Proc.devRef .tc main_v188)
      = Cert.ReferenceIdeal.Read.val_main_v264 (F := F) x0 x1 x2 x3 x4 x5 x6 x7 x8 x11 x12 x17 x18 x19 x20 := by
  show StableHlo.after hostOps6 (W12 m ρ c) (Proc.devRef .tc main_v188) = _
  after_results_simp
  rw [h0, h2, h17, h18, h19, h20]
  rfl

end Host6

variable (m : (ℓ : Loc nD τ sig) → Buf (Elt Ideal) ℓ) (ρ : Dev nD → PrngReg) (c : Dev nD)

/-- The two results, from the facts at region 5's exit. -/
theorem at13 (h : At12 m ρ c) : At13 m ρ c := by
  refine ⟨?_, ?_⟩
  · exact host6_v159 m ρ c _ _ _ _ _ _ _ _ _ _ _ _ _ _ _ h.v118_0 (Cert.KernelIdeal.ArgsAt.W12_main_arg2 m ρ c)
      (Cert.KernelIdeal.ArgsAt.W12_main_arg13 m ρ c) (Cert.KernelIdeal.ArgsAt.W12_main_arg14 m ρ c)
      (Cert.KernelIdeal.ArgsAt.W12_main_arg15 m ρ c) (Cert.KernelIdeal.ArgsAt.W12_main_arg16 m ρ c)
  · exact host6_v188 m ρ c _ _ _ _ _ _ _ _ _ _ _ _ _ _ _ h.v118_1 (Cert.KernelIdeal.ArgsAt.W12_main_arg2 m ρ c)
      (Cert.KernelIdeal.ArgsAt.W12_main_arg17 m ρ c) (Cert.KernelIdeal.ArgsAt.W12_main_arg18 m ρ c)
      (Cert.KernelIdeal.ArgsAt.W12_main_arg19 m ρ c) (Cert.KernelIdeal.ArgsAt.W12_main_arg20 m ρ c)

end Cert.KernelIdeal.Layer

end
-- ==== Proof.lean ====
/-
  The two programs compute one function, and both run.

  The kernel program walks the 50000 nodes in ten blocks of 5000 rows inside each of its six regions and leaves the
  sparse gather and scatter between them to the host; the reference does everything on the host. Region by region
  and host stretch by host stretch, what the kernel program's buffers hold at each boundary is the reference's own
  stage of the same arguments (the modules `Layer0` … `Layer6`): the dense steps because a row's result depends on that
  row alone, so ten blocks of rows and all rows at once give one array; the pooling because a product with a 0/1
  membership matrix and a scatter-add at the segment words are the same sum on the extended reals, where `0 * x = 0`
  and `1 * x = x` hold for every `x`; the host stretches because they are the reference's own operations on equal
  inputs. So both runs end with each result at the reference's last stage of the launch contents, which agree.
  No step uses the finiteness of the inputs. The frames are the generated ones; the reference's is its run with
  the results dropped; the idealization rewrote nothing, so there is nothing to preserve.
-/
import proofs.«420551_j59150289601188_1_alg».proof.Defs
import proofs.«420551_j59150289601188_1_alg».proof.Proof.Gen.Kernel
import proofs.«420551_j59150289601188_1_alg».proof.Proof.Gen.Kernel.Frame
import proofs.«420551_j59150289601188_1_alg».proof.Proof.Gen.KernelIdeal
import proofs.«420551_j59150289601188_1_alg».proof.Proof.Gen.KernelIdeal.Frame
import proofs.«420551_j59150289601188_1_alg».proof.Proof.Gen.ReferenceIdeal
import proofs.«420551_j59150289601188_1_alg».proof.Proof.Gen.Pre_finite_inputs
import proofs.«420551_j59150289601188_1_alg».proof.Proof.KRun
import proofs.«420551_j59150289601188_1_alg».proof.Proof.RefRunS
import proofs.«420551_j59150289601188_1_alg».proof.Proof.Layer0
import proofs.«420551_j59150289601188_1_alg».proof.Proof.Layer1
import proofs.«420551_j59150289601188_1_alg».proof.Proof.Layer2
import proofs.«420551_j59150289601188_1_alg».proof.Proof.Layer3
import proofs.«420551_j59150289601188_1_alg».proof.Proof.Layer4
import proofs.«420551_j59150289601188_1_alg».proof.Proof.Layer5
import proofs.«420551_j59150289601188_1_alg».proof.Proof.Layer6
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the kernel program read at the exact values. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.RunS.run (F := Ideal) m ρ)

/-- The kernel program's two result buffers at @main's return hold the reference's last stages of the launch contents:
    the boundary facts chained from the launch through the six regions. -/
theorem kernel_results (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) : Cert.KernelIdeal.Layer.At13 m ρ c :=
  open Cert.KernelIdeal.Layer in
  at13 m ρ c (at12 m ρ c (at10 m ρ c (at8 m ρ c (at6 m ρ c (at4 m ρ c (at2 m ρ c))))))

/-- Both programs, from memories that agree on the arguments, end with the two results at the reference's last stages of
    those arguments. -/
theorem algebraic : Cert.algebraic_KernelIdeal_ReferenceIdeal := by
  intro m ρ m' ρ' _ hagree
  refine ⟨fun c => Cert.ReferenceIdeal.Read.val_main_v235 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.ReferenceIdeal.Read.val_main_v264 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun _ h c => ⟨(h c).1.trans (kernel_results m ρ c).v159, (h c).2.1.trans (kernel_results m ρ c).v188, (h c).2.2⟩)
      (Cert.KernelIdeal.RunVal.run (F := Ideal) m ρ)
  · refine (θ_run Cert.ReferenceIdeal.defs _ _).mono (fun _ h c => ⟨(h c).1.trans ?_, (h c).2.1.trans ?_, (h c).2.2⟩)
      (Cert.ReferenceIdeal.RunS.run (F := Ideal) m' ρ')
    · obtain ⟨h0, h1, h2, h3, h4, h5, h6, h7, h8, h9, h10, h11, h12, h13, h14, h15, h16, h17, h18, h19, h20⟩ := hagree c
      rw [h0, h1, h2, h3, h4, h5, h6, h7, h8, h11, h12, h13, h14, h15, h16]
    · obtain ⟨h0, h1, h2, h3, h4, h5, h6, h7, h8, h9, h10, h11, h12, h13, h14, h15, h16, h17, h18, h19, h20⟩ := hagree c
      rw [h0, h1, h2, h3, h4, h5, h6, h7, h8, h11, h12, h17, h18, h19, h20]

/-- The certificate: the three frames, nothing to preserve, and the equality of results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
